-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x3x128x128 : Shape := ⟨4, ![2, 3, 128, 128]⟩
abbrev S2x3x128 : Shape := ⟨3, ![2, 3, 128]⟩
abbrev S8x128 : Shape := ⟨2, ![8, 128]⟩
abbrev S8 : Shape := ⟨1, ![8]⟩
abbrev S2x800000 : Shape := ⟨2, ![2, 800000]⟩
abbrev S2x400000 : Shape := ⟨2, ![2, 400000]⟩
abbrev S_ : Shape := ⟨0, ![]⟩
abbrev S1x800000 : Shape := ⟨2, ![1, 800000]⟩
abbrev S800000 : Shape := ⟨1, ![800000]⟩
abbrev S1x400000 : Shape := ⟨2, ![1, 400000]⟩
abbrev S400000 : Shape := ⟨1, ![400000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part4 {F : FTy → Type} [FloatOps F] (main_v61 : IVec S_ 1) (main_v68 : IVec S400000 32) (main_c_24 : IVec S_ 32) : IVec S_ 1 :=
  let main_v69 : IVec S400000 32 := broadcastInDim S400000 ![] bcast_S_S400000 main_c_24
  let main_v70 : IVec S400000 1 := cmpi .sge main_v68 main_v69
  let main_c_25 : IVec S_ 32 := constantI S_ 32 99999#32
  let main_v71 : IVec S400000 32 := broadcastInDim S400000 ![] bcast_S_S400000 main_c_25
  let main_v72 : IVec S400000 1 := cmpi .sle main_v68 main_v71
  let main_v73 : IVec S400000 1 := andi main_v70 main_v72
  let main_c_26 : IVec S_ 1 := constantI S_ 1 1#1
  let main_v74 : IVec S_ 1 := (fun x v => Host.reduce IntOp.andi x v reducesTo_S400000_S_d0 h_S_) main_v73 main_c_26
  let main_v75 : IVec S_ 1 := andi main_v61 main_v74
  main_v75

def fn_part3 {F : FTy → Type} [FloatOps F] (main_arg9 : IVec S2x400000 32) (main_v47 : IVec S_ 1) (main_v49 : IVec S400000 32) (main_v51 : IVec S400000 1) : IVec S_ 1 :=
  let main_c_18 : IVec S_ 32 := constantI S_ 32 50000#32
  let main_v52 : IVec S400000 32 := broadcastInDim S400000 ![] bcast_S_S400000 main_c_18
  let main_v53 : IVec S400000 32 := addi main_v49 main_v52
  let main_v54 : IVec S400000 32 := select main_v51 main_v53 main_v49
  let main_c_19 : IVec S_ 32 := constantI S_ 32 0#32
  let main_v55 : IVec S400000 32 := broadcastInDim S400000 ![] bcast_S_S400000 main_c_19
  let main_v56 : IVec S400000 1 := cmpi .sge main_v54 main_v55
  let main_c_20 : IVec S_ 32 := constantI S_ 32 49999#32
  let main_v57 : IVec S400000 32 := broadcastInDim S400000 ![] bcast_S_S400000 main_c_20
  let main_v58 : IVec S400000 1 := cmpi .sle main_v54 main_v57
  let main_v59 : IVec S400000 1 := andi main_v56 main_v58
  let main_c_21 : IVec S_ 1 := constantI S_ 1 1#1
  let main_v60 : IVec S_ 1 := (fun x v => Host.reduce IntOp.andi x v reducesTo_S400000_S_d0 h_S_) main_v59 main_c_21
  let main_v61 : IVec S_ 1 := andi main_v47 main_v60
  let main_v62 : IVec S1x400000 32 := (extractStridedSlice S1x400000 ![0, 0] · slices_S2x400000_S1x400000_0_0) main_arg9
  let main_v63 : IVec S400000 32 := shapeCast S400000 main_v62 shapeCasts_S1x400000_S400000
  let main_c_22 : IVec S_ 32 := constantI S_ 32 0#32
  let main_v64 : IVec S400000 32 := broadcastInDim S400000 ![] bcast_S_S400000 main_c_22
  let main_v65 : IVec S400000 1 := cmpi .slt main_v63 main_v64
  let main_c_23 : IVec S_ 32 := constantI S_ 32 100000#32
  let main_v66 : IVec S400000 32 := broadcastInDim S400000 ![] bcast_S_S400000 main_c_23
  let main_v67 : IVec S400000 32 := addi main_v63 main_v66
  let main_v68 : IVec S400000 32 := select main_v65 main_v67 main_v63
  let main_c_24 : IVec S_ 32 := constantI S_ 32 0#32
  fn_part4 (F := F) main_v61 main_v68 main_c_24

def fn_part2 {F : FTy → Type} [FloatOps F] (main_arg7 : IVec S2x800000 32) (main_arg8 : IVec S2x400000 32) (main_arg9 : IVec S2x400000 32) (main_v33 : IVec S_ 1) : IVec S_ 1 :=
  let main_v34 : IVec S1x800000 32 := (extractStridedSlice S1x800000 ![0, 0] · slices_S2x800000_S1x800000_0_0) main_arg7
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .slt main_v35 main_v36
  let main_c_13 : IVec S_ 32 := constantI S_ 32 100000#32
  let main_v38 : IVec S800000 32 := broadcastInDim S800000 ![] bcast_S_S800000 main_c_13
  let main_v39 : IVec S800000 32 := addi main_v35 main_v38
  let main_v40 : IVec S800000 32 := select main_v37 main_v39 main_v35
  let main_c_14 : IVec S_ 32 := constantI S_ 32 0#32
  let main_v41 : IVec S800000 32 := broadcastInDim S800000 ![] bcast_S_S800000 main_c_14
  let main_v42 : IVec S800000 1 := cmpi .sge main_v40 main_v41
  let main_c_15 : IVec S_ 32 := constantI S_ 32 99999#32
  let main_v43 : IVec S800000 32 := broadcastInDim S800000 ![] bcast_S_S800000 main_c_15
  let main_v44 : IVec S800000 1 := cmpi .sle main_v40 main_v43
  let main_v45 : IVec S800000 1 := andi main_v42 main_v44
  let main_c_16 : IVec S_ 1 := constantI S_ 1 1#1
  let main_v46 : IVec S_ 1 := (fun x v => Host.reduce IntOp.andi x v reducesTo_S800000_S_d0 h_S_) main_v45 main_c_16
  let main_v47 : IVec S_ 1 := andi main_v33 main_v46
  let main_v48 : IVec S1x400000 32 := (extractStridedSlice S1x400000 ![0, 0] · slices_S2x400000_S1x400000_0_0) main_arg8
  let main_v49 : IVec S400000 32 := shapeCast S400000 main_v48 shapeCasts_S1x400000_S400000
  let main_c_17 : IVec S_ 32 := constantI S_ 32 0#32
  let main_v50 : IVec S400000 32 := broadcastInDim S400000 ![] bcast_S_S400000 main_c_17
  let main_v51 : IVec S400000 1 := cmpi .slt main_v49 main_v50
  fn_part3 (F := F) main_arg9 main_v47 main_v49 main_v51

def fn_part1 {F : FTy → Type} [FloatOps F] (main_arg4 : FVec F S2x3x128x128 .f32) (main_arg5 : FVec F S8x128 .f32) (main_arg6 : FVec F S8 .f32) (main_arg7 : IVec S2x800000 32) (main_arg8 : IVec S2x400000 32) (main_arg9 : IVec S2x400000 32) (main_v13 : IVec S_ 1) (main_v16 : IVec S2x3x128 1) : IVec S_ 1 :=
  let main_c_5 : IVec S_ 1 := constantI S_ 1 1#1
  let main_v17 : IVec S_ 1 := (fun x v => Host.reduce IntOp.andi x v reducesTo_S2x3x128_S_d0_1_2 h_S_) main_v16 main_c_5
  let main_v18 : IVec S_ 1 := andi main_v13 main_v17
  let main_v19 : FVec F S2x3x128x128 .f32 := Host.absf main_arg4
  let main_cst_6 : FVec F S_ .f32 := constant S_ .f32 0x7F800000#32
  let main_v20 : FVec F S2x3x128x128 .f32 := broadcastInDim S2x3x128x128 ![] bcast_S_S2x3x128x128 main_cst_6
  let main_v21 : IVec S2x3x128x128 1 := cmpf .olt main_v19 main_v20
  let main_c_7 : IVec S_ 1 := constantI S_ 1 1#1
  let main_v22 : IVec S_ 1 := (fun x v => Host.reduce IntOp.andi x v reducesTo_S2x3x128x128_S_d0_1_2_3 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S2x3x128x128 .f32) (main_arg3 : FVec F S2x3x128 .f32) (main_arg4 : FVec F S2x3x128x128 .f32) (main_arg5 : FVec F S8x128 .f32) (main_arg6 : FVec F S8 .f32) (main_arg7 : IVec S2x800000 32) (main_arg8 : IVec S2x400000 32) (main_arg9 : IVec S2x400000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x3x128x128 .f32 := Host.absf main_arg2
  let main_cst_2 : FVec F S_ .f32 := constant S_ .f32 0x7F800000#32
  let main_v10 : FVec F S2x3x128x128 .f32 := broadcastInDim S2x3x128x128 ![] bcast_S_S2x3x128x128 main_cst_2
  let main_v11 : IVec S2x3x128x128 1 := cmpf .olt main_v9 main_v10
  let main_c_3 : IVec S_ 1 := constantI S_ 1 1#1
  let main_v12 : IVec S_ 1 := (fun x v => Host.reduce IntOp.andi x v reducesTo_S2x3x128x128_S_d0_1_2_3 h_S_) main_v11 main_c_3
  let main_v13 : IVec S_ 1 := andi main_v8 main_v12
  let main_v14 : FVec F S2x3x128 .f32 := Host.absf main_arg3
  let main_cst_4 : FVec F S_ .f32 := constant S_ .f32 0x7F800000#32
  let main_v15 : FVec F S2x3x128 .f32 := broadcastInDim S2x3x128 ![] bcast_S_S2x3x128 main_cst_4
  let main_v16 : IVec S2x3x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S2x3x128x128 : Shape := ⟨4, ![2, 3, 128, 128]⟩
abbrev S2x3x128 : Shape := ⟨3, ![2, 3, 128]⟩
abbrev S8x128 : Shape := ⟨2, ![8, 128]⟩
abbrev S8 : Shape := ⟨1, ![8]⟩
abbrev S2x800000 : Shape := ⟨2, ![2, 800000]⟩
abbrev S2x400000 : Shape := ⟨2, ![2, 400000]⟩
abbrev S1x800000 : Shape := ⟨2, ![1, 800000]⟩
abbrev S800000 : Shape := ⟨1, ![800000]⟩
abbrev S1x400000 : Shape := ⟨2, ![1, 400000]⟩
abbrev S400000 : Shape := ⟨1, ![400000]⟩
abbrev S_ : Shape := ⟨0, ![]⟩
abbrev S100000 : Shape := ⟨1, ![100000]⟩
abbrev S800000x1 : Shape := ⟨2, ![800000, 1]⟩
abbrev S400000x1 : Shape := ⟨2, ![400000, 1]⟩
abbrev S50000 : Shape := ⟨1, ![50000]⟩
abbrev S100000x1 : Shape := ⟨2, ![100000, 1]⟩
abbrev S50000x1 : Shape := ⟨2, ![50000, 1]⟩
abbrev S128x128 : Shape := ⟨2, ![128, 128]⟩
abbrev S1 : Shape := ⟨1, ![1]⟩
abbrev S128 : Shape := ⟨1, ![128]⟩
abbrev S1x128 : Shape := ⟨2, ![1, 128]⟩
abbrev S1x1 : Shape := ⟨2, ![1, 1]⟩
abbrev S800000x128 : Shape := ⟨2, ![800000, 128]⟩
abbrev S400000x128 : Shape := ⟨2, ![400000, 128]⟩
abbrev S1x1x128x128 : Shape := ⟨4, ![1, 1, 128, 128]⟩
abbrev S1x1x128 : Shape := ⟨3, ![1, 1, 128]⟩
abbrev S2000x128 : Shape := ⟨2, ![2000, 128]⟩
abbrev S2000x1 : Shape := ⟨2, ![2000, 1]⟩
abbrev S100000x8 : Shape := ⟨2, ![100000, 8]⟩

abbrev nBuf : Space → Nat
  | .hbm => 249
  | .vmem => 45
  | .smem => 0
  | _ => 0

abbrev hbmTy0_0 (i : Nat) : BufTy := match i % 128 with
  | 0 => ⟨S100000x128, .f32⟩
  | 1 => ⟨S50000x128, .f32⟩
  | 2 => ⟨S2x3x128x128, .f32⟩
  | 3 => ⟨S2x3x128, .f32⟩
  | 4 => ⟨S2x3x128x128, .f32⟩
  | 5 => ⟨S8x128, .f32⟩
  | 6 => ⟨S8, .f32⟩
  | 7 => ⟨S2x800000, .i32⟩
  | 8 => ⟨S2x400000, .i32⟩
  | 9 => ⟨S2x400000, .i32⟩
  | 10 => ⟨S1x800000, .i32⟩
  | 11 => ⟨S800000, .i32⟩
  | 12 => ⟨S1x800000, .i32⟩
  | 13 => ⟨S800000, .i32⟩
  | 14 => ⟨S1x400000, .i32⟩
  | 15 => ⟨S400000, .i32⟩
  | 16 => ⟨S1x400000, .i32⟩
  | 17 => ⟨S400000, .i32⟩
  | 18 => ⟨S1x400000, .i32⟩
  | 19 => ⟨S400000, .i32⟩
  | 20 => ⟨S1x400000, .i32⟩
  | 21 => ⟨S400000, .i32⟩
  | 22 => ⟨S_, .f32⟩
  | 23 => ⟨S800000, .f32⟩
  | 24 => ⟨S_, .f32⟩
  | 25 => ⟨S100000, .f32⟩
  | 26 => ⟨S800000x1, .i32⟩
  | 27 => ⟨S100000, .f32⟩
  | 28 => ⟨S_, .f32⟩
  | 29 => ⟨S400000, .f32⟩
  | 30 => ⟨S_, .f32⟩
  | 31 => ⟨S100000, .f32⟩
  | 32 => ⟨S400000x1, .i32⟩
  | 33 => ⟨S100000, .f32⟩
  | 34 => ⟨S_, .f32⟩
  | 35 => ⟨S400000, .f32⟩
  | 36 => ⟨S_, .f32⟩
  | 37 => ⟨S50000, .f32⟩
  | 38 => ⟨S400000x1, .i32⟩
  | 39 => ⟨S50000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S100000x1, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S_, .f32⟩
  | 62 => ⟨S128x128, .f32⟩
  | 63 => ⟨S_, .i32⟩
  | 64 => ⟨S1, .i32⟩
  | 65 => ⟨S128x128, .f32⟩
  | 66 => ⟨S_, .f32⟩
  | 67 => ⟨S128, .f32⟩
  | 68 => ⟨S_, .i32⟩
  | 69 => ⟨S1, .i32⟩
  | 70 => ⟨S128, .f32⟩
  | 71 => ⟨S1x128, .f32⟩
  | 72 => ⟨S128x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S1, .i32⟩
  | 82 => ⟨S_, .i32⟩
  | 83 => ⟨S800000x1, .i32⟩
  | 84 => ⟨S800000x1, .i1⟩
  | 85 => ⟨S1x1, .i32⟩
  | 86 => ⟨S800000x1, .i32⟩
  | 87 => ⟨S800000x1, .i1⟩
  | 88 => ⟨S800000x1, .i1⟩
  | 89 => ⟨S_, .i1⟩
  | 90 => ⟨S800000, .i1⟩
  | 91 => ⟨S800000x128, .f32⟩
  | 92 => ⟨S800000x128, .i1⟩
  | 93 => ⟨S_, .f32⟩
  | 94 => ⟨S800000x128, .f32⟩
  | 95 => ⟨S800000x128, .f32⟩
  | 96 => ⟨S_, .f32⟩
  | 97 => ⟨S100000x128, .f32⟩
  | 98 => ⟨S800000x1, .i32⟩
  | 99 => ⟨S100000x128, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S1, .i32⟩
  | 109 => ⟨S_, .i32⟩
  | 110 => ⟨S400000x1, .i32⟩
  | 111 => ⟨S400000x1, .i1⟩
  | 112 => ⟨S1x1, .i32⟩
  | 113 => ⟨S400000x1, .i32⟩
  | 114 => ⟨S400000x1, .i1⟩
  | 115 => ⟨S400000x1, .i1⟩
  | 116 => ⟨S_, .i1⟩
  | 117 => ⟨S400000, .i1⟩
  | 118 => ⟨S400000x128, .f32⟩
  | 119 => ⟨S400000x128, .i1⟩
  | 120 => ⟨S_, .f32⟩
  | 121 => ⟨S400000x128, .f32⟩
  | 122 => ⟨S400000x128, .f32⟩
  | 123 => ⟨S_, .f32⟩
  | 124 => ⟨S100000x128, .f32⟩
  | 125 => ⟨S400000x1, .i32⟩
  | 126 => ⟨S100000x128, .f32⟩
  | 127 => ⟨S1x1x128x128, .f32⟩
  | _ => ⟨S100000x128, .f32⟩

abbrev hbmTy0_1 (i : Nat) : BufTy := match i % 128 with
  | 0 => ⟨S128x128, .f32⟩
  | 1 => ⟨S1x1x128x128, .f32⟩
  | 2 => ⟨S128x128, .f32⟩
  | 3 => ⟨S128x128, .f32⟩
  | 4 => ⟨S1x1x128, .f32⟩
  | 5 => ⟨S128, .f32⟩
  | 6 => ⟨S1x1x128, .f32⟩
  | 7 => ⟨S128, .f32⟩
  | 8 => ⟨S128, .f32⟩
  | 9 => ⟨S1x128, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S1, .i32⟩
  | 19 => ⟨S_, .i32⟩
  | 20 => ⟨S400000x1, .i32⟩
  | 21 => ⟨S400000x1, .i1⟩
  | 22 => ⟨S1x1, .i32⟩
  | 23 => ⟨S400000x1, .i32⟩
  | 24 => ⟨S400000x1, .i1⟩
  | 25 => ⟨S400000x1, .i1⟩
  | 26 => ⟨S_, .i1⟩
  | 27 => ⟨S400000, .i1⟩
  | 28 => ⟨S400000x128, .f32⟩
  | 29 => ⟨S400000x128, .i1⟩
  | 30 => ⟨S_, .f32⟩
  | 31 => ⟨S400000x128, .f32⟩
  | 32 => ⟨S400000x128, .f32⟩
  | 33 => ⟨S_, .f32⟩
  | 34 => ⟨S50000x128, .f32⟩
  | 35 => ⟨S400000x1, .i32⟩
  | 36 => ⟨S50000x128, .f32⟩
  | 37 => ⟨S1x1x128x128, .f32⟩
  | 38 => ⟨S128x128, .f32⟩
  | 39 => ⟨S1x1x128x128, .f32⟩
  | 40 => ⟨S128x128, .f32⟩
  | 41 => ⟨S100000x128, .f32⟩
  | 42 => ⟨S1x1x128x128, .f32⟩
  | 43 => ⟨S128x128, .f32⟩
  | 44 => ⟨S1x1x128, .f32⟩
  | 45 => ⟨S128, .f32⟩
  | 46 => ⟨S1x128, .f32⟩
  | 47 => ⟨S1x1x128x128, .f32⟩
  | 48 => ⟨S128x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000x128, .f32⟩
  | 69 => ⟨S800000x128, .i1⟩
  | 70 => ⟨S_, .f32⟩
  | 71 => ⟨S800000x128, .f32⟩
  | 72 => ⟨S800000x128, .f32⟩
  | 73 => ⟨S_, .f32⟩
  | 74 => ⟨S100000x128, .f32⟩
  | 75 => ⟨S800000x1, .i32⟩
  | 76 => ⟨S100000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S1, .i32⟩
  | 86 => ⟨S_, .i32⟩
  | 87 => ⟨S400000x1, .i32⟩
  | 88 => ⟨S400000x1, .i1⟩
  | 89 => ⟨S1x1, .i32⟩
  | 90 => ⟨S400000x1, .i32⟩
  | 91 => ⟨S400000x1, .i1⟩
  | 92 => ⟨S400000x1, .i1⟩
  | 93 => ⟨S_, .i1⟩
  | 94 => ⟨S400000, .i1⟩
  | 95 => ⟨S400000x128, .f32⟩
  | 96 => ⟨S400000x128, .i1⟩
  | 97 => ⟨S_, .f32⟩
  | 98 => ⟨S400000x128, .f32⟩
  | 99 => ⟨S400000x128, .f32⟩
  | 100 => ⟨S_, .f32⟩
  | 101 => ⟨S100000x128, .f32⟩
  | 102 => ⟨S400000x1, .i32⟩
  | 103 => ⟨S100000x128, .f32⟩
  | 104 => ⟨S1x1x128x128, .f32⟩
  | 105 => ⟨S128x128, .f32⟩
  | 106 => ⟨S1x1x128x128, .f32⟩
  | 107 => ⟨S128x128, .f32⟩
  | 108 => ⟨S128x128, .f32⟩
  | 109 => ⟨S1x1x128, .f32⟩
  | 110 => ⟨S128, .f32⟩
  | 111 => ⟨S1x1x128, .f32⟩
  | 112 => ⟨S128, .f32⟩
  | 113 => ⟨S128, .f32⟩
  | 114 => ⟨S1x128, .f32⟩
  | 115 => ⟨S1x1x128x128, .f32⟩
  | 116 => ⟨S128x128, .f32⟩
  | 117 => ⟨S1x1x128x128, .f32⟩
  | 118 => ⟨S128x128, .f32⟩
  | 119 => ⟨S100000x128, .f32⟩
  | 120 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S2000x128, .f32⟩
  | .local _ .vmem, ⟨32, _⟩ => ⟨S2000x128, .f32⟩
  | .local _ .vmem, ⟨33, _⟩ => ⟨S2000x1, .f32⟩
  | .local _ .vmem, ⟨34, _⟩ => ⟨S2000x1, .f32⟩
  | .local _ .vmem, ⟨35, _⟩ => ⟨S2000x128, .f32⟩
  | .local _ .vmem, ⟨36, _⟩ => ⟨S2000x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_c : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_c_13 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call0_c : Ref sig .tc := ⟨.hbm, 73, rfl⟩
abbrev main_call0_v0 : Ref sig .tc := ⟨.hbm, 74, rfl⟩
abbrev main_call0_v1 : Ref sig .tc := ⟨.hbm, 75, rfl⟩
abbrev main_call0_c_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_c_1 : Ref sig .tc := ⟨.hbm, 81, rfl⟩
abbrev main_call0_c_2 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_3 : Ref sig .tc := ⟨.hbm, 89, rfl⟩
abbrev main_call0_v12 : Ref sig .tc := ⟨.hbm, 90, rfl⟩
abbrev main_call0_v13 : Ref sig .tc := ⟨.hbm, 91, rfl⟩
abbrev main_call0_v14 : Ref sig .tc := ⟨.hbm, 92, rfl⟩
abbrev main_call0_cst : Ref sig .tc := ⟨.hbm, 93, rfl⟩
abbrev main_call0_v15 : Ref sig .tc := ⟨.hbm, 94, rfl⟩
abbrev main_v47 : Ref sig .tc := ⟨.hbm, 95, rfl⟩
abbrev main_cst_14 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_call1_c : Ref sig .tc := ⟨.hbm, 100, rfl⟩
abbrev main_call1_v0 : Ref sig .tc := ⟨.hbm, 101, rfl⟩
abbrev main_call1_v1 : Ref sig .tc := ⟨.hbm, 102, rfl⟩
abbrev main_call1_c_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_c_1 : Ref sig .tc := ⟨.hbm, 108, rfl⟩
abbrev main_call1_c_2 : Ref sig .tc := ⟨.hbm, 109, rfl⟩
abbrev main_call1_v6 : Ref sig .tc := ⟨.hbm, 110, rfl⟩
abbrev main_call1_v7 : Ref sig .tc := ⟨.hbm, 111, rfl⟩
abbrev main_call1_v8 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_c_3 : Ref sig .tc := ⟨.hbm, 116, rfl⟩
abbrev main_call1_v12 : Ref sig .tc := ⟨.hbm, 117, rfl⟩
abbrev main_call1_v13 : Ref sig .tc := ⟨.hbm, 118, rfl⟩
abbrev main_call1_v14 : Ref sig .tc := ⟨.hbm, 119, rfl⟩
abbrev main_call1_cst : Ref sig .tc := ⟨.hbm, 120, rfl⟩
abbrev main_call1_v15 : Ref sig .tc := ⟨.hbm, 121, rfl⟩
abbrev main_v51 : Ref sig .tc := ⟨.hbm, 122, rfl⟩
abbrev main_cst_15 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_call2_c : Ref sig .tc := ⟨.hbm, 138, rfl⟩
abbrev main_call2_v0 : Ref sig .tc := ⟨.hbm, 139, rfl⟩
abbrev main_call2_v1 : Ref sig .tc := ⟨.hbm, 140, rfl⟩
abbrev main_call2_c_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_c_1 : Ref sig .tc := ⟨.hbm, 146, rfl⟩
abbrev main_call2_c_2 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_c_3 : Ref sig .tc := ⟨.hbm, 154, rfl⟩
abbrev main_call2_v12 : Ref sig .tc := ⟨.hbm, 155, rfl⟩
abbrev main_call2_v13 : Ref sig .tc := ⟨.hbm, 156, rfl⟩
abbrev main_call2_v14 : Ref sig .tc := ⟨.hbm, 157, rfl⟩
abbrev main_call2_cst : Ref sig .tc := ⟨.hbm, 158, rfl⟩
abbrev main_call2_v15 : Ref sig .tc := ⟨.hbm, 159, rfl⟩
abbrev main_v66 : Ref sig .tc := ⟨.hbm, 160, rfl⟩
abbrev main_cst_16 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_call3_c : Ref sig .tc := ⟨.hbm, 178, rfl⟩
abbrev main_call3_v0 : Ref sig .tc := ⟨.hbm, 179, rfl⟩
abbrev main_call3_v1 : Ref sig .tc := ⟨.hbm, 180, rfl⟩
abbrev main_call3_c_0 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_v5 : Ref sig .tc := ⟨.hbm, 185, rfl⟩
abbrev main_call3_c_1 : Ref sig .tc := ⟨.hbm, 186, rfl⟩
abbrev main_call3_c_2 : Ref sig .tc := ⟨.hbm, 187, rfl⟩
abbrev main_call3_v6 : Ref sig .tc := ⟨.hbm, 188, rfl⟩
abbrev main_call3_v7 : Ref sig .tc := ⟨.hbm, 189, rfl⟩
abbrev main_call3_v8 : Ref sig .tc := ⟨.hbm, 190, rfl⟩
abbrev main_call3_v9 : Ref sig .tc := ⟨.hbm, 191, rfl⟩
abbrev main_call3_v10 : Ref sig .tc := ⟨.hbm, 192, rfl⟩
abbrev main_call3_v11 : Ref sig .tc := ⟨.hbm, 193, rfl⟩
abbrev main_call3_c_3 : Ref sig .tc := ⟨.hbm, 194, rfl⟩
abbrev main_call3_v12 : Ref sig .tc := ⟨.hbm, 195, rfl⟩
abbrev main_call3_v13 : Ref sig .tc := ⟨.hbm, 196, rfl⟩
abbrev main_call3_v14 : Ref sig .tc := ⟨.hbm, 197, rfl⟩
abbrev main_call3_cst : Ref sig .tc := ⟨.hbm, 198, rfl⟩
abbrev main_call3_v15 : Ref sig .tc := ⟨.hbm, 199, rfl⟩
abbrev main_v83 : Ref sig .tc := ⟨.hbm, 200, rfl⟩
abbrev main_cst_17 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_call4_c : Ref sig .tc := ⟨.hbm, 205, rfl⟩
abbrev main_call4_v0 : Ref sig .tc := ⟨.hbm, 206, rfl⟩
abbrev main_call4_v1 : Ref sig .tc := ⟨.hbm, 207, rfl⟩
abbrev main_call4_c_0 : Ref sig .tc := ⟨.hbm, 208, rfl⟩
abbrev main_call4_v2 : Ref sig .tc := ⟨.hbm, 209, rfl⟩
abbrev main_call4_v3 : Ref sig .tc := ⟨.hbm, 210, rfl⟩
abbrev main_call4_v4 : Ref sig .tc := ⟨.hbm, 211, rfl⟩
abbrev main_call4_v5 : Ref sig .tc := ⟨.hbm, 212, rfl⟩
abbrev main_call4_c_1 : Ref sig .tc := ⟨.hbm, 213, rfl⟩
abbrev main_call4_c_2 : Ref sig .tc := ⟨.hbm, 214, rfl⟩
abbrev main_call4_v6 : Ref sig .tc := ⟨.hbm, 215, rfl⟩
abbrev main_call4_v7 : Ref sig .tc := ⟨.hbm, 216, rfl⟩
abbrev main_call4_v8 : Ref sig .tc := ⟨.hbm, 217, rfl⟩
abbrev main_call4_v9 : Ref sig .tc := ⟨.hbm, 218, rfl⟩
abbrev main_call4_v10 : Ref sig .tc := ⟨.hbm, 219, rfl⟩
abbrev main_call4_v11 : Ref sig .tc := ⟨.hbm, 220, rfl⟩
abbrev main_call4_c_3 : Ref sig .tc := ⟨.hbm, 221, rfl⟩
abbrev main_call4_v12 : Ref sig .tc := ⟨.hbm, 222, rfl⟩
abbrev main_call4_v13 : Ref sig .tc := ⟨.hbm, 223, rfl⟩
abbrev main_call4_v14 : Ref sig .tc := ⟨.hbm, 224, rfl⟩
abbrev main_call4_cst : Ref sig .tc := ⟨.hbm, 225, rfl⟩
abbrev main_call4_v15 : Ref sig .tc := ⟨.hbm, 226, rfl⟩
abbrev main_v87 : Ref sig .tc := ⟨.hbm, 227, rfl⟩
abbrev main_cst_18 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000 : S_.BroadcastsInDim S50000 (![] : Fin 0 → Fin S50000.rank)
  shapeCasts_S100000_S100000x1 : S100000.ShapeCasts S100000x1
  shapeCasts_S50000_S50000x1 : S50000.ShapeCasts S50000x1
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  transposes_S128x128_S128x128_1_0 : S128x128.Transposes [1, 0] S128x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128x128_S1x1x128x128_0_1_0_0 : S2x3x128x128.Slices ![0, 1, 0, 0] S1x1x128x128
  slices_S2x3x128_S1x1x128_0_0_0 : S2x3x128.Slices ![0, 0, 0] S1x1x128
  shapeCasts_S1x1x128_S128 : S1x1x128.ShapeCasts S128
  slices_S2x3x128_S1x1x128_0_1_0 : S2x3x128.Slices ![0, 1, 0] S1x1x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x3x128x128_S1x1x128x128_1_0_0_0 : S2x3x128x128.Slices ![1, 0, 0, 0] S1x1x128x128
  slices_S2x3x128x128_S1x1x128x128_1_1_0_0 : S2x3x128x128.Slices ![1, 1, 0, 0] S1x1x128x128
  slices_S2x3x128_S1x1x128_1_0_0 : S2x3x128.Slices ![1, 0, 0] S1x1x128
  slices_S2x3x128_S1x1x128_1_1_0 : S2x3x128.Slices ![1, 1, 0] S1x1x128
  slices_S100000x128_S100000x8_0_0 : S100000x128.Slices ![0, 0] S100000x8
  scatter_S100000_S800000x1_S800000_n_0_0_1_wf : ScatterDims.WF S100000 S800000x1 S800000 [] [0] [0] 1
  scatter_S100000_S400000x1_S400000_n_0_0_1_wf : ScatterDims.WF S100000 S400000x1 S400000 [] [0] [0] 1
  scatter_S50000_S400000x1_S400000_n_0_0_1_wf : ScatterDims.WF S50000 S400000x1 S400000 [] [0] [0] 1
  scatter_S128x128_S1_S8x128_01_n_0_0_wf : ScatterDims.WF S128x128 S1 S8x128 [0, 1] [] [0] 0
  scatter_S128_S1_S8_0_n_0_0_wf : ScatterDims.WF S128 S1 S8 [0] [] [0] 0
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S50000x128_S400000x1_S400000x128_1_0_n_n_0_1_1128_wf : GatherDims.WF S50000x128 S400000x1 S400000x128 [1] [0] [] [0] [] 1 ![1, 128]
  scatter_S100000x128_S400000x1_S400000x128_1_0_0_1_wf : ScatterDims.WF S100000x128 S400000x1 S400000x128 [1] [0] [0] 1
  gather_S100000x128_S400000x1_S400000x128_1_0_n_n_0_1_1128_wf : GatherDims.WF S100000x128 S400000x1 S400000x128 [1] [0] [] [0] [] 1 ![1, 128]
  scatter_S50000x128_S400000x1_S400000x128_1_0_0_1_wf : ScatterDims.WF S50000x128 S400000x1 S400000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x128.size a ≤ S100000x128.size a
  hwx2_11 : ∀ i : grid2.Coords, EltTy.bits .f32 = 32 ∨ (Rect.block (s := S100000x128) S2000x128.size (cc2_transform_11 i) (hinb2_11 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S128x128_S1_S8x128_01_n_0_0 : ScatterDims S128x128 S1 S8x128 where
  updateWindowDims := [0, 1]
  insertedWindowDims := []
  scatterDimsToOperandDims := [0]
  indexVectorDim := 0
  wf := scatter_S128x128_S1_S8x128_01_n_0_0_wf
def scatter_S128_S1_S8_0_n_0_0 : ScatterDims S128 S1 S8 where
  updateWindowDims := [0]
  insertedWindowDims := []
  scatterDimsToOperandDims := [0]
  indexVectorDim := 0
  wf := scatter_S128_S1_S8_0_n_0_0_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v50) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v71) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v73) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v65) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v69) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v76) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v81) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v86) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v74) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v103) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v105) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v95) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v101) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v46) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v45) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v106) S2000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x3x128x128 : Shape := ⟨4, ![2, 3, 128, 128]⟩
abbrev S2x3x128 : Shape := ⟨3, ![2, 3, 128]⟩
abbrev S8x128 : Shape := ⟨2, ![8, 128]⟩
abbrev S8 : Shape := ⟨1, ![8]⟩
abbrev S2x800000 : Shape := ⟨2, ![2, 800000]⟩
abbrev S2x400000 : Shape := ⟨2, ![2, 400000]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S50000 : Shape := ⟨1, ![50000]⟩
abbrev S50000x1 : Shape := ⟨2, ![50000, 1]⟩
abbrev S128x8 : Shape := ⟨2, ![128, 8]⟩
abbrev S100000x8 : Shape := ⟨2, ![100000, 8]⟩
abbrev S1x8 : Shape := ⟨2, ![1, 8]⟩

abbrev nBuf : Space → Nat
  | .hbm => 295
  | .vmem => 0
  | .smem => 0
  | _ => 0

abbrev hbmTy0_0 (i : Nat) : BufTy := match i % 128 with
  | 0 => ⟨S100000x128, .f32⟩
  | 1 => ⟨S50000x128, .f32⟩
  | 2 => ⟨S2x3x128x128, .f32⟩
  | 3 => ⟨S2x3x128, .f32⟩
  | 4 => ⟨S2x3x128x128, .f32⟩
  | 5 => ⟨S8x128, .f32⟩
  | 6 => ⟨S8, .f32⟩
  | 7 => ⟨S2x800000, .i32⟩
  | 8 => ⟨S2x400000, .i32⟩
  | 9 => ⟨S2x400000, .i32⟩
  | 10 => ⟨S1x1x128x128, .f32⟩
  | 11 => ⟨S128x128, .f32⟩
  | 12 => ⟨S1x1x128, .f32⟩
  | 13 => ⟨S128, .f32⟩
  | 14 => ⟨S1x1x128x128, .f32⟩
  | 15 => ⟨S128x128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S100000x128, .f32⟩
  | 31 => ⟨S800000x1, .i32⟩
  | 32 => ⟨S100000x128, .f32⟩
  | 33 => ⟨S_, .f32⟩
  | 34 => ⟨S800000, .f32⟩
  | 35 => ⟨S_, .f32⟩
  | 36 => ⟨S100000, .f32⟩
  | 37 => ⟨S800000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S1x1x128x128, .f32⟩
  | 52 => ⟨S128x128, .f32⟩
  | 53 => ⟨S1x1x128, .f32⟩
  | 54 => ⟨S128, .f32⟩
  | 55 => ⟨S1x1x128x128, .f32⟩
  | 56 => ⟨S128x128, .f32⟩
  | 57 => ⟨S1x400000, .i32⟩
  | 58 => ⟨S400000, .i32⟩
  | 59 => ⟨S1x400000, .i32⟩
  | 60 => ⟨S400000, .i32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S_, .f32⟩
  | 71 => ⟨S100000x128, .f32⟩
  | 72 => ⟨S400000x1, .i32⟩
  | 73 => ⟨S100000x128, .f32⟩
  | 74 => ⟨S_, .f32⟩
  | 75 => ⟨S400000, .f32⟩
  | 76 => ⟨S_, .f32⟩
  | 77 => ⟨S100000, .f32⟩
  | 78 => ⟨S400000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S1x1x128x128, .f32⟩
  | 94 => ⟨S128x128, .f32⟩
  | 95 => ⟨S1x1x128, .f32⟩
  | 96 => ⟨S128, .f32⟩
  | 97 => ⟨S1x1x128x128, .f32⟩
  | 98 => ⟨S128x128, .f32⟩
  | 99 => ⟨S1x400000, .i32⟩
  | 100 => ⟨S400000, .i32⟩
  | 101 => ⟨S1x400000, .i32⟩
  | 102 => ⟨S400000, .i32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x128, .f32⟩
  | 112 => ⟨S_, .f32⟩
  | 113 => ⟨S50000x128, .f32⟩
  | 114 => ⟨S400000x1, .i32⟩
  | 115 => ⟨S50000x128, .f32⟩
  | 116 => ⟨S_, .f32⟩
  | 117 => ⟨S400000, .f32⟩
  | 118 => ⟨S_, .f32⟩
  | 119 => ⟨S50000, .f32⟩
  | 120 => ⟨S400000x1, .i32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x128, .f32⟩
  | 127 => ⟨S50000x128, .f32⟩
  | _ => ⟨S100000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S50000x128, .f32⟩
  | 5 => ⟨S50000x128, .f32⟩
  | 6 => ⟨S_, .f32⟩
  | 7 => ⟨S_, .f32⟩
  | 8 => ⟨S100000x128, .f32⟩
  | 9 => ⟨S100000x128, .i1⟩
  | 10 => ⟨S_, .f32⟩
  | 11 => ⟨S100000x128, .f32⟩
  | 12 => ⟨S100000x128, .f32⟩
  | 13 => ⟨S100000x128, .f32⟩
  | 14 => ⟨S_, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S50000x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S1x800000, .i32⟩
  | 29 => ⟨S800000, .i32⟩
  | 30 => ⟨S1x800000, .i32⟩
  | 31 => ⟨S800000, .i32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S100000x128, .f32⟩
  | 43 => ⟨S800000x1, .i32⟩
  | 44 => ⟨S100000x128, .f32⟩
  | 45 => ⟨S_, .f32⟩
  | 46 => ⟨S800000, .f32⟩
  | 47 => ⟨S_, .f32⟩
  | 48 => ⟨S100000, .f32⟩
  | 49 => ⟨S800000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S100000x128, .f32⟩
  | 62 => ⟨S100000x128, .f32⟩
  | 63 => ⟨S1x1x128x128, .f32⟩
  | 64 => ⟨S128x128, .f32⟩
  | 65 => ⟨S1x1x128, .f32⟩
  | 66 => ⟨S128, .f32⟩
  | 67 => ⟨S1x1x128x128, .f32⟩
  | 68 => ⟨S128x128, .f32⟩
  | 69 => ⟨S1x400000, .i32⟩
  | 70 => ⟨S400000, .i32⟩
  | 71 => ⟨S1x400000, .i32⟩
  | 72 => ⟨S400000, .i32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x128, .f32⟩
  | 82 => ⟨S_, .f32⟩
  | 83 => ⟨S100000x128, .f32⟩
  | 84 => ⟨S400000x1, .i32⟩
  | 85 => ⟨S100000x128, .f32⟩
  | 86 => ⟨S_, .f32⟩
  | 87 => ⟨S400000, .f32⟩
  | 88 => ⟨S_, .f32⟩
  | 89 => ⟨S100000, .f32⟩
  | 90 => ⟨S400000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S1x1x128x128, .f32⟩
  | 106 => ⟨S128x128, .f32⟩
  | 107 => ⟨S1x1x128, .f32⟩
  | 108 => ⟨S128, .f32⟩
  | 109 => ⟨S1x1x128x128, .f32⟩
  | 110 => ⟨S128x128, .f32⟩
  | 111 => ⟨S1x400000, .i32⟩
  | 112 => ⟨S400000, .i32⟩
  | 113 => ⟨S1x400000, .i32⟩
  | 114 => ⟨S400000, .i32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x128, .f32⟩
  | 124 => ⟨S_, .f32⟩
  | 125 => ⟨S50000x128, .f32⟩
  | 126 => ⟨S400000x1, .i32⟩
  | 127 => ⟨S50000x128, .f32⟩
  | _ => ⟨S100000x128, .f32⟩

abbrev hbmTy0_2 (i : Nat) : BufTy := match i % 128 with
  | 0 => ⟨S_, .f32⟩
  | 1 => ⟨S400000, .f32⟩
  | 2 => ⟨S_, .f32⟩
  | 3 => ⟨S50000, .f32⟩
  | 4 => ⟨S400000x1, .i32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S100000x128, .f32⟩
  | 21 => ⟨S100000x128, .i1⟩
  | 22 => ⟨S_, .f32⟩
  | 23 => ⟨S100000x128, .f32⟩
  | 24 => ⟨S100000x128, .f32⟩
  | 25 => ⟨S100000x128, .f32⟩
  | 26 => ⟨S_, .f32⟩
  | 27 => ⟨S_, .f32⟩
  | 28 => ⟨S50000x128, .f32⟩
  | 29 => ⟨S50000x128, .i1⟩
  | 30 => ⟨S_, .f32⟩
  | 31 => ⟨S50000x128, .f32⟩
  | 32 => ⟨S50000x128, .f32⟩
  | 33 => ⟨S50000x128, .f32⟩
  | 34 => ⟨S128x8, .f32⟩
  | 35 => ⟨S100000x8, .f32⟩
  | 36 => ⟨S1x8, .f32⟩
  | 37 => ⟨S100000x8, .f32⟩
  | 38 => ⟨S100000x8, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_4 : Ref sig .tc := ⟨.hbm, 61, rfl⟩
abbrev main_v45 : Ref sig .tc := ⟨.hbm, 62, rfl⟩
abbrev main_v46 : Ref sig .tc := ⟨.hbm, 63, rfl⟩
abbrev main_c_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_10 : Ref sig .tc := ⟨.hbm, 103, rfl⟩
abbrev main_v81 : Ref sig .tc := ⟨.hbm, 104, rfl⟩
abbrev main_v82 : Ref sig .tc := ⟨.hbm, 105, rfl⟩
abbrev main_c_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_12 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_16 : Ref sig .tc := ⟨.hbm, 134, rfl⟩
abbrev main_call0_cst : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_call0_v3 : Ref sig .tc := ⟨.hbm, 139, rfl⟩
abbrev main_call0_v4 : Ref sig .tc := ⟨.hbm, 140, rfl⟩
abbrev main_v106 : Ref sig .tc := ⟨.hbm, 141, rfl⟩
abbrev main_cst_17 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_call1_v3 : Ref sig .tc := ⟨.hbm, 147, rfl⟩
abbrev main_call1_v4 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_18 : Ref sig .tc := ⟨.hbm, 160, rfl⟩
abbrev main_v118 : Ref sig .tc := ⟨.hbm, 161, rfl⟩
abbrev main_v119 : Ref sig .tc := ⟨.hbm, 162, rfl⟩
abbrev main_c_19 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_20 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_21 : Ref sig .tc := ⟨.hbm, 173, rfl⟩
abbrev main_v128 : Ref sig .tc := ⟨.hbm, 174, rfl⟩
abbrev main_cst_22 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_23 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_24 : Ref sig .tc := ⟨.hbm, 201, rfl⟩
abbrev main_v153 : Ref sig .tc := ⟨.hbm, 202, rfl⟩
abbrev main_v154 : Ref sig .tc := ⟨.hbm, 203, rfl⟩
abbrev main_c_25 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_26 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_27 : Ref sig .tc := ⟨.hbm, 214, rfl⟩
abbrev main_v163 : Ref sig .tc := ⟨.hbm, 215, rfl⟩
abbrev main_cst_28 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_29 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_c_30 : Ref sig .tc := ⟨.hbm, 243, rfl⟩
abbrev main_v189 : Ref sig .tc := ⟨.hbm, 244, rfl⟩
abbrev main_v190 : Ref sig .tc := ⟨.hbm, 245, rfl⟩
abbrev main_c_31 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_cst_32 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_33 : Ref sig .tc := ⟨.hbm, 256, rfl⟩
abbrev main_v199 : Ref sig .tc := ⟨.hbm, 257, rfl⟩
abbrev main_cst_34 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_cst_35 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_cst_36 : Ref sig .tc := ⟨.hbm, 274, rfl⟩
abbrev main_call2_cst : Ref sig .tc := ⟨.hbm, 275, rfl⟩
abbrev main_call2_v0 : Ref sig .tc := ⟨.hbm, 276, rfl⟩
abbrev main_call2_v1 : Ref sig .tc := ⟨.hbm, 277, rfl⟩
abbrev main_call2_v2 : Ref sig .tc := ⟨.hbm, 278, rfl⟩
abbrev main_call2_v3 : Ref sig .tc := ⟨.hbm, 279, rfl⟩
abbrev main_call2_v4 : Ref sig .tc := ⟨.hbm, 280, rfl⟩
abbrev main_v214 : Ref sig .tc := ⟨.hbm, 281, rfl⟩
abbrev main_cst_37 : Ref sig .tc := ⟨.hbm, 282, rfl⟩
abbrev main_call3_cst : Ref sig .tc := ⟨.hbm, 283, rfl⟩
abbrev main_call3_v0 : Ref sig .tc := ⟨.hbm, 284, rfl⟩
abbrev main_call3_v1 : Ref sig .tc := ⟨.hbm, 285, rfl⟩
abbrev main_call3_v2 : Ref sig .tc := ⟨.hbm, 286, rfl⟩
abbrev main_call3_v3 : Ref sig .tc := ⟨.hbm, 287, rfl⟩
abbrev main_call3_v4 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩

abbrev nD : Nat := 1
abbrev τ : Topo := Topo.v7x

variable {F : FTy → Type} [FloatOps F]

class Facts₀ : Prop where
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  slices_S2x3x128x128_S1x1x128x128_0_2_0_0 : S2x3x128x128.Slices ![0, 2, 0, 0] S1x1x128x128
  slices_S2x3x128_S1x1x128_0_2_0 : S2x3x128.Slices ![0, 2, 0] S1x1x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  transposes_S8x128_S128x8_1_0 : S8x128.Transposes [1, 0] S128x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  gather_S50000x128_S400000x1_S400000x128_1_0_n_n_0_1_1128_wf : GatherDims.WF S50000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S50000x128_S400000x1_S400000x128_1_0_0_1_wf : ScatterDims.WF S50000x128 S400000x1 S400000x128 [1] [0] [0] 1
  scatter_S50000_S400000x1_S400000_n_0_0_1_wf : ScatterDims.WF S50000 S400000x1 S400000 [] [0] [0] 1
  dot_S50000x128_S128x128_S50000x128_1_0_0_1_n_n_wf : DotDims.WF S50000x128 S128x128 S50000x128 [1] [0] [0] [1] [] []
  dot_S100000x128_S128x8_S100000x8_1_0_0_1_n_n_wf : DotDims.WF S100000x128 S128x8 S100000x8 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.Spec.lean ====
/-
  One layer of the heterogeneous graph network, index by index, over the extended reals.

  A "b" node row n (100000 of them) receives the mean of its incoming "bb" messages and the mean of its incoming
  "sb" messages; an "s" node row (50000) the mean of its "bs" messages.  With S the segment sums and c the
  clamped in-degrees (c ≥ 1), the SAGE combination of a row is

      pre(n, j) = Σ_k (S_bb(n,k) / c_bb(n)) · Wl0(k,j) + bl0(j) + Σ_k x(n,k) · Wr0(k,j)
                + Σ_k (S_sb(n,k) / c_sb(n)) · Wl1(k,j) + bl1(j) + Σ_k x(n,k) · Wr1(k,j),

  followed by the leaky rectifier with slope f32(0.01).  The kernel computes the same number in another
  arrangement: it multiplies by the reciprocal 1 / c instead of dividing, adds the two right-hand weight
  matrices and the two biases before use, and tests 0 < x where the reference tests 0 ≤ x.  On finite
  entries (every entry a real number) the two arrangements agree: this file states both and proves that.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- N rows of 128 features. -/
abbrev Rows (N : Nat) : Shape := ⟨2, ![N, 128]⟩
/-- One number per row, kept as a column. -/
abbrev Col (N : Nat) : Shape := ⟨2, ![N, 1]⟩
/-- A 128 × 128 weight matrix. -/
abbrev Sq : Shape := ⟨2, ![128, 128]⟩
/-- A bias kept as a row. -/
abbrev Row1 : Shape := ⟨2, ![1, 128]⟩
/-- An array of extended reals. -/
abbrev Arr (s : Shape) : Type := s.Idx → EReal

/-- The rectifier's slope: the binary32 number nearest 0.01, the same word in both programs. -/
def slope : EReal := Ideal.ofBits .f32 0x3C23D70A#32

/-- The leaky rectifier as the kernel tests it: x where 0 < x, slope · x elsewhere. -/
def lreluK (x : EReal) : EReal := if 0 < x then x else slope * x
/-- The leaky rectifier as the reference tests it: x where 0 ≤ x, slope · x elsewhere. -/
def lreluR (x : EReal) : EReal := if 0 ≤ x then x else slope * x

/-- Every entry of the array is a real number. -/
def Finite {s : Shape} (x : Arr s) : Prop := ∀ i, ∃ r : ℝ, x i = (r : EReal)

/-- Every value of the family is a real number. -/
def FiniteFn {ι : Type} (x : ι → EReal) : Prop := ∀ i, ∃ r : ℝ, x i = (r : EReal)

variable {N : Nat}

/-! ## The kernel's arrangement -/

/-- A "b" row before the rectifier, as the kernel adds it up: the two scaled sums, the product with the ADDED
    right-hand weights, then the ADDED biases. `ib`, `is` are the reciprocal in-degrees as columns. -/
def preBK (sbb : Arr (Rows N)) (ib : Arr (Col N)) (ssb : Arr (Rows N)) (is : Arr (Col N)) (x : Arr (Rows N))
    (w0 w1 wr : Arr Sq) (bl : Arr Row1) (n : Fin N) (j : Fin 128) : EReal :=
  (((∑ k : Fin 128, (sbb (ix2 n k) * ib (ix2 n 0)) * w0 (ix2 k j))
      + ∑ k : Fin 128, (ssb (ix2 n k) * is (ix2 n 0)) * w1 (ix2 k j))
    + ∑ k : Fin 128, x (ix2 n k) * wr (ix2 k j))
  + bl (ix2 0 j)

/-- The "b" update of the kernel, a whole array. -/
def bK (sbb : Arr (Rows N)) (ib : Arr (Col N)) (ssb : Arr (Rows N)) (is : Arr (Col N)) (x : Arr (Rows N))
    (w0 w1 wr : Arr Sq) (bl : Arr Row1) : Arr (Rows N) :=
  fun i => lreluK (preBK sbb ib ssb is x w0 w1 wr bl (i 0) (i 1))

/-- An "s" row before the rectifier, as the kernel adds it up. -/
def preSK (sbs : Arr (Rows N)) (ic : Arr (Col N)) (x : Arr (Rows N)) (wl : Arr Sq) (bl : Arr Row1) (wr : Arr Sq)
    (n : Fin N) (j : Fin 128) : EReal :=
  ((∑ k : Fin 128, (sbs (ix2 n k) * ic (ix2 n 0)) * wl (ix2 k j)) + bl (ix2 0 j))
  + ∑ k : Fin 128, x (ix2 n k) * wr (ix2 k j)

/-- The "s" update of the kernel, a whole array. -/
def sK (sbs : Arr (Rows N)) (ic : Arr (Col N)) (x : Arr (Rows N)) (wl : Arr Sq) (bl : Arr Row1) (wr : Arr Sq) :
    Arr (Rows N) :=
  fun i => lreluK (preSK sbs ic x wl bl wr (i 0) (i 1))

/-- The last kernel: the "b" update followed at once by the heads' linear map, over 128 padded head columns. -/
def headsK (sbb : Arr (Rows N)) (ib : Arr (Col N)) (ssb : Arr (Rows N)) (is : Arr (Col N)) (x : Arr (Rows N))
    (w0 w1 wr : Arr Sq) (bl : Arr Row1) (wh : Arr Sq) (bh : Arr Row1) : Arr (Rows N) :=
  fun i => (∑ k : Fin 128, lreluK (preBK sbb ib ssb is x w0 w1 wr bl (i 0) k) * wh (ix2 k (i 1))) + bh (ix2 0 (i 1))

/-! ## The reference's arrangement -/

/-- A "b" row before the rectifier, as the reference adds it up: one SAGE term per edge type, each with its own
    bias and its own right-hand weights. `cb`, `cs` are the clamped in-degrees. -/
def preBR (sbb ssb x : Arr (Rows N)) (cb cs : Fin N → EReal) (w0 w1 r0 r1 : Arr Sq) (b0 b1 : Fin 128 → EReal)
    (n : Fin N) (j : Fin 128) : EReal :=
  (((∑ k : Fin 128, Ideal.div (sbb (ix2 n k)) (cb n) * w0 (ix2 k j)) + b0 j)
      + ∑ k : Fin 128, x (ix2 n k) * r0 (ix2 k j))
  + (((∑ k : Fin 128, Ideal.div (ssb (ix2 n k)) (cs n) * w1 (ix2 k j)) + b1 j)
      + ∑ k : Fin 128, x (ix2 n k) * r1 (ix2 k j))

/-- An "s" row before the rectifier, as the reference adds it up. -/
def preSR (sbs x : Arr (Rows N)) (c : Fin N → EReal) (wl wr : Arr Sq) (b : Fin 128 → EReal) (n : Fin N) (j : Fin 128) :
    EReal :=
  ((∑ k : Fin 128, Ideal.div (sbs (ix2 n k)) (c n) * wl (ix2 k j)) + b j)
  + ∑ k : Fin 128, x (ix2 n k) * wr (ix2 k j)

end Cert.Spec

end
-- ==== Proof.KDefs.lean ====
/-
  The host side of the kernel program, named: what each stretch of host operations computes from the program's
  arguments, as functions of arrays over the extended reals.

  Per edge type: the source and destination ids (the two rows of the edge list), the reciprocal of the clamped
  in-degree of every destination node (as a column), the rows gathered at the source ids — read as the program reads
  them, with a fill value where an id is out of range after the wrap of negative ids — and their sum per destination
  node.  Per layer: the weight matrices and bias rows cut out of the stacked parameters, the two right-hand matrices
  and the two biases of the "b" update added together.  For the heads: the 8 weight rows and the 8 biases padded with
  zeros to 128, the weights transposed.  Last, the program's result put together from these and the three kernels'
  whole-array functions (Spec.lean).
-/
import proofs.«424018_j64587718197893_2_alg».proof.Proof.Gen.KernelIdeal
import proofs.«424018_j64587718197893_2_alg».proof.Proof.Spec

noncomputable section

namespace Cert.KernelIdeal.HostVal

open Idealize.ShloMosaic Cert.KernelIdeal Cert.KernelIdeal.Facts₀ Cert.KernelIdeal.Facts

/-! ## Edge lists -/

/-- Source ids of the b→b edges: row 0 of the edge list. -/
def srcBB (e : IVec S2x800000 32) : IVec S800000 32 :=
  shapeCast S800000 (extractStridedSlice S1x800000 ![0, 0] e slices_S2x800000_S1x800000_0_0) shapeCasts_S1x800000_S800000
/-- Destination ids of the b→b edges: row 1. -/
def dstBB (e : IVec S2x800000 32) : IVec S800000 32 :=
  shapeCast S800000 (extractStridedSlice S1x800000 ![1, 0] e slices_S2x800000_S1x800000_1_0) shapeCasts_S1x800000_S800000
/-- Source ids of an edge list of 400000 edges. -/
def src4 (e : IVec S2x400000 32) : IVec S400000 32 :=
  shapeCast S400000 (extractStridedSlice S1x400000 ![0, 0] e slices_S2x400000_S1x400000_0_0) shapeCasts_S1x400000_S400000
/-- Destination ids of an edge list of 400000 edges. -/
def dst4 (e : IVec S2x400000 32) : IVec S400000 32 :=
  shapeCast S400000 (extractStridedSlice S1x400000 ![1, 0] e slices_S2x400000_S1x400000_1_0) shapeCasts_S1x400000_S400000

/-! ## Reciprocal clamped in-degrees, as columns -/

/-- 1 / max(in-degree, 1) of the 100000 "b" nodes under 800000 edges. -/
def invBB (dst : IVec S800000 32) : FVec Ideal S100000x1 .f32 :=
  shapeCast S100000x1
    (Host.divf (broadcastInDim S100000 ![] bcast_S_S100000 (constant S_ .f32 0x3F800000#32))
      (maximumf
        (Host.scatterAdd scatter_S100000_S800000x1_S800000_n_0_0_1
          (broadcastInDim S100000 ![] bcast_S_S100000 (constant S_ .f32 0x00000000#32))
          (broadcastInDim S800000x1 ![0] bcast_S800000_S800000x1_0 dst)
          (broadcastInDim S800000 ![] bcast_S_S800000 (constant S_ .f32 0x3F800000#32)))
        (broadcastInDim S100000 ![] bcast_S_S100000 (constant S_ .f32 0x3F800000#32))))
    shapeCasts_S100000_S100000x1
/-- The same for the 100000 "b" nodes under 400000 edges. -/
def invSB (dst : IVec S400000 32) : FVec Ideal S100000x1 .f32 :=
  shapeCast S100000x1
    (Host.divf (broadcastInDim S100000 ![] bcast_S_S100000 (constant S_ .f32 0x3F800000#32))
      (maximumf
        (Host.scatterAdd scatter_S100000_S400000x1_S400000_n_0_0_1
          (broadcastInDim S100000 ![] bcast_S_S100000 (constant S_ .f32 0x00000000#32))
          (broadcastInDim S400000x1 ![0] bcast_S400000_S400000x1_0 dst)
          (broadcastInDim S400000 ![] bcast_S_S400000 (constant S_ .f32 0x3F800000#32)))
        (broadcastInDim S100000 ![] bcast_S_S100000 (constant S_ .f32 0x3F800000#32))))
    shapeCasts_S100000_S100000x1
/-- The same for the 50000 "s" nodes under 400000 edges. -/
def invBS (dst : IVec S400000 32) : FVec Ideal S50000x1 .f32 :=
  shapeCast S50000x1
    (Host.divf (broadcastInDim S50000 ![] bcast_S_S50000 (constant S_ .f32 0x3F800000#32))
      (maximumf
        (Host.scatterAdd scatter_S50000_S400000x1_S400000_n_0_0_1
          (broadcastInDim S50000 ![] bcast_S_S50000 (constant S_ .f32 0x00000000#32))
          (broadcastInDim S400000x1 ![0] bcast_S400000_S400000x1_0 dst)
          (broadcastInDim S400000 ![] bcast_S_S400000 (constant S_ .f32 0x3F800000#32)))
        (broadcastInDim S50000 ![] bcast_S_S50000 (constant S_ .f32 0x3F800000#32))))
    shapeCasts_S50000_S50000x1

/-! ## Gathered rows, with the fill value where an id is out of range -/

/-- An id after the wrap of negative ids, 800000 ids into 100000 rows. -/
def wrapBB (src : IVec S800000 32) : IVec S800000 32 :=
  select (cmpi .slt src (broadcastInDim S800000 ![] bcast_S_S800000 (constantI S_ 32 0#32)))
    (addi src (broadcastInDim S800000 ![] bcast_S_S800000 (constantI S_ 32 100000#32))) src
/-- 400000 ids into 50000 rows. -/
def wrapSB (src : IVec S400000 32) : IVec S400000 32 :=
  select (cmpi .slt src (broadcastInDim S400000 ![] bcast_S_S400000 (constantI S_ 32 0#32)))
    (addi src (broadcastInDim S400000 ![] bcast_S_S400000 (constantI S_ 32 50000#32))) src
/-- 400000 ids into 100000 rows. -/
def wrapBS (src : IVec S400000 32) : IVec S400000 32 :=
  select (cmpi .slt src (broadcastInDim S400000 ![] bcast_S_S400000 (constantI S_ 32 0#32)))
    (addi src (broadcastInDim S400000 ![] bcast_S_S400000 (constantI S_ 32 100000#32))) src

/-- Rows of a 100000-row array at 800000 ids: the row where the wrapped id lies in 0..99999, the fill value elsewhere. -/
def takeBB (x : FVec Ideal S100000x128 .f32) (src : IVec S800000 32) : FVec Ideal S800000x128 .f32 :=
  select
    (broadcastInDim S800000x128 ![0] bcast_S800000_S800000x128_0
      (Host.reduce IntOp.andi
        (andi
          (cmpi .sge (broadcastInDim S800000x1 ![0] bcast_S800000_S800000x1_0 (wrapBB src))
            (broadcastInDim S800000x1 ![] bcast_S_S800000x1 (constantI S_ 32 0#32)))
          (cmpi .sle (broadcastInDim S800000x1 ![0] bcast_S800000_S800000x1_0 (wrapBB src))
            (broadcastInDim S800000x1 ![0, 1] bcast_S1x1_S800000x1_0_1
              (broadcastInDim S1x1 ![1] bcast_S1_S1x1_1 (constantI S1 32 99999#32)))))
        (constantI S_ 1 1#1) reducesTo_S800000x1_S800000_d1 h_S_))
    (Host.gather gather_S100000x128_S800000x1_S800000x128_1_0_n_n_0_1_1128 x
      (broadcastInDim S800000x1 ![0] bcast_S800000_S800000x1_0 (wrapBB src)))
    (broadcastInDim S800000x128 ![] bcast_S_S800000x128 (constant S_ .f32 0x7FC00000#32))
/-- Rows of a 50000-row array at 400000 ids. -/
def takeSB (x : FVec Ideal S50000x128 .f32) (src : IVec S400000 32) : FVec Ideal S400000x128 .f32 :=
  select
    (broadcastInDim S400000x128 ![0] bcast_S400000_S400000x128_0
      (Host.reduce IntOp.andi
        (andi
          (cmpi .sge (broadcastInDim S400000x1 ![0] bcast_S400000_S400000x1_0 (wrapSB src))
            (broadcastInDim S400000x1 ![] bcast_S_S400000x1 (constantI S_ 32 0#32)))
          (cmpi .sle (broadcastInDim S400000x1 ![0] bcast_S400000_S400000x1_0 (wrapSB src))
            (broadcastInDim S400000x1 ![0, 1] bcast_S1x1_S400000x1_0_1
              (broadcastInDim S1x1 ![1] bcast_S1_S1x1_1 (constantI S1 32 49999#32)))))
        (constantI S_ 1 1#1) reducesTo_S400000x1_S400000_d1 h_S_))
    (Host.gather gather_S50000x128_S400000x1_S400000x128_1_0_n_n_0_1_1128 x
      (broadcastInDim S400000x1 ![0] bcast_S400000_S400000x1_0 (wrapSB src)))
    (broadcastInDim S400000x128 ![] bcast_S_S400000x128 (constant S_ .f32 0x7FC00000#32))
/-- Rows of a 100000-row array at 400000 ids. -/
def takeBS (x : FVec Ideal S100000x128 .f32) (src : IVec S400000 32) : FVec Ideal S400000x128 .f32 :=
  select
    (broadcastInDim S400000x128 ![0] bcast_S400000_S400000x128_0
      (Host.reduce IntOp.andi
        (andi
          (cmpi .sge (broadcastInDim S400000x1 ![0] bcast_S400000_S400000x1_0 (wrapBS src))
            (broadcastInDim S400000x1 ![] bcast_S_S400000x1 (constantI S_ 32 0#32)))
          (cmpi .sle (broadcastInDim S400000x1 ![0] bcast_S400000_S400000x1_0 (wrapBS src))
            (broadcastInDim S400000x1 ![0, 1] bcast_S1x1_S400000x1_0_1
              (broadcastInDim S1x1 ![1] bcast_S1_S1x1_1 (constantI S1 32 99999#32)))))
        (constantI S_ 1 1#1) reducesTo_S400000x1_S400000_d1 h_S_))
    (Host.gather gather_S100000x128_S400000x1_S400000x128_1_0_n_n_0_1_1128 x
      (broadcastInDim S400000x1 ![0] bcast_S400000_S400000x1_0 (wrapBS src)))
    (broadcastInDim S400000x128 ![] bcast_S_S400000x128 (constant S_ .f32 0x7FC00000#32))

/-! ## Segment sums -/

/-- Sum over the b→b edges into each "b" node of the source node's row. -/
def segBB (x : FVec Ideal S100000x128 .f32) (src dst : IVec S800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst) (takeBB x src)
/-- Sum over the s→b edges into each "b" node of the source "s" node's row. -/
def segSB (x : FVec Ideal S50000x128 .f32) (src dst : IVec S400000 32) : FVec Ideal S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst) (takeSB x src)
/-- Sum over the b→s edges into each "s" node of the source "b" node's row. -/
def segBS (x : FVec Ideal S100000x128 .f32) (src dst : IVec S400000 32) : FVec Ideal S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 dst) (takeBS x src)

end Cert.KernelIdeal.HostVal

end
-- ==== Proof.KResult.lean ====
/-
  The kernel program's parameters and result, named: the weight matrices and bias rows cut out of the stacked
  parameters (the two right-hand matrices and the two biases of a "b" update added together, the biases kept as
  rows), the head weights and biases padded with zeros to 128 (the weights transposed), and the program's result put
  together from the three kernels' whole-array functions: layer 0 updates both node types, layer 1 updates the "b"
  rows and applies the heads at once, and the first 8 of the 128 padded head columns are the result.
-/
import proofs.«424018_j64587718197893_2_alg».proof.Proof.KDefs

noncomputable section

namespace Cert.KernelIdeal.HostVal

open Idealize.ShloMosaic Cert.KernelIdeal Cert.KernelIdeal.Facts₀ Cert.KernelIdeal.Facts

/-- A 128 × 128 matrix out of the stacked weights: layer 0, edge type 0. -/
def w00 (w : FVec Ideal S2x3x128x128 .f32) : FVec Ideal S128x128 .f32 :=
  shapeCast S128x128 (extractStridedSlice S1x1x128x128 ![0, 0, 0, 0] w slices_S2x3x128x128_S1x1x128x128_0_0_0_0) shapeCasts_S1x1x128x128_S128x128
def w01 (w : FVec Ideal S2x3x128x128 .f32) : FVec Ideal S128x128 .f32 :=
  shapeCast S128x128 (extractStridedSlice S1x1x128x128 ![0, 1, 0, 0] w slices_S2x3x128x128_S1x1x128x128_0_1_0_0) shapeCasts_S1x1x128x128_S128x128
def w02 (w : FVec Ideal S2x3x128x128 .f32) : FVec Ideal S128x128 .f32 :=
  shapeCast S128x128 (extractStridedSlice S1x1x128x128 ![0, 2, 0, 0] w slices_S2x3x128x128_S1x1x128x128_0_2_0_0) shapeCasts_S1x1x128x128_S128x128
def w10 (w : FVec Ideal S2x3x128x128 .f32) : FVec Ideal S128x128 .f32 :=
  shapeCast S128x128 (extractStridedSlice S1x1x128x128 ![1, 0, 0, 0] w slices_S2x3x128x128_S1x1x128x128_1_0_0_0) shapeCasts_S1x1x128x128_S128x128
def w11 (w : FVec Ideal S2x3x128x128 .f32) : FVec Ideal S128x128 .f32 :=
  shapeCast S128x128 (extractStridedSlice S1x1x128x128 ![1, 1, 0, 0] w slices_S2x3x128x128_S1x1x128x128_1_1_0_0) shapeCasts_S1x1x128x128_S128x128
/-- A bias vector out of the stacked biases: layer 0, edge type 0. -/
def b00 (b : FVec Ideal S2x3x128 .f32) : FVec Ideal S128 .f32 :=
  shapeCast S128 (extractStridedSlice S1x1x128 ![0, 0, 0] b slices_S2x3x128_S1x1x128_0_0_0) shapeCasts_S1x1x128_S128
def b01 (b : FVec Ideal S2x3x128 .f32) : FVec Ideal S128 .f32 :=
  shapeCast S128 (extractStridedSlice S1x1x128 ![0, 1, 0] b slices_S2x3x128_S1x1x128_0_1_0) shapeCasts_S1x1x128_S128
def b02 (b : FVec Ideal S2x3x128 .f32) : FVec Ideal S128 .f32 :=
  shapeCast S128 (extractStridedSlice S1x1x128 ![0, 2, 0] b slices_S2x3x128_S1x1x128_0_2_0) shapeCasts_S1x1x128_S128
def b10 (b : FVec Ideal S2x3x128 .f32) : FVec Ideal S128 .f32 :=
  shapeCast S128 (extractStridedSlice S1x1x128 ![1, 0, 0] b slices_S2x3x128_S1x1x128_1_0_0) shapeCasts_S1x1x128_S128
def b11 (b : FVec Ideal S2x3x128 .f32) : FVec Ideal S128 .f32 :=
  shapeCast S128 (extractStridedSlice S1x1x128 ![1, 1, 0] b slices_S2x3x128_S1x1x128_1_1_0) shapeCasts_S1x1x128_S128

/-- The two right-hand matrices of layer 0's "b" update, added. -/
def wrSum0 (wr : FVec Ideal S2x3x128x128 .f32) : FVec Ideal S128x128 .f32 := addf (w00 wr) (w01 wr)
/-- The two right-hand matrices of layer 1's "b" update, added. -/
def wrSum1 (wr : FVec Ideal S2x3x128x128 .f32) : FVec Ideal S128x128 .f32 := addf (w10 wr) (w11 wr)
/-- The two biases of layer 0's "b" update, added, as a row. -/
def blSum0 (bl : FVec Ideal S2x3x128 .f32) : FVec Ideal S1x128 .f32 := shapeCast S1x128 (addf (b00 bl) (b01 bl)) shapeCasts_S128_S1x128
/-- The two biases of layer 1's "b" update, added, as a row. -/
def blSum1 (bl : FVec Ideal S2x3x128 .f32) : FVec Ideal S1x128 .f32 := shapeCast S1x128 (addf (b10 bl) (b11 bl)) shapeCasts_S128_S1x128
/-- The bias of layer 0's "s" update, as a row. -/
def blRow2 (bl : FVec Ideal S2x3x128 .f32) : FVec Ideal S1x128 .f32 := shapeCast S1x128 (b02 bl) shapeCasts_S128_S1x128

/-- The head weights padded with zero rows to 128 × 128, transposed. -/
def whT (wh : FVec Ideal S8x128 .f32) : FVec Ideal S128x128 .f32 :=
  transpose S128x128 [1, 0]
    (Host.scatter scatter_S128x128_S1_S8x128_01_n_0_0 (fun _ b => b)
      (broadcastInDim S128x128 ![] bcast_S_S128x128 (constant S_ .f32 0x00000000#32))
      (broadcastInDim S1 ![] bcast_S_S1 (constantI S_ 32 0#32)) wh)
    transposes_S128x128_S128x128_1_0
/-- The head biases padded with zeros to 128, as a row. -/
def bhRow (bh : FVec Ideal S8 .f32) : FVec Ideal S1x128 .f32 :=
  shapeCast S1x128
    (Host.scatter scatter_S128_S1_S8_0_n_0_0 (fun _ b => b)
      (broadcastInDim S128 ![] bcast_S_S128 (constant S_ .f32 0x00000000#32))
      (broadcastInDim S1 ![] bcast_S_S1 (constantI S_ 32 0#32)) bh)
    shapeCasts_S128_S1x128

/-- The "b" rows after layer 0: the first kernel's array. -/
def xb1 (xb : FVec Ideal S100000x128 .f32) (xs : FVec Ideal S50000x128 .f32) (wl : FVec Ideal S2x3x128x128 .f32)
    (bl : FVec Ideal S2x3x128 .f32) (wr : FVec Ideal S2x3x128x128 .f32) (ebb : IVec S2x800000 32) (esb : IVec S2x400000 32) :
    FVec Ideal S100000x128 .f32 :=
  Cert.Spec.bK (N := 100000) (segBB xb (srcBB ebb) (dstBB ebb)) (invBB (dstBB ebb)) (segSB xs (src4 esb) (dst4 esb)) (invSB (dst4 esb)) xb
    (w00 wl) (w01 wl) (wrSum0 wr) (blSum0 bl)
/-- The "s" rows after layer 0: the second kernel's array. -/
def xs1 (xb : FVec Ideal S100000x128 .f32) (xs : FVec Ideal S50000x128 .f32) (wl : FVec Ideal S2x3x128x128 .f32)
    (bl : FVec Ideal S2x3x128 .f32) (wr : FVec Ideal S2x3x128x128 .f32) (ebs : IVec S2x400000 32) : FVec Ideal S50000x128 .f32 :=
  Cert.Spec.sK (N := 50000) (segBS xb (src4 ebs) (dst4 ebs)) (invBS (dst4 ebs)) xs (w02 wl) (blRow2 bl) (w02 wr)
/-- The third kernel's array, 128 padded head columns, from the rows after layer 0. -/
def outPad (yb : FVec Ideal S100000x128 .f32) (ys : FVec Ideal S50000x128 .f32) (wl : FVec Ideal S2x3x128x128 .f32)
    (bl : FVec Ideal S2x3x128 .f32) (wr : FVec Ideal S2x3x128x128 .f32) (wh : FVec Ideal S8x128 .f32) (bh : FVec Ideal S8 .f32)
    (ebb : IVec S2x800000 32) (esb : IVec S2x400000 32) : FVec Ideal S100000x128 .f32 :=
  Cert.Spec.headsK (N := 100000) (segBB yb (srcBB ebb) (dstBB ebb)) (invBB (dstBB ebb)) (segSB ys (src4 esb) (dst4 esb)) (invSB (dst4 esb)) yb
    (w10 wl) (w11 wl) (wrSum1 wr) (blSum1 bl) (whT wh) (bhRow bh)
/-- The kernel program's result: the first 8 head columns. -/
def result (xb : FVec Ideal S100000x128 .f32) (xs : FVec Ideal S50000x128 .f32) (wl : FVec Ideal S2x3x128x128 .f32)
    (bl : FVec Ideal S2x3x128 .f32) (wr : FVec Ideal S2x3x128x128 .f32) (wh : FVec Ideal S8x128 .f32) (bh : FVec Ideal S8 .f32)
    (ebb : IVec S2x800000 32) (esb ebs : IVec S2x400000 32) : FVec Ideal S100000x8 .f32 :=
  extractStridedSlice S100000x8 ![0, 0]
    (outPad (xb1 xb xs wl bl wr ebb esb) (xs1 xb xs wl bl wr ebs) wl bl wr wh bh ebb esb)
    slices_S100000x128_S100000x8_0_0

end Cert.KernelIdeal.HostVal

end
-- ==== Proof.KVal0.lean ====
/-
  The kernel program's arguments at launch, as arrays: the names the value chain is stated over.
-/
import proofs.«424018_j64587718197893_2_alg».proof.Proof.Gen.KernelIdeal.Frame
import proofs.«424018_j64587718197893_2_alg».proof.Proof.KResult
import Idealize.ShloMosaic.Lib.StableHlo.Run

noncomputable section

namespace Cert.KernelIdeal.ValueChain

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg) (c : Dev nD)

/-- The program's arguments at launch, as arrays. -/
abbrev A0 : FVec Ideal S100000x128 .f32 := m ((c : Thread nD τ).loc main_arg0)
abbrev A1 : FVec Ideal S50000x128 .f32 := m ((c : Thread nD τ).loc main_arg1)
abbrev A2 : FVec Ideal S2x3x128x128 .f32 := m ((c : Thread nD τ).loc main_arg2)
abbrev A3 : FVec Ideal S2x3x128 .f32 := m ((c : Thread nD τ).loc main_arg3)
abbrev A4 : FVec Ideal S2x3x128x128 .f32 := m ((c : Thread nD τ).loc main_arg4)
abbrev A5 : FVec Ideal S8x128 .f32 := m ((c : Thread nD τ).loc main_arg5)
abbrev A6 : FVec Ideal S8 .f32 := m ((c : Thread nD τ).loc main_arg6)
abbrev A7 : IVec S2x800000 32 := m ((c : Thread nD τ).loc main_arg7)
abbrev A8 : IVec S2x400000 32 := m ((c : Thread nD τ).loc main_arg8)
abbrev A9 : IVec S2x400000 32 := m ((c : Thread nD τ).loc main_arg9)

end Cert.KernelIdeal.ValueChain

end
-- ==== Proof.KVal0b.lean ====
/-
  The kernel program's buffers when its first kernel starts, second part: the buffers that the later stretches and
  kernels read again — the "s" segment sum and its reciprocal in-degrees for the second kernel, the arguments, the id
  rows, the padded head weights and biases — as the named functions of the program's arguments.
-/
import proofs.«424018_j64587718197893_2_alg».proof.Proof.Gen.KernelIdeal.Frame
import proofs.«424018_j64587718197893_2_alg».proof.Proof.KResult
import Idealize.ShloMosaic.Lib.StableHlo.Run

noncomputable section

namespace Cert.KernelIdeal.ValueChain

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg) (c : Dev nD)

namespace Part2

/-! ## Lines of operations, cut

A line of operations run from some contents is its first k operations followed by the rest; a buffer that none of the
rest writes is after the whole line as the first k leave it, and a buffer that no operation of the line writes is
after its first k as it was. -/

theorem after_drop_take (k : Nat) (ops : List (HloOp τ sig (Elt Ideal))) (V : Valuation τ sig (Elt Ideal)) (b : DevRef τ sig) :
    StableHlo.after ops V b = StableHlo.after (ops.drop k) (StableHlo.after (ops.take k) V) b := by
  conv_lhs => rw [← List.take_append_drop k ops]
  rw [StableHlo.after_append]

theorem after_take_of_tail {W : List (Ref sig .tc)} {r : Ref sig .tc} (k : Nat) (ops : List (HloOp τ sig (Elt Ideal)))
    (V : Valuation τ sig (Elt Ideal))
    (hW : (ops.drop k).Forall fun op => op.writes ⊆ (W.map (Proc.devRef (τ := τ) .tc)).toFinset) (hr : r ∉ W) :
    StableHlo.after ops V (Proc.devRef .tc r) = StableHlo.after (ops.take k) V (Proc.devRef .tc r) :=
  (after_drop_take k ops V _).trans (StableHlo.after_of_writes_sub _ _ hW hr)

theorem after_take_unwritten {W : List (Ref sig .tc)} {r : Ref sig .tc} (k : Nat) (ops : List (HloOp τ sig (Elt Ideal)))
    (V : Valuation τ sig (Elt Ideal))
    (hW : ops.Forall fun op => op.writes ⊆ (W.map (Proc.devRef (τ := τ) .tc)).toFinset) (hr : r ∉ W) :
    StableHlo.after (ops.take k) V (Proc.devRef .tc r) = V (Proc.devRef .tc r) :=
  StableHlo.after_of_writes_sub _ _
    (List.forall_iff_forall_mem.mpr fun op hop => List.forall_iff_forall_mem.mp hW op (List.mem_of_mem_take hop)) hr

/-! ## Contents at a buffer's own type

The operations of a gathering stretch carry each operand at the type of the tensor value it holds and move it to the
buffer's own type and back; the two moves cancel. -/

/-- Moving contents to the buffer's type and back gives them again. -/
theorem ofBuf_toBuf {T : BufTy} (x : StableHlo.TRef sig T) (v : T.Contents (Elt Ideal)) : x.ofBuf (x.toBuf v) = v := by
  unfold StableHlo.TRef.ofBuf StableHlo.TRef.toBuf
  rw [cast_cast, cast_eq]

/-! ## The buffers each stretch writes

Every operation writes one buffer, listed here in the operations' order. -/

abbrev written1 : List (Ref sig .tc) := [main_v0, main_v1, main_v2, main_v3, main_v4, main_v5, main_v6, main_v7, main_v8, main_v9, main_v10, main_v11, main_cst, main_v12, main_cst_0, main_v13, main_v14, main_v15, main_cst_1, main_v16, main_cst_2, main_v17, main_v18, main_v19, main_cst_3, main_v20, main_cst_4, main_v21, main_v22, main_v23, main_cst_5, main_v24, main_v25, main_cst_6, main_v26, main_v27, main_v28, main_cst_7, main_v29, main_v30, main_cst_8, main_v31, main_v32, main_v33, main_cst_9, main_v34, main_v35, main_cst_10, main_v36, main_v37, main_v38, main_cst_11, main_v39, main_c, main_v40, main_v41, main_cst_12, main_v42, main_c_13, main_v43, main_v44, main_v45, main_v46]
abbrev written2 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v47]
abbrev written3 : List (Ref sig .tc) := [main_cst_14, main_v48, main_v49, main_v50]
abbrev written4 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v51]
abbrev written5 : List (Ref sig .tc) := [main_cst_15, main_v52, main_v53, main_v54, main_v55, main_v56, main_v57, main_v58, main_v59, main_v60, main_v61, main_v62, main_v63, main_v64, main_v65]
abbrev written6 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v66]
abbrev written7 : List (Ref sig .tc) := [main_cst_16, main_v67, main_v68, main_v69, main_v70, main_v71, main_v72, main_v73]

theorem writes1 : (hostOps0 : List (HloOp τ sig (Elt Ideal))).Forall fun op => op.writes ⊆ (written1.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- The first stretch from its 13th operation on (after the id rows). -/
theorem writes1_from13 : ((hostOps0 : List (HloOp τ sig (Elt Ideal))).drop 12).Forall fun op => op.writes ⊆ ((written1.drop 12).map (Proc.devRef (τ := τ) .tc)).toFinset := by
  simp only [hostOps0, List.drop_succ_cons, List.drop_zero, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
/-- The first stretch from its 52nd operation on (the head weights and biases). -/
theorem writes1_from52 : ((hostOps0 : List (HloOp τ sig (Elt Ideal))).drop 51).Forall fun op => op.writes ⊆ ((written1.drop 51).map (Proc.devRef (τ := τ) .tc)).toFinset := by
  simp only [hostOps0, List.drop_succ_cons, List.drop_zero, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
theorem writes2 : (hostOps0_1 : List (HloOp τ sig (Elt Ideal))).Forall fun op => op.writes ⊆ (written2.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
theorem writes3 : (hostOps0_2 : List (HloOp τ sig (Elt Ideal))).Forall fun op => op.writes ⊆ (written3.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
theorem writes4 : (hostOps0_3 : List (HloOp τ sig (Elt Ideal))).Forall fun op => op.writes ⊆ (written4.map (Proc.devRef (τ := τ) .tc)).toFinset := by
  simp only [hostOps0_3, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
theorem writes5 : (hostOps0_4 : List (HloOp τ sig (Elt Ideal))).Forall fun op => op.writes ⊆ (written5.map (Proc.devRef (τ := τ) .tc)).toFinset := by
  simp only [hostOps0_4, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
theorem writes6 : (hostOps0_5 : List (HloOp τ sig (Elt Ideal))).Forall fun op => op.writes ⊆ (written6.map (Proc.devRef (τ := τ) .tc)).toFinset := by
  simp only [hostOps0_5, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)
theorem writes7 : (hostOps0_6 : List (HloOp τ sig (Elt Ideal))).Forall fun op => op.writes ⊆ (written7.map (Proc.devRef (τ := τ) .tc)).toFinset := by
  simp only [hostOps0_6, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

/-! ## What the first stretch computes, from any contents it may start at

Its first twelve operations cut the two rows out of each of the three edge lists; operations 13 to 51 count the edges
into each node, clamp the counts at 1 and take reciprocals, as columns; the last twelve pad the head weights and biases
with zeros. No later operation of the stretch writes a buffer an earlier group has written. -/

theorem first12_v1 (V : Valuation τ sig (Elt Ideal)) :
    StableHlo.after ((hostOps0 (F := Ideal)).take 12) V (Proc.devRef .tc main_v1) = srcBB (V (Proc.devRef .tc main_arg7)) := rfl
theorem first12_v3 (V : Valuation τ sig (Elt Ideal)) :
    StableHlo.after ((hostOps0 (F := Ideal)).take 12) V (Proc.devRef .tc main_v3) = dstBB (V (Proc.devRef .tc main_arg7)) := rfl
theorem first12_v5 (V : Valuation τ sig (Elt Ideal)) :
    StableHlo.after ((hostOps0 (F := Ideal)).take 12) V (Proc.devRef .tc main_v5) = src4 (V (Proc.devRef .tc main_arg8)) := rfl
theorem first12_v7 (V : Valuation τ sig (Elt Ideal)) :
    StableHlo.after ((hostOps0 (F := Ideal)).take 12) V (Proc.devRef .tc main_v7) = dst4 (V (Proc.devRef .tc main_arg8)) := rfl
theorem first12_v9 (V : Valuation τ sig (Elt Ideal)) :
    StableHlo.after ((hostOps0 (F := Ideal)).take 12) V (Proc.devRef .tc main_v9) = src4 (V (Proc.devRef .tc main_arg9)) := rfl
theorem first12_v11 (V : Valuation τ sig (Elt Ideal)) :
    StableHlo.after ((hostOps0 (F := Ideal)).take 12) V (Proc.devRef .tc main_v11) = dst4 (V (Proc.devRef .tc main_arg9)) := rfl
theorem first12_of_51_v11 (V : Valuation τ sig (Elt Ideal)) :
    StableHlo.after (((hostOps0 (F := Ideal)).take 51).take 12) V (Proc.devRef .tc main_v11) = dst4 (V (Proc.devRef .tc main_arg9)) := rfl

theorem ids_srcBB (V : Valuation τ sig (Elt Ideal)) :
    StableHlo.after (hostOps0 (F := Ideal)) V (Proc.devRef .tc main_v1) = srcBB (V (Proc.devRef .tc main_arg7)) :=
  (after_take_of_tail 12 hostOps0 V writes1_from13 (by decide)).trans (first12_v1 V)
theorem ids_dstBB (V : Valuation τ sig (Elt Ideal)) :
    StableHlo.after (hostOps0 (F := Ideal)) V (Proc.devRef .tc main_v3) = dstBB (V (Proc.devRef .tc main_arg7)) :=
  (after_take_of_tail 12 hostOps0 V writes1_from13 (by decide)).trans (first12_v3 V)
theorem ids_srcSB (V : Valuation τ sig (Elt Ideal)) :
    StableHlo.after (hostOps0 (F := Ideal)) V (Proc.devRef .tc main_v5) = src4 (V (Proc.devRef .tc main_arg8)) :=
  (after_take_of_tail 12 hostOps0 V writes1_from13 (by decide)).trans (first12_v5 V)
theorem ids_dstSB (V : Valuation τ sig (Elt Ideal)) :
    StableHlo.after (hostOps0 (F := Ideal)) V (Proc.devRef .tc main_v7) = dst4 (V (Proc.devRef .tc main_arg8)) :=
  (after_take_of_tail 12 hostOps0 V writes1_from13 (by decide)).trans (first12_v7 V)
theorem ids_srcBS (V : Valuation τ sig (Elt Ideal)) :
    StableHlo.after (hostOps0 (F := Ideal)) V (Proc.devRef .tc main_v9) = src4 (V (Proc.devRef .tc main_arg9)) :=
  (after_take_of_tail 12 hostOps0 V writes1_from13 (by decide)).trans (first12_v9 V)
theorem ids_dstBS (V : Valuation τ sig (Elt Ideal)) :
    StableHlo.after (hostOps0 (F := Ideal)) V (Proc.devRef .tc main_v11) = dst4 (V (Proc.devRef .tc main_arg9)) :=
  (after_take_of_tail 12 hostOps0 V writes1_from13 (by decide)).trans (first12_v11 V)

/-- Operations 25 to 51: the reciprocal clamped in-degree of the "s" nodes from the b→s destination ids. -/
theorem ops25to51_v38 (V : Valuation τ sig (Elt Ideal)) :
    StableHlo.after (((hostOps0 (F := Ideal)).take 51).drop 12) V (Proc.devRef .tc main_v38) = invBS (V (Proc.devRef .tc main_v11)) := by
  simp only [hostOps0, List.take_succ_cons, List.take_zero, List.drop_succ_cons, List.drop_zero]
  after_results_simp
  rfl

theorem inv_degBS (V : Valuation τ sig (Elt Ideal)) :
    StableHlo.after (hostOps0 (F := Ideal)) V (Proc.devRef .tc main_v38) = invBS (dst4 (V (Proc.devRef .tc main_arg9))) :=
  (after_take_of_tail 51 hostOps0 V writes1_from52 (by decide)).trans
    ((after_drop_take 12 ((hostOps0 (F := Ideal)).take 51) V _).trans
      ((ops25to51_v38 _).trans (congrArg invBS (first12_of_51_v11 V))))

/-- The last twelve operations: the 8 head biases padded with zeros to a row of 128, -/
theorem last12_v45 (V : Valuation τ sig (Elt Ideal)) :
    StableHlo.after ((hostOps0 (F := Ideal)).drop 51) V (Proc.devRef .tc main_v45) = bhRow (V (Proc.devRef .tc main_arg6)) := by
  simp only [hostOps0, List.drop_succ_cons, List.drop_zero]
  after_results_simp
  rfl
/-- and the 8 head weight rows padded with zero rows to 128 × 128, transposed. -/
theorem last12_v46 (V : Valuation τ sig (Elt Ideal)) :
    StableHlo.after ((hostOps0 (F := Ideal)).drop 51) V (Proc.devRef .tc main_v46) = whT (V (Proc.devRef .tc main_arg5)) := by
  simp only [hostOps0, List.drop_succ_cons, List.drop_zero]
  after_results_simp
  rfl

theorem head_bias_row (V : Valuation τ sig (Elt Ideal)) :
    StableHlo.after (hostOps0 (F := Ideal)) V (Proc.devRef .tc main_v45) = bhRow (V (Proc.devRef .tc main_arg6)) :=
  (after_drop_take 51 hostOps0 V _).trans
    ((last12_v45 _).trans (congrArg bhRow (after_take_unwritten 51 hostOps0 V writes1 (by decide))))
theorem head_weights (V : Valuation τ sig (Elt Ideal)) :
    StableHlo.after (hostOps0 (F := Ideal)) V (Proc.devRef .tc main_v46) = whT (V (Proc.devRef .tc main_arg5)) :=
  (after_drop_take 51 hostOps0 V _).trans
    ((last12_v46 _).trans (congrArg whT (after_take_unwritten 51 hostOps0 V writes1 (by decide))))

/-! ## The gather at the b→s source ids and the sum per "s" node -/

/-- The third gathering stretch leaves in its last buffer the rows of the "b" features at the b→s source ids (the fill
    value where an id is out of range). -/
theorem gatherBS_of (V : Valuation τ sig (Elt Ideal)) :
    (StableHlo.TRef.of (sig := sig) (T := ⟨S400000x128, .f32⟩) main_v66).ofBuf (StableHlo.after (hostOps0_5 (F := Ideal)) V (Proc.devRef .tc main_v66))
      = takeBS ((StableHlo.TRef.of (sig := sig) (T := ⟨S100000x128, .f32⟩) main_arg0).ofBuf (V (Proc.devRef .tc main_arg0)))
          ((StableHlo.TRef.of (sig := sig) (T := ⟨S400000, .i32⟩) main_v9).ofBuf (V (Proc.devRef .tc main_v9))) := by
  after_results_simp
  simp only [ofBuf_toBuf]
  rfl

/-- The sum per destination "s" node that follows it. -/
theorem sumBS_of (V : Valuation τ sig (Elt Ideal)) :
    StableHlo.after (hostOps0_6 (F := Ideal)) V (Proc.devRef .tc main_v69)
      = Host.scatterAdd scatter_S50000x128_S400000x1_S400000x128_1_0_0_1
          (broadcastInDim S50000x128 ![] bcast_S_S50000x128 (constant (F := Ideal) S_ .f32 0x00000000#32))
          (broadcastInDim S400000x1 ![0] bcast_S400000_S400000x1_0 (V (Proc.devRef .tc main_v11)))
          (V (Proc.devRef .tc main_v66)) := by
  after_results

/-! ## A buffer carried from the first stretch's end to the first kernel's entry -/

theorem W5_of_W1 (r : Ref sig .tc) (h2 : r ∉ written2) (h3 : r ∉ written3) (h4 : r ∉ written4) (h5 : r ∉ written5) :
    W5 (F := Ideal) m ρ c (Proc.devRef .tc r) = W1 m ρ c (Proc.devRef .tc r) :=
  (StableHlo.after_of_writes_sub hostOps0_4 (W4 m ρ c) writes5 h5).trans
    ((StableHlo.after_of_writes_sub hostOps0_3 (W3 m ρ c) writes4 h4).trans
      ((StableHlo.after_of_writes_sub hostOps0_2 (W2 m ρ c) writes3 h3).trans
        (StableHlo.after_of_writes_sub hostOps0_1 (W1 m ρ c) writes2 h2)))

theorem W6_of_W5 (r : Ref sig .tc) (h6 : r ∉ written6) :
    W6 (F := Ideal) m ρ c (Proc.devRef .tc r) = W5 m ρ c (Proc.devRef .tc r) :=
  StableHlo.after_of_writes_sub hostOps0_5 (W5 m ρ c) writes6 h6

theorem W7_of_W1 (r : Ref sig .tc) (h2 : r ∉ written2) (h3 : r ∉ written3) (h4 : r ∉ written4) (h5 : r ∉ written5)
    (h6 : r ∉ written6) (h7 : r ∉ written7) :
    W7 (F := Ideal) m ρ c (Proc.devRef .tc r) = W1 m ρ c (Proc.devRef .tc r) :=
  (StableHlo.after_of_writes_sub hostOps0_6 (W6 m ρ c) writes7 h7).trans
    ((W6_of_W5 m ρ c r h6).trans (W5_of_W1 m ρ c r h2 h3 h4 h5))

/-- An argument that the first stretch does not write either is at the first kernel's entry as launched. -/
theorem W7_of_launch (r : Ref sig .tc) (h1 : r ∉ written1) (h2 : r ∉ written2) (h3 : r ∉ written3) (h4 : r ∉ written4)
    (h5 : r ∉ written5) (h6 : r ∉ written6) (h7 : r ∉ written7) :
    W7 (F := Ideal) m ρ c (Proc.devRef .tc r) = W0 m ρ c (Proc.devRef .tc r) :=
  (W7_of_W1 m ρ c r h2 h3 h4 h5 h6 h7).trans (StableHlo.after_of_writes_sub hostOps0 (W0 m ρ c) writes1 h1)

/-! ## The gathered rows and the id rows they are summed by -/

theorem W5_arg0 : W5 (F := Ideal) m ρ c (Proc.devRef .tc main_arg0) = m ((c : Thread nD τ).loc main_arg0) :=
  (W5_of_W1 m ρ c main_arg0 (by decide) (by decide) (by decide) (by decide)).trans
    (StableHlo.after_of_writes_sub hostOps0 (W0 m ρ c) writes1 (by decide))

theorem W5_v9 : W5 (F := Ideal) m ρ c (Proc.devRef .tc main_v9) = src4 (m ((c : Thread nD τ).loc main_arg9)) :=
  (W5_of_W1 m ρ c main_v9 (by decide) (by decide) (by decide) (by decide)).trans (ids_srcBS (W0 m ρ c))

theorem W6_v11 : W6 (F := Ideal) m ρ c (Proc.devRef .tc main_v11) = dst4 (m ((c : Thread nD τ).loc main_arg9)) :=
  (W6_of_W5 m ρ c main_v11 (by decide)).trans
    ((W5_of_W1 m ρ c main_v11 (by decide) (by decide) (by decide) (by decide)).trans (ids_dstBS (W0 m ρ c)))

/-- At a named buffer the move to the tensor value's type is the identity. -/
theorem typed_arg0 (v : (main_arg0 : Ref sig .tc).ty.Contents (Elt Ideal)) :
    (StableHlo.TRef.of (sig := sig) (T := ⟨S100000x128, .f32⟩) main_arg0).ofBuf v = v := rfl
theorem typed_v9 (v : (main_v9 : Ref sig .tc).ty.Contents (Elt Ideal)) :
    (StableHlo.TRef.of (sig := sig) (T := ⟨S400000, .i32⟩) main_v9).ofBuf v = v := rfl

/-- The rows of the "b" features at the b→s source ids. -/
theorem W6_v66 : W6 (F := Ideal) m ρ c (Proc.devRef .tc main_v66)
    = takeBS (m ((c : Thread nD τ).loc main_arg0)) (src4 (m ((c : Thread nD τ).loc main_arg9))) := by
  refine (gatherBS_of (W5 (F := Ideal) m ρ c)).trans ?_
  rw [typed_arg0, typed_v9, W5_arg0 m ρ c, W5_v9 m ρ c]

end Part2

/-! ## At the first kernel's entry: what later stretches read again -/

theorem W7_v69 : W7 (F := Ideal) m ρ c (Proc.devRef .tc main_v69) = segBS (m ((c : Thread nD τ).loc main_arg0)) (src4 (m ((c : Thread nD τ).loc main_arg9))) (dst4 (m ((c : Thread nD τ).loc main_arg9))) := by
  refine (Part2.sumBS_of (W6 (F := Ideal) m ρ c)).trans ?_
  rw [Part2.W6_v11 m ρ c, Part2.W6_v66 m ρ c]
  rfl

theorem W7_v38 : W7 (F := Ideal) m ρ c (Proc.devRef .tc main_v38) = invBS (dst4 (m ((c : Thread nD τ).loc main_arg9))) :=
  (Part2.W7_of_W1 m ρ c main_v38 (by decide) (by decide) (by decide) (by decide) (by decide) (by decide)).trans
    (Part2.inv_degBS (W0 m ρ c))

theorem W7_arg1 : W7 (F := Ideal) m ρ c (Proc.devRef .tc main_arg1) = (m ((c : Thread nD τ).loc main_arg1)) :=
  Part2.W7_of_launch m ρ c main_arg1 (by decide) (by decide) (by decide) (by decide) (by decide) (by decide) (by decide)

theorem W7_arg2 : W7 (F := Ideal) m ρ c (Proc.devRef .tc main_arg2) = (m ((c : Thread nD τ).loc main_arg2)) :=
  Part2.W7_of_launch m ρ c main_arg2 (by decide) (by decide) (by decide) (by decide) (by decide) (by decide) (by decide)

theorem W7_arg3 : W7 (F := Ideal) m ρ c (Proc.devRef .tc main_arg3) = (m ((c : Thread nD τ).loc main_arg3)) :=
  Part2.W7_of_launch m ρ c main_arg3 (by decide) (by decide) (by decide) (by decide) (by decide) (by decide) (by decide)

theorem W7_arg4 : W7 (F := Ideal) m ρ c (Proc.devRef .tc main_arg4) = (m ((c : Thread nD τ).loc main_arg4)) :=
  Part2.W7_of_launch m ρ c main_arg4 (by decide) (by decide) (by decide) (by decide) (by decide) (by decide) (by decide)

theorem W7_v1 : W7 (F := Ideal) m ρ c (Proc.devRef .tc main_v1) = srcBB (m ((c : Thread nD τ).loc main_arg7)) :=
  (Part2.W7_of_W1 m ρ c main_v1 (by decide) (by decide) (by decide) (by decide) (by decide) (by decide)).trans
    (Part2.ids_srcBB (W0 m ρ c))

theorem W7_v3 : W7 (F := Ideal) m ρ c (Proc.devRef .tc main_v3) = dstBB (m ((c : Thread nD τ).loc main_arg7)) :=
  (Part2.W7_of_W1 m ρ c main_v3 (by decide) (by decide) (by decide) (by decide) (by decide) (by decide)).trans
    (Part2.ids_dstBB (W0 m ρ c))

theorem W7_v5 : W7 (F := Ideal) m ρ c (Proc.devRef .tc main_v5) = src4 (m ((c : Thread nD τ).loc main_arg8)) :=
  (Part2.W7_of_W1 m ρ c main_v5 (by decide) (by decide) (by decide) (by decide) (by decide) (by decide)).trans
    (Part2.ids_srcSB (W0 m ρ c))

theorem W7_v7 : W7 (F := Ideal) m ρ c (Proc.devRef .tc main_v7) = dst4 (m ((c : Thread nD τ).loc main_arg8)) :=
  (Part2.W7_of_W1 m ρ c main_v7 (by decide) (by decide) (by decide) (by decide) (by decide) (by decide)).trans
    (Part2.ids_dstSB (W0 m ρ c))

theorem W7_v45 : W7 (F := Ideal) m ρ c (Proc.devRef .tc main_v45) = bhRow (m ((c : Thread nD τ).loc main_arg6)) :=
  (Part2.W7_of_W1 m ρ c main_v45 (by decide) (by decide) (by decide) (by decide) (by decide) (by decide)).trans
    (Part2.head_bias_row (W0 m ρ c))

theorem W7_v46 : W7 (F := Ideal) m ρ c (Proc.devRef .tc main_v46) = whT (m ((c : Thread nD τ).loc main_arg5)) :=
  (Part2.W7_of_W1 m ρ c main_v46 (by decide) (by decide) (by decide) (by decide) (by decide) (by decide)).trans
    (Part2.head_weights (W0 m ρ c))

end Cert.KernelIdeal.ValueChain

end
-- ==== Proof.KVal0a.lean ====
/-
  The kernel program's buffers when its first kernel starts, first part: the b→b segment sum, its reciprocal
  in-degrees, and the "b" rows themselves, as the named functions of the program's arguments.
-/
import proofs.«424018_j64587718197893_2_alg».proof.Proof.KVal0b

noncomputable section

namespace Cert.KernelIdeal.ValueChain

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg) (c : Dev nD)

namespace Part1

open Part2

/-! ## The reciprocal clamped in-degree of the "b" nodes under the b→b edges

Operations 13 to 37 of the first stretch count the b→b edges into each "b" node from the destination ids the first
twelve operations cut out, clamp the count at 1 and take the reciprocal, as a column; no later operation of the
stretch writes that column. -/

/-- The first stretch from its 38th operation on. -/
theorem writes1_from38 : ((hostOps0 : List (HloOp τ sig (Elt Ideal))).drop 37).Forall fun op => op.writes ⊆ ((written1.drop 37).map (Proc.devRef (τ := τ) .tc)).toFinset := by
  simp only [hostOps0, List.drop_succ_cons, List.drop_zero, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

theorem ops13to37_v28 (V : Valuation τ sig (Elt Ideal)) :
    StableHlo.after (((hostOps0 (F := Ideal)).take 37).drop 12) V (Proc.devRef .tc main_v28) = invBB (V (Proc.devRef .tc main_v3)) := by
  simp only [hostOps0, List.take_succ_cons, List.take_zero, List.drop_succ_cons, List.drop_zero]
  after_results_simp
  rfl

theorem first12_of_37_v3 (V : Valuation τ sig (Elt Ideal)) :
    StableHlo.after (((hostOps0 (F := Ideal)).take 37).take 12) V (Proc.devRef .tc main_v3) = dstBB (V (Proc.devRef .tc main_arg7)) := rfl

theorem inv_degBB (V : Valuation τ sig (Elt Ideal)) :
    StableHlo.after (hostOps0 (F := Ideal)) V (Proc.devRef .tc main_v28) = invBB (dstBB (V (Proc.devRef .tc main_arg7))) :=
  (after_take_of_tail 37 hostOps0 V writes1_from38 (by decide)).trans
    ((after_drop_take 12 ((hostOps0 (F := Ideal)).take 37) V _).trans
      ((ops13to37_v28 _).trans (congrArg invBB (first12_of_37_v3 V))))

/-! ## The gather at the b→b source ids and the sum per "b" node -/

/-- The first gathering stretch leaves in its last buffer the rows of the "b" features at the b→b source ids (the fill
    value where an id is out of range). -/
theorem gatherBB_of (V : Valuation τ sig (Elt Ideal)) :
    (StableHlo.TRef.of (sig := sig) (T := ⟨S800000x128, .f32⟩) main_v47).ofBuf (StableHlo.after (hostOps0_1 (F := Ideal)) V (Proc.devRef .tc main_v47))
      = takeBB ((StableHlo.TRef.of (sig := sig) (T := ⟨S100000x128, .f32⟩) main_arg0).ofBuf (V (Proc.devRef .tc main_arg0)))
          ((StableHlo.TRef.of (sig := sig) (T := ⟨S800000, .i32⟩) main_v1).ofBuf (V (Proc.devRef .tc main_v1))) := by
  after_results_simp
  simp only [ofBuf_toBuf]
  rfl

/-- The sum per destination "b" node that follows it. -/
theorem sumBB_of (V : Valuation τ sig (Elt Ideal)) :
    StableHlo.after (hostOps0_2 (F := Ideal)) V (Proc.devRef .tc main_v50)
      = Host.scatterAdd scatter_S100000x128_S800000x1_S800000x128_1_0_0_1
          (broadcastInDim S100000x128 ![] bcast_S_S100000x128 (constant (F := Ideal) S_ .f32 0x00000000#32))
          (broadcastInDim S800000x1 ![0] bcast_S800000_S800000x1_0 (V (Proc.devRef .tc main_v3)))
          (V (Proc.devRef .tc main_v47)) := by
  after_results

/-- At a named buffer the move to the tensor value's type is the identity. -/
theorem typed_v1 (v : (main_v1 : Ref sig .tc).ty.Contents (Elt Ideal)) :
    (StableHlo.TRef.of (sig := sig) (T := ⟨S800000, .i32⟩) main_v1).ofBuf v = v := rfl

theorem W1_arg0 : W1 (F := Ideal) m ρ c (Proc.devRef .tc main_arg0) = m ((c : Thread nD τ).loc main_arg0) :=
  StableHlo.after_of_writes_sub hostOps0 (W0 m ρ c) writes1 (by decide)

theorem W1_v1 : W1 (F := Ideal) m ρ c (Proc.devRef .tc main_v1) = srcBB (m ((c : Thread nD τ).loc main_arg7)) :=
  ids_srcBB (W0 m ρ c)

/-- The rows of the "b" features at the b→b source ids. -/
theorem W2_v47 : W2 (F := Ideal) m ρ c (Proc.devRef .tc main_v47)
    = takeBB (m ((c : Thread nD τ).loc main_arg0)) (srcBB (m ((c : Thread nD τ).loc main_arg7))) := by
  refine (gatherBB_of (W1 (F := Ideal) m ρ c)).trans ?_
  rw [typed_arg0, typed_v1, W1_arg0 m ρ c, W1_v1 m ρ c]

/-- The b→b destination ids are untouched by the gather. -/
theorem W2_v3 : W2 (F := Ideal) m ρ c (Proc.devRef .tc main_v3) = dstBB (m ((c : Thread nD τ).loc main_arg7)) :=
  (StableHlo.after_of_writes_sub hostOps0_1 (W1 m ρ c) writes2 (by decide)).trans (ids_dstBB (W0 m ρ c))

/-- The segment sum over the b→b edges, right after its stretch. -/
theorem W3_v50 : W3 (F := Ideal) m ρ c (Proc.devRef .tc main_v50)
    = segBB (m ((c : Thread nD τ).loc main_arg0)) (srcBB (m ((c : Thread nD τ).loc main_arg7))) (dstBB (m ((c : Thread nD τ).loc main_arg7))) := by
  refine (sumBB_of (W2 (F := Ideal) m ρ c)).trans ?_
  rw [W2_v3 m ρ c, W2_v47 m ρ c]
  rfl

/-- A buffer that the last four stretches before the first kernel do not write is carried to its entry. -/
theorem W7_of_W3 (r : Ref sig .tc) (h4 : r ∉ written4) (h5 : r ∉ written5) (h6 : r ∉ written6) (h7 : r ∉ written7) :
    W7 (F := Ideal) m ρ c (Proc.devRef .tc r) = W3 m ρ c (Proc.devRef .tc r) :=
  (StableHlo.after_of_writes_sub hostOps0_6 (W6 m ρ c) writes7 h7).trans
    ((StableHlo.after_of_writes_sub hostOps0_5 (W5 m ρ c) writes6 h6).trans
      ((StableHlo.after_of_writes_sub hostOps0_4 (W4 m ρ c) writes5 h5).trans
        (StableHlo.after_of_writes_sub hostOps0_3 (W3 m ρ c) writes4 h4)))

end Part1

/-! ## At the first kernel's entry: the b→b sums -/

theorem W7_v50 : W7 (F := Ideal) m ρ c (Proc.devRef .tc main_v50) = segBB (m ((c : Thread nD τ).loc main_arg0)) (srcBB (m ((c : Thread nD τ).loc main_arg7))) (dstBB (m ((c : Thread nD τ).loc main_arg7))) :=
  (Part1.W7_of_W3 m ρ c main_v50 (by decide) (by decide) (by decide) (by decide)).trans (Part1.W3_v50 m ρ c)

theorem W7_v28 : W7 (F := Ideal) m ρ c (Proc.devRef .tc main_v28) = invBB (dstBB (m ((c : Thread nD τ).loc main_arg7))) :=
  (Part2.W7_of_W1 m ρ c main_v28 (by decide) (by decide) (by decide) (by decide) (by decide) (by decide)).trans
    (Part1.inv_degBB (W0 m ρ c))

theorem W7_arg0 : W7 (F := Ideal) m ρ c (Proc.devRef .tc main_arg0) = (m ((c : Thread nD τ).loc main_arg0)) :=
  Part2.W7_of_launch m ρ c main_arg0 (by decide) (by decide) (by decide) (by decide) (by decide) (by decide) (by decide)

end Cert.KernelIdeal.ValueChain

end
-- ==== Proof.KVal0c.lean ====
/-
  The kernel program's buffers when its first kernel starts, third part: the s→b segment sum and its reciprocal
  in-degrees, and layer 0's weights and bias row for the "b" update, as the named functions of the program's arguments.
-/
import proofs.«424018_j64587718197893_2_alg».proof.Proof.KVal0b

noncomputable section

namespace Cert.KernelIdeal.ValueChain

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg) (c : Dev nD)

namespace Part3

open Part2

/-! ## The reciprocal clamped in-degree of the "b" nodes under the s→b edges

Operations 19 to 44 of the first stretch count the s→b edges into each "b" node from the destination ids the first
twelve operations cut out, clamp the count at 1 and take the reciprocal, as a column; no later operation of the
stretch writes that column. -/

/-- The first stretch from its 45th operation on. -/
theorem writes1_from45 : ((hostOps0 : List (HloOp τ sig (Elt Ideal))).drop 44).Forall fun op => op.writes ⊆ ((written1.drop 44).map (Proc.devRef (τ := τ) .tc)).toFinset := by
  simp only [hostOps0, List.drop_succ_cons, List.drop_zero, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset]
  repeat' apply And.intro
  all_goals exact List.mem_map_of_mem (by decide)

theorem ops13to44_v33 (V : Valuation τ sig (Elt Ideal)) :
    StableHlo.after (((hostOps0 (F := Ideal)).take 44).drop 12) V (Proc.devRef .tc main_v33) = invSB (V (Proc.devRef .tc main_v7)) := by
  simp only [hostOps0, List.take_succ_cons, List.take_zero, List.drop_succ_cons, List.drop_zero]
  after_results_simp
  rfl

theorem first12_of_44_v7 (V : Valuation τ sig (Elt Ideal)) :
    StableHlo.after (((hostOps0 (F := Ideal)).take 44).take 12) V (Proc.devRef .tc main_v7) = dst4 (V (Proc.devRef .tc main_arg8)) := rfl

theorem inv_degSB (V : Valuation τ sig (Elt Ideal)) :
    StableHlo.after (hostOps0 (F := Ideal)) V (Proc.devRef .tc main_v33) = invSB (dst4 (V (Proc.devRef .tc main_arg8))) :=
  (after_take_of_tail 44 hostOps0 V writes1_from45 (by decide)).trans
    ((after_drop_take 12 ((hostOps0 (F := Ideal)).take 44) V _).trans
      ((ops13to44_v33 _).trans (congrArg invSB (first12_of_44_v7 V))))

/-! ## The gather at the s→b source ids, the sum per "b" node, and layer 0's parameters of the "b" update -/

/-- The second gathering stretch leaves in its last buffer the rows of the "s" features at the s→b source ids (the fill
    value where an id is out of range). -/
theorem gatherSB_of (V : Valuation τ sig (Elt Ideal)) :
    (StableHlo.TRef.of (sig := sig) (T := ⟨S400000x128, .f32⟩) main_v51).ofBuf (StableHlo.after (hostOps0_3 (F := Ideal)) V (Proc.devRef .tc main_v51))
      = takeSB ((StableHlo.TRef.of (sig := sig) (T := ⟨S50000x128, .f32⟩) main_arg1).ofBuf (V (Proc.devRef .tc main_arg1)))
          ((StableHlo.TRef.of (sig := sig) (T := ⟨S400000, .i32⟩) main_v5).ofBuf (V (Proc.devRef .tc main_v5))) := by
  after_results_simp
  simp only [ofBuf_toBuf]
  rfl

/-- The sum per destination "b" node that follows it. -/
theorem sumSB_of (V : Valuation τ sig (Elt Ideal)) :
    StableHlo.after (hostOps0_4 (F := Ideal)) V (Proc.devRef .tc main_v54)
      = Host.scatterAdd scatter_S100000x128_S400000x1_S400000x128_1_0_0_1
          (broadcastInDim S100000x128 ![] bcast_S_S100000x128 (constant (F := Ideal) S_ .f32 0x00000000#32))
          (broadcastInDim S400000x1 ![0] bcast_S400000_S400000x1_0 (V (Proc.devRef .tc main_v7)))
          (V (Proc.devRef .tc main_v51)) := by
  after_results

/-- The same stretch adds layer 0's two right-hand matrices -/
theorem wr0_of (V : Valuation τ sig (Elt Ideal)) :
    StableHlo.after (hostOps0_4 (F := Ideal)) V (Proc.devRef .tc main_v59) = wrSum0 (V (Proc.devRef .tc main_arg4)) := by
  after_results
  rfl
/-- and its two biases, kept as a row. -/
theorem bl0_of (V : Valuation τ sig (Elt Ideal)) :
    StableHlo.after (hostOps0_4 (F := Ideal)) V (Proc.devRef .tc main_v65) = blSum0 (V (Proc.devRef .tc main_arg3)) := by
  after_results
  rfl

/-- The last stretch before the first kernel cuts layer 0's two left matrices out of the stack. -/
theorem w00_of (V : Valuation τ sig (Elt Ideal)) :
    StableHlo.after (hostOps0_6 (F := Ideal)) V (Proc.devRef .tc main_v71) = w00 (V (Proc.devRef .tc main_arg2)) := by
  after_results
  rfl
theorem w01_of (V : Valuation τ sig (Elt Ideal)) :
    StableHlo.after (hostOps0_6 (F := Ideal)) V (Proc.devRef .tc main_v73) = w01 (V (Proc.devRef .tc main_arg2)) := by
  after_results
  rfl

/-- At a named buffer the move to the tensor value's type is the identity. -/
theorem typed_arg1 (v : (main_arg1 : Ref sig .tc).ty.Contents (Elt Ideal)) :
    (StableHlo.TRef.of (sig := sig) (T := ⟨S50000x128, .f32⟩) main_arg1).ofBuf v = v := rfl
theorem typed_v5 (v : (main_v5 : Ref sig .tc).ty.Contents (Elt Ideal)) :
    (StableHlo.TRef.of (sig := sig) (T := ⟨S400000, .i32⟩) main_v5).ofBuf v = v := rfl

/-! ## Buffers carried between the stretches -/

theorem W3_of_W1 (r : Ref sig .tc) (h2 : r ∉ written2) (h3 : r ∉ written3) :
    W3 (F := Ideal) m ρ c (Proc.devRef .tc r) = W1 m ρ c (Proc.devRef .tc r) :=
  (StableHlo.after_of_writes_sub hostOps0_2 (W2 m ρ c) writes3 h3).trans
    (StableHlo.after_of_writes_sub hostOps0_1 (W1 m ρ c) writes2 h2)

theorem W4_of_W1 (r : Ref sig .tc) (h2 : r ∉ written2) (h3 : r ∉ written3) (h4 : r ∉ written4) :
    W4 (F := Ideal) m ρ c (Proc.devRef .tc r) = W1 m ρ c (Proc.devRef .tc r) :=
  (StableHlo.after_of_writes_sub hostOps0_3 (W3 m ρ c) writes4 h4).trans (W3_of_W1 m ρ c r h2 h3)

theorem W7_of_W5 (r : Ref sig .tc) (h6 : r ∉ written6) (h7 : r ∉ written7) :
    W7 (F := Ideal) m ρ c (Proc.devRef .tc r) = W5 m ρ c (Proc.devRef .tc r) :=
  (StableHlo.after_of_writes_sub hostOps0_6 (W6 m ρ c) writes7 h7).trans (W6_of_W5 m ρ c r h6)

theorem W1_of_launch (r : Ref sig .tc) (h1 : r ∉ written1) :
    W1 (F := Ideal) m ρ c (Proc.devRef .tc r) = W0 m ρ c (Proc.devRef .tc r) :=
  StableHlo.after_of_writes_sub hostOps0 (W0 m ρ c) writes1 h1

/-! ## The s→b sum -/

theorem W3_arg1 : W3 (F := Ideal) m ρ c (Proc.devRef .tc main_arg1) = m ((c : Thread nD τ).loc main_arg1) :=
  (W3_of_W1 m ρ c main_arg1 (by decide) (by decide)).trans (W1_of_launch m ρ c main_arg1 (by decide))

theorem W3_v5 : W3 (F := Ideal) m ρ c (Proc.devRef .tc main_v5) = src4 (m ((c : Thread nD τ).loc main_arg8)) :=
  (W3_of_W1 m ρ c main_v5 (by decide) (by decide)).trans (ids_srcSB (W0 m ρ c))

/-- The rows of the "s" features at the s→b source ids. -/
theorem W4_v51 : W4 (F := Ideal) m ρ c (Proc.devRef .tc main_v51)
    = takeSB (m ((c : Thread nD τ).loc main_arg1)) (src4 (m ((c : Thread nD τ).loc main_arg8))) := by
  refine (gatherSB_of (W3 (F := Ideal) m ρ c)).trans ?_
  rw [typed_arg1, typed_v5, W3_arg1 m ρ c, W3_v5 m ρ c]

theorem W4_v7 : W4 (F := Ideal) m ρ c (Proc.devRef .tc main_v7) = dst4 (m ((c : Thread nD τ).loc main_arg8)) :=
  (W4_of_W1 m ρ c main_v7 (by decide) (by decide) (by decide)).trans (ids_dstSB (W0 m ρ c))

/-- The segment sum over the s→b edges, right after its stretch. -/
theorem W5_v54 : W5 (F := Ideal) m ρ c (Proc.devRef .tc main_v54)
    = segSB (m ((c : Thread nD τ).loc main_arg1)) (src4 (m ((c : Thread nD τ).loc main_arg8))) (dst4 (m ((c : Thread nD τ).loc main_arg8))) := by
  refine (sumSB_of (W4 (F := Ideal) m ρ c)).trans ?_
  rw [W4_v7 m ρ c, W4_v51 m ρ c]
  rfl

/-! ## Layer 0's parameters of the "b" update -/

theorem W4_arg4 : W4 (F := Ideal) m ρ c (Proc.devRef .tc main_arg4) = m ((c : Thread nD τ).loc main_arg4) :=
  (W4_of_W1 m ρ c main_arg4 (by decide) (by decide) (by decide)).trans (W1_of_launch m ρ c main_arg4 (by decide))

theorem W4_arg3 : W4 (F := Ideal) m ρ c (Proc.devRef .tc main_arg3) = m ((c : Thread nD τ).loc main_arg3) :=
  (W4_of_W1 m ρ c main_arg3 (by decide) (by decide) (by decide)).trans (W1_of_launch m ρ c main_arg3 (by decide))

theorem W5_v59 : W5 (F := Ideal) m ρ c (Proc.devRef .tc main_v59) = wrSum0 (m ((c : Thread nD τ).loc main_arg4)) := by
  refine (wr0_of (W4 (F := Ideal) m ρ c)).trans ?_
  rw [W4_arg4 m ρ c]

theorem W5_v65 : W5 (F := Ideal) m ρ c (Proc.devRef .tc main_v65) = blSum0 (m ((c : Thread nD τ).loc main_arg3)) := by
  refine (bl0_of (W4 (F := Ideal) m ρ c)).trans ?_
  rw [W4_arg3 m ρ c]

theorem W6_arg2 : W6 (F := Ideal) m ρ c (Proc.devRef .tc main_arg2) = m ((c : Thread nD τ).loc main_arg2) :=
  (W6_of_W5 m ρ c main_arg2 (by decide)).trans
    ((W5_of_W1 m ρ c main_arg2 (by decide) (by decide) (by decide) (by decide)).trans (W1_of_launch m ρ c main_arg2 (by decide)))

end Part3

/-! ## At the first kernel's entry: the s→b sums and layer 0's parameters -/

theorem W7_v54 : W7 (F := Ideal) m ρ c (Proc.devRef .tc main_v54) = segSB (m ((c : Thread nD τ).loc main_arg1)) (src4 (m ((c : Thread nD τ).loc main_arg8))) (dst4 (m ((c : Thread nD τ).loc main_arg8))) :=
  (Part3.W7_of_W5 m ρ c main_v54 (by decide) (by decide)).trans (Part3.W5_v54 m ρ c)

theorem W7_v33 : W7 (F := Ideal) m ρ c (Proc.devRef .tc main_v33) = invSB (dst4 (m ((c : Thread nD τ).loc main_arg8))) :=
  (Part2.W7_of_W1 m ρ c main_v33 (by decide) (by decide) (by decide) (by decide) (by decide) (by decide)).trans
    (Part3.inv_degSB (W0 m ρ c))

theorem W7_v71 : W7 (F := Ideal) m ρ c (Proc.devRef .tc main_v71) = w00 (m ((c : Thread nD τ).loc main_arg2)) := by
  refine (Part3.w00_of (W6 (F := Ideal) m ρ c)).trans ?_
  rw [Part3.W6_arg2 m ρ c]

theorem W7_v73 : W7 (F := Ideal) m ρ c (Proc.devRef .tc main_v73) = w01 (m ((c : Thread nD τ).loc main_arg2)) := by
  refine (Part3.w01_of (W6 (F := Ideal) m ρ c)).trans ?_
  rw [Part3.W6_arg2 m ρ c]

theorem W7_v59 : W7 (F := Ideal) m ρ c (Proc.devRef .tc main_v59) = wrSum0 (m ((c : Thread nD τ).loc main_arg4)) :=
  (Part3.W7_of_W5 m ρ c main_v59 (by decide) (by decide)).trans (Part3.W5_v59 m ρ c)

theorem W7_v65 : W7 (F := Ideal) m ρ c (Proc.devRef .tc main_v65) = blSum0 (m ((c : Thread nD τ).loc main_arg3)) :=
  (Part3.W7_of_W5 m ρ c main_v65 (by decide) (by decide)).trans (Part3.W5_v65 m ρ c)

end Cert.KernelIdeal.ValueChain

end
-- ==== Proof.KRegion0.lean ====
/-
  The first kernel call of the graph network (the "b" node update of layer one), read as one function of whole arrays.

  The call walks fifty grid points. At point t it holds rows 2000·t … 2000·t + 1999 of the five row arrays (the two
  segment sums, the two reciprocal in-degree columns, the node features), the three 128 × 128 weight matrices and the
  bias row whole, and it writes rows 2000·t … 2000·t + 1999 of the result. For its block the body computes, entry by
  entry,

      pre(p, q) = Σ_k (S_bb(p,k) · i_bb(p)) · W0(k,q) + Σ_k (S_sb(p,k) · i_sb(p)) · W1(k,q) + Σ_k x(p,k) · Wr(k,q) + b(q)

  and stores pre(p, q) where 0 < pre(p, q), slope · pre(p, q) elsewhere. Each of the three sums is a block product
  accumulated into zeros; the changes of float format on the way into the products are the identity on extended reals.
  Since row p of the block is row 2000·t + p of the arrays and the fifty blocks tile the 100000 rows, the result array
  after the call is that same formula of the whole arrays, row by row.
-/
import proofs.«424018_j64587718197893_2_alg».proof.Proof.Gen.KernelIdeal.Frame
import proofs.«424018_j64587718197893_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue0

open Cert.KernelIdeal Cert.KernelIdeal.Gen Idealize.ShloMosaic Idealize.ShloMosaic.TcCoe Idealize.ShloMosaic.ValueIdx Idealize.SL.Sem
open Idealize.ShloMosaic.Pipeline (Dat)

/-! ## The block product at an index

The dimension numbers contract the left operand's axis 1 with the right operand's axis 0; the result's axis 0 is
the left operand's row and its axis 1 the right operand's column. -/

theorem lhs_ax0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_ax1 (j : S2000x128.Idx) (k : dot_S2000x128_S128x128_S2000x128_1_0_0_1_n_n.contr.Idx) :
    (dot_S2000x128_S128x128_S2000x128_1_0_0_1_n_n.lhsIdx j k 1).val = (k ⟨0, Nat.one_pos⟩).val :=
  DotDims.lhsIdx_val_of_single dot_S2000x128_S128x128_S2000x128_1_0_0_1_n_n (cl := 1) rfl j k

theorem rhs_ax0 (j : S2000x128.Idx) (k : dot_S2000x128_S128x128_S2000x128_1_0_0_1_n_n.contr.Idx) :
    (dot_S2000x128_S128x128_S2000x128_1_0_0_1_n_n.rhsIdx j k 0).val = (k ⟨0, Nat.one_pos⟩).val :=
  DotDims.rhsIdx_val_of_single dot_S2000x128_S128x128_S2000x128_1_0_0_1_n_n (cr := 0) rfl j k

theorem rhs_ax1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block product accumulated into zeros, at row p and column q: the sum over the shared axis of the products. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  refine (Ideal.matmul_constant_zero_apply dot_S2000x128_S128x128_S2000x128_1_0_0_1_n_n none A B (ix2 p q)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have eL : dot_S2000x128_S128x128_S2000x128_1_0_0_1_n_n.lhsIdx (ix2 p q) ((contrEquiv1 dot_S2000x128_S128x128_S2000x128_1_0_0_1_n_n 128 rfl rfl).symm k) = ix2 p k := by
    funext a; apply Fin.ext
    match a with
    | ⟨0, _⟩ => exact lhs_ax0 _ _
    | ⟨1, _⟩ => exact (lhs_ax1 _ _).trans hk
  have eR : dot_S2000x128_S128x128_S2000x128_1_0_0_1_n_n.rhsIdx (ix2 p q) ((contrEquiv1 dot_S2000x128_S128x128_S2000x128_1_0_0_1_n_n 128 rfl rfl).symm k) = ix2 k q := by
    funext a; apply Fin.ext
    match a with
    | ⟨0, _⟩ => exact (rhs_ax0 _ _).trans hk
    | ⟨1, _⟩ => exact rhs_ax1 _ _
  rw [eL, eR]

/-! ## The layout operations at an index -/

/-- A column broadcast along the rows' features reads, at (p, k), the column's entry of row p. -/
theorem broadcastTo_col_at {α : Type} (v : S2000x1.Idx → α) (h : S2000x1.Broadcasts S2000x128) (p : Fin 2000) (k : Fin 128) :
    broadcastTo S2000x128 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- A row broadcast down the rows reads, at (p, q), the row's entry q. -/
theorem broadcastTo_row_at {α : Type} (v : S1x128.Idx → α) (h : S1x128.Broadcasts S2000x128) (p : Fin 2000) (q : Fin 128) :
    broadcastTo S2000x128 v h (ix2 p q) = v (ix2 (0 : Fin 1) q) :=
  broadcastTo_1b_ab_apply v h p q

/-! ## The rectifier's select -/

/-- Selecting x where the comparison 0 < x holds and slope · x elsewhere is the leaky rectifier. -/
theorem select_gt_zero (x : EReal) :
    Scalar.select (Ideal.cmp .ogt x (Ideal.ofBits .f32 0x00000000#32)) x (Ideal.ofBits .f32 0x3C23D70A#32 * x)
      = Cert.Spec.lreluK x := by
  unfold Cert.Spec.lreluK Cert.Spec.slope Scalar.select Ideal.cmp
  rw [Ideal.ofBits_zero_f32]
  generalize Ideal.ofBits .f32 0x3C23D70A#32 = s
  by_cases h : (0 : EReal) < x
  · simp [h]
  · simp [h]

/-! ## The body's result at an index -/

theorem hz : (![0, 0] : Fin 2 → Nat) = fun _ => 0 := funext fun a => by fin_cases a <;> rfl

/-- The sum the body forms before the rectifier, at row p and column q of the block: the two scaled segment sums
    and the node's own row each against their weights, then the bias. -/
theorem pre_at (x0 : Vec Ideal S2000x128 .f32) (x1 : Vec Ideal S2000x1 .f32) (x2 : Vec Ideal S2000x128 .f32)
    (x3 : Vec Ideal S2000x1 .f32) (x4 : Vec Ideal S2000x128 .f32) (x5 x6 x7 : Vec Ideal S128x128 .f32)
    (x8 : Vec Ideal S1x128 .f32) (p : Fin 2000) (q : Fin 128) :
    k0_pay2 (F := Ideal) x0 x1 x2 x3 x4 x5 x6 x7 x8 (ix2 p q)
      = Cert.Spec.preBK (N := 2000) x0 x1 x2 x3 x4 x5 x6 x7 x8 p q := by
  unfold k0_pay2 Cert.Spec.preBK
  simp only [shapeCast_self, addf_apply, matmul_at, broadcastTo_row_at, truncf_apply, mulf_apply, broadcastTo_col_at]

/-- The block the body stores, at row p and column q: the leaky rectifier of that sum. -/
theorem out_at (x0 : Vec Ideal S2000x128 .f32) (x1 : Vec Ideal S2000x1 .f32) (x2 : Vec Ideal S2000x128 .f32)
    (x3 : Vec Ideal S2000x1 .f32) (x4 : Vec Ideal S2000x128 .f32) (x5 x6 x7 : Vec Ideal S128x128 .f32)
    (x8 : Vec Ideal S1x128 .f32) (p : Fin 2000) (q : Fin 128) :
    out0_9 (F := Ideal) x0 x1 x2 x3 x4 x5 x6 x7 x8 (ix2 p q)
      = Cert.Spec.lreluK (Cert.Spec.preBK (N := 2000) x0 x1 x2 x3 x4 x5 x6 x7 x8 p q) := by
  unfold out0_9
  rw [View.canon_unit_zero hz]
  simp only [View.ld_unit_zero (S := S2000x128) hz, View.ld_unit_zero (S := S2000x1) hz,
    View.ld_unit_zero (S := S128x128) hz, View.ld_unit_zero (S := S1x128) hz]
  unfold k0_pay1 k0_pay3
  rw [← pre_at x0 x1 x2 x3 x4 x5 x6 x7 x8 p q]
  exact select_gt_zero _

/-- So the stored block is the update of the blocks, as one function. -/
theorem out_eq (x0 : Vec Ideal S2000x128 .f32) (x1 : Vec Ideal S2000x1 .f32) (x2 : Vec Ideal S2000x128 .f32)
    (x3 : Vec Ideal S2000x1 .f32) (x4 : Vec Ideal S2000x128 .f32) (x5 x6 x7 : Vec Ideal S128x128 .f32)
    (x8 : Vec Ideal S1x128 .f32) :
    out0_9 (F := Ideal) x0 x1 x2 x3 x4 x5 x6 x7 x8 = Cert.Spec.bK (N := 2000) x0 x1 x2 x3 x4 x5 x6 x7 x8 := by
  funext j
  obtain ⟨p, q, rfl⟩ : ∃ (p : Fin 2000) (q : Fin 128), j = ix2 p q := ⟨j 0, j 1, eq_ix2 j⟩
  exact out_at x0 x1 x2 x3 x4 x5 x6 x7 x8 p q

/-! ## From the blocks to the array

At grid point t each row-block window stages rows 2000·t … 2000·t + 1999 of its array, all of its columns; the
three weight matrices and the bias row are staged whole at every point. -/

/-- The windows' index maps over the grid: a row-block window's block index is (t, 0), a resident window's (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

variable (V : (c : Dev nD) → (b : Ref sig .tc) → Buf (Elt Ideal) ((c : Thread nD τ).loc b))

/-- The first segment sum's block at point t, entry x, is the array's entry in row 2000·t + x₀. -/
theorem sums_bb_block (c : Dev nD) (t : Fin cfg0.N) (x : S2000x128.Idx) (i : S100000x128.Idx)
    (h0 : (i 0).val = 2000 * t.val + (x 0).val) (h1 : (i 1).val = (x 1).val) :
    (iblk0 V c 0 t : Vec Ideal S2000x128 .f32) x = (V c main_v50 : S100000x128.Idx → EReal) i := by
  obtain ⟨⟨e0, e1⟩, -⟩ := idx_facts t
  unfold iblk0
  rw [View.read_apply]
  show V c main_v50 _ = V c main_v50 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- The first in-degree column's block at point t, entry x, is the column's entry in row 2000·t + x₀. -/
theorem recip_bb_block (c : Dev nD) (t : Fin cfg0.N) (x : S2000x1.Idx) (i : S100000x1.Idx)
    (h0 : (i 0).val = 2000 * t.val + (x 0).val) (h1 : (i 1).val = (x 1).val) :
    (iblk0 V c 1 t : Vec Ideal S2000x1 .f32) x = (V c main_v28 : S100000x1.Idx → EReal) i := by
  obtain ⟨-, ⟨e0, e1⟩, -⟩ := idx_facts t
  unfold iblk0
  rw [View.read_apply]
  show V c main_v28 _ = V c main_v28 _
  congr 1
  funext a
  apply Fin.ext
  match a with
  | ⟨0, _⟩ => show win0_1.index t (0 : Fin 2) * 2000 + 1 * (x 0).val = (i 0).val; rw [e0, h0]; omega
  | ⟨1, _⟩ => show win0_1.index t (1 : Fin 2) * 1 + 1 * (x 1).val = (i 1).val; rw [e1, h1]; omega

/-- The second segment sum's block at point t, entry x, is the array's entry in row 2000·t + x₀. -/
theorem sums_sb_block (c : Dev nD) (t : Fin cfg0.N) (x : S2000x128.Idx) (i : S100000x128.Idx)
    (h0 : (i 0).val = 2000 * t.val + (x 0).val) (h1 : (i 1).val = (x 1).val) :
    (iblk0 V c 2 t : Vec Ideal S2000x128 .f32) x = (V c main_v54 : S100000x128.Idx → EReal) i := by
  obtain ⟨-, -, ⟨e0, e1⟩, -⟩ := idx_facts t
  unfold iblk0
  rw [View.read_apply]
  show V c main_v54 _ = V c main_v54 _
  congr 1
  funext a
  apply Fin.ext
  match a with
  | ⟨0, _⟩ => show win0_2.index t (0 : Fin 2) * 2000 + 1 * (x 0).val = (i 0).val; rw [e0, h0]; omega
  | ⟨1, _⟩ => show win0_2.index t (1 : Fin 2) * 128 + 1 * (x 1).val = (i 1).val; rw [e1, h1]; omega

/-- The second in-degree column's block at point t, entry x, is the column's entry in row 2000·t + x₀. -/
theorem recip_sb_block (c : Dev nD) (t : Fin cfg0.N) (x : S2000x1.Idx) (i : S100000x1.Idx)
    (h0 : (i 0).val = 2000 * t.val + (x 0).val) (h1 : (i 1).val = (x 1).val) :
    (iblk0 V c 3 t : Vec Ideal S2000x1 .f32) x = (V c main_v33 : S100000x1.Idx → EReal) i := by
  obtain ⟨-, -, -, ⟨e0, e1⟩, -⟩ := idx_facts t
  unfold iblk0
  rw [View.read_apply]
  show V c main_v33 _ = V c main_v33 _
  congr 1
  funext a
  apply Fin.ext
  match a with
  | ⟨0, _⟩ => show win0_3.index t (0 : Fin 2) * 2000 + 1 * (x 0).val = (i 0).val; rw [e0, h0]; omega
  | ⟨1, _⟩ => show win0_3.index t (1 : Fin 2) * 1 + 1 * (x 1).val = (i 1).val; rw [e1, h1]; omega

/-- The node features' block at point t, entry x, is the array's entry in row 2000·t + x₀. -/
theorem feats_block (c : Dev nD) (t : Fin cfg0.N) (x : S2000x128.Idx) (i : S100000x128.Idx)
    (h0 : (i 0).val = 2000 * t.val + (x 0).val) (h1 : (i 1).val = (x 1).val) :
    (iblk0 V c 4 t : Vec Ideal S2000x128 .f32) x = (V c main_arg0 : S100000x128.Idx → EReal) i := by
  obtain ⟨-, -, -, -, ⟨e0, e1⟩, -⟩ := idx_facts t
  unfold iblk0
  rw [View.read_apply]
  show V c main_arg0 _ = V c main_arg0 _
  congr 1
  funext a
  apply Fin.ext
  match a with
  | ⟨0, _⟩ => show win0_4.index t (0 : Fin 2) * 2000 + 1 * (x 0).val = (i 0).val; rw [e0, h0]; omega
  | ⟨1, _⟩ => show win0_4.index t (1 : Fin 2) * 128 + 1 * (x 1).val = (i 1).val; rw [e1, h1]; omega

/-- The first weight matrix is staged whole at every point. -/
theorem weights_bb_whole (c : Dev nD) (t : Fin cfg0.N) :
    (iblk0 V c 5 t : Vec Ideal S128x128 .f32) = (V c main_v71 : S128x128.Idx → EReal) := by
  obtain ⟨-, -, -, -, -, ⟨e0, e1⟩, -⟩ := idx_facts t
  funext y
  unfold iblk0
  rw [View.read_apply]
  show V c main_v71 _ = V c main_v71 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The second weight matrix is staged whole at every point. -/
theorem weights_sb_whole (c : Dev nD) (t : Fin cfg0.N) :
    (iblk0 V c 6 t : Vec Ideal S128x128 .f32) = (V c main_v73 : S128x128.Idx → EReal) := by
  obtain ⟨-, -, -, -, -, -, ⟨e0, e1⟩, -⟩ := idx_facts t
  funext y
  unfold iblk0
  rw [View.read_apply]
  show V c main_v73 _ = V c main_v73 y
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- The added right-hand weight matrix is staged whole at every point. -/
theorem weights_self_whole (c : Dev nD) (t : Fin cfg0.N) :
    (iblk0 V c 7 t : Vec Ideal S128x128 .f32) = (V c main_v59 : S128x128.Idx → EReal) := by
  obtain ⟨-, -, -, -, -, -, -, ⟨e0, e1⟩, -⟩ := idx_facts t
  funext y
  unfold iblk0
  rw [View.read_apply]
  show V c main_v59 _ = V c main_v59 y
  congr 1
  funext a
  apply Fin.ext
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- The added bias row is staged whole at every point. -/
theorem bias_whole (c : Dev nD) (t : Fin cfg0.N) :
    (iblk0 V c 8 t : Vec Ideal S1x128 .f32) = (V c main_v65 : S1x128.Idx → EReal) := by
  obtain ⟨-, -, -, -, -, -, -, -, ⟨e0, e1⟩, -⟩ := idx_facts t
  funext y
  unfold iblk0
  rw [View.read_apply]
  show V c main_v65 _ = V c main_v65 y
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The sum before the rectifier depends on its arrays only through row n of the row arrays, the weights and the
    bias: two families of arrays that agree there give the same number. -/
theorem preBK_rows {N M : Nat} (a0 : Cert.Spec.Arr (Cert.Spec.Rows N)) (a1 : Cert.Spec.Arr (Cert.Spec.Col N))
    (a2 : Cert.Spec.Arr (Cert.Spec.Rows N)) (a3 : Cert.Spec.Arr (Cert.Spec.Col N)) (a4 : Cert.Spec.Arr (Cert.Spec.Rows N))
    (b0 : Cert.Spec.Arr (Cert.Spec.Rows M)) (b1 : Cert.Spec.Arr (Cert.Spec.Col M))
    (b2 : Cert.Spec.Arr (Cert.Spec.Rows M)) (b3 : Cert.Spec.Arr (Cert.Spec.Col M)) (b4 : Cert.Spec.Arr (Cert.Spec.Rows M))
    (w0 w1 wr : Cert.Spec.Arr Cert.Spec.Sq) (bl : Cert.Spec.Arr Cert.Spec.Row1) (n : Fin N) (m : Fin M) (j : Fin 128)
    (e0 : ∀ k : Fin 128, a0 (ix2 n k) = b0 (ix2 m k)) (e1 : a1 (ix2 n 0) = b1 (ix2 m 0))
    (e2 : ∀ k : Fin 128, a2 (ix2 n k) = b2 (ix2 m k)) (e3 : a3 (ix2 n 0) = b3 (ix2 m 0))
    (e4 : ∀ k : Fin 128, a4 (ix2 n k) = b4 (ix2 m k)) :
    Cert.Spec.preBK a0 a1 a2 a3 a4 w0 w1 wr bl n j = Cert.Spec.preBK b0 b1 b2 b3 b4 w0 w1 wr bl m j := by
  unfold Cert.Spec.preBK
  simp only [e0, e1, e2, e3, e4]

/-- The update of the whole arrays as the region finds them. -/
abbrev update (c : Dev nD) : S100000x128.Idx → EReal :=
  Cert.Spec.bK (N := 100000) (V c main_v50) (V c main_v28) (V c main_v54) (V c main_v33) (V c main_arg0)
    (V c main_v71) (V c main_v73) (V c main_v59) (V c main_v65)

/-- The update of the blocks at point t, at entry x, is the update of the whole arrays in row 2000·t + x₀. -/
theorem update_block (c : Dev nD) (t : Fin cfg0.N) (x : S2000x128.Idx) (i : S100000x128.Idx)
    (h0 : (i 0).val = 2000 * t.val + (x 0).val) (h1 : (i 1).val = (x 1).val) :
    Cert.Spec.bK (N := 2000) (iblk0 V c 0 t) (iblk0 V c 1 t) (iblk0 V c 2 t) (iblk0 V c 3 t) (iblk0 V c 4 t)
        (iblk0 V c 5 t) (iblk0 V c 6 t) (iblk0 V c 7 t) (iblk0 V c 8 t) x
      = update V c i := by
  obtain ⟨p, q, rfl⟩ : ∃ (p : Fin 2000) (q : Fin 128), x = ix2 p q := ⟨x 0, x 1, eq_ix2 x⟩
  obtain ⟨r, q', rfl⟩ : ∃ (r : Fin 100000) (q' : Fin 128), i = ix2 r q' := ⟨i 0, i 1, eq_ix2 i⟩
  obtain rfl : q' = q := Fin.ext h1
  have hr : r.val = 2000 * t.val + p.val := h0
  unfold update Cert.Spec.bK
  show Cert.Spec.lreluK (Cert.Spec.preBK (N := 2000) _ _ _ _ _ _ _ _ _ p q')
    = Cert.Spec.lreluK (Cert.Spec.preBK (N := 100000) _ _ _ _ _ _ _ _ _ r q')
  rw [weights_bb_whole V c t, weights_sb_whole V c t, weights_self_whole V c t, bias_whole V c t]
  refine congrArg Cert.Spec.lreluK (preBK_rows _ _ _ _ _ _ _ _ _ _ _ _ _ _ p r q' ?_ ?_ ?_ ?_ ?_)
  · exact fun k => sums_bb_block V c t (ix2 p k) (ix2 r k) hr rfl
  · exact recip_bb_block V c t (ix2 p 0) (ix2 r 0) hr rfl
  · exact fun k => sums_sb_block V c t (ix2 p k) (ix2 r k) hr rfl
  · exact recip_sb_block V c t (ix2 p 0) (ix2 r 0) hr rfl
  · exact fun k => feats_block V c t (ix2 p k) (ix2 r k) hr rfl

/-- What point t writes back is block t of the update of the whole arrays. -/
theorem flushed_eq (c : Dev nD) (t : Fin cfg0.N) :
    (dat0 (F := Ideal) V c).flushed 9 t = ((cfg0.win 9).blk t).view.read (Elt Ideal) (update V c) := by
  obtain ⟨-, -, -, -, -, -, -, -, -, e0, e1⟩ := idx_facts t
  show (cfg0.win 9).cut (grid0.coords t) ((dat0 V c).after 9 t) = _
  rw [after0_9,
    out_eq (iblk0 V c 0 t) (iblk0 V c 1 t) (iblk0 V c 2 t) (iblk0 V c 3 t) (iblk0 V c 4 t) (iblk0 V c 5 t)
      (iblk0 V c 6 t) (iblk0 V c 7 t) (iblk0 V c 8 t)]
  funext y
  show Cert.Spec.bK (N := 2000) (iblk0 V c 0 t) (iblk0 V c 1 t) (iblk0 V c 2 t) (iblk0 V c 3 t) (iblk0 V c 4 t)
      (iblk0 V c 5 t) (iblk0 V c 6 t) (iblk0 V c 7 t) (iblk0 V c 8 t) y
    = update V c (((cfg0.win 9).blk t).view.emb y)
  refine update_block V c t y _ ?_ ?_
  · show win0_9.index t (0 : Fin 2) * 2000 + 1 * (y 0).val = 2000 * t.val + (y 0).val; rw [e0]; omega
  · show win0_9.index t (1 : Fin 2) * 128 + 1 * (y 1).val = (y 1).val; rw [e1]; omega

/-- An index of the array is in point t's block iff each coordinate is in the block's range on its axis. -/
theorem mem_blk (t : Fin cfg0.N) (i : S100000x128.Idx) :
    i ∈ ((cfg0.win 9).blk t).view.set ↔ ∀ a : Fin 2, win0_9.index t a * S2000x128.size a ≤ (i a).val
      ∧ (i a).val < win0_9.index t a * S2000x128.size a + S2000x128.size a := by
  show i ∈ ((View.whole main_v74).slice (win0_9.rect t)).set ↔ _
  rw [View.set_slice_whole, Rect.mem_set_unit]
  exact Iff.rfl

/-- Row r of the array is in the block of point r / 2000, which writes back: the blocks cover the array. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 :=
    ⟨⟨(i 0).val / 2000, by rw [hN]; omega⟩, rfl⟩
  obtain ⟨-, -, -, -, -, -, -, -, -, e0, e1⟩ := idx_facts t
  refine ⟨t, flush0_9 t, ?_⟩
  rw [mem_blk]
  intro a
  match a with
  | ⟨0, _⟩ =>
    show win0_9.index t (0 : Fin 2) * 2000 ≤ (i 0).val ∧ (i 0).val < win0_9.index t (0 : Fin 2) * 2000 + 2000
    rw [e0]; omega
  | ⟨1, _⟩ =>
    show win0_9.index t (1 : Fin 2) * 128 ≤ (i 1).val ∧ (i 1).val < win0_9.index t (1 : Fin 2) * 128 + 128
    rw [e1]; omega

/-- THE REGION'S RESULT: after the fifty points the output array is the update of the input arrays as the region
    found them, row by row. -/
theorem region0_arr (c : Dev nD) :
    (dat0 (F := Ideal) V c).arrAt 9 cfg0.N
      = Cert.Spec.bK (N := 100000) (V c main_v50) (V c main_v28) (V c main_v54) (V c main_v33) (V c main_arg0)
          (V c main_v71) (V c main_v73) (V c main_v59) (V c main_v65) :=
  (dat0 (F := Ideal) V c).arrAt_eq_of_cover 9 (update V c) (fun t _ => flushed_eq V c t) cover

end Cert.KernelIdeal.RegionValue0
end
-- ==== Proof.KRegion1.lean ====
/-
  Region 1 of the kernel program: the "s" update of one layer, over 50000 rows in 25 blocks of 2000.

  At a grid point t the body reads rows 2000 t … 2000 t + 1999 of the segment sums S, of the reciprocal in-degree
  column r and of the features x, together with the whole left weights Wl, the bias row b and the right weights Wr,
  and stores, at row p and column q of its block,

      lrelu( Σ_k (S(n,k) · r(n)) · Wl(k,q) + b(q) + Σ_k x(n,k) · Wr(k,q) ),      n = 2000 t + p,

  where lrelu keeps a number above zero and multiplies any other by the slope. Over the extended reals a change of
  float format is the identity and a block product into a zero accumulator is the plain sum over the 128 contraction
  positions, so this is read off entry by entry. The 25 blocks tile the 50000 rows (row n belongs to point n / 2000),
  hence the array the region leaves is that one function of the six arrays it reads, row by row.
-/
import proofs.«424018_j64587718197893_2_alg».proof.Proof.Gen.KernelIdeal.Frame
import proofs.«424018_j64587718197893_2_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.RegionValue1

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The column [2000,1] spread over 128 columns reads, at (p, q), the column's entry of row p. -/
theorem spread_column (v : S2000x1.Idx → EReal) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The row [1,128] spread over 2000 rows reads, at (p, q), the row's entry of column q. -/
theorem spread_row (v : S1x128.Idx → EReal) (h : S1x128.Broadcasts S2000x128) (p : Fin 2000) (q : Fin 128) :
    broadcastTo S2000x128 v h (ix2 p q) = v (ix2 (0 : Fin 1) q) :=
  broadcastTo_1b_ab_apply v h p q

/-! The block product's operand indices, axis by axis: the left operand is read at (row of the output, contraction
    position), the right operand at (contraction position, column of the output). -/

theorem lhs_axis0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬ (0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_axis1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

theorem rhs_axis0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

theorem rhs_axis1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬ (1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block product into the zero accumulator, at (p, q): the sum over the 128 contraction positions of the products
    of the left block's row p and the right block's column q. -/
theorem product_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r _ (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => exact lhs_axis0 _ _
    | ⟨1, _⟩ => exact (lhs_axis1 _ _).trans hk
  have hr : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ => exact (rhs_axis0 _ _).trans hk
    | ⟨1, _⟩ => exact rhs_axis1 _ _
  rw [hl, hr]

/-- The kernel's rectifier on one extended real: the test "above zero" picks the number itself, otherwise its product
    with the slope. -/
theorem rectifier_eq (x : EReal) :
    Scalar.select (FloatOps.cmpf (F := Ideal) (φ := .f32) .ogt x (Scalar.ofBits (F := Ideal) .f32 0x00000000#32)) x
        ((Scalar.ofBits (F := Ideal) .f32 0x3C23D70A#32 : EReal) * x) = Cert.Spec.lreluK x := by
  show Scalar.select (Ideal.cmp .ogt x (Ideal.ofBits .f32 0x00000000#32)) x (Ideal.ofBits .f32 0x3C23D70A#32 * x) = _
  rw [Ideal.ofBits_zero_f32]
  unfold Cert.Spec.lreluK Cert.Spec.slope Scalar.select Ideal.cmp
  by_cases h : (0 : EReal) < x
  · simp [h]
  · simp [h]

/-- Before the rectifier, at (p, q): the scaled sums' row p against the left weights' column q, plus the bias at q,
    plus the features' row p against the right weights' column q. -/
theorem pre_at (x0 : FVec Ideal S2000x128 .f32) (x1 : FVec Ideal S2000x1 .f32) (x2 : FVec Ideal S2000x128 .f32)
    (x3 : FVec Ideal S128x128 .f32) (x4 : FVec Ideal S1x128 .f32) (x5 : FVec Ideal S128x128 .f32)
    (hc : S2000x1.Broadcasts S2000x128) (hr : S1x128.Broadcasts S2000x128) (hb : FTy.bits .bf16 < FTy.bits .f32)
    (p : Fin 2000) (q : Fin 128) :
    addf (addf (matmul dot_S2000x128_S128x128_S2000x128_1_0_0_1_n_n none
            (truncf .bf16 (mulf x0 (broadcastTo S2000x128 x1 hc)) hb) (truncf .bf16 x3 hb)
            (constant (F := Ideal) S2000x128 .f32 0x00000000#32))
          (broadcastTo S2000x128 x4 hr))
        (matmul dot_S2000x128_S128x128_S2000x128_1_0_0_1_n_n none (truncf .bf16 x2 hb) (truncf .bf16 x5 hb)
          (constant (F := Ideal) S2000x128 .f32 0x00000000#32)) (ix2 p q)
      = ((∑ k : Fin 128, (x0 (ix2 p k) * x1 (ix2 p 0)) * x3 (ix2 k q)) + x4 (ix2 0 q))
          + ∑ k : Fin 128, x2 (ix2 p k) * x5 (ix2 k q) := by
  rw [addf_apply, addf_apply, product_at, product_at, spread_row]
  simp only [truncf_apply, mulf_apply, spread_column]

/-- What the body leaves in the output block, at (p, q), from the six input blocks. -/
theorem out_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (q : Fin 128) :
    Gen.out1_6 (F := Ideal) x0 x1 x2 x3 x4 x5 (ix2 p q)
      = Cert.Spec.lreluK (((∑ k : Fin 128, (x0 (ix2 p k) * x1 (ix2 p 0)) * x3 (ix2 k q)) + x4 (ix2 0 q))
          + ∑ k : Fin 128, x2 (ix2 p k) * x5 (ix2 k q)) := by
  unfold Gen.out1_6
  rw [View.canon_unit_zero hz]
  simp only [View.ld_unit_zero (S := S2000x128) hz, View.ld_unit_zero (S := S2000x1) hz,
    View.ld_unit_zero (S := S128x128) hz, View.ld_unit_zero (S := S1x128) hz]
  unfold Gen.k1_pay1
  simp only [shapeCast_self]
  rw [select_apply, cmpf_apply, mulf_apply, broadcast_apply, broadcast_apply, pre_at]
  exact rectifier_eq _

/-! ## The grid: 25 points, one block of 2000 rows per point -/

/-- The index maps over the grid: the three row-block inputs and the output sit at block (t, 0); the two weight matrices
    and the bias row stay at block (0, 0). -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

theorem points : cfg1.N = 25 := N_1

section Blocks

variable (V : (c : Dev nD) → (b : Ref sig .tc) → Buf (Elt Ideal) ((c : Thread nD τ).loc b))

/-- The segment sums' block at point t: rows 2000 t … 2000 t + 1999 of the array. -/
theorem sums_block_at (c : Dev nD) (t : Fin cfg1.N) (p : Fin 2000) (k : Fin 128) (h : t.val * 2000 + p.val < 50000) :
    (Gen.iblk1 V c 0 t : Vec Ideal S2000x128 .f32) (ix2 p k)
      = (V c main_v69 : S50000x128.Idx → EReal) (ix2 (⟨t.val * 2000 + p.val, h⟩ : Fin 50000) k) := by
  show (V c main_v69 : S50000x128.Idx → EReal) (((cfg1.win 0).blk t).view.emb (ix2 p k)) = _
  refine congrArg (V c main_v69 : S50000x128.Idx → EReal) ?_
  funext a; apply Fin.ext
  match a with
  | ⟨0, _⟩ => show win1_0.index t (0 : Fin 2) * 2000 + 1 * p.val = t.val * 2000 + p.val; rw [(block_indices t).1.1]; omega
  | ⟨1, _⟩ => show win1_0.index t (1 : Fin 2) * 128 + 1 * k.val = k.val; rw [(block_indices t).1.2]; omega

/-- The reciprocal in-degrees' block at point t: the same rows of the column. -/
theorem scale_block_at (c : Dev nD) (t : Fin cfg1.N) (p : Fin 2000) (h : t.val * 2000 + p.val < 50000) :
    (Gen.iblk1 V c 1 t : Vec Ideal S2000x1 .f32) (ix2 p (0 : Fin 1))
      = (V c main_v38 : S50000x1.Idx → EReal) (ix2 (⟨t.val * 2000 + p.val, h⟩ : Fin 50000) (0 : Fin 1)) := by
  show (V c main_v38 : S50000x1.Idx → EReal) (((cfg1.win 1).blk t).view.emb (ix2 p (0 : Fin 1))) = _
  refine congrArg (V c main_v38 : S50000x1.Idx → EReal) ?_
  funext a; apply Fin.ext
  match a with
  | ⟨0, _⟩ => show win1_1.index t (0 : Fin 2) * 2000 + 1 * p.val = t.val * 2000 + p.val; rw [(block_indices t).2.1.1]; omega
  | ⟨1, _⟩ => show win1_1.index t (1 : Fin 2) * 1 + 1 * 0 = 0; rw [(block_indices t).2.1.2]

/-- The features' block at point t: the same rows of the feature array. -/
theorem feats_block_at (c : Dev nD) (t : Fin cfg1.N) (p : Fin 2000) (k : Fin 128) (h : t.val * 2000 + p.val < 50000) :
    (Gen.iblk1 V c 2 t : Vec Ideal S2000x128 .f32) (ix2 p k)
      = (V c main_arg1 : S50000x128.Idx → EReal) (ix2 (⟨t.val * 2000 + p.val, h⟩ : Fin 50000) k) := by
  show (V c main_arg1 : S50000x128.Idx → EReal) (((cfg1.win 2).blk t).view.emb (ix2 p k)) = _
  refine congrArg (V c main_arg1 : S50000x128.Idx → EReal) ?_
  funext a; apply Fin.ext
  match a with
  | ⟨0, _⟩ => show win1_2.index t (0 : Fin 2) * 2000 + 1 * p.val = t.val * 2000 + p.val; rw [(block_indices t).2.2.1.1]; omega
  | ⟨1, _⟩ => show win1_2.index t (1 : Fin 2) * 128 + 1 * k.val = k.val; rw [(block_indices t).2.2.1.2]; omega

/-- The left weights' block at every point is the whole matrix. -/
theorem wl_block_at (c : Dev nD) (t : Fin cfg1.N) (k : Fin 128) (q : Fin 128) :
    (Gen.iblk1 V c 3 t : Vec Ideal S128x128 .f32) (ix2 k q) = (V c main_v76 : S128x128.Idx → EReal) (ix2 k q) := by
  show (V c main_v76 : S128x128.Idx → EReal) (((cfg1.win 3).blk t).view.emb (ix2 k q)) = _
  refine congrArg (V c main_v76 : S128x128.Idx → EReal) ?_
  funext a; apply Fin.ext
  match a with
  | ⟨0, _⟩ => show win1_3.index t (0 : Fin 2) * 128 + 1 * k.val = k.val; rw [(block_indices t).2.2.2.1.1]; omega
  | ⟨1, _⟩ => show win1_3.index t (1 : Fin 2) * 128 + 1 * q.val = q.val; rw [(block_indices t).2.2.2.1.2]; omega

/-- The bias row's block at every point is the whole row. -/
theorem bias_block_at (c : Dev nD) (t : Fin cfg1.N) (q : Fin 128) :
    (Gen.iblk1 V c 4 t : Vec Ideal S1x128 .f32) (ix2 (0 : Fin 1) q) = (V c main_v79 : S1x128.Idx → EReal) (ix2 (0 : Fin 1) q) := by
  show (V c main_v79 : S1x128.Idx → EReal) (((cfg1.win 4).blk t).view.emb (ix2 (0 : Fin 1) q)) = _
  refine congrArg (V c main_v79 : S1x128.Idx → EReal) ?_
  funext a; apply Fin.ext
  match a with
  | ⟨0, _⟩ => show win1_4.index t (0 : Fin 2) * 1 + 1 * 0 = 0; rw [(block_indices t).2.2.2.2.1.1]
  | ⟨1, _⟩ => show win1_4.index t (1 : Fin 2) * 128 + 1 * q.val = q.val; rw [(block_indices t).2.2.2.2.1.2]; omega

/-- The right weights' block at every point is the whole matrix. -/
theorem wr_block_at (c : Dev nD) (t : Fin cfg1.N) (k : Fin 128) (q : Fin 128) :
    (Gen.iblk1 V c 5 t : Vec Ideal S128x128 .f32) (ix2 k q) = (V c main_v81 : S128x128.Idx → EReal) (ix2 k q) := by
  show (V c main_v81 : S128x128.Idx → EReal) (((cfg1.win 5).blk t).view.emb (ix2 k q)) = _
  refine congrArg (V c main_v81 : S128x128.Idx → EReal) ?_
  funext a; apply Fin.ext
  match a with
  | ⟨0, _⟩ => show win1_5.index t (0 : Fin 2) * 128 + 1 * k.val = k.val; rw [(block_indices t).2.2.2.2.2.1.1]; omega
  | ⟨1, _⟩ => show win1_5.index t (1 : Fin 2) * 128 + 1 * q.val = q.val; rw [(block_indices t).2.2.2.2.2.1.2]; omega

/-- An array read through the output's block at point t, at (p, q), is the array at row 2000 t + p, column q. -/
theorem out_block_at (G : S50000x128.Idx → EReal) (t : Fin cfg1.N) (p : Fin 2000) (q : Fin 128) (h : t.val * 2000 + p.val < 50000) :
    (((cfg1.win 6).blk t).view.read (Elt Ideal) G : S2000x128.Idx → EReal) (ix2 p q)
      = G (ix2 (⟨t.val * 2000 + p.val, h⟩ : Fin 50000) q) := by
  show G (((cfg1.win 6).blk t).view.emb (ix2 p q)) = _
  refine congrArg G ?_
  funext a; apply Fin.ext
  match a with
  | ⟨0, _⟩ => show win1_6.index t (0 : Fin 2) * 2000 + 1 * p.val = t.val * 2000 + p.val; rw [(block_indices t).2.2.2.2.2.2.1]; omega
  | ⟨1, _⟩ => show win1_6.index t (1 : Fin 2) * 128 + 1 * q.val = q.val; rw [(block_indices t).2.2.2.2.2.2.2]; omega

/-- Region 1's result: the "s" update of the kernel, as one function of the six arrays the region reads. -/
abbrev result (c : Dev nD) : S50000x128.Idx → EReal :=
  Cert.Spec.sK (N := 50000) (V c main_v69 : S50000x128.Idx → EReal) (V c main_v38 : S50000x1.Idx → EReal)
    (V c main_arg1 : S50000x128.Idx → EReal) (V c main_v76 : S128x128.Idx → EReal) (V c main_v79 : S1x128.Idx → EReal)
    (V c main_v81 : S128x128.Idx → EReal)

/-- What point t writes back is block t of the result. -/
theorem flushed_eq (c : Dev nD) (t : Fin cfg1.N) :
    (Gen.dat1 (F := Ideal) V c).flushed 6 t = ((cfg1.win 6).blk t).view.read (Elt Ideal) (result V c) := by
  show (cfg1.win 6).cut (grid1.coords t) ((Gen.dat1 (F := Ideal) V c).after 6 t) = _
  rw [Gen.after1_6]
  have ht : t.val < 25 := lt_of_lt_of_eq t.isLt points
  funext j
  obtain ⟨p, q, rfl⟩ : ∃ (p : Fin 2000) (q : Fin 128), j = ix2 p q := ⟨j 0, j 1, eq_ix2 j⟩
  have hp : p.val < 2000 := p.isLt
  have hrow : t.val * 2000 + p.val < 50000 := by omega
  refine (out_at (Gen.iblk1 V c 0 t) (Gen.iblk1 V c 1 t) (Gen.iblk1 V c 2 t) (Gen.iblk1 V c 3 t) (Gen.iblk1 V c 4 t)
    (Gen.iblk1 V c 5 t) p q).trans ?_
  refine Eq.trans ?_ (out_block_at (result V c) t p q hrow).symm
  show _ = Cert.Spec.lreluK (Cert.Spec.preSK _ _ _ _ _ _ (⟨t.val * 2000 + p.val, hrow⟩ : Fin 50000) q)
  unfold Cert.Spec.preSK
  simp only [sums_block_at V c t p _ hrow, scale_block_at V c t p hrow, feats_block_at V c t p _ hrow, wl_block_at V c t,
    bias_block_at V c t, wr_block_at V c t]

end Blocks

/-! ## The blocks tile the array -/

/-- An index of the array lies in point t's block iff each coordinate lies in the block's range on its axis. -/
theorem mem_block (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v82).slice (win1_6.rect t)).set ↔ _
  rw [View.set_slice_whole, Rect.mem_set_unit]
  exact Iff.rfl

/-- Row r of the array is written back by point r / 2000. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 2000 < cfg1.N := by rw [points]; omega
  obtain ⟨-, -, -, -, -, -, e0, e1⟩ := block_indices ⟨(i 0).val / 2000, hlt⟩
  have e0' : win1_6.index ⟨(i 0).val / 2000, hlt⟩ (0 : Fin 2) = (i 0).val / 2000 := e0
  refine ⟨⟨(i 0).val / 2000, hlt⟩, Gen.flush1_6 _, ?_⟩
  rw [mem_block]
  intro a
  match a with
  | ⟨0, _⟩ =>
    show win1_6.index ⟨(i 0).val / 2000, hlt⟩ (0 : Fin 2) * 2000 ≤ (i 0).val
      ∧ (i 0).val < win1_6.index ⟨(i 0).val / 2000, hlt⟩ (0 : Fin 2) * 2000 + 2000
    rw [e0']; omega
  | ⟨1, _⟩ =>
    show win1_6.index ⟨(i 0).val / 2000, hlt⟩ (1 : Fin 2) * 128 ≤ (i 1).val
      ∧ (i 1).val < win1_6.index ⟨(i 0).val / 2000, hlt⟩ (1 : Fin 2) * 128 + 128
    rw [e1]; omega

/-- REGION 1's OUTPUT ARRAY after the region: the "s" update of the arrays the region finds. -/
theorem region1_arr (V : (c : Dev nD) → (b : Ref sig .tc) → Buf (Elt Ideal) ((c : Thread nD τ).loc b)) (c : Dev nD) :
    (Gen.dat1 (F := Ideal) V c).arrAt 6 cfg1.N
      = Cert.Spec.sK (N := 50000) (V c main_v69 : S50000x128.Idx → EReal) (V c main_v38 : S50000x1.Idx → EReal)
          (V c main_arg1 : S50000x128.Idx → EReal) (V c main_v76 : S128x128.Idx → EReal)
          (V c main_v79 : S1x128.Idx → EReal) (V c main_v81 : S128x128.Idx → EReal) :=
  (Gen.dat1 (F := Ideal) V c).arrAt_eq_of_cover 6 (result V c) (fun t _ => flushed_eq V c t) covered

end Cert.KernelIdeal.RegionValue1

end
-- ==== Proof.KVal1.lean ====
/-
  The kernel program's buffers after its first two kernels: the two kernels' output arrays are the "b" and the "s"
  rows after layer 0 — each kernel's whole-array function of the arrays it found when it started —, and the buffers
  layer 1 reads again are as the first host stretch left them.
-/
import proofs.«424018_j64587718197893_2_alg».proof.Proof.KVal0
import proofs.«424018_j64587718197893_2_alg».proof.Proof.KVal0a
import proofs.«424018_j64587718197893_2_alg».proof.Proof.KVal0b
import proofs.«424018_j64587718197893_2_alg».proof.Proof.KVal0c
import proofs.«424018_j64587718197893_2_alg».proof.Proof.KRegion0
import proofs.«424018_j64587718197893_2_alg».proof.Proof.KRegion1

noncomputable section

namespace Cert.KernelIdeal.ValueChain

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg) (c : Dev nD)

/-- The "b" rows after layer 0, of the launch arguments. -/
abbrev XB1 : FVec Ideal S100000x128 .f32 := xb1 (A0 m c) (A1 m c) (A2 m c) (A3 m c) (A4 m c) (A7 m c) (A8 m c)
/-- The "s" rows after layer 0, of the launch arguments. -/
abbrev XS1 : FVec Ideal S50000x128 .f32 := xs1 (A0 m c) (A1 m c) (A2 m c) (A3 m c) (A4 m c) (A9 m c)

/-- A buffer that none of the operations between the two kernels writes holds after them what it held before. -/
local macro "unwritten_between_kernels" : tactic =>
  `(tactic| exact StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## After the first kernel

Its output array is the "b" update of the nine arrays it found, which the host stretch before it had left at the
segment sums, the reciprocal in-degrees and the layer's weights: the "b" rows after layer 0. Its input arrays are as
it found them, and so is every buffer it does not touch. -/

theorem W8_v74 : W8 (F := Ideal) m ρ c (Proc.devRef .tc main_v74) = XB1 m c := by
  refine (W8_arr m ρ c 9).trans ?_
  refine (RegionValue0.region0_arr (V7 m ρ) c).trans ?_
  show Cert.Spec.bK (N := 100000) (W7 m ρ c (Proc.devRef .tc main_v50)) (W7 m ρ c (Proc.devRef .tc main_v28))
    (W7 m ρ c (Proc.devRef .tc main_v54)) (W7 m ρ c (Proc.devRef .tc main_v33)) (W7 m ρ c (Proc.devRef .tc main_arg0))
    (W7 m ρ c (Proc.devRef .tc main_v71)) (W7 m ρ c (Proc.devRef .tc main_v73)) (W7 m ρ c (Proc.devRef .tc main_v59))
    (W7 m ρ c (Proc.devRef .tc main_v65)) = _
  rw [W7_v50, W7_v28, W7_v54, W7_v33, W7_arg0, W7_v71, W7_v73, W7_v59, W7_v65]
  rfl

/-- The two reciprocal in-degree columns are input arrays of the first kernel: it leaves them as they were. -/
theorem W8_v28 : W8 (F := Ideal) m ρ c (Proc.devRef .tc main_v28) = invBB (dstBB (A7 m c)) :=
  ((W8_arr m ρ c 1).trans (((dat0 (V7 m ρ) c).arrAt_in 1 rfl _).trans (A_eq0 (V7 m ρ) c 1))).trans (W7_v28 m ρ c)

theorem W8_v33 : W8 (F := Ideal) m ρ c (Proc.devRef .tc main_v33) = invSB (dst4 (A8 m c)) :=
  ((W8_arr m ρ c 3).trans (((dat0 (V7 m ρ) c).arrAt_in 3 rfl _).trans (A_eq0 (V7 m ρ) c 3))).trans (W7_v33 m ρ c)

theorem W8_v69 : W8 (F := Ideal) m ρ c (Proc.devRef .tc main_v69) = segBS (A0 m c) (src4 (A9 m c)) (dst4 (A9 m c)) :=
  (W8_of_ne m ρ c main_v69 (by decide)).trans (W7_v69 m ρ c)

theorem W8_v38 : W8 (F := Ideal) m ρ c (Proc.devRef .tc main_v38) = invBS (dst4 (A9 m c)) :=
  (W8_of_ne m ρ c main_v38 (by decide)).trans (W7_v38 m ρ c)

theorem W8_arg1 : W8 (F := Ideal) m ρ c (Proc.devRef .tc main_arg1) = (A1 m c) :=
  (W8_of_ne m ρ c main_arg1 (by decide)).trans (W7_arg1 m ρ c)

theorem W8_arg2 : W8 (F := Ideal) m ρ c (Proc.devRef .tc main_arg2) = (A2 m c) :=
  (W8_of_ne m ρ c main_arg2 (by decide)).trans (W7_arg2 m ρ c)

theorem W8_arg3 : W8 (F := Ideal) m ρ c (Proc.devRef .tc main_arg3) = (A3 m c) :=
  (W8_of_ne m ρ c main_arg3 (by decide)).trans (W7_arg3 m ρ c)

theorem W8_arg4 : W8 (F := Ideal) m ρ c (Proc.devRef .tc main_arg4) = (A4 m c) :=
  (W8_of_ne m ρ c main_arg4 (by decide)).trans (W7_arg4 m ρ c)

theorem W8_v1 : W8 (F := Ideal) m ρ c (Proc.devRef .tc main_v1) = srcBB (A7 m c) :=
  (W8_of_ne m ρ c main_v1 (by decide)).trans (W7_v1 m ρ c)

theorem W8_v3 : W8 (F := Ideal) m ρ c (Proc.devRef .tc main_v3) = dstBB (A7 m c) :=
  (W8_of_ne m ρ c main_v3 (by decide)).trans (W7_v3 m ρ c)

theorem W8_v5 : W8 (F := Ideal) m ρ c (Proc.devRef .tc main_v5) = src4 (A8 m c) :=
  (W8_of_ne m ρ c main_v5 (by decide)).trans (W7_v5 m ρ c)

theorem W8_v7 : W8 (F := Ideal) m ρ c (Proc.devRef .tc main_v7) = dst4 (A8 m c) :=
  (W8_of_ne m ρ c main_v7 (by decide)).trans (W7_v7 m ρ c)

theorem W8_v45 : W8 (F := Ideal) m ρ c (Proc.devRef .tc main_v45) = bhRow (A6 m c) :=
  (W8_of_ne m ρ c main_v45 (by decide)).trans (W7_v45 m ρ c)

theorem W8_v46 : W8 (F := Ideal) m ρ c (Proc.devRef .tc main_v46) = whT (A5 m c) :=
  (W8_of_ne m ρ c main_v46 (by decide)).trans (W7_v46 m ρ c)

/-! ## When the second kernel starts

The seven operations between the two kernels cut layer 0's third weight matrix out of each stack of weights and its
third bias out of the stack of biases (kept as a row), into seven buffers of their own; every other buffer is as the
first kernel left it. -/

theorem W9_v74 : W9 (F := Ideal) m ρ c (Proc.devRef .tc main_v74) = XB1 m c :=
  (by unwritten_between_kernels :
    W9 (F := Ideal) m ρ c (Proc.devRef .tc main_v74) = W8 m ρ c (Proc.devRef .tc main_v74)).trans (W8_v74 m ρ c)

theorem W9_v28 : W9 (F := Ideal) m ρ c (Proc.devRef .tc main_v28) = invBB (dstBB (A7 m c)) :=
  (by unwritten_between_kernels :
    W9 (F := Ideal) m ρ c (Proc.devRef .tc main_v28) = W8 m ρ c (Proc.devRef .tc main_v28)).trans (W8_v28 m ρ c)

theorem W9_v33 : W9 (F := Ideal) m ρ c (Proc.devRef .tc main_v33) = invSB (dst4 (A8 m c)) :=
  (by unwritten_between_kernels :
    W9 (F := Ideal) m ρ c (Proc.devRef .tc main_v33) = W8 m ρ c (Proc.devRef .tc main_v33)).trans (W8_v33 m ρ c)

theorem W9_v69 : W9 (F := Ideal) m ρ c (Proc.devRef .tc main_v69) = segBS (A0 m c) (src4 (A9 m c)) (dst4 (A9 m c)) :=
  (by unwritten_between_kernels :
    W9 (F := Ideal) m ρ c (Proc.devRef .tc main_v69) = W8 m ρ c (Proc.devRef .tc main_v69)).trans (W8_v69 m ρ c)

theorem W9_v38 : W9 (F := Ideal) m ρ c (Proc.devRef .tc main_v38) = invBS (dst4 (A9 m c)) :=
  (by unwritten_between_kernels :
    W9 (F := Ideal) m ρ c (Proc.devRef .tc main_v38) = W8 m ρ c (Proc.devRef .tc main_v38)).trans (W8_v38 m ρ c)

theorem W9_arg1 : W9 (F := Ideal) m ρ c (Proc.devRef .tc main_arg1) = (A1 m c) :=
  (by unwritten_between_kernels :
    W9 (F := Ideal) m ρ c (Proc.devRef .tc main_arg1) = W8 m ρ c (Proc.devRef .tc main_arg1)).trans (W8_arg1 m ρ c)

theorem W9_arg2 : W9 (F := Ideal) m ρ c (Proc.devRef .tc main_arg2) = (A2 m c) :=
  (by unwritten_between_kernels :
    W9 (F := Ideal) m ρ c (Proc.devRef .tc main_arg2) = W8 m ρ c (Proc.devRef .tc main_arg2)).trans (W8_arg2 m ρ c)

theorem W9_arg3 : W9 (F := Ideal) m ρ c (Proc.devRef .tc main_arg3) = (A3 m c) :=
  (by unwritten_between_kernels :
    W9 (F := Ideal) m ρ c (Proc.devRef .tc main_arg3) = W8 m ρ c (Proc.devRef .tc main_arg3)).trans (W8_arg3 m ρ c)

theorem W9_arg4 : W9 (F := Ideal) m ρ c (Proc.devRef .tc main_arg4) = (A4 m c) :=
  (by unwritten_between_kernels :
    W9 (F := Ideal) m ρ c (Proc.devRef .tc main_arg4) = W8 m ρ c (Proc.devRef .tc main_arg4)).trans (W8_arg4 m ρ c)

theorem W9_v1 : W9 (F := Ideal) m ρ c (Proc.devRef .tc main_v1) = srcBB (A7 m c) :=
  (by unwritten_between_kernels :
    W9 (F := Ideal) m ρ c (Proc.devRef .tc main_v1) = W8 m ρ c (Proc.devRef .tc main_v1)).trans (W8_v1 m ρ c)

theorem W9_v3 : W9 (F := Ideal) m ρ c (Proc.devRef .tc main_v3) = dstBB (A7 m c) :=
  (by unwritten_between_kernels :
    W9 (F := Ideal) m ρ c (Proc.devRef .tc main_v3) = W8 m ρ c (Proc.devRef .tc main_v3)).trans (W8_v3 m ρ c)

theorem W9_v5 : W9 (F := Ideal) m ρ c (Proc.devRef .tc main_v5) = src4 (A8 m c) :=
  (by unwritten_between_kernels :
    W9 (F := Ideal) m ρ c (Proc.devRef .tc main_v5) = W8 m ρ c (Proc.devRef .tc main_v5)).trans (W8_v5 m ρ c)

theorem W9_v7 : W9 (F := Ideal) m ρ c (Proc.devRef .tc main_v7) = dst4 (A8 m c) :=
  (by unwritten_between_kernels :
    W9 (F := Ideal) m ρ c (Proc.devRef .tc main_v7) = W8 m ρ c (Proc.devRef .tc main_v7)).trans (W8_v7 m ρ c)

theorem W9_v45 : W9 (F := Ideal) m ρ c (Proc.devRef .tc main_v45) = bhRow (A6 m c) :=
  (by unwritten_between_kernels :
    W9 (F := Ideal) m ρ c (Proc.devRef .tc main_v45) = W8 m ρ c (Proc.devRef .tc main_v45)).trans (W8_v45 m ρ c)

theorem W9_v46 : W9 (F := Ideal) m ρ c (Proc.devRef .tc main_v46) = whT (A5 m c) :=
  (by unwritten_between_kernels :
    W9 (F := Ideal) m ρ c (Proc.devRef .tc main_v46) = W8 m ρ c (Proc.devRef .tc main_v46)).trans (W8_v46 m ρ c)

/-- The left weights of the "s" update: layer 0's third matrix of the left stack. -/
theorem W9_v76 : W9 (F := Ideal) m ρ c (Proc.devRef .tc main_v76) = w02 (A2 m c) := by
  show StableHlo.after hostOps1 (W8 m ρ c) (Proc.devRef .tc main_v76) = _
  after_results
  rw [W8_arg2 m ρ c]
  rfl

/-- Its bias: layer 0's third bias, as a row. -/
theorem W9_v79 : W9 (F := Ideal) m ρ c (Proc.devRef .tc main_v79) = blRow2 (A3 m c) := by
  show StableHlo.after hostOps1 (W8 m ρ c) (Proc.devRef .tc main_v79) = _
  after_results
  rw [W8_arg3 m ρ c]
  rfl

/-- Its right weights: layer 0's third matrix of the right stack. -/
theorem W9_v81 : W9 (F := Ideal) m ρ c (Proc.devRef .tc main_v81) = w02 (A4 m c) := by
  show StableHlo.after hostOps1 (W8 m ρ c) (Proc.devRef .tc main_v81) = _
  after_results
  rw [W8_arg4 m ρ c]
  rfl

/-! ## After the second kernel

Its output array is the "s" update of the six arrays it found: the "s" rows after layer 0. It touches none of the
other twelve buffers. -/

theorem W10_v74 : W10 (F := Ideal) m ρ c (Proc.devRef .tc main_v74) = XB1 m c :=
  (W10_of_ne m ρ c main_v74 (by decide)).trans (W9_v74 m ρ c)

theorem W10_v82 : W10 (F := Ideal) m ρ c (Proc.devRef .tc main_v82) = XS1 m c := by
  refine (W10_arr m ρ c 6).trans ?_
  refine (RegionValue1.region1_arr (V9 m ρ) c).trans ?_
  show Cert.Spec.sK (N := 50000) (W9 m ρ c (Proc.devRef .tc main_v69)) (W9 m ρ c (Proc.devRef .tc main_v38))
    (W9 m ρ c (Proc.devRef .tc main_arg1)) (W9 m ρ c (Proc.devRef .tc main_v76)) (W9 m ρ c (Proc.devRef .tc main_v79))
    (W9 m ρ c (Proc.devRef .tc main_v81)) = _
  rw [W9_v69, W9_v38, W9_arg1, W9_v76, W9_v79, W9_v81]
  rfl

theorem W10_v1 : W10 (F := Ideal) m ρ c (Proc.devRef .tc main_v1) = srcBB (A7 m c) :=
  (W10_of_ne m ρ c main_v1 (by decide)).trans (W9_v1 m ρ c)

theorem W10_v3 : W10 (F := Ideal) m ρ c (Proc.devRef .tc main_v3) = dstBB (A7 m c) :=
  (W10_of_ne m ρ c main_v3 (by decide)).trans (W9_v3 m ρ c)

theorem W10_v5 : W10 (F := Ideal) m ρ c (Proc.devRef .tc main_v5) = src4 (A8 m c) :=
  (W10_of_ne m ρ c main_v5 (by decide)).trans (W9_v5 m ρ c)

theorem W10_v7 : W10 (F := Ideal) m ρ c (Proc.devRef .tc main_v7) = dst4 (A8 m c) :=
  (W10_of_ne m ρ c main_v7 (by decide)).trans (W9_v7 m ρ c)

theorem W10_v28 : W10 (F := Ideal) m ρ c (Proc.devRef .tc main_v28) = invBB (dstBB (A7 m c)) :=
  (W10_of_ne m ρ c main_v28 (by decide)).trans (W9_v28 m ρ c)

theorem W10_v33 : W10 (F := Ideal) m ρ c (Proc.devRef .tc main_v33) = invSB (dst4 (A8 m c)) :=
  (W10_of_ne m ρ c main_v33 (by decide)).trans (W9_v33 m ρ c)

theorem W10_v45 : W10 (F := Ideal) m ρ c (Proc.devRef .tc main_v45) = bhRow (A6 m c) :=
  (W10_of_ne m ρ c main_v45 (by decide)).trans (W9_v45 m ρ c)

theorem W10_v46 : W10 (F := Ideal) m ρ c (Proc.devRef .tc main_v46) = whT (A5 m c) :=
  (W10_of_ne m ρ c main_v46 (by decide)).trans (W9_v46 m ρ c)

theorem W10_arg2 : W10 (F := Ideal) m ρ c (Proc.devRef .tc main_arg2) = (A2 m c) :=
  (W10_of_ne m ρ c main_arg2 (by decide)).trans (W9_arg2 m ρ c)

theorem W10_arg3 : W10 (F := Ideal) m ρ c (Proc.devRef .tc main_arg3) = (A3 m c) :=
  (W10_of_ne m ρ c main_arg3 (by decide)).trans (W9_arg3 m ρ c)

theorem W10_arg4 : W10 (F := Ideal) m ρ c (Proc.devRef .tc main_arg4) = (A4 m c) :=
  (W10_of_ne m ρ c main_arg4 (by decide)).trans (W9_arg4 m ρ c)

end Cert.KernelIdeal.ValueChain

end
-- ==== Proof.KRegion2.lean ====
/-
  Region 2 of the kernel program: the second "b" update fused with the heads' linear map.

  The region walks the 100000 "b" rows in 50 blocks of 2000 rows. At a point t its body sees rows
  2000 t … 2000 t + 1999 of the two segment-sum arrays, of the two reciprocal in-degree columns and of the
  node features, and the whole of four 128 × 128 weight matrices and two bias rows. It forms, for each row n of
  the block and each column k,

      pre(n, k) = Σ_m (S_bb(n, m) · i_bb(n)) · W0(m, k) + Σ_m (S_sb(n, m) · i_sb(n)) · W1(m, k)
                + Σ_m x(n, m) · Wr(m, k) + b(k),

  rectifies it (x where 0 < x, slope · x elsewhere), multiplies the rectified row by the heads' weights and adds
  the heads' bias:  out(n, j) = Σ_k lrelu(pre(n, k)) · Wh(k, j) + bh(j).

  This file proves that after the region the output array is exactly that function of the arrays the region
  found, row by row: first the body's arithmetic at one entry of a block (each matrix product into a zero
  accumulator is a finite sum over the contracted index; the changes of float format are the identity on extended
  reals; the comparison with the zero word and the selection are the rectifier), then each block as a stretch of
  rows of its array (a block's entry sits at block index × block size + its own coordinate; the weights' and biases'
  blocks are their whole arrays), then the array from its 50 blocks (row r lies in the block of point r / 2000).
-/
import proofs.«424018_j64587718197893_2_alg».proof.Proof.Gen.KernelIdeal.Frame
import proofs.«424018_j64587718197893_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue2

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (Rows Col Sq Row1 Arr slope lreluK preBK headsK)

/-! ## A product of a row block with a square matrix, read at an entry -/

/-! The body's four matrix products share one set of dimension numbers: axis 1 of the left operand is contracted
    against axis 0 of the right one. The four lemmas below say which coordinate of the result or of the contraction
    index each operand axis reads. -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Entry (p, q) of a product into the zero accumulator is the sum over k of left(p, k) · right(k, q). -/
theorem matmul_at {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  show FloatOps.matmul dot_S2000x128_S128x128_S2000x128_1_0_0_1_n_n none l r (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-- A column [a, 1] laid across b columns reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem hz : (![0, 0] : Fin 2 → Nat) = fun _ => 0 := funext fun a => by fin_cases a <;> rfl

/-- The comparison with zero, the product with the slope word and the selection, on one number, are the rectifier. -/
theorem select_gt_zero (x : EReal) :
    Scalar.select (FloatOps.cmpf (F := Ideal) (φ := .f32) .ogt x (Scalar.ofBits .f32 0x00000000#32)) x
        ((Scalar.ofBits (F := Ideal) .f32 0x3C23D70A#32 : EReal) * x) = lreluK x := by
  unfold lreluK Cert.Spec.slope
  show Scalar.select (Ideal.cmp .ogt x (Ideal.ofBits .f32 0x00000000#32)) x (Ideal.ofBits .f32 0x3C23D70A#32 * x) = _
  rw [Ideal.ofBits_zero_f32]
  generalize Ideal.ofBits .f32 0x3C23D70A#32 = s
  unfold Ideal.cmp Scalar.select
  by_cases h : (0 : EReal) < x
  · simp [h]
  · simp [h]

/-- The sum before the rectifier, at an entry of the block. -/
theorem pay2_at (v0 : Vec Ideal S2000x128 .f32) (v2 : Vec Ideal S2000x1 .f32) (v7 : Vec Ideal S2000x128 .f32) (v9 : Vec Ideal S2000x1 .f32)
    (v14 : Vec Ideal S2000x128 .f32) (v17 v20 v23 : Vec Ideal S128x128 .f32) (v26 : Vec Ideal S1x128 .f32) (p : Fin 2000) (q : Fin 128) :
    k2_pay2 (F := Ideal) v0 v2 v7 v9 v14 v17 v20 v23 v26 (ix2 p q) = preBK (N := 2000) v0 v2 v7 v9 v14 v17 v20 v23 v26 p q := by
  unfold k2_pay2 preBK
  simp only [shapeCast_self]
  rw [addf_apply, addf_apply, addf_apply, matmul_at, matmul_at, matmul_at, broadcastTo_1b_ab_apply]
  simp only [truncf_apply, mulf_apply, broadcastTo_a1_ab_apply]

/-- What the body leaves in the output block, entry by entry: the heads' map of the rectified "b" rows of the block. -/
theorem out_block (x0 : Vec Ideal S2000x128 .f32) (x1 : Vec Ideal S2000x1 .f32) (x2 : Vec Ideal S2000x128 .f32) (x3 : Vec Ideal S2000x1 .f32)
    (x4 : Vec Ideal S2000x128 .f32) (x5 x6 x7 : Vec Ideal S128x128 .f32) (x8 : Vec Ideal S1x128 .f32) (x9 : Vec Ideal S128x128 .f32)
    (x10 : Vec Ideal S1x128 .f32) (p : Fin 2000) (q : Fin 128) :
    out2_11 (F := Ideal) x0 x1 x2 x3 x4 x5 x6 x7 x8 x9 x10 (ix2 p q) = headsK (N := 2000) x0 x1 x2 x3 x4 x5 x6 x7 x8 x9 x10 (ix2 p q) := by
  unfold out2_11
  rw [View.canon_unit_zero hz]
  simp only [View.ld_unit_zero (S := S2000x128) hz, View.ld_unit_zero (S := S2000x1) hz, View.ld_unit_zero (S := S128x128) hz,
    View.ld_unit_zero (S := S1x128) hz]
  unfold k2_pay1 k2_pay3 headsK
  simp only [shapeCast_self]
  rw [addf_apply, matmul_at, broadcastTo_1b_ab_apply]
  refine congrArg (· + x10 (ix2 (0 : Fin 1) q)) (Finset.sum_congr rfl fun k _ => ?_)
  rw [truncf_apply, truncf_apply, select_apply, cmpf_apply, mulf_apply, broadcast_apply, broadcast_apply, pay2_at]
  exact congrArg (· * x9 (ix2 k q)) (select_gt_zero _)

/-! ## Where each window's block sits, at every point of the grid -/

/-- Window 0 moves down the rows with the point: block index (t, 0). -/
theorem index_rows0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
/-- Window 1 moves down the rows with the point: block index (t, 0). -/
theorem index_rows1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
/-- Window 2 moves down the rows with the point: block index (t, 0). -/
theorem index_rows2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)
/-- Window 3 moves down the rows with the point: block index (t, 0). -/
theorem index_rows3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)
/-- Window 4 moves down the rows with the point: block index (t, 0). -/
theorem index_rows4 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)
/-- Window 11 moves down the rows with the point: block index (t, 0). -/
theorem index_rows11 : ∀ t : Fin cfg2.N, win2_11.index t (0 : Fin 2) = t.val ∧ win2_11.index t (1 : Fin 2) = 0 :=
  (by decide +kernel : ∀ t : Fin grid2.N, win2_11.index t (0 : Fin 2) = t.val ∧ win2_11.index t (1 : Fin 2) = 0)
/-- Window 5 stays on its one block: block index (0, 0). -/
theorem index_fixed5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
/-- Window 6 stays on its one block: block index (0, 0). -/
theorem index_fixed6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
/-- Window 7 stays on its one block: block index (0, 0). -/
theorem index_fixed7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
/-- Window 8 stays on its one block: block index (0, 0). -/
theorem index_fixed8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
/-- Window 9 stays on its one block: block index (0, 0). -/
theorem index_fixed9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
/-- Window 10 stays on its one block: block index (0, 0). -/
theorem index_fixed10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)

/-! ## Each input block as entries of its array -/

variable (V : (c : Dev nD) → (b : Ref sig .tc) → Buf (Elt Ideal) ((c : Thread nD τ).loc b))

/-- Entry y of window 0's block at point t is the array's entry 2000 · t rows further down. -/
theorem rows0_read (c : Dev nD) (t : Fin cfg2.N) (y : S2000x128.Idx) (i : S100000x128.Idx)
    (h0 : (i 0).val = t.val * 2000 + (y 0).val) (h1 : (i 1).val = (y 1).val) :
    (iblk2 V c 0 t : Vec Ideal S2000x128 .f32) y = (V c main_v86 : S100000x128.Idx → EReal) i := by
  have hi := index_rows0 t
  unfold iblk2
  rw [View.read_apply]
  show V c main_v86 _ = V c main_v86 _
  congr 1
  funext a
  apply Fin.ext
  match a with
  | ⟨0, _⟩ => show win2_0.index t (0 : Fin 2) * 2000 + 1 * (y 0).val = (i 0).val; rw [hi.1, h0]; omega
  | ⟨1, _⟩ => show win2_0.index t (1 : Fin 2) * 128 + 1 * (y 1).val = (i 1).val; rw [hi.2, h1]; omega
/-- Entry y of window 1's block at point t is the array's entry 2000 · t rows further down. -/
theorem rows1_read (c : Dev nD) (t : Fin cfg2.N) (y : S2000x1.Idx) (i : S100000x1.Idx)
    (h0 : (i 0).val = t.val * 2000 + (y 0).val) (h1 : (i 1).val = (y 1).val) :
    (iblk2 V c 1 t : Vec Ideal S2000x1 .f32) y = (V c main_v28 : S100000x1.Idx → EReal) i := by
  have hi := index_rows1 t
  unfold iblk2
  rw [View.read_apply]
  show V c main_v28 _ = V c main_v28 _
  congr 1
  funext a
  apply Fin.ext
  match a with
  | ⟨0, _⟩ => show win2_1.index t (0 : Fin 2) * 2000 + 1 * (y 0).val = (i 0).val; rw [hi.1, h0]; omega
  | ⟨1, _⟩ => show win2_1.index t (1 : Fin 2) * 1 + 1 * (y 1).val = (i 1).val; rw [hi.2, h1]; omega
/-- Entry y of window 2's block at point t is the array's entry 2000 · t rows further down. -/
theorem rows2_read (c : Dev nD) (t : Fin cfg2.N) (y : S2000x128.Idx) (i : S100000x128.Idx)
    (h0 : (i 0).val = t.val * 2000 + (y 0).val) (h1 : (i 1).val = (y 1).val) :
    (iblk2 V c 2 t : Vec Ideal S2000x128 .f32) y = (V c main_v90 : S100000x128.Idx → EReal) i := by
  have hi := index_rows2 t
  unfold iblk2
  rw [View.read_apply]
  show V c main_v90 _ = V c main_v90 _
  congr 1
  funext a
  apply Fin.ext
  match a with
  | ⟨0, _⟩ => show win2_2.index t (0 : Fin 2) * 2000 + 1 * (y 0).val = (i 0).val; rw [hi.1, h0]; omega
  | ⟨1, _⟩ => show win2_2.index t (1 : Fin 2) * 128 + 1 * (y 1).val = (i 1).val; rw [hi.2, h1]; omega
/-- Entry y of window 3's block at point t is the array's entry 2000 · t rows further down. -/
theorem rows3_read (c : Dev nD) (t : Fin cfg2.N) (y : S2000x1.Idx) (i : S100000x1.Idx)
    (h0 : (i 0).val = t.val * 2000 + (y 0).val) (h1 : (i 1).val = (y 1).val) :
    (iblk2 V c 3 t : Vec Ideal S2000x1 .f32) y = (V c main_v33 : S100000x1.Idx → EReal) i := by
  have hi := index_rows3 t
  unfold iblk2
  rw [View.read_apply]
  show V c main_v33 _ = V c main_v33 _
  congr 1
  funext a
  apply Fin.ext
  match a with
  | ⟨0, _⟩ => show win2_3.index t (0 : Fin 2) * 2000 + 1 * (y 0).val = (i 0).val; rw [hi.1, h0]; omega
  | ⟨1, _⟩ => show win2_3.index t (1 : Fin 2) * 1 + 1 * (y 1).val = (i 1).val; rw [hi.2, h1]; omega
/-- Entry y of window 4's block at point t is the array's entry 2000 · t rows further down. -/
theorem rows4_read (c : Dev nD) (t : Fin cfg2.N) (y : S2000x128.Idx) (i : S100000x128.Idx)
    (h0 : (i 0).val = t.val * 2000 + (y 0).val) (h1 : (i 1).val = (y 1).val) :
    (iblk2 V c 4 t : Vec Ideal S2000x128 .f32) y = (V c main_v74 : S100000x128.Idx → EReal) i := by
  have hi := index_rows4 t
  unfold iblk2
  rw [View.read_apply]
  show V c main_v74 _ = V c main_v74 _
  congr 1
  funext a
  apply Fin.ext
  match a with
  | ⟨0, _⟩ => show win2_4.index t (0 : Fin 2) * 2000 + 1 * (y 0).val = (i 0).val; rw [hi.1, h0]; omega
  | ⟨1, _⟩ => show win2_4.index t (1 : Fin 2) * 128 + 1 * (y 1).val = (i 1).val; rw [hi.2, h1]; omega
/-- Window 5's block is its whole array at every point. -/
theorem fixed5_read (c : Dev nD) (t : Fin cfg2.N) :
    (iblk2 V c 5 t : Vec Ideal S128x128 .f32) = (V c main_v103 : S128x128.Idx → EReal) := by
  have hi := index_fixed5 t
  funext y
  unfold iblk2
  rw [View.read_apply]
  show V c main_v103 _ = V c main_v103 _
  congr 1
  funext a
  apply Fin.ext
  match a with
  | ⟨0, _⟩ => show win2_5.index t (0 : Fin 2) * 128 + 1 * (y 0).val = (y 0).val; rw [hi.1]; omega
  | ⟨1, _⟩ => show win2_5.index t (1 : Fin 2) * 128 + 1 * (y 1).val = (y 1).val; rw [hi.2]; omega
/-- Window 6's block is its whole array at every point. -/
theorem fixed6_read (c : Dev nD) (t : Fin cfg2.N) :
    (iblk2 V c 6 t : Vec Ideal S128x128 .f32) = (V c main_v105 : S128x128.Idx → EReal) := by
  have hi := index_fixed6 t
  funext y
  unfold iblk2
  rw [View.read_apply]
  show V c main_v105 _ = V c main_v105 _
  congr 1
  funext a
  apply Fin.ext
  match a with
  | ⟨0, _⟩ => show win2_6.index t (0 : Fin 2) * 128 + 1 * (y 0).val = (y 0).val; rw [hi.1]; omega
  | ⟨1, _⟩ => show win2_6.index t (1 : Fin 2) * 128 + 1 * (y 1).val = (y 1).val; rw [hi.2]; omega
/-- Window 7's block is its whole array at every point. -/
theorem fixed7_read (c : Dev nD) (t : Fin cfg2.N) :
    (iblk2 V c 7 t : Vec Ideal S128x128 .f32) = (V c main_v95 : S128x128.Idx → EReal) := by
  have hi := index_fixed7 t
  funext y
  unfold iblk2
  rw [View.read_apply]
  show V c main_v95 _ = V c main_v95 _
  congr 1
  funext a
  apply Fin.ext
  match a with
  | ⟨0, _⟩ => show win2_7.index t (0 : Fin 2) * 128 + 1 * (y 0).val = (y 0).val; rw [hi.1]; omega
  | ⟨1, _⟩ => show win2_7.index t (1 : Fin 2) * 128 + 1 * (y 1).val = (y 1).val; rw [hi.2]; omega
/-- Window 8's block is its whole array at every point. -/
theorem fixed8_read (c : Dev nD) (t : Fin cfg2.N) :
    (iblk2 V c 8 t : Vec Ideal S1x128 .f32) = (V c main_v101 : S1x128.Idx → EReal) := by
  have hi := index_fixed8 t
  funext y
  unfold iblk2
  rw [View.read_apply]
  show V c main_v101 _ = V c main_v101 _
  congr 1
  funext a
  apply Fin.ext
  match a with
  | ⟨0, _⟩ => show win2_8.index t (0 : Fin 2) * 1 + 1 * (y 0).val = (y 0).val; rw [hi.1]; omega
  | ⟨1, _⟩ => show win2_8.index t (1 : Fin 2) * 128 + 1 * (y 1).val = (y 1).val; rw [hi.2]; omega
/-- Window 9's block is its whole array at every point. -/
theorem fixed9_read (c : Dev nD) (t : Fin cfg2.N) :
    (iblk2 V c 9 t : Vec Ideal S128x128 .f32) = (V c main_v46 : S128x128.Idx → EReal) := by
  have hi := index_fixed9 t
  funext y
  unfold iblk2
  rw [View.read_apply]
  show V c main_v46 _ = V c main_v46 _
  congr 1
  funext a
  apply Fin.ext
  match a with
  | ⟨0, _⟩ => show win2_9.index t (0 : Fin 2) * 128 + 1 * (y 0).val = (y 0).val; rw [hi.1]; omega
  | ⟨1, _⟩ => show win2_9.index t (1 : Fin 2) * 128 + 1 * (y 1).val = (y 1).val; rw [hi.2]; omega
/-- Window 10's block is its whole array at every point. -/
theorem fixed10_read (c : Dev nD) (t : Fin cfg2.N) :
    (iblk2 V c 10 t : Vec Ideal S1x128 .f32) = (V c main_v45 : S1x128.Idx → EReal) := by
  have hi := index_fixed10 t
  funext y
  unfold iblk2
  rw [View.read_apply]
  show V c main_v45 _ = V c main_v45 _
  congr 1
  funext a
  apply Fin.ext
  match a with
  | ⟨0, _⟩ => show win2_10.index t (0 : Fin 2) * 1 + 1 * (y 0).val = (y 0).val; rw [hi.1]; omega
  | ⟨1, _⟩ => show win2_10.index t (1 : Fin 2) * 128 + 1 * (y 1).val = (y 1).val; rw [hi.2]; omega

/-! ## From the blocks to the array -/

/-- The heads' map of a row depends on that row of the row arrays only: two families of arrays that agree on a row
    of each, with the same weights, give the same row of results. -/
theorem headsK_row {M N : Nat} (x0 : Arr (Rows M)) (x1 : Arr (Col M)) (x2 : Arr (Rows M)) (x3 : Arr (Col M)) (x4 : Arr (Rows M))
    (a0 : Arr (Rows N)) (a1 : Arr (Col N)) (a2 : Arr (Rows N)) (a3 : Arr (Col N)) (a4 : Arr (Rows N))
    (w0 w1 wr : Arr Sq) (bl : Arr Row1) (wh : Arr Sq) (bh : Arr Row1) (w0' w1' wr' : Arr Sq) (bl' : Arr Row1) (wh' : Arr Sq) (bh' : Arr Row1)
    (p : Fin M) (r : Fin N) (q : Fin 128)
    (h0 : ∀ k : Fin 128, x0 (ix2 p k) = a0 (ix2 r k)) (h1 : x1 (ix2 p 0) = a1 (ix2 r 0))
    (h2 : ∀ k : Fin 128, x2 (ix2 p k) = a2 (ix2 r k)) (h3 : x3 (ix2 p 0) = a3 (ix2 r 0))
    (h4 : ∀ k : Fin 128, x4 (ix2 p k) = a4 (ix2 r k))
    (h5 : w0 = w0') (h6 : w1 = w1') (h7 : wr = wr') (h8 : bl = bl') (h9 : wh = wh') (h10 : bh = bh') :
    headsK x0 x1 x2 x3 x4 w0 w1 wr bl wh bh (ix2 p q) = headsK a0 a1 a2 a3 a4 w0' w1' wr' bl' wh' bh' (ix2 r q) := by
  subst h5 h6 h7 h8 h9 h10
  have e : ∀ k : Fin 128, preBK x0 x1 x2 x3 x4 w0 w1 wr bl p k = preBK a0 a1 a2 a3 a4 w0 w1 wr bl r k := by
    intro k
    unfold preBK
    simp only [h0, h1, h2, h3, h4]
  show (∑ k : Fin 128, lreluK (preBK x0 x1 x2 x3 x4 w0 w1 wr bl p k) * wh (ix2 k q)) + bh (ix2 0 q)
    = (∑ k : Fin 128, lreluK (preBK a0 a1 a2 a3 a4 w0 w1 wr bl r k) * wh (ix2 k q)) + bh (ix2 0 q)
  simp only [e]

/-- The whole output array of the region as one function of the arrays the region finds. -/
abbrev result (c : Dev nD) : S100000x128.Idx → EReal :=
  headsK (N := 100000) (V c main_v86 : S100000x128.Idx → EReal) (V c main_v28 : S100000x1.Idx → EReal)
    (V c main_v90 : S100000x128.Idx → EReal) (V c main_v33 : S100000x1.Idx → EReal) (V c main_v74 : S100000x128.Idx → EReal)
    (V c main_v103 : S128x128.Idx → EReal) (V c main_v105 : S128x128.Idx → EReal) (V c main_v95 : S128x128.Idx → EReal)
    (V c main_v101 : S1x128.Idx → EReal) (V c main_v46 : S128x128.Idx → EReal) (V c main_v45 : S1x128.Idx → EReal)

/-- Entry j of the output block at point t is the function's entry 2000 · t rows further down. -/
theorem out_rows (c : Dev nD) (t : Fin cfg2.N) (j : S2000x128.Idx) (i : S100000x128.Idx)
    (h0 : (i 0).val = t.val * 2000 + (j 0).val) (h1 : (i 1).val = (j 1).val) :
    out2_11 (F := Ideal) (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) j = result V c i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  have hr : r.val = t.val * 2000 + p.val := h0
  refine (out_block (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) p q').trans ?_
  exact headsK_row (M := 2000) (N := 100000) (iblk2 V c 0 t) (iblk2 V c 1 t) (iblk2 V c 2 t) (iblk2 V c 3 t) (iblk2 V c 4 t)
    (V c main_v86 : S100000x128.Idx → EReal) (V c main_v28 : S100000x1.Idx → EReal)
    (V c main_v90 : S100000x128.Idx → EReal) (V c main_v33 : S100000x1.Idx → EReal) (V c main_v74 : S100000x128.Idx → EReal)
    (iblk2 V c 5 t) (iblk2 V c 6 t) (iblk2 V c 7 t) (iblk2 V c 8 t) (iblk2 V c 9 t) (iblk2 V c 10 t)
    (V c main_v103 : S128x128.Idx → EReal) (V c main_v105 : S128x128.Idx → EReal) (V c main_v95 : S128x128.Idx → EReal)
    (V c main_v101 : S1x128.Idx → EReal) (V c main_v46 : S128x128.Idx → EReal) (V c main_v45 : S1x128.Idx → EReal)
    p r q'
    (fun k => rows0_read V c t (ix2 p k) (ix2 r k) hr rfl) (rows1_read V c t (ix2 p (0 : Fin 1)) (ix2 r (0 : Fin 1)) hr rfl)
    (fun k => rows2_read V c t (ix2 p k) (ix2 r k) hr rfl) (rows3_read V c t (ix2 p (0 : Fin 1)) (ix2 r (0 : Fin 1)) hr rfl)
    (fun k => rows4_read V c t (ix2 p k) (ix2 r k) hr rfl)
    (fixed5_read V c t) (fixed6_read V c t) (fixed7_read V c t) (fixed8_read V c t) (fixed9_read V c t) (fixed10_read V c t)

/-- What point t writes back is rows 2000 t … 2000 t + 1999 of that function. -/
theorem flushed_eq (c : Dev nD) (t : Fin cfg2.N) :
    (dat2 (F := Ideal) V c).flushed 11 t = ((cfg2.win 11).blk t).view.read (Elt Ideal) (result V c) := by
  show (cfg2.win 11).cut (grid2.coords t) ((dat2 (F := Ideal) V c).after 11 t) = _
  rw [after2_11]
  have hi := index_rows11 t
  funext y
  rw [View.read_apply]
  refine out_rows V c t _ _ ?_ ?_
  · show win2_11.index t (0 : Fin 2) * 2000 + 1 * (y 0).val = t.val * 2000 + (y 0).val
    rw [hi.1]; omega
  · show win2_11.index t (1 : Fin 2) * 128 + 1 * (y 1).val = (y 1).val
    rw [hi.2]; omega

/-- An entry of the array is in point t's block iff its row is one of the block's 2000 and its column any of the 128. -/
theorem mem_blk (t : Fin cfg2.N) (i : S100000x128.Idx) :
    i ∈ ((cfg2.win 11).blk t).view.set ↔ ∀ a : Fin 2, win2_11.index t a * S2000x128.size a ≤ (i a).val ∧ (i a).val < win2_11.index t a * S2000x128.size a + S2000x128.size a := by
  show i ∈ ((View.whole main_v106).slice (win2_11.rect t)).set ↔ _
  rw [View.set_slice_whole, Rect.mem_set_unit]
  exact Iff.rfl

/-- Every entry is in some point's block: row r is in the block of point r / 2000. -/
theorem covered (i : S100000x128.Idx) : ∃ t : Fin cfg2.N, (cfg2.win 11).flush t = true ∧ i ∈ ((cfg2.win 11).blk t).view.set := by
  have hi0 : (i 0).val < 100000 := (i 0).isLt
  have hi1 : (i 1).val < 128 := (i 1).isLt
  have hN : cfg2.N = 50 := rfl
  let t : Fin cfg2.N := ⟨(i 0).val / 2000, by rw [hN]; omega⟩
  have hi := index_rows11 t
  have ht : t.val = (i 0).val / 2000 := rfl
  refine ⟨t, flush2_11 t, ?_⟩
  rw [mem_blk]
  intro a
  match a with
  | ⟨0, _⟩ => show win2_11.index t (0 : Fin 2) * 2000 ≤ (i 0).val ∧ (i 0).val < win2_11.index t (0 : Fin 2) * 2000 + 2000; rw [hi.1, ht]; omega
  | ⟨1, _⟩ => show win2_11.index t (1 : Fin 2) * 128 ≤ (i 1).val ∧ (i 1).val < win2_11.index t (1 : Fin 2) * 128 + 128; rw [hi.2]; omega

/-- After the region, its output array is the heads' map of the arrays the region found. -/
theorem region2_arr (c : Dev nD) :
    (dat2 (F := Ideal) V c).arrAt 11 cfg2.N = headsK (N := 100000) (V c main_v86 : S100000x128.Idx → EReal) (V c main_v28 : S100000x1.Idx → EReal)
      (V c main_v90 : S100000x128.Idx → EReal) (V c main_v33 : S100000x1.Idx → EReal) (V c main_v74 : S100000x128.Idx → EReal)
      (V c main_v103 : S128x128.Idx → EReal) (V c main_v105 : S128x128.Idx → EReal) (V c main_v95 : S128x128.Idx → EReal)
      (V c main_v101 : S1x128.Idx → EReal) (V c main_v46 : S128x128.Idx → EReal) (V c main_v45 : S1x128.Idx → EReal) :=
  (dat2 (F := Ideal) V c).arrAt_eq_of_cover 11 (result V c) (fun t _ => flushed_eq V c t) covered

end Cert.KernelIdeal.RegionValue2

end
-- ==== Proof.KVal2.lean ====
/-
  The kernel program's result: the last kernel's whole-array function of the arrays it found when it started (the
  segment sums of the rows after layer 0, the reciprocal clamped in-degrees, the weights and bias rows of layer 1, the
  padded head weights and biases), cut to its first 8 columns by the last host operation.

  Between the second kernel and the last one the host does for layer 1 what it did for layer 0: it gathers the "b" rows
  after layer 0 at the b→b source ids and adds them up per destination node, the same with the "s" rows over the s→b
  edges, and cuts layer 1's weight matrices and biases out of the stacked parameters (the two right-hand matrices and
  the two biases added). Each of these four stretches is read once, from whatever contents it starts at; a buffer a
  stretch does not write is carried over unchanged. The last kernel's output array is then the heads' map of these
  arrays, and the one operation after it keeps the first 8 of the 128 padded columns.
-/
import proofs.«424018_j64587718197893_2_alg».proof.Proof.KVal1
import proofs.«424018_j64587718197893_2_alg».proof.Proof.KRegion2
import Idealize.ShloMosaic.Lib.StableHlo.Run

noncomputable section

namespace Cert.KernelIdeal.ValueChain

open Idealize.ShloMosaic Idealize.ShloMosaic.TcCoe Idealize.SL.Sem
open Cert.KernelIdeal Cert.KernelIdeal.Gen Cert.KernelIdeal.HostVal

variable (m : (ℓ : Loc nD τ sig) → Buf (Elt Ideal) ℓ) (ρ : Dev nD → PrngReg) (c : Dev nD)

/-! ## Contents at a buffer's own type

The operations of the two gathering stretches carry each operand at the type of the tensor value it holds and move it
to the buffer's own type and back; the two moves cancel, and at a named buffer each is the identity. -/

/-- Moving contents to the buffer's type and back gives them again. -/
theorem ofBuf_toBuf {T : BufTy} (x : StableHlo.TRef sig T) (v : T.Contents (Elt Ideal)) : x.ofBuf (x.toBuf v) = v := by
  unfold StableHlo.TRef.ofBuf StableHlo.TRef.toBuf
  rw [cast_cast, cast_eq]

/-! ## What each stretch computes, from any contents it may start at -/

/-- The first gathering stretch leaves in its last buffer the rows of buffer 74 at the ids of buffer 1 (the fill value
    where an id is out of range). -/
theorem gatherBB_of (V : Valuation τ sig (Elt Ideal)) :
    (StableHlo.TRef.of (sig := sig) (T := ⟨S800000x128, .f32⟩) main_v83).ofBuf (StableHlo.after (hostOps2 (F := Ideal)) V (Proc.devRef .tc main_v83))
      = takeBB ((StableHlo.TRef.of (sig := sig) (T := ⟨S100000x128, .f32⟩) main_v74).ofBuf (V (Proc.devRef .tc main_v74)))
          ((StableHlo.TRef.of (sig := sig) (T := ⟨S800000, .i32⟩) main_v1).ofBuf (V (Proc.devRef .tc main_v1))) := by
  after_results_simp
  simp only [ofBuf_toBuf]
  rfl

/-- The sum per destination node that follows it. -/
theorem sumBB_of (V : Valuation τ sig (Elt Ideal)) :
    StableHlo.after (hostOps2_1 (F := Ideal)) V (Proc.devRef .tc main_v86)
      = Host.scatterAdd scatter_S100000x128_S800000x1_S800000x128_1_0_0_1
          (broadcastInDim S100000x128 ![] bcast_S_S100000x128 (constant (F := Ideal) S_ .f32 0x00000000#32))
          (broadcastInDim S800000x1 ![0] bcast_S800000_S800000x1_0 (V (Proc.devRef .tc main_v3)))
          (V (Proc.devRef .tc main_v83)) := by
  after_results

/-- The second gathering stretch: the rows of buffer 82 at the ids of buffer 5. -/
theorem gatherSB_of (V : Valuation τ sig (Elt Ideal)) :
    (StableHlo.TRef.of (sig := sig) (T := ⟨S400000x128, .f32⟩) main_v87).ofBuf (StableHlo.after (hostOps2_2 (F := Ideal)) V (Proc.devRef .tc main_v87))
      = takeSB ((StableHlo.TRef.of (sig := sig) (T := ⟨S50000x128, .f32⟩) main_v82).ofBuf (V (Proc.devRef .tc main_v82)))
          ((StableHlo.TRef.of (sig := sig) (T := ⟨S400000, .i32⟩) main_v5).ofBuf (V (Proc.devRef .tc main_v5))) := by
  after_results_simp
  simp only [ofBuf_toBuf]
  rfl

/-- The sum per destination node that follows it. -/
theorem sumSB_of (V : Valuation τ sig (Elt Ideal)) :
    StableHlo.after (hostOps2_3 (F := Ideal)) V (Proc.devRef .tc main_v90)
      = Host.scatterAdd scatter_S100000x128_S400000x1_S400000x128_1_0_0_1
          (broadcastInDim S100000x128 ![] bcast_S_S100000x128 (constant (F := Ideal) S_ .f32 0x00000000#32))
          (broadcastInDim S400000x1 ![0] bcast_S400000_S400000x1_0 (V (Proc.devRef .tc main_v7)))
          (V (Proc.devRef .tc main_v87)) := by
  after_results

/-- Layer 1's two right-hand matrices, added. -/
theorem wr1_of (V : Valuation τ sig (Elt Ideal)) :
    StableHlo.after (hostOps2_3 (F := Ideal)) V (Proc.devRef .tc main_v95) = wrSum1 (V (Proc.devRef .tc main_arg4)) := by
  after_results
  rfl

/-- Layer 1's two biases, added, as a row. -/
theorem bl1_of (V : Valuation τ sig (Elt Ideal)) :
    StableHlo.after (hostOps2_3 (F := Ideal)) V (Proc.devRef .tc main_v101) = blSum1 (V (Proc.devRef .tc main_arg3)) := by
  after_results
  rfl

/-- Layer 1's two left matrices. -/
theorem w10_of (V : Valuation τ sig (Elt Ideal)) :
    StableHlo.after (hostOps2_3 (F := Ideal)) V (Proc.devRef .tc main_v103) = w10 (V (Proc.devRef .tc main_arg2)) := by
  after_results
  rfl
theorem w11_of (V : Valuation τ sig (Elt Ideal)) :
    StableHlo.after (hostOps2_3 (F := Ideal)) V (Proc.devRef .tc main_v105) = w11 (V (Proc.devRef .tc main_arg2)) := by
  after_results
  rfl

/-- The last operation keeps the first 8 columns of the last kernel's array. -/
theorem slice_of (V : Valuation τ sig (Elt Ideal)) :
    StableHlo.after (hostOps3 (F := Ideal)) V (Proc.devRef .tc main_v107)
      = extractStridedSlice S100000x8 ![0, 0] (V (Proc.devRef .tc main_v106)) slices_S100000x128_S100000x8_0_0 := by
  after_results

/-! ## After the first gathering stretch -/

/-- The buffers the operations of the stretch that gathers the "b" rows at the b→b source ids write. -/
abbrev written11 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v83]
theorem hostOps2_writes : (hostOps2 : List (HloOp τ sig (Elt Ideal))).Forall fun op => op.writes ⊆ (written11.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩
/-- A buffer outside that list holds after the stretch what it held before it. -/
theorem W11_of (r : Ref sig .tc) (h : r ∉ written11) : W11 (F := Ideal) m ρ c (Proc.devRef .tc r) = W10 m ρ c (Proc.devRef .tc r) :=
  StableHlo.after_of_writes_sub hostOps2 _ hostOps2_writes h

theorem W11_v3 : W11 (F := Ideal) m ρ c (Proc.devRef .tc main_v3) = dstBB (A7 m c) :=
  (W11_of m ρ c main_v3 (by decide)).trans (W10_v3 m ρ c)
theorem W11_v5 : W11 (F := Ideal) m ρ c (Proc.devRef .tc main_v5) = src4 (A8 m c) :=
  (W11_of m ρ c main_v5 (by decide)).trans (W10_v5 m ρ c)
theorem W11_v7 : W11 (F := Ideal) m ρ c (Proc.devRef .tc main_v7) = dst4 (A8 m c) :=
  (W11_of m ρ c main_v7 (by decide)).trans (W10_v7 m ρ c)
theorem W11_v82 : W11 (F := Ideal) m ρ c (Proc.devRef .tc main_v82) = XS1 m c :=
  (W11_of m ρ c main_v82 (by decide)).trans (W10_v82 m ρ c)
theorem W11_v28 : W11 (F := Ideal) m ρ c (Proc.devRef .tc main_v28) = invBB (dstBB (A7 m c)) :=
  (W11_of m ρ c main_v28 (by decide)).trans (W10_v28 m ρ c)
theorem W11_v33 : W11 (F := Ideal) m ρ c (Proc.devRef .tc main_v33) = invSB (dst4 (A8 m c)) :=
  (W11_of m ρ c main_v33 (by decide)).trans (W10_v33 m ρ c)
theorem W11_v74 : W11 (F := Ideal) m ρ c (Proc.devRef .tc main_v74) = XB1 m c :=
  (W11_of m ρ c main_v74 (by decide)).trans (W10_v74 m ρ c)
theorem W11_v45 : W11 (F := Ideal) m ρ c (Proc.devRef .tc main_v45) = bhRow (A6 m c) :=
  (W11_of m ρ c main_v45 (by decide)).trans (W10_v45 m ρ c)
theorem W11_v46 : W11 (F := Ideal) m ρ c (Proc.devRef .tc main_v46) = whT (A5 m c) :=
  (W11_of m ρ c main_v46 (by decide)).trans (W10_v46 m ρ c)
theorem W11_arg2 : W11 (F := Ideal) m ρ c (Proc.devRef .tc main_arg2) = A2 m c :=
  (W11_of m ρ c main_arg2 (by decide)).trans (W10_arg2 m ρ c)
theorem W11_arg3 : W11 (F := Ideal) m ρ c (Proc.devRef .tc main_arg3) = A3 m c :=
  (W11_of m ρ c main_arg3 (by decide)).trans (W10_arg3 m ρ c)
theorem W11_arg4 : W11 (F := Ideal) m ρ c (Proc.devRef .tc main_arg4) = A4 m c :=
  (W11_of m ρ c main_arg4 (by decide)).trans (W10_arg4 m ρ c)

/-- The "b" rows after layer 0 at the b→b source ids. -/
theorem W11_v83 : W11 (F := Ideal) m ρ c (Proc.devRef .tc main_v83) = takeBB (XB1 m c) (srcBB (A7 m c)) := by
  refine (gatherBB_of (W10 (F := Ideal) m ρ c)).trans ?_
  show takeBB (W10 (F := Ideal) m ρ c (Proc.devRef .tc main_v74)) (W10 (F := Ideal) m ρ c (Proc.devRef .tc main_v1)) = _
  rw [W10_v74, W10_v1]

/-! ## After their sum per destination -/

/-- The buffers the operations of the stretch that adds the gathered rows up per b→b destination write. -/
abbrev written12 : List (Ref sig .tc) := [main_cst_17, main_v84, main_v85, main_v86]
theorem hostOps2_1_writes : (hostOps2_1 : List (HloOp τ sig (Elt Ideal))).Forall fun op => op.writes ⊆ (written12.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩
/-- A buffer outside that list holds after the stretch what it held before it. -/
theorem W12_of (r : Ref sig .tc) (h : r ∉ written12) : W12 (F := Ideal) m ρ c (Proc.devRef .tc r) = W11 m ρ c (Proc.devRef .tc r) :=
  StableHlo.after_of_writes_sub hostOps2_1 _ hostOps2_1_writes h

theorem W12_v5 : W12 (F := Ideal) m ρ c (Proc.devRef .tc main_v5) = src4 (A8 m c) :=
  (W12_of m ρ c main_v5 (by decide)).trans (W11_v5 m ρ c)
theorem W12_v7 : W12 (F := Ideal) m ρ c (Proc.devRef .tc main_v7) = dst4 (A8 m c) :=
  (W12_of m ρ c main_v7 (by decide)).trans (W11_v7 m ρ c)
theorem W12_v82 : W12 (F := Ideal) m ρ c (Proc.devRef .tc main_v82) = XS1 m c :=
  (W12_of m ρ c main_v82 (by decide)).trans (W11_v82 m ρ c)
theorem W12_v28 : W12 (F := Ideal) m ρ c (Proc.devRef .tc main_v28) = invBB (dstBB (A7 m c)) :=
  (W12_of m ρ c main_v28 (by decide)).trans (W11_v28 m ρ c)
theorem W12_v33 : W12 (F := Ideal) m ρ c (Proc.devRef .tc main_v33) = invSB (dst4 (A8 m c)) :=
  (W12_of m ρ c main_v33 (by decide)).trans (W11_v33 m ρ c)
theorem W12_v74 : W12 (F := Ideal) m ρ c (Proc.devRef .tc main_v74) = XB1 m c :=
  (W12_of m ρ c main_v74 (by decide)).trans (W11_v74 m ρ c)
theorem W12_v45 : W12 (F := Ideal) m ρ c (Proc.devRef .tc main_v45) = bhRow (A6 m c) :=
  (W12_of m ρ c main_v45 (by decide)).trans (W11_v45 m ρ c)
theorem W12_v46 : W12 (F := Ideal) m ρ c (Proc.devRef .tc main_v46) = whT (A5 m c) :=
  (W12_of m ρ c main_v46 (by decide)).trans (W11_v46 m ρ c)
theorem W12_arg2 : W12 (F := Ideal) m ρ c (Proc.devRef .tc main_arg2) = A2 m c :=
  (W12_of m ρ c main_arg2 (by decide)).trans (W11_arg2 m ρ c)
theorem W12_arg3 : W12 (F := Ideal) m ρ c (Proc.devRef .tc main_arg3) = A3 m c :=
  (W12_of m ρ c main_arg3 (by decide)).trans (W11_arg3 m ρ c)
theorem W12_arg4 : W12 (F := Ideal) m ρ c (Proc.devRef .tc main_arg4) = A4 m c :=
  (W12_of m ρ c main_arg4 (by decide)).trans (W11_arg4 m ρ c)

/-- The segment sum of the "b" rows after layer 0 over the b→b edges. -/
theorem W12_v86 : W12 (F := Ideal) m ρ c (Proc.devRef .tc main_v86) = segBB (XB1 m c) (srcBB (A7 m c)) (dstBB (A7 m c)) := by
  refine (sumBB_of (W11 (F := Ideal) m ρ c)).trans ?_
  rw [W11_v3, W11_v83]
  rfl

/-! ## After the second gathering stretch -/

/-- The buffers the operations of the stretch that gathers the "s" rows at the s→b source ids write. -/
abbrev written13 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v87]
theorem hostOps2_2_writes : (hostOps2_2 : List (HloOp τ sig (Elt Ideal))).Forall fun op => op.writes ⊆ (written13.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩
/-- A buffer outside that list holds after the stretch what it held before it. -/
theorem W13_of (r : Ref sig .tc) (h : r ∉ written13) : W13 (F := Ideal) m ρ c (Proc.devRef .tc r) = W12 m ρ c (Proc.devRef .tc r) :=
  StableHlo.after_of_writes_sub hostOps2_2 _ hostOps2_2_writes h

theorem W13_v86 : W13 (F := Ideal) m ρ c (Proc.devRef .tc main_v86) = segBB (XB1 m c) (srcBB (A7 m c)) (dstBB (A7 m c)) :=
  (W13_of m ρ c main_v86 (by decide)).trans (W12_v86 m ρ c)
theorem W13_v7 : W13 (F := Ideal) m ρ c (Proc.devRef .tc main_v7) = dst4 (A8 m c) :=
  (W13_of m ρ c main_v7 (by decide)).trans (W12_v7 m ρ c)
theorem W13_v28 : W13 (F := Ideal) m ρ c (Proc.devRef .tc main_v28) = invBB (dstBB (A7 m c)) :=
  (W13_of m ρ c main_v28 (by decide)).trans (W12_v28 m ρ c)
theorem W13_v33 : W13 (F := Ideal) m ρ c (Proc.devRef .tc main_v33) = invSB (dst4 (A8 m c)) :=
  (W13_of m ρ c main_v33 (by decide)).trans (W12_v33 m ρ c)
theorem W13_v74 : W13 (F := Ideal) m ρ c (Proc.devRef .tc main_v74) = XB1 m c :=
  (W13_of m ρ c main_v74 (by decide)).trans (W12_v74 m ρ c)
theorem W13_v45 : W13 (F := Ideal) m ρ c (Proc.devRef .tc main_v45) = bhRow (A6 m c) :=
  (W13_of m ρ c main_v45 (by decide)).trans (W12_v45 m ρ c)
theorem W13_v46 : W13 (F := Ideal) m ρ c (Proc.devRef .tc main_v46) = whT (A5 m c) :=
  (W13_of m ρ c main_v46 (by decide)).trans (W12_v46 m ρ c)
theorem W13_arg2 : W13 (F := Ideal) m ρ c (Proc.devRef .tc main_arg2) = A2 m c :=
  (W13_of m ρ c main_arg2 (by decide)).trans (W12_arg2 m ρ c)
theorem W13_arg3 : W13 (F := Ideal) m ρ c (Proc.devRef .tc main_arg3) = A3 m c :=
  (W13_of m ρ c main_arg3 (by decide)).trans (W12_arg3 m ρ c)
theorem W13_arg4 : W13 (F := Ideal) m ρ c (Proc.devRef .tc main_arg4) = A4 m c :=
  (W13_of m ρ c main_arg4 (by decide)).trans (W12_arg4 m ρ c)

/-- The "s" rows after layer 0 at the s→b source ids. -/
theorem W13_v87 : W13 (F := Ideal) m ρ c (Proc.devRef .tc main_v87) = takeSB (XS1 m c) (src4 (A8 m c)) := by
  refine (gatherSB_of (W12 (F := Ideal) m ρ c)).trans ?_
  show takeSB (W12 (F := Ideal) m ρ c (Proc.devRef .tc main_v82)) (W12 (F := Ideal) m ρ c (Proc.devRef .tc main_v5)) = _
  rw [W12_v82, W12_v5]

/-! ## When the last kernel starts -/

/-- The buffers the operations of the stretch that adds those rows up per s→b destination and cuts layer 1's weights and biases out of the stacks write. -/
abbrev written14 : List (Ref sig .tc) := [main_cst_18, main_v88, main_v89, main_v90, main_v91, main_v92, main_v93, main_v94, main_v95, main_v96, main_v97, main_v98, main_v99, main_v100, main_v101, main_v102, main_v103, main_v104, main_v105]
theorem hostOps2_3_writes : (hostOps2_3 : List (HloOp τ sig (Elt Ideal))).Forall fun op => op.writes ⊆ (written14.map (Proc.devRef (τ := τ) .tc)).toFinset := by
  simp only [List.Forall]
  exact ⟨(by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide)),
    (by simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))⟩
/-- A buffer outside that list holds after the stretch what it held before it. -/
theorem W14_of (r : Ref sig .tc) (h : r ∉ written14) : W14 (F := Ideal) m ρ c (Proc.devRef .tc r) = W13 m ρ c (Proc.devRef .tc r) :=
  StableHlo.after_of_writes_sub hostOps2_3 _ hostOps2_3_writes h

theorem W14_v86 : W14 (F := Ideal) m ρ c (Proc.devRef .tc main_v86) = segBB (XB1 m c) (srcBB (A7 m c)) (dstBB (A7 m c)) :=
  (W14_of m ρ c main_v86 (by decide)).trans (W13_v86 m ρ c)
theorem W14_v28 : W14 (F := Ideal) m ρ c (Proc.devRef .tc main_v28) = invBB (dstBB (A7 m c)) :=
  (W14_of m ρ c main_v28 (by decide)).trans (W13_v28 m ρ c)
theorem W14_v33 : W14 (F := Ideal) m ρ c (Proc.devRef .tc main_v33) = invSB (dst4 (A8 m c)) :=
  (W14_of m ρ c main_v33 (by decide)).trans (W13_v33 m ρ c)
theorem W14_v74 : W14 (F := Ideal) m ρ c (Proc.devRef .tc main_v74) = XB1 m c :=
  (W14_of m ρ c main_v74 (by decide)).trans (W13_v74 m ρ c)
theorem W14_v45 : W14 (F := Ideal) m ρ c (Proc.devRef .tc main_v45) = bhRow (A6 m c) :=
  (W14_of m ρ c main_v45 (by decide)).trans (W13_v45 m ρ c)
theorem W14_v46 : W14 (F := Ideal) m ρ c (Proc.devRef .tc main_v46) = whT (A5 m c) :=
  (W14_of m ρ c main_v46 (by decide)).trans (W13_v46 m ρ c)

/-- The segment sum of the "s" rows after layer 0 over the s→b edges. -/
theorem W14_v90 : W14 (F := Ideal) m ρ c (Proc.devRef .tc main_v90) = segSB (XS1 m c) (src4 (A8 m c)) (dst4 (A8 m c)) := by
  refine (sumSB_of (W13 (F := Ideal) m ρ c)).trans ?_
  rw [W13_v7, W13_v87]
  rfl
theorem W14_v95 : W14 (F := Ideal) m ρ c (Proc.devRef .tc main_v95) = wrSum1 (A4 m c) := by
  refine (wr1_of (W13 (F := Ideal) m ρ c)).trans ?_
  rw [W13_arg4]
theorem W14_v101 : W14 (F := Ideal) m ρ c (Proc.devRef .tc main_v101) = blSum1 (A3 m c) := by
  refine (bl1_of (W13 (F := Ideal) m ρ c)).trans ?_
  rw [W13_arg3]
theorem W14_v103 : W14 (F := Ideal) m ρ c (Proc.devRef .tc main_v103) = w10 (A2 m c) := by
  refine (w10_of (W13 (F := Ideal) m ρ c)).trans ?_
  rw [W13_arg2]
theorem W14_v105 : W14 (F := Ideal) m ρ c (Proc.devRef .tc main_v105) = w11 (A2 m c) := by
  refine (w11_of (W13 (F := Ideal) m ρ c)).trans ?_
  rw [W13_arg2]

/-! ## After the last kernel -/

/-- Its output array: the heads' map of the rectified layer 1 "b" rows, 128 padded columns. -/
theorem W15_v106 : W15 (F := Ideal) m ρ c (Proc.devRef .tc main_v106)
    = outPad (XB1 m c) (XS1 m c) (A2 m c) (A3 m c) (A4 m c) (A5 m c) (A6 m c) (A7 m c) (A8 m c) := by
  refine (W15_arr m ρ c 11).trans ?_
  refine (RegionValue2.region2_arr (V14 m ρ) c).trans ?_
  show Cert.Spec.headsK (N := 100000) (W14 m ρ c (Proc.devRef .tc main_v86)) (W14 m ρ c (Proc.devRef .tc main_v28))
    (W14 m ρ c (Proc.devRef .tc main_v90)) (W14 m ρ c (Proc.devRef .tc main_v33)) (W14 m ρ c (Proc.devRef .tc main_v74))
    (W14 m ρ c (Proc.devRef .tc main_v103)) (W14 m ρ c (Proc.devRef .tc main_v105)) (W14 m ρ c (Proc.devRef .tc main_v95))
    (W14 m ρ c (Proc.devRef .tc main_v101)) (W14 m ρ c (Proc.devRef .tc main_v46)) (W14 m ρ c (Proc.devRef .tc main_v45)) = _
  rw [W14_v86, W14_v28, W14_v90, W14_v33, W14_v74, W14_v103, W14_v105, W14_v95, W14_v101, W14_v46, W14_v45]
  rfl

/-- The idealized kernel program's result buffer after the run is the named function of the launch arguments. -/
theorem kernel_value : W16 (F := Ideal) m ρ c (Proc.devRef .tc main_v107)
    = result (A0 m c) (A1 m c) (A2 m c) (A3 m c) (A4 m c) (A5 m c) (A6 m c) (A7 m c) (A8 m c) (A9 m c) := by
  refine (slice_of (W15 (F := Ideal) m ρ c)).trans ?_
  rw [W15_v106]
  rfl

end Cert.KernelIdeal.ValueChain

end
-- ==== Proof.RRun.lean ====
import proofs.«424018_j64587718197893_2_alg».proof.Proof.Gen.ReferenceIdeal
import Idealize.ShloMosaic.Lib.StableHlo.Run
import Idealize.ShloMosaic.Lib.Pipeline.Frame

/-!
# The reference's run

The reference program has no kernel: @main is a straight line of tensor operations, four of them calls of a
leaky-relu function whose body is again a straight line that ends in a call of a select. With the calls unfolded at
their sites @main is the sequential program of ONE list of operations, so every weakly fair execution terminates
with each buffer at the fold of the operations' results over the launch contents. Each operation writes one buffer,
its result's; an argument's buffer is none of them, so the arguments end as launched.
-/

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The operations of window 0 of @main, in program order (60 of them). -/
abbrev ops0 : List (HloOp τ sig (Elt F)) :=
  [ StableHlo.unary main_arg2 main_v0 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v0 main_v1 rfl shapeCasts_S1x1x128x128_S128x128,
    StableHlo.unary main_arg3 main_v2 ((extractStridedSlice S1x1x128 ![0, 0, 0] · slices_S2x3x128_S1x1x128_0_0_0) : (⟨S2x3x128, .f32⟩ : BufTy).Contents (Elt F) → (⟨S1x1x128, .f32⟩ : BufTy).Contents (Elt F)),
    StableHlo.reshape main_v2 main_v3 rfl shapeCasts_S1x1x128_S128,
    StableHlo.unary main_arg4 main_v4 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    StableHlo.reshape main_v4 main_v5 rfl shapeCasts_S1x1x128x128_S128x128,
    StableHlo.unary main_arg7 main_v6 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v6 main_v7 rfl shapeCasts_S1x800000_S800000,
    StableHlo.unary main_arg7 main_v8 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v8 main_v9 rfl shapeCasts_S1x800000_S800000,
    StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_v7 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v12 (broadcastInDim S800000 ![] bcast_S_S800000 : (⟨S_, .i32⟩ : BufTy).Contents (Elt F) → (⟨S800000, .i32⟩ : BufTy).Contents (Elt F)),
    StableHlo.binary main_v7 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_v7 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_arg0 main_v15 main_v16 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_v9 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_1 (constant S_ .f32 0x3F800000#32),
    StableHlo.unary main_cst_1 main_v20 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v21 (broadcastInDim S100000 ![] bcast_S_S100000 : (⟨S_, .f32⟩ : BufTy).Contents (Elt F) → (⟨S100000, .f32⟩ : BufTy).Contents (Elt F)),
    StableHlo.unary main_v9 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_3 (constant S_ .f32 0x3F800000#32),
    StableHlo.unary main_cst_3 main_v24 (broadcastInDim S100000 ![] bcast_S_S100000 : (⟨S_, .f32⟩ : BufTy).Contents (Elt F) → (⟨S100000, .f32⟩ : BufTy).Contents (Elt F)),
    StableHlo.binary main_v23 main_v24 main_v25 (maximumf : (⟨S100000, .f32⟩ : BufTy).Contents (Elt F) → (⟨S100000, .f32⟩ : BufTy).Contents (Elt F) → (⟨S100000, .f32⟩ : BufTy).Contents (Elt F)),
    StableHlo.unary main_v25 main_v26 (broadcastInDim S100000x1 ![0] bcast_S100000_S100000x1_0 : (⟨S100000, .f32⟩ : BufTy).Contents (Elt F) → (⟨S100000x1, .f32⟩ : BufTy).Contents (Elt F)),
    StableHlo.unary main_v26 main_v27 (broadcastInDim S100000x128 ![0, 1] bcast_S100000x1_S100000x128_0_1 : (⟨S100000x1, .f32⟩ : BufTy).Contents (Elt F) → (⟨S100000x128, .f32⟩ : BufTy).Contents (Elt F)),
    StableHlo.binary main_v19 main_v27 main_v28 (Host.divf : (⟨S100000x128, .f32⟩ : BufTy).Contents (Elt F) → (⟨S100000x128, .f32⟩ : BufTy).Contents (Elt F) → (⟨S100000x128, .f32⟩ : BufTy).Contents (Elt F)),
    StableHlo.binary main_v28 main_v1 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v3 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.binary main_arg0 main_v5 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v32 main_v33 main_v34 (addf : (⟨S100000x128, .f32⟩ : BufTy).Contents (Elt F) → (⟨S100000x128, .f32⟩ : BufTy).Contents (Elt F) → (⟨S100000x128, .f32⟩ : BufTy).Contents (Elt F)),
    StableHlo.unary main_arg2 main_v35 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v35 main_v36 rfl shapeCasts_S1x1x128x128_S128x128,
    StableHlo.unary main_arg3 main_v37 ((extractStridedSlice S1x1x128 ![0, 1, 0] · slices_S2x3x128_S1x1x128_0_1_0) : (⟨S2x3x128, .f32⟩ : BufTy).Contents (Elt F) → (⟨S1x1x128, .f32⟩ : BufTy).Contents (Elt F)),
    StableHlo.reshape main_v37 main_v38 rfl shapeCasts_S1x1x128_S128,
    StableHlo.unary main_arg4 main_v39 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    StableHlo.reshape main_v39 main_v40 rfl shapeCasts_S1x1x128x128_S128x128,
    StableHlo.unary main_arg8 main_v41 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v41 main_v42 rfl shapeCasts_S1x400000_S400000,
    StableHlo.unary main_arg8 main_v43 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v43 main_v44 rfl shapeCasts_S1x400000_S400000,
    StableHlo.nullary main_c_4 (constantI S_ 32 0#32),
    StableHlo.unary main_c_4 main_v45 (broadcastInDim S400000 ![] bcast_S_S400000 : (⟨S_, .i32⟩ : BufTy).Contents (Elt F) → (⟨S400000, .i32⟩ : BufTy).Contents (Elt F)),
    StableHlo.binary main_v42 main_v45 main_v46 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 50000#32),
    StableHlo.unary main_c_5 main_v47 (broadcastInDim S400000 ![] bcast_S_S400000 : (⟨S_, .i32⟩ : BufTy).Contents (Elt F) → (⟨S400000, .i32⟩ : BufTy).Contents (Elt F)),
    StableHlo.binary main_v42 main_v47 main_v48 (addi : (⟨S400000, .i32⟩ : BufTy).Contents (Elt F) → (⟨S400000, .i32⟩ : BufTy).Contents (Elt F) → (⟨S400000, .i32⟩ : BufTy).Contents (Elt F)),
    StableHlo.ternary main_v46 main_v48 main_v42 main_v49 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v49 main_v50 (broadcastInDim S400000x1 ![0] bcast_S400000_S400000x1_0 : (⟨S400000, .i32⟩ : BufTy).Contents (Elt F) → (⟨S400000x1, .i32⟩ : BufTy).Contents (Elt F)),
    StableHlo.binary main_arg1 main_v50 main_v51 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)) ]

/-- The operations of window 1 of @main, in program order (60 of them). -/
abbrev ops1 : List (HloOp τ sig (Elt F)) :=
  [ StableHlo.nullary main_cst_6 (constant S_ .f32 0x00000000#32),
    StableHlo.unary main_cst_6 main_v52 (broadcastInDim S100000x128 ![] bcast_S_S100000x128 : (⟨S_, .f32⟩ : BufTy).Contents (Elt F) → (⟨S100000x128, .f32⟩ : BufTy).Contents (Elt F)),
    StableHlo.unary main_v44 main_v53 (broadcastInDim S400000x1 ![0] bcast_S400000_S400000x1_0 : (⟨S400000, .i32⟩ : BufTy).Contents (Elt F) → (⟨S400000x1, .i32⟩ : BufTy).Contents (Elt F)),
    StableHlo.ternary main_v52 main_v53 main_v51 main_v54 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_7 (constant S_ .f32 0x3F800000#32),
    StableHlo.unary main_cst_7 main_v55 (broadcastInDim S400000 ![] bcast_S_S400000 : (⟨S_, .f32⟩ : BufTy).Contents (Elt F) → (⟨S400000, .f32⟩ : BufTy).Contents (Elt F)),
    StableHlo.nullary main_cst_8 (constant S_ .f32 0x00000000#32),
    StableHlo.unary main_cst_8 main_v56 (broadcastInDim S100000 ![] bcast_S_S100000 : (⟨S_, .f32⟩ : BufTy).Contents (Elt F) → (⟨S100000, .f32⟩ : BufTy).Contents (Elt F)),
    StableHlo.unary main_v44 main_v57 (broadcastInDim S400000x1 ![0] bcast_S400000_S400000x1_0 : (⟨S400000, .i32⟩ : BufTy).Contents (Elt F) → (⟨S400000x1, .i32⟩ : BufTy).Contents (Elt F)),
    StableHlo.ternary main_v56 main_v57 main_v55 main_v58 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_9 (constant S_ .f32 0x3F800000#32),
    StableHlo.unary main_cst_9 main_v59 (broadcastInDim S100000 ![] bcast_S_S100000 : (⟨S_, .f32⟩ : BufTy).Contents (Elt F) → (⟨S100000, .f32⟩ : BufTy).Contents (Elt F)),
    StableHlo.binary main_v58 main_v59 main_v60 (maximumf : (⟨S100000, .f32⟩ : BufTy).Contents (Elt F) → (⟨S100000, .f32⟩ : BufTy).Contents (Elt F) → (⟨S100000, .f32⟩ : BufTy).Contents (Elt F)),
    StableHlo.unary main_v60 main_v61 (broadcastInDim S100000x1 ![0] bcast_S100000_S100000x1_0 : (⟨S100000, .f32⟩ : BufTy).Contents (Elt F) → (⟨S100000x1, .f32⟩ : BufTy).Contents (Elt F)),
    StableHlo.unary main_v61 main_v62 (broadcastInDim S100000x128 ![0, 1] bcast_S100000x1_S100000x128_0_1 : (⟨S100000x1, .f32⟩ : BufTy).Contents (Elt F) → (⟨S100000x128, .f32⟩ : BufTy).Contents (Elt F)),
    StableHlo.binary main_v54 main_v62 main_v63 (Host.divf : (⟨S100000x128, .f32⟩ : BufTy).Contents (Elt F) → (⟨S100000x128, .f32⟩ : BufTy).Contents (Elt F) → (⟨S100000x128, .f32⟩ : BufTy).Contents (Elt F)),
    StableHlo.binary main_v63 main_v36 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v38 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.binary main_arg0 main_v40 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v67 main_v68 main_v69 (addf : (⟨S100000x128, .f32⟩ : BufTy).Contents (Elt F) → (⟨S100000x128, .f32⟩ : BufTy).Contents (Elt F) → (⟨S100000x128, .f32⟩ : BufTy).Contents (Elt F)),
    StableHlo.binary main_v34 main_v69 main_v70 (addf : (⟨S100000x128, .f32⟩ : BufTy).Contents (Elt F) → (⟨S100000x128, .f32⟩ : BufTy).Contents (Elt F) → (⟨S100000x128, .f32⟩ : BufTy).Contents (Elt F)),
    StableHlo.unary main_arg2 main_v71 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v71 main_v72 rfl shapeCasts_S1x1x128x128_S128x128,
    StableHlo.unary main_arg3 main_v73 ((extractStridedSlice S1x1x128 ![0, 2, 0] · slices_S2x3x128_S1x1x128_0_2_0) : (⟨S2x3x128, .f32⟩ : BufTy).Contents (Elt F) → (⟨S1x1x128, .f32⟩ : BufTy).Contents (Elt F)),
    StableHlo.reshape main_v73 main_v74 rfl shapeCasts_S1x1x128_S128,
    StableHlo.unary main_arg4 main_v75 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    StableHlo.reshape main_v75 main_v76 rfl shapeCasts_S1x1x128x128_S128x128,
    StableHlo.unary main_arg9 main_v77 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v77 main_v78 rfl shapeCasts_S1x400000_S400000,
    StableHlo.unary main_arg9 main_v79 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v79 main_v80 rfl shapeCasts_S1x400000_S400000,
    StableHlo.nullary main_c_10 (constantI S_ 32 0#32),
    StableHlo.unary main_c_10 main_v81 (broadcastInDim S400000 ![] bcast_S_S400000 : (⟨S_, .i32⟩ : BufTy).Contents (Elt F) → (⟨S400000, .i32⟩ : BufTy).Contents (Elt F)),
    StableHlo.binary main_v78 main_v81 main_v82 (cmpi .slt : (⟨S400000, .i32⟩ : BufTy).Contents (Elt F) → (⟨S400000, .i32⟩ : BufTy).Contents (Elt F) → (⟨S400000, .i1⟩ : BufTy).Contents (Elt F)),
    StableHlo.nullary main_c_11 (constantI S_ 32 100000#32),
    StableHlo.unary main_c_11 main_v83 (broadcastInDim S400000 ![] bcast_S_S400000 : (⟨S_, .i32⟩ : BufTy).Contents (Elt F) → (⟨S400000, .i32⟩ : BufTy).Contents (Elt F)),
    StableHlo.binary main_v78 main_v83 main_v84 (addi : (⟨S400000, .i32⟩ : BufTy).Contents (Elt F) → (⟨S400000, .i32⟩ : BufTy).Contents (Elt F) → (⟨S400000, .i32⟩ : BufTy).Contents (Elt F)),
    StableHlo.ternary main_v82 main_v84 main_v78 main_v85 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v85 main_v86 (broadcastInDim S400000x1 ![0] bcast_S400000_S400000x1_0 : (⟨S400000, .i32⟩ : BufTy).Contents (Elt F) → (⟨S400000x1, .i32⟩ : BufTy).Contents (Elt F)),
    StableHlo.binary main_arg0 main_v86 main_v87 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_cst_12 (constant S_ .f32 0x00000000#32),
    StableHlo.unary main_cst_12 main_v88 (broadcastInDim S50000x128 ![] bcast_S_S50000x128 : (⟨S_, .f32⟩ : BufTy).Contents (Elt F) → (⟨S50000x128, .f32⟩ : BufTy).Contents (Elt F)),
    StableHlo.unary main_v80 main_v89 (broadcastInDim S400000x1 ![0] bcast_S400000_S400000x1_0 : (⟨S400000, .i32⟩ : BufTy).Contents (Elt F) → (⟨S400000x1, .i32⟩ : BufTy).Contents (Elt F)),
    StableHlo.ternary main_v88 main_v89 main_v87 main_v90 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.nullary main_cst_13 (constant S_ .f32 0x3F800000#32),
    StableHlo.unary main_cst_13 main_v91 (broadcastInDim S400000 ![] bcast_S_S400000 : (⟨S_, .f32⟩ : BufTy).Contents (Elt F) → (⟨S400000, .f32⟩ : BufTy).Contents (Elt F)),
    StableHlo.nullary main_cst_14 (constant S_ .f32 0x00000000#32),
    StableHlo.unary main_cst_14 main_v92 (broadcastInDim S50000 ![] bcast_S_S50000 : (⟨S_, .f32⟩ : BufTy).Contents (Elt F) → (⟨S50000, .f32⟩ : BufTy).Contents (Elt F)),
    StableHlo.unary main_v80 main_v93 (broadcastInDim S400000x1 ![0] bcast_S400000_S400000x1_0 : (⟨S400000, .i32⟩ : BufTy).Contents (Elt F) → (⟨S400000x1, .i32⟩ : BufTy).Contents (Elt F)),
    StableHlo.ternary main_v92 main_v93 main_v91 main_v94 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_15 (constant S_ .f32 0x3F800000#32),
    StableHlo.unary main_cst_15 main_v95 (broadcastInDim S50000 ![] bcast_S_S50000 : (⟨S_, .f32⟩ : BufTy).Contents (Elt F) → (⟨S50000, .f32⟩ : BufTy).Contents (Elt F)),
    StableHlo.binary main_v94 main_v95 main_v96 (maximumf : (⟨S50000, .f32⟩ : BufTy).Contents (Elt F) → (⟨S50000, .f32⟩ : BufTy).Contents (Elt F) → (⟨S50000, .f32⟩ : BufTy).Contents (Elt F)),
    StableHlo.unary main_v96 main_v97 (broadcastInDim S50000x1 ![0] bcast_S50000_S50000x1_0 : (⟨S50000, .f32⟩ : BufTy).Contents (Elt F) → (⟨S50000x1, .f32⟩ : BufTy).Contents (Elt F)),
    StableHlo.unary main_v97 main_v98 (broadcastInDim S50000x128 ![0, 1] bcast_S50000x1_S50000x128_0_1 : (⟨S50000x1, .f32⟩ : BufTy).Contents (Elt F) → (⟨S50000x128, .f32⟩ : BufTy).Contents (Elt F)),
    StableHlo.binary main_v90 main_v98 main_v99 (Host.divf : (⟨S50000x128, .f32⟩ : BufTy).Contents (Elt F) → (⟨S50000x128, .f32⟩ : BufTy).Contents (Elt F) → (⟨S50000x128, .f32⟩ : BufTy).Contents (Elt F)),
    StableHlo.binary main_v99 main_v72 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v74 main_v101 (broadcastInDim S1x128 ![1] bcast_S128_S1x128_1 : (⟨S128, .f32⟩ : BufTy).Contents (Elt F) → (⟨S1x128, .f32⟩ : BufTy).Contents (Elt F)) ]

/-- The operations of window 2 of @main, in program order (72 of them). Each call of a leaky-relu function stands as its seven operations over the call's own buffers: the zero, its broadcast, the comparison with it, the slope converted and broadcast, the product, the select. -/
abbrev ops2 : List (HloOp τ sig (Elt F)) :=
  [ StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.binary main_arg1 main_v76 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v103 main_v104 main_v105 (addf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v70 : StableHlo.TRef sig ⟨S100000x128, .f32⟩) main_call0.v0 main_call0.v1 (cmpf .oge),
    StableHlo.TRef.unary (.of main_cst_16 : StableHlo.TRef sig ⟨S_, .f32⟩) main_call0.v2 id,
    StableHlo.TRef.unary main_call0.v2 main_call0.v3 (broadcastInDim S100000x128 ![] bcast_S_S100000x128),
    StableHlo.TRef.binary main_call0.v3 (.of main_v70 : StableHlo.TRef sig ⟨S100000x128, .f32⟩) main_call0.v4 mulf,
    StableHlo.TRef.ternary main_call0.v1 (.of main_v70 : StableHlo.TRef sig ⟨S100000x128, .f32⟩) main_call0.v4 main_call0.call0.v0 select,
    StableHlo.nullary main_cst_17 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v105 : StableHlo.TRef sig ⟨S50000x128, .f32⟩) main_call1.v0 main_call1.v1 (cmpf .oge),
    StableHlo.TRef.unary (.of main_cst_17 : StableHlo.TRef sig ⟨S_, .f32⟩) main_call1.v2 id,
    StableHlo.TRef.unary main_call1.v2 main_call1.v3 (broadcastInDim S50000x128 ![] bcast_S_S50000x128),
    StableHlo.TRef.binary main_call1.v3 (.of main_v105 : StableHlo.TRef sig ⟨S50000x128, .f32⟩) main_call1.v4 mulf,
    StableHlo.TRef.ternary main_call1.v1 (.of main_v105 : StableHlo.TRef sig ⟨S50000x128, .f32⟩) main_call1.v4 main_call1.call0.v0 select,
    StableHlo.unary main_arg2 main_v108 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v108 main_v109 rfl shapeCasts_S1x1x128x128_S128x128,
    StableHlo.unary main_arg3 main_v110 ((extractStridedSlice S1x1x128 ![1, 0, 0] · slices_S2x3x128_S1x1x128_1_0_0) : (⟨S2x3x128, .f32⟩ : BufTy).Contents (Elt F) → (⟨S1x1x128, .f32⟩ : BufTy).Contents (Elt F)),
    StableHlo.reshape main_v110 main_v111 rfl shapeCasts_S1x1x128_S128,
    StableHlo.unary main_arg4 main_v112 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    StableHlo.reshape main_v112 main_v113 rfl shapeCasts_S1x1x128x128_S128x128,
    StableHlo.unary main_arg7 main_v114 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v114 main_v115 rfl shapeCasts_S1x800000_S800000,
    StableHlo.unary main_arg7 main_v116 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v116 main_v117 rfl shapeCasts_S1x800000_S800000,
    StableHlo.nullary main_c_18 (constantI S_ 32 0#32),
    StableHlo.unary main_c_18 main_v118 (broadcastInDim S800000 ![] bcast_S_S800000 : (⟨S_, .i32⟩ : BufTy).Contents (Elt F) → (⟨S800000, .i32⟩ : BufTy).Contents (Elt F)),
    StableHlo.binary main_v115 main_v118 main_v119 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 100000#32),
    StableHlo.unary main_c_19 main_v120 (broadcastInDim S800000 ![] bcast_S_S800000 : (⟨S_, .i32⟩ : BufTy).Contents (Elt F) → (⟨S800000, .i32⟩ : BufTy).Contents (Elt F)),
    StableHlo.binary main_v115 main_v120 main_v121 (addi : (⟨S800000, .i32⟩ : BufTy).Contents (Elt F) → (⟨S800000, .i32⟩ : BufTy).Contents (Elt F) → (⟨S800000, .i32⟩ : BufTy).Contents (Elt F)),
    StableHlo.ternary main_v119 main_v121 main_v115 main_v122 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v122 main_v123 (broadcastInDim S800000x1 ![0] bcast_S800000_S800000x1_0 : (⟨S800000, .i32⟩ : BufTy).Contents (Elt F) → (⟨S800000x1, .i32⟩ : BufTy).Contents (Elt F)),
    StableHlo.binary main_v106 main_v123 main_v124 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v125 (broadcastInDim S100000x128 ![] bcast_S_S100000x128 : (⟨S_, .f32⟩ : BufTy).Contents (Elt F) → (⟨S100000x128, .f32⟩ : BufTy).Contents (Elt F)),
    StableHlo.unary main_v117 main_v126 (broadcastInDim S800000x1 ![0] bcast_S800000_S800000x1_0 : (⟨S800000, .i32⟩ : BufTy).Contents (Elt F) → (⟨S800000x1, .i32⟩ : BufTy).Contents (Elt F)),
    StableHlo.ternary main_v125 main_v126 main_v124 main_v127 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_21 (constant S_ .f32 0x3F800000#32),
    StableHlo.unary main_cst_21 main_v128 (broadcastInDim S800000 ![] bcast_S_S800000 : (⟨S_, .f32⟩ : BufTy).Contents (Elt F) → (⟨S800000, .f32⟩ : BufTy).Contents (Elt F)),
    StableHlo.nullary main_cst_22 (constant S_ .f32 0x00000000#32),
    StableHlo.unary main_cst_22 main_v129 (broadcastInDim S100000 ![] bcast_S_S100000 : (⟨S_, .f32⟩ : BufTy).Contents (Elt F) → (⟨S100000, .f32⟩ : BufTy).Contents (Elt F)),
    StableHlo.unary main_v117 main_v130 (broadcastInDim S800000x1 ![0] bcast_S800000_S800000x1_0 : (⟨S800000, .i32⟩ : BufTy).Contents (Elt F) → (⟨S800000x1, .i32⟩ : BufTy).Contents (Elt F)),
    StableHlo.ternary main_v129 main_v130 main_v128 main_v131 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_23 (constant S_ .f32 0x3F800000#32),
    StableHlo.unary main_cst_23 main_v132 (broadcastInDim S100000 ![] bcast_S_S100000 : (⟨S_, .f32⟩ : BufTy).Contents (Elt F) → (⟨S100000, .f32⟩ : BufTy).Contents (Elt F)),
    StableHlo.binary main_v131 main_v132 main_v133 (maximumf : (⟨S100000, .f32⟩ : BufTy).Contents (Elt F) → (⟨S100000, .f32⟩ : BufTy).Contents (Elt F) → (⟨S100000, .f32⟩ : BufTy).Contents (Elt F)),
    StableHlo.unary main_v133 main_v134 (broadcastInDim S100000x1 ![0] bcast_S100000_S100000x1_0 : (⟨S100000, .f32⟩ : BufTy).Contents (Elt F) → (⟨S100000x1, .f32⟩ : BufTy).Contents (Elt F)),
    StableHlo.unary main_v134 main_v135 (broadcastInDim S100000x128 ![0, 1] bcast_S100000x1_S100000x128_0_1 : (⟨S100000x1, .f32⟩ : BufTy).Contents (Elt F) → (⟨S100000x128, .f32⟩ : BufTy).Contents (Elt F)),
    StableHlo.binary main_v127 main_v135 main_v136 (Host.divf : (⟨S100000x128, .f32⟩ : BufTy).Contents (Elt F) → (⟨S100000x128, .f32⟩ : BufTy).Contents (Elt F) → (⟨S100000x128, .f32⟩ : BufTy).Contents (Elt F)),
    StableHlo.binary main_v136 main_v109 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v111 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (addf : (⟨S100000x128, .f32⟩ : BufTy).Contents (Elt F) → (⟨S100000x128, .f32⟩ : BufTy).Contents (Elt F) → (⟨S100000x128, .f32⟩ : BufTy).Contents (Elt F)),
    StableHlo.binary main_v106 main_v113 main_v141 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v140 main_v141 main_v142 (addf : (⟨S100000x128, .f32⟩ : BufTy).Contents (Elt F) → (⟨S100000x128, .f32⟩ : BufTy).Contents (Elt F) → (⟨S100000x128, .f32⟩ : BufTy).Contents (Elt F)),
    StableHlo.unary main_arg2 main_v143 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v143 main_v144 rfl shapeCasts_S1x1x128x128_S128x128,
    StableHlo.unary main_arg3 main_v145 ((extractStridedSlice S1x1x128 ![1, 1, 0] · slices_S2x3x128_S1x1x128_1_1_0) : (⟨S2x3x128, .f32⟩ : BufTy).Contents (Elt F) → (⟨S1x1x128, .f32⟩ : BufTy).Contents (Elt F)),
    StableHlo.reshape main_v145 main_v146 rfl shapeCasts_S1x1x128_S128,
    StableHlo.unary main_arg4 main_v147 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    StableHlo.reshape main_v147 main_v148 rfl shapeCasts_S1x1x128x128_S128x128,
    StableHlo.unary main_arg8 main_v149 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v149 main_v150 rfl shapeCasts_S1x400000_S400000,
    StableHlo.unary main_arg8 main_v151 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v151 main_v152 rfl shapeCasts_S1x400000_S400000,
    StableHlo.nullary main_c_24 (constantI S_ 32 0#32) ]

/-- The operations of window 3 of @main, in program order (60 of them). -/
abbrev ops3 : List (HloOp τ sig (Elt F)) :=
  [ StableHlo.unary main_c_24 main_v153 (broadcastInDim S400000 ![] bcast_S_S400000 : (⟨S_, .i32⟩ : BufTy).Contents (Elt F) → (⟨S400000, .i32⟩ : BufTy).Contents (Elt F)),
    StableHlo.binary main_v150 main_v153 main_v154 (cmpi .slt : (⟨S400000, .i32⟩ : BufTy).Contents (Elt F) → (⟨S400000, .i32⟩ : BufTy).Contents (Elt F) → (⟨S400000, .i1⟩ : BufTy).Contents (Elt F)),
    StableHlo.nullary main_c_25 (constantI S_ 32 50000#32),
    StableHlo.unary main_c_25 main_v155 (broadcastInDim S400000 ![] bcast_S_S400000 : (⟨S_, .i32⟩ : BufTy).Contents (Elt F) → (⟨S400000, .i32⟩ : BufTy).Contents (Elt F)),
    StableHlo.binary main_v150 main_v155 main_v156 (addi : (⟨S400000, .i32⟩ : BufTy).Contents (Elt F) → (⟨S400000, .i32⟩ : BufTy).Contents (Elt F) → (⟨S400000, .i32⟩ : BufTy).Contents (Elt F)),
    StableHlo.ternary main_v154 main_v156 main_v150 main_v157 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v157 main_v158 (broadcastInDim S400000x1 ![0] bcast_S400000_S400000x1_0 : (⟨S400000, .i32⟩ : BufTy).Contents (Elt F) → (⟨S400000x1, .i32⟩ : BufTy).Contents (Elt F)),
    StableHlo.binary main_v107 main_v158 main_v159 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.nullary main_cst_26 (constant S_ .f32 0x00000000#32),
    StableHlo.unary main_cst_26 main_v160 (broadcastInDim S100000x128 ![] bcast_S_S100000x128 : (⟨S_, .f32⟩ : BufTy).Contents (Elt F) → (⟨S100000x128, .f32⟩ : BufTy).Contents (Elt F)),
    StableHlo.unary main_v152 main_v161 (broadcastInDim S400000x1 ![0] bcast_S400000_S400000x1_0 : (⟨S400000, .i32⟩ : BufTy).Contents (Elt F) → (⟨S400000x1, .i32⟩ : BufTy).Contents (Elt F)),
    StableHlo.ternary main_v160 main_v161 main_v159 main_v162 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)),
    StableHlo.nullary main_cst_27 (constant S_ .f32 0x3F800000#32),
    StableHlo.unary main_cst_27 main_v163 (broadcastInDim S400000 ![] bcast_S_S400000 : (⟨S_, .f32⟩ : BufTy).Contents (Elt F) → (⟨S400000, .f32⟩ : BufTy).Contents (Elt F)),
    StableHlo.nullary main_cst_28 (constant S_ .f32 0x00000000#32),
    StableHlo.unary main_cst_28 main_v164 (broadcastInDim S100000 ![] bcast_S_S100000 : (⟨S_, .f32⟩ : BufTy).Contents (Elt F) → (⟨S100000, .f32⟩ : BufTy).Contents (Elt F)),
    StableHlo.unary main_v152 main_v165 (broadcastInDim S400000x1 ![0] bcast_S400000_S400000x1_0 : (⟨S400000, .i32⟩ : BufTy).Contents (Elt F) → (⟨S400000x1, .i32⟩ : BufTy).Contents (Elt F)),
    StableHlo.ternary main_v164 main_v165 main_v163 main_v166 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    StableHlo.nullary main_cst_29 (constant S_ .f32 0x3F800000#32),
    StableHlo.unary main_cst_29 main_v167 (broadcastInDim S100000 ![] bcast_S_S100000 : (⟨S_, .f32⟩ : BufTy).Contents (Elt F) → (⟨S100000, .f32⟩ : BufTy).Contents (Elt F)),
    StableHlo.binary main_v166 main_v167 main_v168 (maximumf : (⟨S100000, .f32⟩ : BufTy).Contents (Elt F) → (⟨S100000, .f32⟩ : BufTy).Contents (Elt F) → (⟨S100000, .f32⟩ : BufTy).Contents (Elt F)),
    StableHlo.unary main_v168 main_v169 (broadcastInDim S100000x1 ![0] bcast_S100000_S100000x1_0 : (⟨S100000, .f32⟩ : BufTy).Contents (Elt F) → (⟨S100000x1, .f32⟩ : BufTy).Contents (Elt F)),
    StableHlo.unary main_v169 main_v170 (broadcastInDim S100000x128 ![0, 1] bcast_S100000x1_S100000x128_0_1 : (⟨S100000x1, .f32⟩ : BufTy).Contents (Elt F) → (⟨S100000x128, .f32⟩ : BufTy).Contents (Elt F)),
    StableHlo.binary main_v162 main_v170 main_v171 (Host.divf : (⟨S100000x128, .f32⟩ : BufTy).Contents (Elt F) → (⟨S100000x128, .f32⟩ : BufTy).Contents (Elt F) → (⟨S100000x128, .f32⟩ : BufTy).Contents (Elt F)),
    StableHlo.binary main_v171 main_v144 main_v172 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v146 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S100000x128 ![0, 1] bcast_S1x128_S100000x128_0_1 : (⟨S1x128, .f32⟩ : BufTy).Contents (Elt F) → (⟨S100000x128, .f32⟩ : BufTy).Contents (Elt F)),
    StableHlo.binary main_v172 main_v174 main_v175 (addf : (⟨S100000x128, .f32⟩ : BufTy).Contents (Elt F) → (⟨S100000x128, .f32⟩ : BufTy).Contents (Elt F) → (⟨S100000x128, .f32⟩ : BufTy).Contents (Elt F)),
    StableHlo.binary main_v106 main_v148 main_v176 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v175 main_v176 main_v177 (addf : (⟨S100000x128, .f32⟩ : BufTy).Contents (Elt F) → (⟨S100000x128, .f32⟩ : BufTy).Contents (Elt F) → (⟨S100000x128, .f32⟩ : BufTy).Contents (Elt F)),
    StableHlo.binary main_v142 main_v177 main_v178 (addf : (⟨S100000x128, .f32⟩ : BufTy).Contents (Elt F) → (⟨S100000x128, .f32⟩ : BufTy).Contents (Elt F) → (⟨S100000x128, .f32⟩ : BufTy).Contents (Elt F)),
    StableHlo.unary main_arg2 main_v179 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v179 main_v180 rfl shapeCasts_S1x1x128x128_S128x128,
    StableHlo.unary main_arg3 main_v181 ((extractStridedSlice S1x1x128 ![1, 2, 0] · slices_S2x3x128_S1x1x128_1_2_0) : (⟨S2x3x128, .f32⟩ : BufTy).Contents (Elt F) → (⟨S1x1x128, .f32⟩ : BufTy).Contents (Elt F)),
    StableHlo.reshape main_v181 main_v182 rfl shapeCasts_S1x1x128_S128,
    StableHlo.unary main_arg4 main_v183 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    StableHlo.reshape main_v183 main_v184 rfl shapeCasts_S1x1x128x128_S128x128,
    StableHlo.unary main_arg9 main_v185 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v185 main_v186 rfl shapeCasts_S1x400000_S400000,
    StableHlo.unary main_arg9 main_v187 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v187 main_v188 rfl shapeCasts_S1x400000_S400000,
    StableHlo.nullary main_c_30 (constantI S_ 32 0#32),
    StableHlo.unary main_c_30 main_v189 (broadcastInDim S400000 ![] bcast_S_S400000 : (⟨S_, .i32⟩ : BufTy).Contents (Elt F) → (⟨S400000, .i32⟩ : BufTy).Contents (Elt F)),
    StableHlo.binary main_v186 main_v189 main_v190 (cmpi .slt : (⟨S400000, .i32⟩ : BufTy).Contents (Elt F) → (⟨S400000, .i32⟩ : BufTy).Contents (Elt F) → (⟨S400000, .i1⟩ : BufTy).Contents (Elt F)),
    StableHlo.nullary main_c_31 (constantI S_ 32 100000#32),
    StableHlo.unary main_c_31 main_v191 (broadcastInDim S400000 ![] bcast_S_S400000 : (⟨S_, .i32⟩ : BufTy).Contents (Elt F) → (⟨S400000, .i32⟩ : BufTy).Contents (Elt F)),
    StableHlo.binary main_v186 main_v191 main_v192 (addi : (⟨S400000, .i32⟩ : BufTy).Contents (Elt F) → (⟨S400000, .i32⟩ : BufTy).Contents (Elt F) → (⟨S400000, .i32⟩ : BufTy).Contents (Elt F)),
    StableHlo.ternary main_v190 main_v192 main_v186 main_v193 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v193 main_v194 (broadcastInDim S400000x1 ![0] bcast_S400000_S400000x1_0 : (⟨S400000, .i32⟩ : BufTy).Contents (Elt F) → (⟨S400000x1, .i32⟩ : BufTy).Contents (Elt F)),
    StableHlo.binary main_v106 main_v194 main_v195 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_cst_32 (constant S_ .f32 0x00000000#32),
    StableHlo.unary main_cst_32 main_v196 (broadcastInDim S50000x128 ![] bcast_S_S50000x128 : (⟨S_, .f32⟩ : BufTy).Contents (Elt F) → (⟨S50000x128, .f32⟩ : BufTy).Contents (Elt F)),
    StableHlo.unary main_v188 main_v197 (broadcastInDim S400000x1 ![0] bcast_S400000_S400000x1_0 : (⟨S400000, .i32⟩ : BufTy).Contents (Elt F) → (⟨S400000x1, .i32⟩ : BufTy).Contents (Elt F)),
    StableHlo.ternary main_v196 main_v197 main_v195 main_v198 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    StableHlo.nullary main_cst_33 (constant S_ .f32 0x3F800000#32),
    StableHlo.unary main_cst_33 main_v199 (broadcastInDim S400000 ![] bcast_S_S400000 : (⟨S_, .f32⟩ : BufTy).Contents (Elt F) → (⟨S400000, .f32⟩ : BufTy).Contents (Elt F)),
    StableHlo.nullary main_cst_34 (constant S_ .f32 0x00000000#32),
    StableHlo.unary main_cst_34 main_v200 (broadcastInDim S50000 ![] bcast_S_S50000 : (⟨S_, .f32⟩ : BufTy).Contents (Elt F) → (⟨S50000, .f32⟩ : BufTy).Contents (Elt F)),
    StableHlo.unary main_v188 main_v201 (broadcastInDim S400000x1 ![0] bcast_S400000_S400000x1_0 : (⟨S400000, .i32⟩ : BufTy).Contents (Elt F) → (⟨S400000x1, .i32⟩ : BufTy).Contents (Elt F)),
    StableHlo.ternary main_v200 main_v201 main_v199 main_v202 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)) ]

/-- The operations of window 4 of @main, in program order (33 of them). Each call of a leaky-relu function stands as its seven operations over the call's own buffers: the zero, its broadcast, the comparison with it, the slope converted and broadcast, the product, the select. -/
abbrev ops4 : List (HloOp τ sig (Elt F)) :=
  [ StableHlo.nullary main_cst_35 (constant S_ .f32 0x3F800000#32),
    StableHlo.unary main_cst_35 main_v203 (broadcastInDim S50000 ![] bcast_S_S50000 : (⟨S_, .f32⟩ : BufTy).Contents (Elt F) → (⟨S50000, .f32⟩ : BufTy).Contents (Elt F)),
    StableHlo.binary main_v202 main_v203 main_v204 (maximumf : (⟨S50000, .f32⟩ : BufTy).Contents (Elt F) → (⟨S50000, .f32⟩ : BufTy).Contents (Elt F) → (⟨S50000, .f32⟩ : BufTy).Contents (Elt F)),
    StableHlo.unary main_v204 main_v205 (broadcastInDim S50000x1 ![0] bcast_S50000_S50000x1_0 : (⟨S50000, .f32⟩ : BufTy).Contents (Elt F) → (⟨S50000x1, .f32⟩ : BufTy).Contents (Elt F)),
    StableHlo.unary main_v205 main_v206 (broadcastInDim S50000x128 ![0, 1] bcast_S50000x1_S50000x128_0_1 : (⟨S50000x1, .f32⟩ : BufTy).Contents (Elt F) → (⟨S50000x128, .f32⟩ : BufTy).Contents (Elt F)),
    StableHlo.binary main_v198 main_v206 main_v207 (Host.divf : (⟨S50000x128, .f32⟩ : BufTy).Contents (Elt F) → (⟨S50000x128, .f32⟩ : BufTy).Contents (Elt F) → (⟨S50000x128, .f32⟩ : BufTy).Contents (Elt F)),
    StableHlo.binary main_v207 main_v180 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v182 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v210 main_v211 (addf : (⟨S50000x128, .f32⟩ : BufTy).Contents (Elt F) → (⟨S50000x128, .f32⟩ : BufTy).Contents (Elt F) → (⟨S50000x128, .f32⟩ : BufTy).Contents (Elt F)),
    StableHlo.binary main_v107 main_v184 main_v212 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v211 main_v212 main_v213 (addf : (⟨S50000x128, .f32⟩ : BufTy).Contents (Elt F) → (⟨S50000x128, .f32⟩ : BufTy).Contents (Elt F) → (⟨S50000x128, .f32⟩ : BufTy).Contents (Elt F)),
    StableHlo.nullary main_cst_36 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v178 : StableHlo.TRef sig ⟨S100000x128, .f32⟩) main_call2.v0 main_call2.v1 (cmpf .oge),
    StableHlo.TRef.unary (.of main_cst_36 : StableHlo.TRef sig ⟨S_, .f32⟩) main_call2.v2 id,
    StableHlo.TRef.unary main_call2.v2 main_call2.v3 (broadcastInDim S100000x128 ![] bcast_S_S100000x128),
    StableHlo.TRef.binary main_call2.v3 (.of main_v178 : StableHlo.TRef sig ⟨S100000x128, .f32⟩) main_call2.v4 mulf,
    StableHlo.TRef.ternary main_call2.v1 (.of main_v178 : StableHlo.TRef sig ⟨S100000x128, .f32⟩) main_call2.v4 main_call2.call0.v0 select,
    StableHlo.nullary main_cst_37 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v213 : StableHlo.TRef sig ⟨S50000x128, .f32⟩) main_call3.v0 main_call3.v1 (cmpf .oge),
    StableHlo.TRef.unary (.of main_cst_37 : StableHlo.TRef sig ⟨S_, .f32⟩) main_call3.v2 id,
    StableHlo.TRef.unary main_call3.v2 main_call3.v3 (broadcastInDim S50000x128 ![] bcast_S_S50000x128),
    StableHlo.TRef.binary main_call3.v3 (.of main_v213 : StableHlo.TRef sig ⟨S50000x128, .f32⟩) main_call3.v4 mulf,
    StableHlo.TRef.ternary main_call3.v1 (.of main_v213 : StableHlo.TRef sig ⟨S50000x128, .f32⟩) main_call3.v4 main_call3.call0.v0 select,
    StableHlo.unary main_arg5 main_v216 ((transpose S128x8 [1, 0] · transposes_S8x128_S128x8_1_0) : (⟨S8x128, .f32⟩ : BufTy).Contents (Elt F) → (⟨S128x8, .f32⟩ : BufTy).Contents (Elt F)),
    StableHlo.binary main_v214 main_v216 main_v217 ((fun l r => Host.dotGeneral dot_S100000x128_S128x8_S100000x8_1_0_0_1_n_n none l r) : (⟨S100000x128, .f32⟩ : BufTy).Contents (Elt F) → (⟨S128x8, .f32⟩ : BufTy).Contents (Elt F) → (⟨S100000x8, .f32⟩ : BufTy).Contents (Elt F)),
    StableHlo.unary main_arg6 main_v218 (broadcastInDim S1x8 ![1] bcast_S8_S1x8_1 : (⟨S8, .f32⟩ : BufTy).Contents (Elt F) → (⟨S1x8, .f32⟩ : BufTy).Contents (Elt F)),
    StableHlo.unary main_v218 main_v219 (broadcastInDim S100000x8 ![0, 1] bcast_S1x8_S100000x8_0_1 : (⟨S1x8, .f32⟩ : BufTy).Contents (Elt F) → (⟨S100000x8, .f32⟩ : BufTy).Contents (Elt F)),
    StableHlo.binary main_v217 main_v219 main_v220 (addf : (⟨S100000x8, .f32⟩ : BufTy).Contents (Elt F) → (⟨S100000x8, .f32⟩ : BufTy).Contents (Elt F) → (⟨S100000x8, .f32⟩ : BufTy).Contents (Elt F)) ]

/-- All of @main's operations in program order: the windows one after the other (285 operations). -/
abbrev ops : List (HloOp τ sig (Elt F)) :=
  ops0 ++ (ops1 ++ (ops2 ++ (ops3 ++ (ops4))))

set_option maxRecDepth 8192 in
/-- Window 0 of @main is the sequential program of its operations: the two are the same chain of steps. -/
theorem main_part0_eq (c : Dev nD) : main_part0 (F := F) c = StableHlo.seq ops0 := rfl

set_option maxRecDepth 8192 in
/-- Window 1 of @main is the sequential program of its operations: the two are the same chain of steps. -/
theorem main_part1_eq (c : Dev nD) : main_part1 (F := F) c = StableHlo.seq ops1 := rfl

set_option maxRecDepth 8192 in
/-- Window 2 of @main is the sequential program of its operations: with the called functions' bodies unfolded at
    their calls and the sequencing reassociated, the two are the same chain of steps. -/
theorem main_part2_eq (c : Dev nD) : main_part2 (F := F) c = StableHlo.seq ops2 := by
  simp only [main_part2, fn_where.body, fn_leaky_relu.body, fn_where_1.body, fn_leaky_relu_0.body, StableHlo.seq, bind_assoc, pure_bind]
  rfl

set_option maxRecDepth 8192 in
/-- Window 3 of @main is the sequential program of its operations: the two are the same chain of steps. -/
theorem main_part3_eq (c : Dev nD) : main_part3 (F := F) c = StableHlo.seq ops3 := rfl

set_option maxRecDepth 8192 in
/-- Window 4 of @main is the sequential program of its operations: with the called functions' bodies unfolded at
    their calls and the sequencing reassociated, the two are the same chain of steps. -/
theorem main_part4_eq (c : Dev nD) : main_part4 (F := F) c = StableHlo.seq ops4 := by
  simp only [main_part4, fn_where.body, fn_leaky_relu.body, fn_where_1.body, fn_leaky_relu_0.body, StableHlo.seq, bind_assoc, pure_bind]

set_option maxRecDepth 8192 in
/-- @main runs its windows in order, and a concatenation of lists runs as its parts one after the other. -/
theorem main_eq (c : Dev nD) : main (F := F) c = StableHlo.seq ops := by
  simp only [ops, StableHlo.seq_append, ← main_part0_eq c, ← main_part1_eq c, ← main_part2_eq c, ← main_part3_eq c, ← main_part4_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 8192 in
/-- Every operation of window 0 touches TensorCore buffers only. -/
theorem ops0_sub : (ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
set_option maxRecDepth 8192 in
/-- Every operation of window 1 touches TensorCore buffers only. -/
theorem ops1_sub : (ops1 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub ..⟩
set_option maxRecDepth 8192 in
/-- Every operation of window 2 touches TensorCore buffers only. -/
theorem ops2_sub : (ops2 : List (HloOp τ sig (Elt F))).Forall fun op => op.bufs ⊆ StableHlo.tcRefs τ sig :=
  ⟨StableHlo.unary_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub ..⟩
set_option maxRecDepth 8192 in
/-- Every operation of window 3 touches TensorCore buffers only. -/
theorem ops3_sub : (ops3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub ..⟩
set_option maxRecDepth 8192 in
/-- Every operation of window 4 touches TensorCore buffers only. -/
theorem ops4_sub : (ops4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub ..⟩
/-- Every operation of @main touches TensorCore buffers only: it lies in one of the windows. -/
theorem ops_sub : (ops : List (HloOp τ sig (Elt F))).Forall fun op => op.bufs ⊆ StableHlo.tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

set_option maxRecDepth 8192 in
/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

/-! ## The arguments end as launched

Each operation writes exactly its result's buffer. Listing those buffers window by window, a buffer outside every
list is written by no operation, so the fold leaves it as it was; the arguments' buffers are such. -/

/-- The buffers window 0 writes, in program order. -/
abbrev W0 : List (Ref sig .tc) :=
  [main_v0, main_v1, main_v2, main_v3, main_v4, main_v5, main_v6, main_v7, main_v8, main_v9, main_c, main_v10, main_v11, main_c_0, main_v12, main_v13, main_v14, main_v15, main_v16, main_cst, main_v17, main_v18, main_v19, main_cst_1, main_v20, main_cst_2, main_v21, main_v22, main_v23, main_cst_3, main_v24, main_v25, main_v26, main_v27, main_v28, main_v29, main_v30, main_v31, main_v32, main_v33, main_v34, main_v35, main_v36, main_v37, main_v38, main_v39, main_v40, main_v41, main_v42, main_v43, main_v44, main_c_4, main_v45, main_v46, main_c_5, main_v47, main_v48, main_v49, main_v50, main_v51]
set_option maxRecDepth 8192 in
/-- Each operation of window 0 writes a buffer of the list. -/
theorem ops0_writes : (ops0 : List (HloOp τ sig (Elt F))).Forall fun op => op.writes ⊆ (W0.map (Proc.devRef (τ := τ) .tc)).toFinset :=
  have hw : ∀ {r : Ref sig .tc}, r ∈ W0 → ({Proc.devRef (τ := τ) .tc r} : Finset (DevRef τ sig)) ⊆ (W0.map (Proc.devRef (τ := τ) .tc)).toFinset :=
    fun h => Finset.singleton_subset_iff.mpr (List.mem_toFinset.mpr (List.mem_map_of_mem h))
  ⟨hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide)⟩

/-- A buffer outside window 0's list holds after the window what it held before. -/
theorem keep0 {r : Ref sig .tc} (hr : r ∉ W0) (V : Valuation τ sig (Elt F)) :
    StableHlo.after ops0 V (Proc.devRef .tc r) = V (Proc.devRef .tc r) :=
  StableHlo.after_of_writes_sub ops0 V ops0_writes hr

/-- The buffers window 1 writes, in program order. -/
abbrev W1 : List (Ref sig .tc) :=
  [main_cst_6, main_v52, main_v53, main_v54, main_cst_7, main_v55, main_cst_8, main_v56, main_v57, main_v58, main_cst_9, main_v59, main_v60, main_v61, main_v62, main_v63, main_v64, main_v65, main_v66, main_v67, main_v68, main_v69, main_v70, main_v71, main_v72, main_v73, main_v74, main_v75, main_v76, main_v77, main_v78, main_v79, main_v80, main_c_10, main_v81, main_v82, main_c_11, main_v83, main_v84, main_v85, main_v86, main_v87, main_cst_12, main_v88, main_v89, main_v90, main_cst_13, main_v91, main_cst_14, main_v92, main_v93, main_v94, main_cst_15, main_v95, main_v96, main_v97, main_v98, main_v99, main_v100, main_v101]
set_option maxRecDepth 8192 in
/-- Each operation of window 1 writes a buffer of the list. -/
theorem ops1_writes : (ops1 : List (HloOp τ sig (Elt F))).Forall fun op => op.writes ⊆ (W1.map (Proc.devRef (τ := τ) .tc)).toFinset :=
  have hw : ∀ {r : Ref sig .tc}, r ∈ W1 → ({Proc.devRef (τ := τ) .tc r} : Finset (DevRef τ sig)) ⊆ (W1.map (Proc.devRef (τ := τ) .tc)).toFinset :=
    fun h => Finset.singleton_subset_iff.mpr (List.mem_toFinset.mpr (List.mem_map_of_mem h))
  ⟨hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide)⟩

/-- A buffer outside window 1's list holds after the window what it held before. -/
theorem keep1 {r : Ref sig .tc} (hr : r ∉ W1) (V : Valuation τ sig (Elt F)) :
    StableHlo.after ops1 V (Proc.devRef .tc r) = V (Proc.devRef .tc r) :=
  StableHlo.after_of_writes_sub ops1 V ops1_writes hr

/-- The buffers window 2 writes, in program order. -/
abbrev W2 : List (Ref sig .tc) :=
  [main_v102, main_v103, main_v104, main_v105, main_cst_16, main_call0.cst.ref, main_call0.v0.ref, main_call0.v1.ref, main_call0.v2.ref, main_call0.v3.ref, main_call0.v4.ref, main_call0.call0.v0.ref, main_cst_17, main_call1.cst.ref, main_call1.v0.ref, main_call1.v1.ref, main_call1.v2.ref, main_call1.v3.ref, main_call1.v4.ref, main_call1.call0.v0.ref, main_v108, main_v109, main_v110, main_v111, main_v112, main_v113, main_v114, main_v115, main_v116, main_v117, main_c_18, main_v118, main_v119, main_c_19, main_v120, main_v121, main_v122, main_v123, main_v124, main_cst_20, main_v125, main_v126, main_v127, main_cst_21, main_v128, main_cst_22, main_v129, main_v130, main_v131, main_cst_23, main_v132, main_v133, main_v134, main_v135, main_v136, main_v137, main_v138, main_v139, main_v140, main_v141, main_v142, main_v143, main_v144, main_v145, main_v146, main_v147, main_v148, main_v149, main_v150, main_v151, main_v152, main_c_24]
set_option maxRecDepth 8192 in
/-- Each operation of window 2 writes a buffer of the list. -/
theorem ops2_writes : (ops2 : List (HloOp τ sig (Elt F))).Forall fun op => op.writes ⊆ (W2.map (Proc.devRef (τ := τ) .tc)).toFinset :=
  have hw : ∀ {r : Ref sig .tc}, r ∈ W2 → ({Proc.devRef (τ := τ) .tc r} : Finset (DevRef τ sig)) ⊆ (W2.map (Proc.devRef (τ := τ) .tc)).toFinset :=
    fun h => Finset.singleton_subset_iff.mpr (List.mem_toFinset.mpr (List.mem_map_of_mem h))
  ⟨hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide)⟩

/-- A buffer outside window 2's list holds after the window what it held before. -/
theorem keep2 {r : Ref sig .tc} (hr : r ∉ W2) (V : Valuation τ sig (Elt F)) :
    StableHlo.after ops2 V (Proc.devRef .tc r) = V (Proc.devRef .tc r) :=
  StableHlo.after_of_writes_sub ops2 V ops2_writes hr

/-- The buffers window 3 writes, in program order. -/
abbrev W3 : List (Ref sig .tc) :=
  [main_v153, main_v154, main_c_25, main_v155, main_v156, main_v157, main_v158, main_v159, main_cst_26, main_v160, main_v161, main_v162, main_cst_27, main_v163, main_cst_28, main_v164, main_v165, main_v166, main_cst_29, main_v167, main_v168, main_v169, main_v170, main_v171, main_v172, main_v173, main_v174, main_v175, main_v176, main_v177, main_v178, main_v179, main_v180, main_v181, main_v182, main_v183, main_v184, main_v185, main_v186, main_v187, main_v188, main_c_30, main_v189, main_v190, main_c_31, main_v191, main_v192, main_v193, main_v194, main_v195, main_cst_32, main_v196, main_v197, main_v198, main_cst_33, main_v199, main_cst_34, main_v200, main_v201, main_v202]
set_option maxRecDepth 8192 in
/-- Each operation of window 3 writes a buffer of the list. -/
theorem ops3_writes : (ops3 : List (HloOp τ sig (Elt F))).Forall fun op => op.writes ⊆ (W3.map (Proc.devRef (τ := τ) .tc)).toFinset :=
  have hw : ∀ {r : Ref sig .tc}, r ∈ W3 → ({Proc.devRef (τ := τ) .tc r} : Finset (DevRef τ sig)) ⊆ (W3.map (Proc.devRef (τ := τ) .tc)).toFinset :=
    fun h => Finset.singleton_subset_iff.mpr (List.mem_toFinset.mpr (List.mem_map_of_mem h))
  ⟨hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide)⟩

/-- A buffer outside window 3's list holds after the window what it held before. -/
theorem keep3 {r : Ref sig .tc} (hr : r ∉ W3) (V : Valuation τ sig (Elt F)) :
    StableHlo.after ops3 V (Proc.devRef .tc r) = V (Proc.devRef .tc r) :=
  StableHlo.after_of_writes_sub ops3 V ops3_writes hr

/-- The buffers window 4 writes, in program order. -/
abbrev W4 : List (Ref sig .tc) :=
  [main_cst_35, main_v203, main_v204, main_v205, main_v206, main_v207, main_v208, main_v209, main_v210, main_v211, main_v212, main_v213, main_cst_36, main_call2.cst.ref, main_call2.v0.ref, main_call2.v1.ref, main_call2.v2.ref, main_call2.v3.ref, main_call2.v4.ref, main_call2.call0.v0.ref, main_cst_37, main_call3.cst.ref, main_call3.v0.ref, main_call3.v1.ref, main_call3.v2.ref, main_call3.v3.ref, main_call3.v4.ref, main_call3.call0.v0.ref, main_v216, main_v217, main_v218, main_v219, main_v220]
set_option maxRecDepth 8192 in
/-- Each operation of window 4 writes a buffer of the list. -/
theorem ops4_writes : (ops4 : List (HloOp τ sig (Elt F))).Forall fun op => op.writes ⊆ (W4.map (Proc.devRef (τ := τ) .tc)).toFinset :=
  have hw : ∀ {r : Ref sig .tc}, r ∈ W4 → ({Proc.devRef (τ := τ) .tc r} : Finset (DevRef τ sig)) ⊆ (W4.map (Proc.devRef (τ := τ) .tc)).toFinset :=
    fun h => Finset.singleton_subset_iff.mpr (List.mem_toFinset.mpr (List.mem_map_of_mem h))
  ⟨hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide), hw (by decide)⟩

/-- A buffer outside window 4's list holds after the window what it held before. -/
theorem keep4 {r : Ref sig .tc} (hr : r ∉ W4) (V : Valuation τ sig (Elt F)) :
    StableHlo.after ops4 V (Proc.devRef .tc r) = V (Proc.devRef .tc r) :=
  StableHlo.after_of_writes_sub ops4 V ops4_writes hr

/-- A buffer outside every window's list holds after @main what it held before: the fold over the concatenation is
    the folds over the windows in turn, and none of them changes it. -/
theorem keeps {r : Ref sig .tc} (h0 : r ∉ W0) (h1 : r ∉ W1) (h2 : r ∉ W2) (h3 : r ∉ W3) (h4 : r ∉ W4) (V : Valuation τ sig (Elt F)) :
    StableHlo.after ops V (Proc.devRef .tc r) = V (Proc.devRef .tc r) := by
  simp only [ops, StableHlo.after_append]
  rw [keep4 h4, keep3 h3, keep2 h2, keep1 h1, keep0 h0]

/-- No operation writes argument 0's buffer: it ends as launched. -/
theorem keeps_arg0 (V : Valuation τ sig (Elt F)) :
    StableHlo.after ops V (main_arg0 : DevRef τ sig) = V (main_arg0 : DevRef τ sig) :=
  keeps (by decide) (by decide) (by decide) (by decide) (by decide) V

/-- No operation writes argument 1's buffer: it ends as launched. -/
theorem keeps_arg1 (V : Valuation τ sig (Elt F)) :
    StableHlo.after ops V (main_arg1 : DevRef τ sig) = V (main_arg1 : DevRef τ sig) :=
  keeps (by decide) (by decide) (by decide) (by decide) (by decide) V

/-- No operation writes argument 2's buffer: it ends as launched. -/
theorem keeps_arg2 (V : Valuation τ sig (Elt F)) :
    StableHlo.after ops V (main_arg2 : DevRef τ sig) = V (main_arg2 : DevRef τ sig) :=
  keeps (by decide) (by decide) (by decide) (by decide) (by decide) V

/-- No operation writes argument 3's buffer: it ends as launched. -/
theorem keeps_arg3 (V : Valuation τ sig (Elt F)) :
    StableHlo.after ops V (main_arg3 : DevRef τ sig) = V (main_arg3 : DevRef τ sig) :=
  keeps (by decide) (by decide) (by decide) (by decide) (by decide) V

/-- No operation writes argument 4's buffer: it ends as launched. -/
theorem keeps_arg4 (V : Valuation τ sig (Elt F)) :
    StableHlo.after ops V (main_arg4 : DevRef τ sig) = V (main_arg4 : DevRef τ sig) :=
  keeps (by decide) (by decide) (by decide) (by decide) (by decide) V

/-- No operation writes argument 5's buffer: it ends as launched. -/
theorem keeps_arg5 (V : Valuation τ sig (Elt F)) :
    StableHlo.after ops V (main_arg5 : DevRef τ sig) = V (main_arg5 : DevRef τ sig) :=
  keeps (by decide) (by decide) (by decide) (by decide) (by decide) V

/-- No operation writes argument 6's buffer: it ends as launched. -/
theorem keeps_arg6 (V : Valuation τ sig (Elt F)) :
    StableHlo.after ops V (main_arg6 : DevRef τ sig) = V (main_arg6 : DevRef τ sig) :=
  keeps (by decide) (by decide) (by decide) (by decide) (by decide) V

/-- No operation writes argument 7's buffer: it ends as launched. -/
theorem keeps_arg7 (V : Valuation τ sig (Elt F)) :
    StableHlo.after ops V (main_arg7 : DevRef τ sig) = V (main_arg7 : DevRef τ sig) :=
  keeps (by decide) (by decide) (by decide) (by decide) (by decide) V

/-- No operation writes argument 8's buffer: it ends as launched. -/
theorem keeps_arg8 (V : Valuation τ sig (Elt F)) :
    StableHlo.after ops V (main_arg8 : DevRef τ sig) = V (main_arg8 : DevRef τ sig) :=
  keeps (by decide) (by decide) (by decide) (by decide) (by decide) V

/-- No operation writes argument 9's buffer: it ends as launched. -/
theorem keeps_arg9 (V : Valuation τ sig (Elt F)) :
    StableHlo.after ops V (main_arg9 : DevRef τ sig) = V (main_arg9 : DevRef τ sig) :=
  keeps (by decide) (by decide) (by decide) (by decide) (by decide) V

end Cert.ReferenceIdeal.HandRun

end
-- ==== Proof.RDefs.lean ====
/-
  The reference program, named: what its host operations compute from the program's arguments, as functions of
  arrays over the extended reals.

  Per edge type: the source and destination ids, the rows gathered at the (wrapped) source ids, their sum per
  destination node, the in-degree of every destination node clamped below at 1 and spread along the feature axis, and
  the mean as the quotient of the two.  One SAGE term is mean · Wl + bias + x · Wr; a "b" node adds two of them, an
  "s" node has one; the leaky rectifier follows.  After two layers the heads are a product with the transposed head
  weights plus the head biases.
-/
import proofs.«424018_j64587718197893_2_alg».proof.Proof.Gen.ReferenceIdeal
import Idealize.ShloMosaic.PureOps.Ideal

noncomputable section

namespace Cert.ReferenceIdeal.HostVal

open Idealize.ShloMosaic Cert.ReferenceIdeal Cert.ReferenceIdeal.Facts₀ Cert.ReferenceIdeal.Facts

/-! ## Edge lists -/

/-- Source ids of the b→b edges: row 0 of the edge list. -/
def srcBB (e : IVec S2x800000 32) : IVec S800000 32 :=
  shapeCast S800000 (extractStridedSlice S1x800000 ![0, 0] e slices_S2x800000_S1x800000_0_0) shapeCasts_S1x800000_S800000
/-- Destination ids of the b→b edges: row 1. -/
def dstBB (e : IVec S2x800000 32) : IVec S800000 32 :=
  shapeCast S800000 (extractStridedSlice S1x800000 ![1, 0] e slices_S2x800000_S1x800000_1_0) shapeCasts_S1x800000_S800000
/-- Source ids of an edge list of 400000 edges. -/
def src4 (e : IVec S2x400000 32) : IVec S400000 32 :=
  shapeCast S400000 (extractStridedSlice S1x400000 ![0, 0] e slices_S2x400000_S1x400000_0_0) shapeCasts_S1x400000_S400000
/-- Destination ids of an edge list of 400000 edges. -/
def dst4 (e : IVec S2x400000 32) : IVec S400000 32 :=
  shapeCast S400000 (extractStridedSlice S1x400000 ![1, 0] e slices_S2x400000_S1x400000_1_0) shapeCasts_S1x400000_S400000

/-! ## Wrapped ids and gathered rows -/

/-- An id after the wrap of negative ids, 800000 ids into 100000 rows. -/
def wrapBB (src : IVec S800000 32) : IVec S800000 32 :=
  select (cmpi .slt src (broadcastInDim S800000 ![] bcast_S_S800000 (constantI S_ 32 0#32)))
    (addi src (broadcastInDim S800000 ![] bcast_S_S800000 (constantI S_ 32 100000#32))) src
/-- 400000 ids into 50000 rows. -/
def wrapSB (src : IVec S400000 32) : IVec S400000 32 :=
  select (cmpi .slt src (broadcastInDim S400000 ![] bcast_S_S400000 (constantI S_ 32 0#32)))
    (addi src (broadcastInDim S400000 ![] bcast_S_S400000 (constantI S_ 32 50000#32))) src
/-- 400000 ids into 100000 rows. -/
def wrapBS (src : IVec S400000 32) : IVec S400000 32 :=
  select (cmpi .slt src (broadcastInDim S400000 ![] bcast_S_S400000 (constantI S_ 32 0#32)))
    (addi src (broadcastInDim S400000 ![] bcast_S_S400000 (constantI S_ 32 100000#32))) src

/-- Rows of a 100000-row array at 800000 ids. -/
def gatherBB (x : FVec Ideal S100000x128 .f32) (src : IVec S800000 32) : FVec Ideal S800000x128 .f32 :=
  Host.gather gather_S100000x128_S800000x1_S800000x128_1_0_n_n_0_1_1128 x
    (broadcastInDim S800000x1 ![0] bcast_S800000_S800000x1_0 (wrapBB src))
/-- Rows of a 50000-row array at 400000 ids. -/
def gatherSB (x : FVec Ideal S50000x128 .f32) (src : IVec S400000 32) : FVec Ideal S400000x128 .f32 :=
  Host.gather gather_S50000x128_S400000x1_S400000x128_1_0_n_n_0_1_1128 x
    (broadcastInDim S400000x1 ![0] bcast_S400000_S400000x1_0 (wrapSB src))
/-- Rows of a 100000-row array at 400000 ids. -/
def gatherBS (x : FVec Ideal S100000x128 .f32) (src : IVec S400000 32) : FVec Ideal S400000x128 .f32 :=
  Host.gather gather_S100000x128_S400000x1_S400000x128_1_0_n_n_0_1_1128 x
    (broadcastInDim S400000x1 ![0] bcast_S400000_S400000x1_0 (wrapBS src))

/-! ## Segment sums and clamped in-degrees -/

/-- Sum over the b→b edges into each "b" node of the source node's row. -/
def segBB (x : FVec Ideal S100000x128 .f32) (src dst : IVec S800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst) (gatherBB x src)
/-- Sum over the s→b edges into each "b" node of the source "s" node's row. -/
def segSB (x : FVec Ideal S50000x128 .f32) (src dst : IVec S400000 32) : FVec Ideal S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst) (gatherSB x src)
/-- Sum over the b→s edges into each "s" node of the source "b" node's row. -/
def segBS (x : FVec Ideal S100000x128 .f32) (src dst : IVec S400000 32) : FVec Ideal S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 dst) (gatherBS x src)

/-- max(in-degree, 1) of the 100000 "b" nodes under 800000 edges. -/
def cntBB (dst : IVec S800000 32) : FVec Ideal S100000 .f32 :=
  maximumf
    (Host.scatterAdd scatter_S100000_S800000x1_S800000_n_0_0_1
      (broadcastInDim S100000 ![] bcast_S_S100000 (constant S_ .f32 0x00000000#32))
      (broadcastInDim S800000x1 ![0] bcast_S800000_S800000x1_0 dst)
      (broadcastInDim S800000 ![] bcast_S_S800000 (constant S_ .f32 0x3F800000#32)))
    (broadcastInDim S100000 ![] bcast_S_S100000 (constant S_ .f32 0x3F800000#32))
/-- The same for the 100000 "b" nodes under 400000 edges. -/
def cntSB (dst : IVec S400000 32) : FVec Ideal S100000 .f32 :=
  maximumf
    (Host.scatterAdd scatter_S100000_S400000x1_S400000_n_0_0_1
      (broadcastInDim S100000 ![] bcast_S_S100000 (constant S_ .f32 0x00000000#32))
      (broadcastInDim S400000x1 ![0] bcast_S400000_S400000x1_0 dst)
      (broadcastInDim S400000 ![] bcast_S_S400000 (constant S_ .f32 0x3F800000#32)))
    (broadcastInDim S100000 ![] bcast_S_S100000 (constant S_ .f32 0x3F800000#32))
/-- The same for the 50000 "s" nodes under 400000 edges. -/
def cntBS (dst : IVec S400000 32) : FVec Ideal S50000 .f32 :=
  maximumf
    (Host.scatterAdd scatter_S50000_S400000x1_S400000_n_0_0_1
      (broadcastInDim S50000 ![] bcast_S_S50000 (constant S_ .f32 0x00000000#32))
      (broadcastInDim S400000x1 ![0] bcast_S400000_S400000x1_0 dst)
      (broadcastInDim S400000 ![] bcast_S_S400000 (constant S_ .f32 0x3F800000#32)))
    (broadcastInDim S50000 ![] bcast_S_S50000 (constant S_ .f32 0x3F800000#32))

/-! ## One SAGE term, the rectifier, the layers -/

/-- mean · Wl + bias + x · Wr over 100000 rows: `s` the segment sum, `c` the clamped in-degree. -/
def sageB (s : FVec Ideal S100000x128 .f32) (c : FVec Ideal S100000 .f32) (wl : FVec Ideal S128x128 .f32)
    (b : FVec Ideal S128 .f32) (x : FVec Ideal S100000x128 .f32) (wr : FVec Ideal S128x128 .f32) : FVec Ideal S100000x128 .f32 :=
  addf
    (addf
      (Host.dotGeneral dot_S100000x128_S128x128_S100000x128_1_0_0_1_n_n none
        (Host.divf s (broadcastInDim S100000x128 ![0, 1] bcast_S100000x1_S100000x128_0_1
          (broadcastInDim S100000x1 ![0] bcast_S100000_S100000x1_0 c))) wl)
      (broadcastInDim S100000x128 ![0, 1] bcast_S1x128_S100000x128_0_1 (broadcastInDim S1x128 ![1] bcast_S128_S1x128_1 b)))
    (Host.dotGeneral dot_S100000x128_S128x128_S100000x128_1_0_0_1_n_n none x wr)
/-- The same over 50000 rows. -/
def sageS (s : FVec Ideal S50000x128 .f32) (c : FVec Ideal S50000 .f32) (wl : FVec Ideal S128x128 .f32)
    (b : FVec Ideal S128 .f32) (x : FVec Ideal S50000x128 .f32) (wr : FVec Ideal S128x128 .f32) : FVec Ideal S50000x128 .f32 :=
  addf
    (addf
      (Host.dotGeneral dot_S50000x128_S128x128_S50000x128_1_0_0_1_n_n none
        (Host.divf s (broadcastInDim S50000x128 ![0, 1] bcast_S50000x1_S50000x128_0_1
          (broadcastInDim S50000x1 ![0] bcast_S50000_S50000x1_0 c))) wl)
      (broadcastInDim S50000x128 ![0, 1] bcast_S1x128_S50000x128_0_1 (broadcastInDim S1x128 ![1] bcast_S128_S1x128_1 b)))
    (Host.dotGeneral dot_S50000x128_S128x128_S50000x128_1_0_0_1_n_n none x wr)

/-- The leaky rectifier over 100000 rows: x where 0 ≤ x, slope · x elsewhere. -/
def lreluB (x : FVec Ideal S100000x128 .f32) : FVec Ideal S100000x128 .f32 :=
  select (cmpf .oge x (broadcastInDim S100000x128 ![] bcast_S_S100000x128 (constant S_ .f32 0x00000000#32))) x
    (mulf (broadcastInDim S100000x128 ![] bcast_S_S100000x128 (id (constant S_ .f32 0x3C23D70A#32))) x)
/-- The same over 50000 rows. -/
def lreluS (x : FVec Ideal S50000x128 .f32) : FVec Ideal S50000x128 .f32 :=
  select (cmpf .oge x (broadcastInDim S50000x128 ![] bcast_S_S50000x128 (constant S_ .f32 0x00000000#32))) x
    (mulf (broadcastInDim S50000x128 ![] bcast_S_S50000x128 (id (constant S_ .f32 0x3C23D70A#32))) x)

/-- A 128 × 128 matrix out of the stacked weights: layer 0, edge type 0. -/
def w00 (w : FVec Ideal S2x3x128x128 .f32) : FVec Ideal S128x128 .f32 :=
  shapeCast S128x128 (extractStridedSlice S1x1x128x128 ![0, 0, 0, 0] w slices_S2x3x128x128_S1x1x128x128_0_0_0_0) shapeCasts_S1x1x128x128_S128x128
def w01 (w : FVec Ideal S2x3x128x128 .f32) : FVec Ideal S128x128 .f32 :=
  shapeCast S128x128 (extractStridedSlice S1x1x128x128 ![0, 1, 0, 0] w slices_S2x3x128x128_S1x1x128x128_0_1_0_0) shapeCasts_S1x1x128x128_S128x128
def w02 (w : FVec Ideal S2x3x128x128 .f32) : FVec Ideal S128x128 .f32 :=
  shapeCast S128x128 (extractStridedSlice S1x1x128x128 ![0, 2, 0, 0] w slices_S2x3x128x128_S1x1x128x128_0_2_0_0) shapeCasts_S1x1x128x128_S128x128
def w10 (w : FVec Ideal S2x3x128x128 .f32) : FVec Ideal S128x128 .f32 :=
  shapeCast S128x128 (extractStridedSlice S1x1x128x128 ![1, 0, 0, 0] w slices_S2x3x128x128_S1x1x128x128_1_0_0_0) shapeCasts_S1x1x128x128_S128x128
def w11 (w : FVec Ideal S2x3x128x128 .f32) : FVec Ideal S128x128 .f32 :=
  shapeCast S128x128 (extractStridedSlice S1x1x128x128 ![1, 1, 0, 0] w slices_S2x3x128x128_S1x1x128x128_1_1_0_0) shapeCasts_S1x1x128x128_S128x128
def w12 (w : FVec Ideal S2x3x128x128 .f32) : FVec Ideal S128x128 .f32 :=
  shapeCast S128x128 (extractStridedSlice S1x1x128x128 ![1, 2, 0, 0] w slices_S2x3x128x128_S1x1x128x128_1_2_0_0) shapeCasts_S1x1x128x128_S128x128
/-- A bias vector out of the stacked biases: layer 0, edge type 0. -/
def b00 (b : FVec Ideal S2x3x128 .f32) : FVec Ideal S128 .f32 :=
  shapeCast S128 (extractStridedSlice S1x1x128 ![0, 0, 0] b slices_S2x3x128_S1x1x128_0_0_0) shapeCasts_S1x1x128_S128
def b01 (b : FVec Ideal S2x3x128 .f32) : FVec Ideal S128 .f32 :=
  shapeCast S128 (extractStridedSlice S1x1x128 ![0, 1, 0] b slices_S2x3x128_S1x1x128_0_1_0) shapeCasts_S1x1x128_S128
def b02 (b : FVec Ideal S2x3x128 .f32) : FVec Ideal S128 .f32 :=
  shapeCast S128 (extractStridedSlice S1x1x128 ![0, 2, 0] b slices_S2x3x128_S1x1x128_0_2_0) shapeCasts_S1x1x128_S128
def b10 (b : FVec Ideal S2x3x128 .f32) : FVec Ideal S128 .f32 :=
  shapeCast S128 (extractStridedSlice S1x1x128 ![1, 0, 0] b slices_S2x3x128_S1x1x128_1_0_0) shapeCasts_S1x1x128_S128
def b11 (b : FVec Ideal S2x3x128 .f32) : FVec Ideal S128 .f32 :=
  shapeCast S128 (extractStridedSlice S1x1x128 ![1, 1, 0] b slices_S2x3x128_S1x1x128_1_1_0) shapeCasts_S1x1x128_S128
def b12 (b : FVec Ideal S2x3x128 .f32) : FVec Ideal S128 .f32 :=
  shapeCast S128 (extractStridedSlice S1x1x128 ![1, 2, 0] b slices_S2x3x128_S1x1x128_1_2_0) shapeCasts_S1x1x128_S128

/-- The "b" rows after layer 0. -/
def xb1 (xb : FVec Ideal S100000x128 .f32) (xs : FVec Ideal S50000x128 .f32) (wl : FVec Ideal S2x3x128x128 .f32)
    (bl : FVec Ideal S2x3x128 .f32) (wr : FVec Ideal S2x3x128x128 .f32) (ebb : IVec S2x800000 32) (esb : IVec S2x400000 32) :
    FVec Ideal S100000x128 .f32 :=
  lreluB (addf
    (sageB (segBB xb (srcBB ebb) (dstBB ebb)) (cntBB (dstBB ebb)) (w00 wl) (b00 bl) xb (w00 wr))
    (sageB (segSB xs (src4 esb) (dst4 esb)) (cntSB (dst4 esb)) (w01 wl) (b01 bl) xb (w01 wr)))
/-- The "s" rows after layer 0. -/
def xs1 (xb : FVec Ideal S100000x128 .f32) (xs : FVec Ideal S50000x128 .f32) (wl : FVec Ideal S2x3x128x128 .f32)
    (bl : FVec Ideal S2x3x128 .f32) (wr : FVec Ideal S2x3x128x128 .f32) (ebs : IVec S2x400000 32) : FVec Ideal S50000x128 .f32 :=
  lreluS (sageS (segBS xb (src4 ebs) (dst4 ebs)) (cntBS (dst4 ebs)) (w02 wl) (b02 bl) xs (w02 wr))
/-- The "b" rows after layer 1, from the rows after layer 0. -/
def xb2 (yb : FVec Ideal S100000x128 .f32) (ys : FVec Ideal S50000x128 .f32) (wl : FVec Ideal S2x3x128x128 .f32)
    (bl : FVec Ideal S2x3x128 .f32) (wr : FVec Ideal S2x3x128x128 .f32) (ebb : IVec S2x800000 32) (esb : IVec S2x400000 32) :
    FVec Ideal S100000x128 .f32 :=
  lreluB (addf
    (sageB (segBB yb (srcBB ebb) (dstBB ebb)) (cntBB (dstBB ebb)) (w10 wl) (b10 bl) yb (w10 wr))
    (sageB (segSB ys (src4 esb) (dst4 esb)) (cntSB (dst4 esb)) (w11 wl) (b11 bl) yb (w11 wr)))
/-- The heads: rows · transposed head weights + head biases. -/
def heads (y : FVec Ideal S100000x128 .f32) (wh : FVec Ideal S8x128 .f32) (bh : FVec Ideal S8 .f32) : FVec Ideal S100000x8 .f32 :=
  addf
    (Host.dotGeneral dot_S100000x128_S128x8_S100000x8_1_0_0_1_n_n none y (transpose S128x8 [1, 0] wh transposes_S8x128_S128x8_1_0))
    (broadcastInDim S100000x8 ![0, 1] bcast_S1x8_S100000x8_0_1 (broadcastInDim S1x8 ![1] bcast_S8_S1x8_1 bh))

/-- The reference's result. -/
def result (xb : FVec Ideal S100000x128 .f32) (xs : FVec Ideal S50000x128 .f32) (wl : FVec Ideal S2x3x128x128 .f32)
    (bl : FVec Ideal S2x3x128 .f32) (wr : FVec Ideal S2x3x128x128 .f32) (wh : FVec Ideal S8x128 .f32) (bh : FVec Ideal S8 .f32)
    (ebb : IVec S2x800000 32) (esb ebs : IVec S2x400000 32) : FVec Ideal S100000x8 .f32 :=
  heads (xb2 (xb1 xb xs wl bl wr ebb esb) (xs1 xb xs wl bl wr ebs) wl bl wr ebb esb) wh bh

end Cert.ReferenceIdeal.HostVal

end
-- ==== Proof.RVal.lean ====
import proofs.«424018_j64587718197893_2_alg».proof.Proof.RRun
import proofs.«424018_j64587718197893_2_alg».proof.Proof.RDefs

/-!
# The reference's result as a function of its arguments

The reference's operations run window by window. At the end of each window the buffers that later windows read are
named functions of the ARGUMENTS' launch contents: the weight and bias slices and the edge ids, the gathered rows, the
SAGE terms, the rows after the first layer. Each such value is read off one window's operations over the contents at
the window's entry, and the entry contents are the values already named at the previous boundary (or the launch
contents, for a buffer no earlier window writes). The last window ends with the result buffer at the heads of the
second-layer "b" rows; the second-layer "s" rows are computed and never read.
-/

noncomputable section

namespace Cert.ReferenceIdeal.ValueChain

open Cert.ReferenceIdeal Cert.ReferenceIdeal.Gen Idealize.ShloMosaic Idealize.ShloMosaic.TcCoe Idealize.SL.Sem Idealize.ShloMosaic.StableHlo
open Cert.ReferenceIdeal.HostVal

variable (V : Valuation τ sig (Elt Ideal))

/-! ## The contents at the window boundaries -/

/-- The buffers' contents after window 0. -/
def V1 : Valuation τ sig (Elt Ideal) := after (HandRun.ops0 (F := Ideal)) V
/-- After windows 0 and 1. -/
def V2 : Valuation τ sig (Elt Ideal) := after (HandRun.ops1 (F := Ideal)) (V1 V)
/-- After windows 0 to 2. -/
def V3 : Valuation τ sig (Elt Ideal) := after (HandRun.ops2 (F := Ideal)) (V2 V)
/-- After windows 0 to 3. -/
def V4 : Valuation τ sig (Elt Ideal) := after (HandRun.ops3 (F := Ideal)) (V3 V)

/-- The fold over all the operations is the fold over the last window from the contents after the first four. -/
theorem after_ops : after (HandRun.ops (F := Ideal)) V = after (HandRun.ops4 (F := Ideal)) (V4 V) := by
  simp only [HandRun.ops, after_append]
  rfl

/-! ## Buffers a window does not write -/

theorem V1_keep {r : Ref sig .tc} (h0 : r ∉ HandRun.W0) : V1 V (Proc.devRef .tc r) = V (Proc.devRef .tc r) :=
  HandRun.keep0 h0 V
theorem V2_keep {r : Ref sig .tc} (h0 : r ∉ HandRun.W0) (h1 : r ∉ HandRun.W1) : V2 V (Proc.devRef .tc r) = V (Proc.devRef .tc r) :=
  (HandRun.keep1 h1 (V1 V)).trans (V1_keep V h0)
theorem V3_keep {r : Ref sig .tc} (h0 : r ∉ HandRun.W0) (h1 : r ∉ HandRun.W1) (h2 : r ∉ HandRun.W2) :
    V3 V (Proc.devRef .tc r) = V (Proc.devRef .tc r) :=
  (HandRun.keep2 h2 (V2 V)).trans (V2_keep V h0 h1)
theorem V4_keep {r : Ref sig .tc} (h0 : r ∉ HandRun.W0) (h1 : r ∉ HandRun.W1) (h2 : r ∉ HandRun.W2) (h3 : r ∉ HandRun.W3) :
    V4 V (Proc.devRef .tc r) = V (Proc.devRef .tc r) :=
  (HandRun.keep3 h3 (V3 V)).trans (V3_keep V h0 h1 h2)

theorem V1_arg0 : V1 V (Proc.devRef .tc main_arg0) = V (Proc.devRef .tc main_arg0) := V1_keep V (by decide)
theorem V1_arg2 : V1 V (Proc.devRef .tc main_arg2) = V (Proc.devRef .tc main_arg2) := V1_keep V (by decide)
theorem V1_arg3 : V1 V (Proc.devRef .tc main_arg3) = V (Proc.devRef .tc main_arg3) := V1_keep V (by decide)
theorem V1_arg4 : V1 V (Proc.devRef .tc main_arg4) = V (Proc.devRef .tc main_arg4) := V1_keep V (by decide)
theorem V1_arg9 : V1 V (Proc.devRef .tc main_arg9) = V (Proc.devRef .tc main_arg9) := V1_keep V (by decide)
theorem V2_arg1 : V2 V (Proc.devRef .tc main_arg1) = V (Proc.devRef .tc main_arg1) := V2_keep V (by decide) (by decide)
theorem V2_arg2 : V2 V (Proc.devRef .tc main_arg2) = V (Proc.devRef .tc main_arg2) := V2_keep V (by decide) (by decide)
theorem V2_arg3 : V2 V (Proc.devRef .tc main_arg3) = V (Proc.devRef .tc main_arg3) := V2_keep V (by decide) (by decide)
theorem V2_arg4 : V2 V (Proc.devRef .tc main_arg4) = V (Proc.devRef .tc main_arg4) := V2_keep V (by decide) (by decide)
theorem V2_arg7 : V2 V (Proc.devRef .tc main_arg7) = V (Proc.devRef .tc main_arg7) := V2_keep V (by decide) (by decide)
theorem V2_arg8 : V2 V (Proc.devRef .tc main_arg8) = V (Proc.devRef .tc main_arg8) := V2_keep V (by decide) (by decide)
theorem V4_arg5 : V4 V (Proc.devRef .tc main_arg5) = V (Proc.devRef .tc main_arg5) := V4_keep V (by decide) (by decide) (by decide) (by decide)
theorem V4_arg6 : V4 V (Proc.devRef .tc main_arg6) = V (Proc.devRef .tc main_arg6) := V4_keep V (by decide) (by decide) (by decide) (by decide)

/-! ## Typed references

A called function's operations read and write through typed references; a value goes into the buffer and comes back
by transport along the reference's type equation, and the round trip is the identity. -/

/-- Writing a value through a typed reference and reading it back gives the value. -/
theorem ofBuf_toBuf {Val : EltTy → Type} {T : BufTy} (y : StableHlo.TRef sig T) (v : T.Contents Val) :
    y.ofBuf (y.toBuf v) = v := by
  simp only [StableHlo.TRef.ofBuf, StableHlo.TRef.toBuf, cast_cast, cast_eq]

/-! ## After window 0: the first b→b term, the second edge type's slices and ids, its gathered rows -/

set_option maxRecDepth 8192 in
/-- The layer-0 SAGE term of the b→b edges. -/
theorem V1_v34 : V1 V (Proc.devRef .tc main_v34) = sageB (segBB (V (Proc.devRef .tc main_arg0)) (srcBB (V (Proc.devRef .tc main_arg7))) (dstBB (V (Proc.devRef .tc main_arg7)))) (cntBB (dstBB (V (Proc.devRef .tc main_arg7)))) (w00 (V (Proc.devRef .tc main_arg2))) (b00 (V (Proc.devRef .tc main_arg3))) (V (Proc.devRef .tc main_arg0)) (w00 (V (Proc.devRef .tc main_arg4))) := by
  show after (HandRun.ops0 (F := Ideal)) V (Proc.devRef .tc main_v34) = _
  simp only [HandRun.ops0]
  after_results_simp
  rfl

set_option maxRecDepth 8192 in
/-- The layer-0 left weights of the s→b edges. -/
theorem V1_v36 : V1 V (Proc.devRef .tc main_v36) = w01 (V (Proc.devRef .tc main_arg2)) := by
  show after (HandRun.ops0 (F := Ideal)) V (Proc.devRef .tc main_v36) = _
  simp only [HandRun.ops0]
  after_results_simp
  rfl

set_option maxRecDepth 8192 in
/-- The layer-0 bias of the s→b edges. -/
theorem V1_v38 : V1 V (Proc.devRef .tc main_v38) = b01 (V (Proc.devRef .tc main_arg3)) := by
  show after (HandRun.ops0 (F := Ideal)) V (Proc.devRef .tc main_v38) = _
  simp only [HandRun.ops0]
  after_results_simp
  rfl

set_option maxRecDepth 8192 in
/-- The layer-0 right weights of the s→b edges. -/
theorem V1_v40 : V1 V (Proc.devRef .tc main_v40) = w01 (V (Proc.devRef .tc main_arg4)) := by
  show after (HandRun.ops0 (F := Ideal)) V (Proc.devRef .tc main_v40) = _
  simp only [HandRun.ops0]
  after_results_simp
  rfl

set_option maxRecDepth 8192 in
/-- The destination ids of the s→b edges. -/
theorem V1_v44 : V1 V (Proc.devRef .tc main_v44) = dst4 (V (Proc.devRef .tc main_arg8)) := by
  show after (HandRun.ops0 (F := Ideal)) V (Proc.devRef .tc main_v44) = _
  simp only [HandRun.ops0]
  after_results_simp
  rfl

set_option maxRecDepth 8192 in
/-- The "s" rows gathered at the s→b edges' source ids. -/
theorem V1_v51 : V1 V (Proc.devRef .tc main_v51) = gatherSB (V (Proc.devRef .tc main_arg1)) (src4 (V (Proc.devRef .tc main_arg8))) := by
  show after (HandRun.ops0 (F := Ideal)) V (Proc.devRef .tc main_v51) = _
  simp only [HandRun.ops0]
  after_results_simp
  rfl

/-! ## After window 1: the "b" rows before the rectifier, and the pieces of the "s" rows' term -/

set_option maxRecDepth 8192 in
/-- The sum of the two layer-0 SAGE terms into the "b" nodes. -/
theorem V2_v70 : V2 V (Proc.devRef .tc main_v70) = addf (sageB (segBB (V (Proc.devRef .tc main_arg0)) (srcBB (V (Proc.devRef .tc main_arg7))) (dstBB (V (Proc.devRef .tc main_arg7)))) (cntBB (dstBB (V (Proc.devRef .tc main_arg7)))) (w00 (V (Proc.devRef .tc main_arg2))) (b00 (V (Proc.devRef .tc main_arg3))) (V (Proc.devRef .tc main_arg0)) (w00 (V (Proc.devRef .tc main_arg4)))) (sageB (segSB (V (Proc.devRef .tc main_arg1)) (src4 (V (Proc.devRef .tc main_arg8))) (dst4 (V (Proc.devRef .tc main_arg8)))) (cntSB (dst4 (V (Proc.devRef .tc main_arg8)))) (w01 (V (Proc.devRef .tc main_arg2))) (b01 (V (Proc.devRef .tc main_arg3))) (V (Proc.devRef .tc main_arg0)) (w01 (V (Proc.devRef .tc main_arg4)))) := by
  show after (HandRun.ops1 (F := Ideal)) (V1 V) (Proc.devRef .tc main_v70) = _
  simp only [HandRun.ops1]
  after_results_simp
  rw [V1_v44 V, V1_v51 V, V1_v36 V, V1_v38 V, V1_arg0 V, V1_v40 V, V1_v34 V]
  rfl

set_option maxRecDepth 8192 in
/-- The layer-0 right weights of the b→s edges. -/
theorem V2_v76 : V2 V (Proc.devRef .tc main_v76) = w02 (V (Proc.devRef .tc main_arg4)) := by
  show after (HandRun.ops1 (F := Ideal)) (V1 V) (Proc.devRef .tc main_v76) = _
  simp only [HandRun.ops1]
  after_results_simp
  rw [V1_arg4 V]
  rfl

set_option maxRecDepth 8192 in
/-- The mean over the b→s edges times the layer-0 left weights. -/
theorem V2_v100 : V2 V (Proc.devRef .tc main_v100) = Host.dotGeneral dot_S50000x128_S128x128_S50000x128_1_0_0_1_n_n none
      (Host.divf (segBS (V (Proc.devRef .tc main_arg0)) (src4 (V (Proc.devRef .tc main_arg9))) (dst4 (V (Proc.devRef .tc main_arg9)))) (broadcastInDim S50000x128 ![0, 1] bcast_S50000x1_S50000x128_0_1
        (broadcastInDim S50000x1 ![0] bcast_S50000_S50000x1_0 (cntBS (dst4 (V (Proc.devRef .tc main_arg9))))))) (w02 (V (Proc.devRef .tc main_arg2))) := by
  show after (HandRun.ops1 (F := Ideal)) (V1 V) (Proc.devRef .tc main_v100) = _
  simp only [HandRun.ops1]
  after_results_simp
  rw [V1_arg2 V, V1_arg9 V, V1_arg0 V]
  rfl

set_option maxRecDepth 8192 in
/-- The layer-0 bias of the b→s edges as one row. -/
theorem V2_v101 : V2 V (Proc.devRef .tc main_v101) = broadcastInDim S1x128 ![1] bcast_S128_S1x128_1 (b02 (V (Proc.devRef .tc main_arg3))) := by
  show after (HandRun.ops1 (F := Ideal)) (V1 V) (Proc.devRef .tc main_v101) = _
  simp only [HandRun.ops1]
  after_results_simp
  rw [V1_arg3 V]
  rfl

/-! ## After window 2: the rows after layer 0, the first layer-1 term, the second edge type's slices and ids -/

set_option maxRecDepth 8192 in
/-- Window 2 at the first call's result: the rectifier over the entry contents of the call's operand. -/
theorem T_v106 (W : Valuation τ sig (Elt Ideal)) :
    after (HandRun.ops2 (F := Ideal)) W (Proc.devRef .tc main_v106) = lreluB (W (Proc.devRef .tc main_v70)) := by
  simp only [HandRun.ops2]
  after_results_simp
  simp only [ofBuf_toBuf]
  rfl

/-- The "b" rows after layer 0. -/
theorem V3_v106 : V3 V (Proc.devRef .tc main_v106) = xb1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) := by
  show after (HandRun.ops2 (F := Ideal)) (V2 V) (Proc.devRef .tc main_v106) = _
  rw [T_v106, V2_v70 V]
  rfl

set_option maxRecDepth 8192 in
/-- Window 2 at the second call's result: the rectifier over the "s" term completed from its pieces at entry. -/
theorem T_v107 (W : Valuation τ sig (Elt Ideal)) :
    after (HandRun.ops2 (F := Ideal)) W (Proc.devRef .tc main_v107) = lreluS (addf (addf (W (Proc.devRef .tc main_v100)) (broadcastInDim S50000x128 ![0, 1] bcast_S1x128_S50000x128_0_1 (W (Proc.devRef .tc main_v101))))
      (Host.dotGeneral (φ₁ := .f32) (φ₂ := .f32) dot_S50000x128_S128x128_S50000x128_1_0_0_1_n_n none
        (W (Proc.devRef .tc main_arg1)) (W (Proc.devRef .tc main_v76)))) := by
  simp only [HandRun.ops2]
  after_results_simp
  simp only [ofBuf_toBuf]
  rfl

/-- The "s" rows after layer 0. -/
theorem V3_v107 : V3 V (Proc.devRef .tc main_v107) = xs1 (V (Proc.devRef .tc main_arg0)) (V (Proc.devRef .tc main_arg1)) (V (Proc.devRef .tc main_arg2)) (V (Proc.devRef .tc main_arg3)) (V (Proc.devRef .tc main_arg4)) (V (Proc.devRef .tc main_arg9)) := by
  show after (HandRun.ops2 (F := Ideal)) (V2 V) (Proc.devRef .tc main_v107) = _
  rw [T_v107, V2_v100 V, V2_v101 V, V2_arg1 V, V2_v76 V]
  rfl

set_option maxRecDepth 8192 in
/-- Window 2 at the layer-1 b→b term: the SAGE term over the rectified rows, all from the entry contents. -/
theorem T_v142 (W : Valuation τ sig (Elt Ideal)) :
    after (HandRun.ops2 (F := Ideal)) W (Proc.devRef .tc main_v142) = sageB (segBB (lreluB (W (Proc.devRef .tc main_v70))) (srcBB (W (Proc.devRef .tc main_arg7))) (dstBB (W (Proc.devRef .tc main_arg7)))) (cntBB (dstBB (W (Proc.devRef .tc main_arg7))))
      (w10 (W (Proc.devRef .tc main_arg2))) (b10 (W (Proc.devRef .tc main_arg3))) (lreluB (W (Proc.devRef .tc main_v70))) (w10 (W (Proc.devRef .tc main_arg4))) := by
  simp only [HandRun.ops2]
  after_results_simp
  simp only [ofBuf_toBuf]
  rfl

/-- The layer-1 SAGE term of the b→b edges, over the rows after layer 0. -/
theorem V3_v142 : V3 V (Proc.devRef .tc main_v142) = sageB (segBB (xb1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))) (srcBB (V (Proc.devRef .tc main_arg7))) (dstBB (V (Proc.devRef .tc main_arg7)))) (cntBB (dstBB (V (Proc.devRef .tc main_arg7)))) (w10 (V (Proc.devRef .tc main_arg2))) (b10 (V (Proc.devRef .tc main_arg3))) (xb1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))) (w10 (V (Proc.devRef .tc main_arg4))) := by
  show after (HandRun.ops2 (F := Ideal)) (V2 V) (Proc.devRef .tc main_v142) = _
  rw [T_v142, V2_v70 V, V2_arg7 V, V2_arg2 V, V2_arg3 V, V2_arg4 V]
  rfl

set_option maxRecDepth 8192 in
/-- The layer-1 left weights of the s→b edges. -/
theorem V3_v144 : V3 V (Proc.devRef .tc main_v144) = w11 (V (Proc.devRef .tc main_arg2)) := by
  show after (HandRun.ops2 (F := Ideal)) (V2 V) (Proc.devRef .tc main_v144) = _
  simp only [HandRun.ops2]
  after_results_simp
  rw [V2_arg2 V]
  rfl

set_option maxRecDepth 8192 in
/-- The layer-1 bias of the s→b edges. -/
theorem V3_v146 : V3 V (Proc.devRef .tc main_v146) = b11 (V (Proc.devRef .tc main_arg3)) := by
  show after (HandRun.ops2 (F := Ideal)) (V2 V) (Proc.devRef .tc main_v146) = _
  simp only [HandRun.ops2]
  after_results_simp
  rw [V2_arg3 V]
  rfl

set_option maxRecDepth 8192 in
/-- The layer-1 right weights of the s→b edges. -/
theorem V3_v148 : V3 V (Proc.devRef .tc main_v148) = w11 (V (Proc.devRef .tc main_arg4)) := by
  show after (HandRun.ops2 (F := Ideal)) (V2 V) (Proc.devRef .tc main_v148) = _
  simp only [HandRun.ops2]
  after_results_simp
  rw [V2_arg4 V]
  rfl

set_option maxRecDepth 8192 in
/-- The source ids of the s→b edges. -/
theorem V3_v150 : V3 V (Proc.devRef .tc main_v150) = src4 (V (Proc.devRef .tc main_arg8)) := by
  show after (HandRun.ops2 (F := Ideal)) (V2 V) (Proc.devRef .tc main_v150) = _
  simp only [HandRun.ops2]
  after_results_simp
  rw [V2_arg8 V]
  rfl

set_option maxRecDepth 8192 in
/-- The destination ids of the s→b edges. -/
theorem V3_v152 : V3 V (Proc.devRef .tc main_v152) = dst4 (V (Proc.devRef .tc main_arg8)) := by
  show after (HandRun.ops2 (F := Ideal)) (V2 V) (Proc.devRef .tc main_v152) = _
  simp only [HandRun.ops2]
  after_results_simp
  rw [V2_arg8 V]
  rfl

set_option maxRecDepth 8192 in
/-- The integer zero the next window's wrap compares with. -/
theorem V3_c24 : V3 V (Proc.devRef .tc main_c_24) = constantI S_ 32 0#32 := by
  show after (HandRun.ops2 (F := Ideal)) (V2 V) (Proc.devRef .tc main_c_24) = _
  simp only [HandRun.ops2]
  after_results_simp
  all_goals rfl

/-! ## After window 3: the layer-1 "b" rows before the rectifier -/

set_option maxRecDepth 8192 in
/-- The sum of the two layer-1 SAGE terms into the "b" nodes. -/
theorem V4_v178 : V4 V (Proc.devRef .tc main_v178) = addf (sageB (segBB (xb1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))) (srcBB (V (Proc.devRef .tc main_arg7))) (dstBB (V (Proc.devRef .tc main_arg7)))) (cntBB (dstBB (V (Proc.devRef .tc main_arg7)))) (w10 (V (Proc.devRef .tc main_arg2))) (b10 (V (Proc.devRef .tc main_arg3))) (xb1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))) (w10 (V (Proc.devRef .tc main_arg4)))) (sageB (segSB (xs1 (V (Proc.devRef .tc main_arg0)) (V (Proc.devRef .tc main_arg1)) (V (Proc.devRef .tc main_arg2)) (V (Proc.devRef .tc main_arg3)) (V (Proc.devRef .tc main_arg4)) (V (Proc.devRef .tc main_arg9))) (src4 (V (Proc.devRef .tc main_arg8))) (dst4 (V (Proc.devRef .tc main_arg8)))) (cntSB (dst4 (V (Proc.devRef .tc main_arg8)))) (w11 (V (Proc.devRef .tc main_arg2))) (b11 (V (Proc.devRef .tc main_arg3))) (xb1 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))) (w11 (V (Proc.devRef .tc main_arg4)))) := by
  show after (HandRun.ops3 (F := Ideal)) (V3 V) (Proc.devRef .tc main_v178) = _
  simp only [HandRun.ops3]
  after_results_simp
  rw [V3_c24 V, V3_v150 V, V3_v107 V, V3_v152 V, V3_v144 V, V3_v146 V, V3_v106 V, V3_v148 V, V3_v142 V]
  rfl

/-! ## The result -/

set_option maxRecDepth 8192 in
/-- The last window at the result: the heads of the rectified layer-1 sum, from the entry contents. -/
theorem T_v220 (W : Valuation τ sig (Elt Ideal)) :
    after (HandRun.ops4 (F := Ideal)) W (Proc.devRef .tc main_v220) = heads (lreluB (W (Proc.devRef .tc main_v178))) (W (Proc.devRef .tc main_arg5)) (W (Proc.devRef .tc main_arg6)) := by
  simp only [HandRun.ops4]
  after_results_simp
  simp only [ofBuf_toBuf]
  rfl

/-- The last window from the contents after the first four: the named result. -/
theorem last_v220 : after (HandRun.ops4 (F := Ideal)) (V4 V) (Proc.devRef .tc main_v220) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [T_v220, V4_v178 V, V4_arg5 V, V4_arg6 V]
  rfl

/-- After all its operations the reference's result buffer holds the named result of the arguments' launch contents. -/
theorem ref_value (V : Valuation τ sig (Elt Ideal)) :
    StableHlo.after (HandRun.ops (F := Ideal)) V (Proc.devRef .tc main_v220)
      = HostVal.result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  rw [after_ops]
  exact last_v220 V

end Cert.ReferenceIdeal.ValueChain

end
-- ==== Proof.PadValue.lean ====
import proofs.«424018_j64587718197893_2_alg».proof.Proof.Gen.KernelIdeal
import Idealize.ShloMosaic.PureOps.Ideal
import Idealize.ShloMosaic.Lib.ValueIdx

/-!
# Reading a window scatter whose body returns the update

A scatter whose body keeps the update's element is a left fold of point assignments over the
update's indices. At a result index met by exactly one update index, the fold's value is that
update's element. The two padding scatters of the program (eight rows written at the top of a
zero matrix, eight entries at the front of a zero vector) are read at the rows they write.
-/

namespace Cert.KernelIdeal.PadValue

open Idealize.ShloMosaic Idealize.ShloMosaic.ValueIdx

section General

variable {α : Type} {s si u : Shape} {w : Nat}

/-- One step of the scatter fold with the body that returns the update: update index number `n`
    overwrites the element it lands on, and changes nothing when it lands outside. -/
private abbrev setStep (d : ScatterDims s si u) (idx : IVec si w) (upd : u.Idx → α) :
    (s.Idx → α) → Fin u.numel → (s.Idx → α) :=
  fun r n =>
    match d.resultIdx? (u.rowMajor.symm n) idx with
    | some i => fun i' => if i' = i then (fun _ b => b) (r i) (upd (u.rowMajor.symm n)) else r i'
    | none => r

/-- A step whose update index does not land at `i` leaves the value at `i` alone. -/
private theorem setStep_other (d : ScatterDims s si u) (idx : IVec si w) (upd : u.Idx → α)
    (r : s.Idx → α) (n : Fin u.numel) (i : s.Idx)
    (hn : d.resultIdx? (u.rowMajor.symm n) idx ≠ some i) : setStep d idx upd r n i = r i := by
  simp only [setStep]
  cases hr : d.resultIdx? (u.rowMajor.symm n) idx with
  | none => rfl
  | some i0 =>
    have hne : i ≠ i0 := fun e => hn (by rw [hr, e])
    simp only [if_neg hne]

/-- The step whose update index lands at `i` sets the value at `i` to that update's element. -/
private theorem setStep_hit (d : ScatterDims s si u) (idx : IVec si w) (upd : u.Idx → α)
    (r : s.Idx → α) (n : Fin u.numel) (i : s.Idx)
    (hn : d.resultIdx? (u.rowMajor.symm n) idx = some i) :
    setStep d idx upd r n i = upd (u.rowMajor.symm n) := by
  simp only [setStep, hn, if_true]

/-- The fold of the overwriting steps over any list of update index numbers, read at a result
    index `i` that update index `j` lands on and no other update index does: the update's element
    at `j` once `j`'s number has occurred in the list, the starting value before. -/
private theorem foldl_setStep_apply (d : ScatterDims s si u) (idx : IVec si w) (upd : u.Idx → α)
    (i : s.Idx) (j : u.Idx) (hj : d.resultIdx? j idx = some i)
    (huniq : ∀ j', d.resultIdx? j' idx = some i → j' = j) (l : List (Fin u.numel)) (x : s.Idx → α) :
    l.foldl (setStep d idx upd) x i = if u.rowMajor j ∈ l then upd j else x i := by
  induction l generalizing x with
  | nil => simp
  | cons n t ih =>
    rw [List.foldl_cons, ih]
    by_cases hnj : n = u.rowMajor j
    · subst hnj
      have hhit := setStep_hit d idx upd x (u.rowMajor j) i (by rw [Equiv.symm_apply_apply]; exact hj)
      rw [Equiv.symm_apply_apply] at hhit
      rw [hhit]
      simp
    · have hne : d.resultIdx? (u.rowMajor.symm n) idx ≠ some i := fun e =>
        hnj (by rw [← huniq _ e, Equiv.apply_symm_apply])
      rw [setStep_other d idx upd x n i hne]
      have hmem : u.rowMajor j ∈ n :: t ↔ u.rowMajor j ∈ t := by
        rw [List.mem_cons]
        exact ⟨fun h => h.resolve_left (fun e => hnj e.symm), Or.inr⟩
      simp only [hmem]

/-- **A scatter that keeps the update, read where exactly one update lands.** If update index
    `j` lands at result index `i` and no other update index lands there, the scatter's result at
    `i` is the update's element at `j`, whatever the operand held. -/
theorem scatter_set_apply (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  have h := foldl_setStep_apply d idx upd i j hj huniq (List.finRange u.numel) x
  rw [if_pos (List.mem_finRange _)] at h
  exact h

/-- With every index word zero, a window starts at zero on every operand axis. -/
theorem start_eq_zero (d : ScatterDims s si u) (idx : IVec si w) (hidx : ∀ k, idx k = 0#w)
    (j : u.Idx) (a : Fin s.rank) : d.start j idx a = 0 := by
  unfold ScatterDims.start
  split
  · rw [hidx]; exact BitVec.toInt_zero
  · rfl

end General

/-! ## The two padding scatters of the program -/

section Pads

variable {α : Type} [Facts₀]

/-- The result index an update index of the 8×128 block is written at: the same coordinates. -/
private abbrev whEmbed (j : S8x128.Idx) : S128x128.Idx :=
  ix2 ⟨(j 0).val, by have := idx2_lt0 j; omega⟩ ⟨(j 1).val, idx2_lt1 j⟩

/-- Both operand axes are window axes of the matrix scatter, in order: the window coordinate on an
    axis is the update index's coordinate on it. -/
private theorem wh_window (j : S8x128.Idx) (a : Fin 2) :
    scatter_S128x128_S1_S8x128_01_n_0_0.window j a = (j a).val := by
  match a with
  | ⟨0, _⟩ => rfl
  | ⟨1, _⟩ => rfl

/-- At a zero start index every update index of the matrix scatter lands inside, at its own
    coordinates. -/
private theorem wh_lands (idx : IVec S1 32) (hidx : ∀ k, idx k = 0#32) (j : S8x128.Idx) :
    scatter_S128x128_S1_S8x128_01_n_0_0.resultIdx? j idx = some (whEmbed j) := by
  have hs := start_eq_zero scatter_S128x128_S1_S8x128_01_n_0_0 idx hidx j
  have hw := wh_window j
  have h0 := idx2_lt0 j
  have h1 := idx2_lt1 j
  unfold ScatterDims.resultIdx?
  have hb : ∀ a : Fin S128x128.rank,
      0 ≤ scatter_S128x128_S1_S8x128_01_n_0_0.start j idx a + scatter_S128x128_S1_S8x128_01_n_0_0.window j a ∧
      scatter_S128x128_S1_S8x128_01_n_0_0.start j idx a + scatter_S128x128_S1_S8x128_01_n_0_0.window j a
        < S128x128.size a := by
    intro a
    rw [hs, hw]
    match a with
    | ⟨0, _⟩ => exact ⟨by omega, by show (0 : Int) + ((j 0).val : Int) < (128 : Nat); omega⟩
    | ⟨1, _⟩ => exact ⟨by omega, by show (0 : Int) + ((j 1).val : Int) < (128 : Nat); omega⟩
  rw [dif_pos hb]
  congr 1
  funext a
  refine Fin.ext ?_
  simp only [hs, hw]
  match a with
  | ⟨0, _⟩ => show ((0 : Int) + ((j 0).val : Int)).toNat = (j 0).val; omega
  | ⟨1, _⟩ => show ((0 : Int) + ((j 1).val : Int)).toNat = (j 1).val; omega

/-- Distinct update indices of the matrix scatter are written at distinct result indices. -/
private theorem whEmbed_inj {j j' : S8x128.Idx} (h : whEmbed j' = whEmbed j) : j' = j := by
  have e0 := congrArg Fin.val (congrFun h ⟨0, by decide⟩)
  have e1 := congrArg Fin.val (congrFun h ⟨1, by decide⟩)
  funext a
  match a with
  | ⟨0, _⟩ => exact Fin.ext e0
  | ⟨1, _⟩ => exact Fin.ext e1

/-- **The padded head matrix at a head's row.** Eight rows written (the body returns the update) at
    start index zero into a 128×128 operand: row `h < 8`, column `k` of the result is the update's
    element `(h, k)`. -/
theorem whPad_apply (x : S128x128.Idx → α) (i : IVec S1 32) (hi : ∀ k, i k = 0#32) (u : S8x128.Idx → α)
    (h : Fin 8) (k : Fin 128) :
    Host.scatter scatter_S128x128_S1_S8x128_01_n_0_0 (fun _ b => b) x i u (ix2 ⟨h.val, by omega⟩ k)
      = u (ix2 h k) :=
  scatter_set_apply scatter_S128x128_S1_S8x128_01_n_0_0 x i u (whEmbed (ix2 h k)) (ix2 h k)
    (wh_lands i hi (ix2 h k))
    (fun j' hj' => whEmbed_inj (Option.some.inj ((wh_lands i hi j').symm.trans hj')))

/-- The result index an update index of the length-8 block is written at: the same coordinate. -/
private abbrev bhEmbed (j : S8.Idx) : S128.Idx :=
  ix1 ⟨(j 0).val, by have : (j 0).val < 8 := (j 0).isLt; omega⟩

/-- The vector scatter's one operand axis is its window axis: the window coordinate is the update
    index's coordinate. -/
private theorem bh_window (j : S8.Idx) (a : Fin 1) :
    scatter_S128_S1_S8_0_n_0_0.window j a = (j a).val := by
  match a with
  | ⟨0, _⟩ => rfl

/-- At a zero start index every update index of the vector scatter lands inside, at its own
    coordinate. -/
private theorem bh_lands (idx : IVec S1 32) (hidx : ∀ k, idx k = 0#32) (j : S8.Idx) :
    scatter_S128_S1_S8_0_n_0_0.resultIdx? j idx = some (bhEmbed j) := by
  have hs := start_eq_zero scatter_S128_S1_S8_0_n_0_0 idx hidx j
  have hw := bh_window j
  have h0 : (j 0).val < 8 := (j 0).isLt
  unfold ScatterDims.resultIdx?
  have hb : ∀ a : Fin S128.rank,
      0 ≤ scatter_S128_S1_S8_0_n_0_0.start j idx a + scatter_S128_S1_S8_0_n_0_0.window j a ∧
      scatter_S128_S1_S8_0_n_0_0.start j idx a + scatter_S128_S1_S8_0_n_0_0.window j a < S128.size a := by
    intro a
    rw [hs, hw]
    match a with
    | ⟨0, _⟩ => exact ⟨by omega, by show (0 : Int) + ((j 0).val : Int) < (128 : Nat); omega⟩
  rw [dif_pos hb]
  congr 1
  funext a
  refine Fin.ext ?_
  simp only [hs, hw]
  match a with
  | ⟨0, _⟩ => show ((0 : Int) + ((j 0).val : Int)).toNat = (j 0).val; omega

/-- Distinct update indices of the vector scatter are written at distinct result indices. -/
private theorem bhEmbed_inj {j j' : S8.Idx} (h : bhEmbed j' = bhEmbed j) : j' = j := by
  have e0 := congrArg Fin.val (congrFun h ⟨0, by decide⟩)
  funext a
  match a with
  | ⟨0, _⟩ => exact Fin.ext e0

/-- **The padded head bias at a head.** Eight entries written (the body returns the update) at
    start index zero into a length-128 operand: entry `h < 8` of the result is the update's
    element `h`. -/
theorem bhPad_apply (x : S128.Idx → α) (i : IVec S1 32) (hi : ∀ k, i k = 0#32) (u : S8.Idx → α)
    (h : Fin 8) :
    Host.scatter scatter_S128_S1_S8_0_n_0_0 (fun _ b => b) x i u (ix1 ⟨h.val, by omega⟩) = u (ix1 h) :=
  scatter_set_apply scatter_S128_S1_S8_0_n_0_0 x i u (bhEmbed (ix1 h)) (ix1 h)
    (bh_lands i hi (ix1 h))
    (fun j' hj' => bhEmbed_inj (Option.some.inj ((bh_lands i hi j').symm.trans hj')))

end Pads

end Cert.KernelIdeal.PadValue
-- ==== Proof.SpecAlgebra.lean ====
/-
  The two arrangements of a row of the graph network agree on finite entries, and the host's sums of finite
  entries are finite.

  Over the extended reals the distributive law and cancellation fail at the infinities, so nothing here is
  argued there.  Every hypothesis says "this entry is a real number"; we pick the real numbers, write each
  side as the image of one real expression, and compare the two real expressions, where the ring laws hold.
-/
import proofs.«424018_j64587718197893_2_alg».proof.Proof.Spec
import Mathlib.Data.EReal.Inv
import Mathlib.Algebra.BigOperators.Group.Finset.Basic
import Mathlib.Algebra.BigOperators.Ring.Finset
import Mathlib.Algebra.Order.BigOperators.Group.Finset
import Mathlib.Tactic.Ring
import Mathlib.Tactic.Positivity

noncomputable section

namespace Cert.Spec

open Idealize.ShloMosaic Idealize.ShloMosaic.ValueIdx

variable {N : Nat}

/-! ## Real numbers inside the extended reals -/

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers is a real number, the same sum taken in the reals. -/
theorem sum_mul_coe {ι : Type} (s : Finset ι) (a b : ι → ℝ) :
    ∑ k ∈ s, (a k : EReal) * (b k : EReal) = ((∑ k ∈ s, a k * b k : ℝ) : EReal) := by
  rw [coe_finset_sum]
  exact Finset.sum_congr rfl fun k _ => (EReal.coe_mul _ _).symm

/-! ## The rectifier -/

/-- The two tests differ only at 0, and there both branches give 0. -/
theorem lrelu_eq (x : EReal) : lreluK x = lreluR x := by
  unfold lreluK lreluR
  by_cases h : 0 < x
  · rw [if_pos h, if_pos h.le]
  · rw [if_neg h]
    by_cases h' : 0 ≤ x
    · have hx : x = 0 := le_antisymm (not_lt.mp h) h'
      rw [if_pos h', hx, mul_zero]
    · rw [if_neg h']

/-- The slope is a real number: its word has exponent field 120, not 255. -/
theorem slope_finite : ∃ r : ℝ, slope = (r : EReal) := by
  unfold slope Ideal.ofBits Ideal.ieee
  simp only []
  split_ifs with h1 h2 h3 h4 h5
  all_goals first | exact ⟨_, rfl⟩ | (exfalso; revert h1; decide)

/-- The rectifier of a real number is a real number. -/
theorem lreluK_finite {x : EReal} (h : ∃ r : ℝ, x = (r : EReal)) : ∃ r : ℝ, lreluK x = (r : EReal) := by
  obtain ⟨r, rfl⟩ := h
  obtain ⟨s, hs⟩ := slope_finite
  unfold lreluK
  split_ifs
  · exact ⟨r, rfl⟩
  · exact ⟨s * r, by rw [hs, EReal.coe_mul]⟩

/-! ## A "b" row -/

/-- Both arrangements of a "b" row are the image of one real number.  After the real entries are chosen, the
    two scaled sums are literally the same on both sides (division by a nonzero real is the product with its
    reciprocal); what remains is Σ x · (r0 + r1) = Σ x · r0 + Σ x · r1 and a reordering of the summands. -/
theorem preB_both (sbb ssb x : Arr (Rows N)) (ib is : Arr (Col N)) (cb cs : Fin N → EReal)
    (w0 w1 r0 r1 wr : Arr Sq) (b0 b1 : Fin 128 → EReal) (bl : Arr Row1)
    (hsbb : Finite sbb) (hssb : Finite ssb) (hx : Finite x) (hw0 : Finite w0) (hw1 : Finite w1)
    (hr0 : Finite r0) (hr1 : Finite r1) (hb0 : FiniteFn b0) (hb1 : FiniteFn b1)
    (hcb : ∀ n, ∃ r : ℝ, 1 ≤ r ∧ cb n = (r : EReal)) (hcs : ∀ n, ∃ r : ℝ, 1 ≤ r ∧ cs n = (r : EReal))
    (hib : ∀ n, ib (ix2 n 0) = Ideal.div 1 (cb n)) (his : ∀ n, is (ix2 n 0) = Ideal.div 1 (cs n))
    (hwr : ∀ k j, wr (ix2 k j) = r0 (ix2 k j) + r1 (ix2 k j)) (hbl : ∀ j, bl (ix2 0 j) = b0 j + b1 j)
    (n : Fin N) (j : Fin 128) :
    ∃ r : ℝ, preBK sbb ib ssb is x w0 w1 wr bl n j = (r : EReal)
      ∧ preBR sbb ssb x cb cs w0 w1 r0 r1 b0 b1 n j = (r : EReal) := by
  choose fsbb hfsbb using hsbb
  choose fssb hfssb using hssb
  choose fx hfx using hx
  choose fw0 hfw0 using hw0
  choose fw1 hfw1 using hw1
  choose fr0 hfr0 using hr0
  choose fr1 hfr1 using hr1
  choose fb0 hfb0 using hb0
  choose fb1 hfb1 using hb1
  obtain ⟨rb, hrb1, hrb⟩ := hcb n
  obtain ⟨rs, hrs1, hrs⟩ := hcs n
  have hrb0 : rb ≠ 0 := by intro h; rw [h] at hrb1; exact absurd hrb1 (by norm_num)
  have hrs0 : rs ≠ 0 := by intro h; rw [h] at hrs1; exact absurd hrs1 (by norm_num)
  have hIb : ib (ix2 n 0) = ((1 / rb : ℝ) : EReal) := by rw [hib, hrb, Ideal.div_coe hrb0, one_mul]
  have hIs : is (ix2 n 0) = ((1 / rs : ℝ) : EReal) := by rw [his, hrs, Ideal.div_coe hrs0, one_mul]
  refine ⟨(∑ k : Fin 128, (fsbb (ix2 n k) * (1 / rb)) * fw0 (ix2 k j))
      + (∑ k : Fin 128, (fssb (ix2 n k) * (1 / rs)) * fw1 (ix2 k j))
      + (∑ k : Fin 128, fx (ix2 n k) * (fr0 (ix2 k j) + fr1 (ix2 k j)))
      + (fb0 j + fb1 j), ?_, ?_⟩
  · unfold preBK
    simp only [hIb, hIs, hwr, hbl, hfsbb, hfssb, hfx, hfw0, hfw1, hfr0, hfr1, hfb0, hfb1,
      ← EReal.coe_mul, ← EReal.coe_add, ← coe_finset_sum]
  · unfold preBR
    simp only [hrb, hrs, Ideal.div_coe hrb0, Ideal.div_coe hrs0, hfsbb, hfssb, hfx, hfw0, hfw1, hfr0, hfr1, hfb0,
      hfb1, ← EReal.coe_mul, ← EReal.coe_add, ← coe_finset_sum]
    congr 1
    simp only [mul_add, Finset.sum_add_distrib]
    ring

/-- On finite entries with in-degrees at least 1, the kernel's "b" row is the reference's. -/
theorem preB_eq (sbb ssb x : Arr (Rows N)) (ib is : Arr (Col N)) (cb cs : Fin N → EReal)
    (w0 w1 r0 r1 wr : Arr Sq) (b0 b1 : Fin 128 → EReal) (bl : Arr Row1)
    (hsbb : Finite sbb) (hssb : Finite ssb) (hx : Finite x) (hw0 : Finite w0) (hw1 : Finite w1)
    (hr0 : Finite r0) (hr1 : Finite r1) (hb0 : FiniteFn b0) (hb1 : FiniteFn b1)
    (hcb : ∀ n, ∃ r : ℝ, 1 ≤ r ∧ cb n = (r : EReal)) (hcs : ∀ n, ∃ r : ℝ, 1 ≤ r ∧ cs n = (r : EReal))
    (hib : ∀ n, ib (ix2 n 0) = Ideal.div 1 (cb n)) (his : ∀ n, is (ix2 n 0) = Ideal.div 1 (cs n))
    (hwr : ∀ k j, wr (ix2 k j) = r0 (ix2 k j) + r1 (ix2 k j)) (hbl : ∀ j, bl (ix2 0 j) = b0 j + b1 j)
    (n : Fin N) (j : Fin 128) :
    preBK sbb ib ssb is x w0 w1 wr bl n j = preBR sbb ssb x cb cs w0 w1 r0 r1 b0 b1 n j := by
  obtain ⟨r, hK, hR⟩ := preB_both sbb ssb x ib is cb cs w0 w1 r0 r1 wr b0 b1 bl hsbb hssb hx hw0 hw1 hr0 hr1 hb0 hb1
    hcb hcs hib his hwr hbl n j
  rw [hK, hR]

/-- Under the same hypotheses the kernel's "b" row is a real number. -/
theorem preBK_finite (sbb ssb x : Arr (Rows N)) (ib is : Arr (Col N)) (cb cs : Fin N → EReal)
    (w0 w1 r0 r1 wr : Arr Sq) (b0 b1 : Fin 128 → EReal) (bl : Arr Row1)
    (hsbb : Finite sbb) (hssb : Finite ssb) (hx : Finite x) (hw0 : Finite w0) (hw1 : Finite w1)
    (hr0 : Finite r0) (hr1 : Finite r1) (hb0 : FiniteFn b0) (hb1 : FiniteFn b1)
    (hcb : ∀ n, ∃ r : ℝ, 1 ≤ r ∧ cb n = (r : EReal)) (hcs : ∀ n, ∃ r : ℝ, 1 ≤ r ∧ cs n = (r : EReal))
    (hib : ∀ n, ib (ix2 n 0) = Ideal.div 1 (cb n)) (his : ∀ n, is (ix2 n 0) = Ideal.div 1 (cs n))
    (hwr : ∀ k j, wr (ix2 k j) = r0 (ix2 k j) + r1 (ix2 k j)) (hbl : ∀ j, bl (ix2 0 j) = b0 j + b1 j)
    (n : Fin N) (j : Fin 128) :
    ∃ r : ℝ, preBK sbb ib ssb is x w0 w1 wr bl n j = (r : EReal) := by
  obtain ⟨r, hK, _⟩ := preB_both sbb ssb x ib is cb cs w0 w1 r0 r1 wr b0 b1 bl hsbb hssb hx hw0 hw1 hr0 hr1 hb0 hb1
    hcb hcs hib his hwr hbl n j
  exact ⟨r, hK⟩

/-! ## An "s" row -/

/-- Both arrangements of an "s" row are the image of one real number: after the real entries are chosen the
    two sides are the same expression. -/
theorem preS_both (sbs x : Arr (Rows N)) (ic : Arr (Col N)) (c : Fin N → EReal) (wl wr : Arr Sq)
    (b : Fin 128 → EReal) (bl : Arr Row1)
    (hsbs : Finite sbs) (hx : Finite x) (hwl : Finite wl) (hwr : Finite wr) (hb : FiniteFn b)
    (hc : ∀ n, ∃ r : ℝ, 1 ≤ r ∧ c n = (r : EReal)) (hic : ∀ n, ic (ix2 n 0) = Ideal.div 1 (c n))
    (hbl : ∀ j, bl (ix2 0 j) = b j) (n : Fin N) (j : Fin 128) :
    ∃ r : ℝ, preSK sbs ic x wl bl wr n j = (r : EReal) ∧ preSR sbs x c wl wr b n j = (r : EReal) := by
  choose fsbs hfsbs using hsbs
  choose fx hfx using hx
  choose fwl hfwl using hwl
  choose fwr hfwr using hwr
  choose fb hfb using hb
  obtain ⟨rc, hrc1, hrc⟩ := hc n
  have hrc0 : rc ≠ 0 := by intro h; rw [h] at hrc1; exact absurd hrc1 (by norm_num)
  have hIc : ic (ix2 n 0) = ((1 / rc : ℝ) : EReal) := by rw [hic, hrc, Ideal.div_coe hrc0, one_mul]
  refine ⟨(∑ k : Fin 128, (fsbs (ix2 n k) * (1 / rc)) * fwl (ix2 k j)) + fb j
      + (∑ k : Fin 128, fx (ix2 n k) * fwr (ix2 k j)), ?_, ?_⟩
  · unfold preSK
    simp only [hIc, hbl, hfsbs, hfx, hfwl, hfwr, hfb, ← EReal.coe_mul, ← EReal.coe_add, ← coe_finset_sum]
  · unfold preSR
    simp only [hrc, Ideal.div_coe hrc0, hfsbs, hfx, hfwl, hfwr, hfb, ← EReal.coe_mul, ← EReal.coe_add,
      ← coe_finset_sum]

/-- On finite entries with in-degrees at least 1, the kernel's "s" row is the reference's. -/
theorem preS_eq (sbs x : Arr (Rows N)) (ic : Arr (Col N)) (c : Fin N → EReal) (wl wr : Arr Sq)
    (b : Fin 128 → EReal) (bl : Arr Row1)
    (hsbs : Finite sbs) (hx : Finite x) (hwl : Finite wl) (hwr : Finite wr) (hb : FiniteFn b)
    (hc : ∀ n, ∃ r : ℝ, 1 ≤ r ∧ c n = (r : EReal)) (hic : ∀ n, ic (ix2 n 0) = Ideal.div 1 (c n))
    (hbl : ∀ j, bl (ix2 0 j) = b j) (n : Fin N) (j : Fin 128) :
    preSK sbs ic x wl bl wr n j = preSR sbs x c wl wr b n j := by
  obtain ⟨r, hK, hR⟩ := preS_both sbs x ic c wl wr b bl hsbs hx hwl hwr hb hc hic hbl n j
  rw [hK, hR]

/-- Under the same hypotheses the kernel's "s" row is a real number. -/
theorem preSK_finite (sbs x : Arr (Rows N)) (ic : Arr (Col N)) (c : Fin N → EReal) (wl wr : Arr Sq)
    (b : Fin 128 → EReal) (bl : Arr Row1)
    (hsbs : Finite sbs) (hx : Finite x) (hwl : Finite wl) (hwr : Finite wr) (hb : FiniteFn b)
    (hc : ∀ n, ∃ r : ℝ, 1 ≤ r ∧ c n = (r : EReal)) (hic : ∀ n, ic (ix2 n 0) = Ideal.div 1 (c n))
    (hbl : ∀ j, bl (ix2 0 j) = b j) (n : Fin N) (j : Fin 128) :
    ∃ r : ℝ, preSK sbs ic x wl bl wr n j = (r : EReal) := by
  obtain ⟨r, hK, _⟩ := preS_both sbs x ic c wl wr b bl hsbs hx hwl hwr hb hc hic hbl n j
  exact ⟨r, hK⟩

/-! ## Host sums -/

/-- The host's accumulating scatter of real numbers into real numbers gives real numbers: each entry is a real
    plus a finite sum of reals. -/
theorem scatterAdd_finite {s si u : Shape} {w : Nat} (d : ScatterDims s si u) (x : s.Idx → EReal) (idx : IVec si w)
    (upd : u.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  choose fx hfx using hx
  choose fu hfu using hu
  simp only [Ideal.hostScatterAdd, hfx, hfu, ← coe_finset_sum, ← EReal.coe_add]
  exact ⟨_, rfl⟩

/-- A finite sum of ones is a real number that is not negative. -/
theorem sum_one_count {ι : Type} (s : Finset ι) : ∃ r : ℝ, 0 ≤ r ∧ ∑ _j ∈ s, (1 : EReal) = (r : EReal) := by
  refine ⟨∑ _j ∈ s, (1 : ℝ), Finset.sum_nonneg fun _ _ => zero_le_one, ?_⟩
  rw [coe_finset_sum]
  simp only [EReal.coe_one]

/-- Scattering ones into zeros counts: each entry is a natural number of ones, a real number that is not
    negative. -/
theorem scatterAdd_count {s si u : Shape} {w : Nat} (d : ScatterDims s si u) (idx : IVec si w) (i : s.Idx) :
    ∃ r : ℝ, 0 ≤ r ∧ Ideal.hostScatterAdd d (fun _ => (0 : EReal)) idx (fun _ => (1 : EReal)) i = (r : EReal) := by
  simp only [Ideal.hostScatterAdd, zero_add]
  exact sum_one_count _

/-- Clamping a count from below by 1 gives a real number that is at least 1. -/
theorem max_one_count {x : EReal} (h : ∃ r : ℝ, 0 ≤ r ∧ x = (r : EReal)) : ∃ r : ℝ, 1 ≤ r ∧ max x 1 = (r : EReal) := by
  obtain ⟨r, _, rfl⟩ := h
  refine ⟨max r 1, le_max_right _ _, ?_⟩
  rw [← EReal.coe_one]
  exact (EReal.coe_strictMono.monotone.map_max).symm

/-- A gather reads entries of its operand, so it keeps them real. -/
theorem gather_finite {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

end Cert.Spec

end
-- ==== Proof.KRead.lean ====
import proofs.«424018_j64587718197893_2_alg».proof.Proof.KResult
import proofs.«424018_j64587718197893_2_alg».proof.Proof.PadValue
import proofs.«424018_j64587718197893_2_alg».proof.Proof.SpecAlgebra
import Idealize.ShloMosaic.PureOps.Ideal.Laws
import Idealize.ShloMosaic.Lib.ValueIdx
import Idealize.ShloMosaic.Lib.ValueLayout
import Idealize.ShloMosaic.Lib.Pipeline.Value

/-!
# The named host values read at an index

Each parameter the host cuts out of the stacked arrays is an entry of the stack; an added pair is the
sum of two entries; the padded head weights and biases, read at a head, are the head's own entry; the
result is the padded output's first eight columns. The reciprocal clamped in-degrees are one over a
count that is a real number at least one.
-/

noncomputable section

namespace Cert.KernelIdeal.ReadValue

open Idealize.ShloMosaic Idealize.ShloMosaic.ValueIdx
open Cert.KernelIdeal Cert.KernelIdeal.HostVal Cert.KernelIdeal.Facts₀ Cert.KernelIdeal.Facts

/-! ## Layout steps read at coordinates -/

section Layout

variable {α : Type}

/-- A rank-4 stack cut to one matrix (a unit block at `(o0, o1)` on the two leading axes, then the two unit axes
    dropped) reads, at `(i, j)`, the stack at `(o0, o1, i, j)`. -/
private theorem cut4_apply {n0 n1 a b : Nat} (o0 o1 : Nat) (X : (⟨4, ![n0, n1, a, b]⟩ : Shape).Idx → α)
    (hs : (⟨4, ![n0, n1, a, b]⟩ : Shape).Slices ![o0, o1, 0, 0] ⟨4, ![1, 1, a, b]⟩)
    (hc : (⟨4, ![1, 1, a, b]⟩ : Shape).ShapeCasts ⟨2, ![a, b]⟩)
    (l : Fin n0) (e : Fin n1) (hl : l.val = o0) (he : e.val = o1) (i : Fin a) (j : Fin b) :
    shapeCast ⟨2, ![a, b]⟩ (extractStridedSlice ⟨4, ![1, 1, a, b]⟩ ![o0, o1, 0, 0] X hs) hc (ix2 i j)
      = X (ix4 l e i j) := by
  rw [shapeCast_apply _ hc (ix2 i j) (ix4 (0 : Fin 1) (0 : Fin 1) i j) (by
    rw [Shape.rowMajor_val_four, Shape.rowMajor_val_two]
    show ((0 * 1 + 0) * a + i.val) * b + j.val = i.val * b + j.val
    simp only [Nat.zero_mul, Nat.zero_add])]
  exact extractStridedSlice_apply _ _ _ _ _ (fun ax => by
    match ax with
    | ⟨0, _⟩ => exact hl.trans (Nat.add_zero _).symm
    | ⟨1, _⟩ => exact he.trans (Nat.add_zero _).symm
    | ⟨2, _⟩ => exact (Nat.zero_add _).symm
    | ⟨3, _⟩ => exact (Nat.zero_add _).symm)

/-- A rank-3 stack cut to one vector (a unit block at `(o0, o1)` on the two leading axes, then the two unit axes
    dropped) reads, at `j`, the stack at `(o0, o1, j)`. -/
private theorem cut3_apply {n0 n1 a : Nat} (o0 o1 : Nat) (X : (⟨3, ![n0, n1, a]⟩ : Shape).Idx → α)
    (hs : (⟨3, ![n0, n1, a]⟩ : Shape).Slices ![o0, o1, 0] ⟨3, ![1, 1, a]⟩)
    (hc : (⟨3, ![1, 1, a]⟩ : Shape).ShapeCasts ⟨1, ![a]⟩)
    (l : Fin n0) (e : Fin n1) (hl : l.val = o0) (he : e.val = o1) (j : Fin a) :
    shapeCast ⟨1, ![a]⟩ (extractStridedSlice ⟨3, ![1, 1, a]⟩ ![o0, o1, 0] X hs) hc (ix1 j) = X (ix3 l e j) := by
  rw [shapeCast_apply _ hc (ix1 j) (ix3 (0 : Fin 1) (0 : Fin 1) j) (by
    rw [Shape.rowMajor_val_three, Shape.rowMajor_val_one]
    show (0 * 1 + 0) * a + j.val = j.val
    simp only [Nat.zero_mul, Nat.zero_add])]
  exact extractStridedSlice_apply _ _ _ _ _ (fun ax => by
    match ax with
    | ⟨0, _⟩ => exact hl.trans (Nat.add_zero _).symm
    | ⟨1, _⟩ => exact he.trans (Nat.add_zero _).symm
    | ⟨2, _⟩ => exact (Nat.zero_add _).symm)

/-- A vector cast to a column reads, at `(i, u)`, the vector at `i`. -/
private theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The weight matrices and bias vectors out of the stacks -/

theorem w00_apply (w : FVec Ideal S2x3x128x128 .f32) (k j : Fin 128) :
    w00 w (ix2 k j) = w (ix4 (0 : Fin 2) (0 : Fin 3) k j) := by
  unfold w00; exact cut4_apply 0 0 w _ _ 0 0 rfl rfl k j
theorem w01_apply (w : FVec Ideal S2x3x128x128 .f32) (k j : Fin 128) :
    w01 w (ix2 k j) = w (ix4 (0 : Fin 2) (1 : Fin 3) k j) := by
  unfold w01; exact cut4_apply 0 1 w _ _ 0 1 rfl rfl k j
theorem w02_apply (w : FVec Ideal S2x3x128x128 .f32) (k j : Fin 128) :
    w02 w (ix2 k j) = w (ix4 (0 : Fin 2) (2 : Fin 3) k j) := by
  unfold w02; exact cut4_apply 0 2 w _ _ 0 2 rfl rfl k j
theorem w10_apply (w : FVec Ideal S2x3x128x128 .f32) (k j : Fin 128) :
    w10 w (ix2 k j) = w (ix4 (1 : Fin 2) (0 : Fin 3) k j) := by
  unfold w10; exact cut4_apply 1 0 w _ _ 1 0 rfl rfl k j
theorem w11_apply (w : FVec Ideal S2x3x128x128 .f32) (k j : Fin 128) :
    w11 w (ix2 k j) = w (ix4 (1 : Fin 2) (1 : Fin 3) k j) := by
  unfold w11; exact cut4_apply 1 1 w _ _ 1 1 rfl rfl k j

theorem b00_apply (b : FVec Ideal S2x3x128 .f32) (j : Fin 128) :
    b00 b (ix1 j) = b (ix3 (0 : Fin 2) (0 : Fin 3) j) := by
  unfold b00; exact cut3_apply 0 0 b _ _ 0 0 rfl rfl j
theorem b01_apply (b : FVec Ideal S2x3x128 .f32) (j : Fin 128) :
    b01 b (ix1 j) = b (ix3 (0 : Fin 2) (1 : Fin 3) j) := by
  unfold b01; exact cut3_apply 0 1 b _ _ 0 1 rfl rfl j
theorem b02_apply (b : FVec Ideal S2x3x128 .f32) (j : Fin 128) :
    b02 b (ix1 j) = b (ix3 (0 : Fin 2) (2 : Fin 3) j) := by
  unfold b02; exact cut3_apply 0 2 b _ _ 0 2 rfl rfl j
theorem b10_apply (b : FVec Ideal S2x3x128 .f32) (j : Fin 128) :
    b10 b (ix1 j) = b (ix3 (1 : Fin 2) (0 : Fin 3) j) := by
  unfold b10; exact cut3_apply 1 0 b _ _ 1 0 rfl rfl j
theorem b11_apply (b : FVec Ideal S2x3x128 .f32) (j : Fin 128) :
    b11 b (ix1 j) = b (ix3 (1 : Fin 2) (1 : Fin 3) j) := by
  unfold b11; exact cut3_apply 1 1 b _ _ 1 1 rfl rfl j

/-! ## The added pairs, and the biases as rows -/

theorem wrSum0_apply (wr : FVec Ideal S2x3x128x128 .f32) (k j : Fin 128) :
    wrSum0 wr (ix2 k j) = wr (ix4 (0 : Fin 2) (0 : Fin 3) k j) + wr (ix4 (0 : Fin 2) (1 : Fin 3) k j) := by
  show w00 wr (ix2 k j) + w01 wr (ix2 k j) = _
  rw [w00_apply, w01_apply]
theorem wrSum1_apply (wr : FVec Ideal S2x3x128x128 .f32) (k j : Fin 128) :
    wrSum1 wr (ix2 k j) = wr (ix4 (1 : Fin 2) (0 : Fin 3) k j) + wr (ix4 (1 : Fin 2) (1 : Fin 3) k j) := by
  show w10 wr (ix2 k j) + w11 wr (ix2 k j) = _
  rw [w10_apply, w11_apply]

theorem blSum0_apply (bl : FVec Ideal S2x3x128 .f32) (j : Fin 128) :
    blSum0 bl (ix2 (0 : Fin 1) j) = bl (ix3 (0 : Fin 2) (0 : Fin 3) j) + bl (ix3 (0 : Fin 2) (1 : Fin 3) j) := by
  unfold blSum0
  rw [shapeCast_a_1a_apply]
  show b00 bl (ix1 j) + b01 bl (ix1 j) = _
  rw [b00_apply, b01_apply]
theorem blSum1_apply (bl : FVec Ideal S2x3x128 .f32) (j : Fin 128) :
    blSum1 bl (ix2 (0 : Fin 1) j) = bl (ix3 (1 : Fin 2) (0 : Fin 3) j) + bl (ix3 (1 : Fin 2) (1 : Fin 3) j) := by
  unfold blSum1
  rw [shapeCast_a_1a_apply]
  show b10 bl (ix1 j) + b11 bl (ix1 j) = _
  rw [b10_apply, b11_apply]
theorem blRow2_apply (bl : FVec Ideal S2x3x128 .f32) (j : Fin 128) :
    blRow2 bl (ix2 (0 : Fin 1) j) = bl (ix3 (0 : Fin 2) (2 : Fin 3) j) := by
  unfold blRow2
  rw [shapeCast_a_1a_apply, b02_apply]

/-! ## The padded head weights and biases at a head -/

theorem whT_apply (wh : FVec Ideal S8x128 .f32) (k : Fin 128) (h : Fin 8) :
    whT wh (ix2 k ⟨h.val, by omega⟩) = wh (ix2 h k) := by
  unfold whT
  rw [transpose_ix2_apply]
  exact PadValue.whPad_apply _ _ (fun _ => rfl) wh h k

theorem bhRow_apply (bh : FVec Ideal S8 .f32) (h : Fin 8) :
    bhRow bh (ix2 (0 : Fin 1) ⟨h.val, by omega⟩) = bh (ix1 h) := by
  unfold bhRow
  rw [shapeCast_a_1a_apply]
  exact PadValue.bhPad_apply _ _ (fun _ => rfl) bh h

/-! ## The result: the first eight padded head columns -/

theorem result_apply (xb : FVec Ideal S100000x128 .f32) (xs : FVec Ideal S50000x128 .f32)
    (wl : FVec Ideal S2x3x128x128 .f32) (bl : FVec Ideal S2x3x128 .f32) (wr : FVec Ideal S2x3x128x128 .f32)
    (wh : FVec Ideal S8x128 .f32) (bh : FVec Ideal S8 .f32) (ebb : IVec S2x800000 32) (esb ebs : IVec S2x400000 32)
    (n : Fin 100000) (h : Fin 8) :
    result xb xs wl bl wr wh bh ebb esb ebs (ix2 n h)
      = outPad (xb1 xb xs wl bl wr ebb esb) (xs1 xb xs wl bl wr ebs) wl bl wr wh bh ebb esb
          (ix2 n ⟨h.val, by omega⟩) := by
  unfold result
  exact slice2_axis1_apply 0 _ _ n h ⟨h.val, by omega⟩ (Nat.zero_add _).symm

/-! ## The clamped in-degrees and their reciprocals -/

/-- The word of the float one is the extended real one: sign bit 0, exponent field 127, fraction field 0, so the
    value is 2^23 · 2^(127 − 127 − 23) = 1. -/
theorem one_bits : Ideal.ofBits .f32 0x3F800000#32 = (1 : EReal) := by
  have hs : (BitVec.extractLsb' (8 + 23) 1 (0x3F800000#32 : BitVec 32) == 1#1) = false := by decide
  have hex : (BitVec.extractLsb' 23 8 (0x3F800000#32 : BitVec 32)).toNat = 127 := by decide
  have hfr : (BitVec.extractLsb' 0 23 (0x3F800000#32 : BitVec 32)).toNat = 0 := by decide
  show Ideal.ieee 8 23 (0x3F800000#32 : BitVec 32) = 1
  unfold Ideal.ieee
  simp only [hs, hex, hfr]
  rw [if_neg (by norm_num), if_neg (by norm_num)]
  rw [← EReal.coe_one]
  congr 1
  norm_num

/-- The in-degree of "b" node `n` under the 800000 edges with destinations `dst`, clamped from below by one. -/
def cntBB (dst : IVec S800000 32) (n : Fin 100000) : EReal :=
  max (Host.scatterAdd (F := Ideal) scatter_S100000_S800000x1_S800000_n_0_0_1
        (broadcastInDim S100000 ![] bcast_S_S100000 (constant S_ .f32 0x00000000#32))
        (broadcastInDim S800000x1 ![0] bcast_S800000_S800000x1_0 dst)
        (broadcastInDim S800000 ![] bcast_S_S800000 (constant S_ .f32 0x3F800000#32)) (ix1 n))
    (Ideal.ofBits .f32 0x3F800000#32)
/-- The in-degree of "b" node `n` under 400000 edges with destinations `dst`, clamped from below by one. -/
def cntSB (dst : IVec S400000 32) (n : Fin 100000) : EReal :=
  max (Host.scatterAdd (F := Ideal) scatter_S100000_S400000x1_S400000_n_0_0_1
        (broadcastInDim S100000 ![] bcast_S_S100000 (constant S_ .f32 0x00000000#32))
        (broadcastInDim S400000x1 ![0] bcast_S400000_S400000x1_0 dst)
        (broadcastInDim S400000 ![] bcast_S_S400000 (constant S_ .f32 0x3F800000#32)) (ix1 n))
    (Ideal.ofBits .f32 0x3F800000#32)
/-- The in-degree of "s" node `n` under 400000 edges with destinations `dst`, clamped from below by one. -/
def cntBS (dst : IVec S400000 32) (n : Fin 50000) : EReal :=
  max (Host.scatterAdd (F := Ideal) scatter_S50000_S400000x1_S400000_n_0_0_1
        (broadcastInDim S50000 ![] bcast_S_S50000 (constant S_ .f32 0x00000000#32))
        (broadcastInDim S400000x1 ![0] bcast_S400000_S400000x1_0 dst)
        (broadcastInDim S400000 ![] bcast_S_S400000 (constant S_ .f32 0x3F800000#32)) (ix1 n))
    (Ideal.ofBits .f32 0x3F800000#32)

/-- A scalar float constant spread over a shape is the constant array of the word's value. -/
private theorem bcast_const_eq {t : Shape} (h : S_.BroadcastsInDim t ![]) (b : BitVec 32) :
    broadcastInDim t ![] h (constant (F := Ideal) S_ .f32 b) = fun _ => Ideal.ofBits .f32 b := rfl
/-- The host's quotient of two arrays is the quotient entry by entry. -/
private theorem divf_apply {s : Shape} (x y : FVec Ideal s .f32) (i : s.Idx) :
    Host.divf x y i = Ideal.div (x i) (y i) := rfl
/-- The maximum of two arrays is the maximum entry by entry. -/
private theorem maximumf_apply {s : Shape} (x y : FVec Ideal s .f32) (i : s.Idx) :
    maximumf x y i = max (x i) (y i) := rfl

theorem invBB_apply (dst : IVec S800000 32) (n : Fin 100000) :
    invBB dst (ix2 n (0 : Fin 1)) = Ideal.div 1 (cntBB dst n) := by
  unfold invBB cntBB
  rw [shapeCast_a_a1_apply, divf_apply, maximumf_apply, bcast_const_eq, one_bits]
theorem invSB_apply (dst : IVec S400000 32) (n : Fin 100000) :
    invSB dst (ix2 n (0 : Fin 1)) = Ideal.div 1 (cntSB dst n) := by
  unfold invSB cntSB
  rw [shapeCast_a_a1_apply, divf_apply, maximumf_apply, bcast_const_eq, one_bits]
theorem invBS_apply (dst : IVec S400000 32) (n : Fin 50000) :
    invBS dst (ix2 n (0 : Fin 1)) = Ideal.div 1 (cntBS dst n) := by
  unfold invBS cntBS
  rw [shapeCast_a_a1_apply, divf_apply, maximumf_apply, bcast_const_eq, one_bits]

/-- Ones scattered with addition into zeros, clamped from below by one: a real number at least one. -/
private theorem count_ge {s si u : Shape} {w : Nat} (d : ScatterDims s si u) (idx : IVec si w)
    (hs : S_.BroadcastsInDim s ![]) (hu : S_.BroadcastsInDim u ![]) (i : s.Idx) :
    ∃ r : ℝ, 1 ≤ r ∧
      max (Host.scatterAdd (F := Ideal) d (broadcastInDim s ![] hs (constant S_ .f32 0x00000000#32)) idx
            (broadcastInDim u ![] hu (constant S_ .f32 0x3F800000#32)) i)
        (Ideal.ofBits .f32 0x3F800000#32) = (r : EReal) := by
  show ∃ r : ℝ, 1 ≤ r ∧
      max (Ideal.hostScatterAdd d (broadcastInDim s ![] hs (constant (F := Ideal) S_ .f32 0x00000000#32)) idx
            (broadcastInDim u ![] hu (constant (F := Ideal) S_ .f32 0x3F800000#32)) i)
        (Ideal.ofBits .f32 0x3F800000#32) = (r : EReal)
  rw [bcast_const_eq, bcast_const_eq, Ideal.ofBits_zero_f32, one_bits]
  exact Cert.Spec.max_one_count (Cert.Spec.scatterAdd_count d idx i)

theorem cntBB_ge (dst : IVec S800000 32) (n : Fin 100000) : ∃ r : ℝ, 1 ≤ r ∧ cntBB dst n = (r : EReal) :=
  count_ge _ _ _ _ _
theorem cntSB_ge (dst : IVec S400000 32) (n : Fin 100000) : ∃ r : ℝ, 1 ≤ r ∧ cntSB dst n = (r : EReal) :=
  count_ge _ _ _ _ _
theorem cntBS_ge (dst : IVec S400000 32) (n : Fin 50000) : ∃ r : ℝ, 1 ≤ r ∧ cntBS dst n = (r : EReal) :=
  count_ge _ _ _ _ _

end Cert.KernelIdeal.ReadValue

end
-- ==== Proof.RRead.lean ====
/-
  The reference's host values, read one entry at a time.

  A SAGE term at row n and feature j is the sum over k of (segment sum / clamped in-degree)(n, k) · Wl(k, j), plus the
  bias at j, plus the sum over k of x(n, k) · Wr(k, j): the matrix products are sums over the one contracted
  coordinate, the in-degree is spread along the feature axis and the bias down the rows, so each is read at the
  coordinate it was spread from. The rectifier tests 0 ≤ x entry by entry. The heads multiply by the transposed head
  weights, so entry (n, h) sums y(n, k) · Wh(h, k). A weight matrix or a bias vector cut out of the stacked parameters is
  the stack at its layer and edge type.
-/
import proofs.«424018_j64587718197893_2_alg».proof.Proof.RDefs
import proofs.«424018_j64587718197893_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.ReadValue

open Idealize.ShloMosaic Idealize.ShloMosaic.ValueIdx Cert.ReferenceIdeal Cert.ReferenceIdeal.HostVal

/-! ## The product of 100000 rows with a 128 × 128 matrix -/

/-- Left operand, row axis: the result's row. -/
theorem lhsB_0 (j : S100000x128.Idx) (k : dot_S100000x128_S128x128_S100000x128_1_0_0_1_n_n.contr.Idx) :
    (dot_S100000x128_S128x128_S100000x128_1_0_0_1_n_n.lhsIdx j k 0).val = (j 0).val := rfl
/-- Left operand, column axis: the contracted coordinate. -/
theorem lhsB_1 (j : S100000x128.Idx) (k : dot_S100000x128_S128x128_S100000x128_1_0_0_1_n_n.contr.Idx) :
    (dot_S100000x128_S128x128_S100000x128_1_0_0_1_n_n.lhsIdx j k 1).val = (k ⟨0, by decide⟩).val := rfl
/-- Right operand, row axis: the contracted coordinate. -/
theorem rhsB_0 (j : S100000x128.Idx) (k : dot_S100000x128_S128x128_S100000x128_1_0_0_1_n_n.contr.Idx) :
    (dot_S100000x128_S128x128_S100000x128_1_0_0_1_n_n.rhsIdx j k 0).val = (k ⟨0, by decide⟩).val := rfl
/-- Right operand, column axis: the result's column. -/
theorem rhsB_1 (j : S100000x128.Idx) (k : dot_S100000x128_S128x128_S100000x128_1_0_0_1_n_n.contr.Idx) :
    (dot_S100000x128_S128x128_S100000x128_1_0_0_1_n_n.rhsIdx j k 1).val = (j 1).val := rfl

/-- The product at (n, j) is the sum over k of l(n, k) · r(k, j). -/
theorem dotB_apply (l : FVec Ideal S100000x128 .f32) (r : FVec Ideal S128x128 .f32) (n : Fin 100000) (j : Fin 128) :
    Host.dotGeneral (F := Ideal) dot_S100000x128_S128x128_S100000x128_1_0_0_1_n_n none l r (ix2 n j)
      = ∑ k : Fin 128, l (ix2 n k) * r (ix2 k j) := by
  show FloatOps.dotGeneral _ none _ l r (ix2 n j) = _
  rw [Ideal.dotGeneral_apply,
    ← Equiv.sum_comp (contrEquiv1 dot_S100000x128_S128x128_S100000x128_1_0_0_1_n_n 128 rfl rfl).symm]
  refine Finset.sum_congr rfl fun c _ => ?_
  have hc := contrEquiv1_symm_val dot_S100000x128_S128x128_S100000x128_1_0_0_1_n_n 128 rfl rfl c
  have hl : dot_S100000x128_S128x128_S100000x128_1_0_0_1_n_n.lhsIdx (ix2 n j)
      ((contrEquiv1 dot_S100000x128_S128x128_S100000x128_1_0_0_1_n_n 128 rfl rfl).symm c) = ix2 n c := by
    funext ax; apply Fin.ext
    match ax with
    | ⟨0, _⟩ => exact lhsB_0 _ _
    | ⟨1, _⟩ => exact (lhsB_1 _ _).trans hc
  have hr : dot_S100000x128_S128x128_S100000x128_1_0_0_1_n_n.rhsIdx (ix2 n j)
      ((contrEquiv1 dot_S100000x128_S128x128_S100000x128_1_0_0_1_n_n 128 rfl rfl).symm c) = ix2 c j := by
    funext ax; apply Fin.ext
    match ax with
    | ⟨0, _⟩ => exact (rhsB_0 _ _).trans hc
    | ⟨1, _⟩ => exact rhsB_1 _ _
  rw [hl, hr]

/-! ## The product of 50000 rows with a 128 × 128 matrix -/

/-- Left operand, row axis: the result's row. -/
theorem lhsS_0 (j : S50000x128.Idx) (k : dot_S50000x128_S128x128_S50000x128_1_0_0_1_n_n.contr.Idx) :
    (dot_S50000x128_S128x128_S50000x128_1_0_0_1_n_n.lhsIdx j k 0).val = (j 0).val := rfl
/-- Left operand, column axis: the contracted coordinate. -/
theorem lhsS_1 (j : S50000x128.Idx) (k : dot_S50000x128_S128x128_S50000x128_1_0_0_1_n_n.contr.Idx) :
    (dot_S50000x128_S128x128_S50000x128_1_0_0_1_n_n.lhsIdx j k 1).val = (k ⟨0, by decide⟩).val := rfl
/-- Right operand, row axis: the contracted coordinate. -/
theorem rhsS_0 (j : S50000x128.Idx) (k : dot_S50000x128_S128x128_S50000x128_1_0_0_1_n_n.contr.Idx) :
    (dot_S50000x128_S128x128_S50000x128_1_0_0_1_n_n.rhsIdx j k 0).val = (k ⟨0, by decide⟩).val := rfl
/-- Right operand, column axis: the result's column. -/
theorem rhsS_1 (j : S50000x128.Idx) (k : dot_S50000x128_S128x128_S50000x128_1_0_0_1_n_n.contr.Idx) :
    (dot_S50000x128_S128x128_S50000x128_1_0_0_1_n_n.rhsIdx j k 1).val = (j 1).val := rfl

/-- The product at (n, j) is the sum over k of l(n, k) · r(k, j). -/
theorem dotS_apply (l : FVec Ideal S50000x128 .f32) (r : FVec Ideal S128x128 .f32) (n : Fin 50000) (j : Fin 128) :
    Host.dotGeneral (F := Ideal) dot_S50000x128_S128x128_S50000x128_1_0_0_1_n_n none l r (ix2 n j)
      = ∑ k : Fin 128, l (ix2 n k) * r (ix2 k j) := by
  show FloatOps.dotGeneral _ none _ l r (ix2 n j) = _
  rw [Ideal.dotGeneral_apply,
    ← Equiv.sum_comp (contrEquiv1 dot_S50000x128_S128x128_S50000x128_1_0_0_1_n_n 128 rfl rfl).symm]
  refine Finset.sum_congr rfl fun c _ => ?_
  have hc := contrEquiv1_symm_val dot_S50000x128_S128x128_S50000x128_1_0_0_1_n_n 128 rfl rfl c
  have hl : dot_S50000x128_S128x128_S50000x128_1_0_0_1_n_n.lhsIdx (ix2 n j)
      ((contrEquiv1 dot_S50000x128_S128x128_S50000x128_1_0_0_1_n_n 128 rfl rfl).symm c) = ix2 n c := by
    funext ax; apply Fin.ext
    match ax with
    | ⟨0, _⟩ => exact lhsS_0 _ _
    | ⟨1, _⟩ => exact (lhsS_1 _ _).trans hc
  have hr : dot_S50000x128_S128x128_S50000x128_1_0_0_1_n_n.rhsIdx (ix2 n j)
      ((contrEquiv1 dot_S50000x128_S128x128_S50000x128_1_0_0_1_n_n 128 rfl rfl).symm c) = ix2 c j := by
    funext ax; apply Fin.ext
    match ax with
    | ⟨0, _⟩ => exact (rhsS_0 _ _).trans hc
    | ⟨1, _⟩ => exact rhsS_1 _ _
  rw [hl, hr]

/-! ## The product of 100000 rows with a 128 × 8 matrix -/

/-- Left operand, row axis: the result's row. -/
theorem lhsH_0 (j : S100000x8.Idx) (k : dot_S100000x128_S128x8_S100000x8_1_0_0_1_n_n.contr.Idx) :
    (dot_S100000x128_S128x8_S100000x8_1_0_0_1_n_n.lhsIdx j k 0).val = (j 0).val := rfl
/-- Left operand, column axis: the contracted coordinate. -/
theorem lhsH_1 (j : S100000x8.Idx) (k : dot_S100000x128_S128x8_S100000x8_1_0_0_1_n_n.contr.Idx) :
    (dot_S100000x128_S128x8_S100000x8_1_0_0_1_n_n.lhsIdx j k 1).val = (k ⟨0, by decide⟩).val := rfl
/-- Right operand, row axis: the contracted coordinate. -/
theorem rhsH_0 (j : S100000x8.Idx) (k : dot_S100000x128_S128x8_S100000x8_1_0_0_1_n_n.contr.Idx) :
    (dot_S100000x128_S128x8_S100000x8_1_0_0_1_n_n.rhsIdx j k 0).val = (k ⟨0, by decide⟩).val := rfl
/-- Right operand, column axis: the result's column. -/
theorem rhsH_1 (j : S100000x8.Idx) (k : dot_S100000x128_S128x8_S100000x8_1_0_0_1_n_n.contr.Idx) :
    (dot_S100000x128_S128x8_S100000x8_1_0_0_1_n_n.rhsIdx j k 1).val = (j 1).val := rfl

/-- The product at (n, j) is the sum over k of l(n, k) · r(k, j). -/
theorem dotH_apply (l : FVec Ideal S100000x128 .f32) (r : FVec Ideal S128x8 .f32) (n : Fin 100000) (j : Fin 8) :
    Host.dotGeneral (F := Ideal) dot_S100000x128_S128x8_S100000x8_1_0_0_1_n_n none l r (ix2 n j)
      = ∑ k : Fin 128, l (ix2 n k) * r (ix2 k j) := by
  show FloatOps.dotGeneral _ none _ l r (ix2 n j) = _
  rw [Ideal.dotGeneral_apply,
    ← Equiv.sum_comp (contrEquiv1 dot_S100000x128_S128x8_S100000x8_1_0_0_1_n_n 128 rfl rfl).symm]
  refine Finset.sum_congr rfl fun c _ => ?_
  have hc := contrEquiv1_symm_val dot_S100000x128_S128x8_S100000x8_1_0_0_1_n_n 128 rfl rfl c
  have hl : dot_S100000x128_S128x8_S100000x8_1_0_0_1_n_n.lhsIdx (ix2 n j)
      ((contrEquiv1 dot_S100000x128_S128x8_S100000x8_1_0_0_1_n_n 128 rfl rfl).symm c) = ix2 n c := by
    funext ax; apply Fin.ext
    match ax with
    | ⟨0, _⟩ => exact lhsH_0 _ _
    | ⟨1, _⟩ => exact (lhsH_1 _ _).trans hc
  have hr : dot_S100000x128_S128x8_S100000x8_1_0_0_1_n_n.rhsIdx (ix2 n j)
      ((contrEquiv1 dot_S100000x128_S128x8_S100000x8_1_0_0_1_n_n 128 rfl rfl).symm c) = ix2 c j := by
    funext ax; apply Fin.ext
    match ax with
    | ⟨0, _⟩ => exact (rhsH_0 _ _).trans hc
    | ⟨1, _⟩ => exact rhsH_1 _ _
  rw [hl, hr]

/-! ## One SAGE term -/

/-- The in-degree column spread along the features reads, at (n, k), the in-degree of row n. -/
theorem spreadColB (h1 : S100000.BroadcastsInDim S100000x1 (![0] : Fin 1 → Fin S100000x1.rank))
    (h2 : S100000x1.BroadcastsInDim S100000x128 (![0, 1] : Fin 2 → Fin S100000x128.rank))
    (c : FVec Ideal S100000 .f32) (n : Fin 100000) (k : Fin 128) :
    broadcastInDim S100000x128 ![0, 1] h2 (broadcastInDim S100000x1 ![0] h1 c) (ix2 n k) = c (ix1 n) := by
  refine (broadcastInDim_apply _ h2 _ (ix2 n k) (ix2 n (0 : Fin 1)) fun a => ?_).trans ?_
  · match a with
    | ⟨0, _⟩ => rfl
    | ⟨1, _⟩ => rfl
  · exact broadcastInDim_apply _ h1 c _ (ix1 n) fun a => match a with | ⟨0, _⟩ => rfl

/-- The bias row spread down the rows reads, at (n, j), the bias at j. -/
theorem spreadRowB (h1 : S128.BroadcastsInDim S1x128 (![1] : Fin 1 → Fin S1x128.rank))
    (h2 : S1x128.BroadcastsInDim S100000x128 (![0, 1] : Fin 2 → Fin S100000x128.rank))
    (b : FVec Ideal S128 .f32) (n : Fin 100000) (j : Fin 128) :
    broadcastInDim S100000x128 ![0, 1] h2 (broadcastInDim S1x128 ![1] h1 b) (ix2 n j) = b (ix1 j) := by
  refine (broadcastInDim_apply _ h2 _ (ix2 n j) (ix2 (0 : Fin 1) j) fun a => ?_).trans ?_
  · match a with
    | ⟨0, _⟩ => rfl
    | ⟨1, _⟩ => rfl
  · exact broadcastInDim_apply _ h1 b _ (ix1 j) fun a => match a with | ⟨0, _⟩ => rfl

/-- The in-degree column spread along the features reads, at (n, k), the in-degree of row n. -/
theorem spreadColS (h1 : S50000.BroadcastsInDim S50000x1 (![0] : Fin 1 → Fin S50000x1.rank))
    (h2 : S50000x1.BroadcastsInDim S50000x128 (![0, 1] : Fin 2 → Fin S50000x128.rank))
    (c : FVec Ideal S50000 .f32) (n : Fin 50000) (k : Fin 128) :
    broadcastInDim S50000x128 ![0, 1] h2 (broadcastInDim S50000x1 ![0] h1 c) (ix2 n k) = c (ix1 n) := by
  refine (broadcastInDim_apply _ h2 _ (ix2 n k) (ix2 n (0 : Fin 1)) fun a => ?_).trans ?_
  · match a with
    | ⟨0, _⟩ => rfl
    | ⟨1, _⟩ => rfl
  · exact broadcastInDim_apply _ h1 c _ (ix1 n) fun a => match a with | ⟨0, _⟩ => rfl

/-- The bias row spread down the rows reads, at (n, j), the bias at j. -/
theorem spreadRowS (h1 : S128.BroadcastsInDim S1x128 (![1] : Fin 1 → Fin S1x128.rank))
    (h2 : S1x128.BroadcastsInDim S50000x128 (![0, 1] : Fin 2 → Fin S50000x128.rank))
    (b : FVec Ideal S128 .f32) (n : Fin 50000) (j : Fin 128) :
    broadcastInDim S50000x128 ![0, 1] h2 (broadcastInDim S1x128 ![1] h1 b) (ix2 n j) = b (ix1 j) := by
  refine (broadcastInDim_apply _ h2 _ (ix2 n j) (ix2 (0 : Fin 1) j) fun a => ?_).trans ?_
  · match a with
    | ⟨0, _⟩ => rfl
    | ⟨1, _⟩ => rfl
  · exact broadcastInDim_apply _ h1 b _ (ix1 j) fun a => match a with | ⟨0, _⟩ => rfl

/-- One SAGE term at (n, j): the mean's product with the left weights, the bias, the rows' product with the right weights. -/
theorem sageB_apply (s : FVec Ideal S100000x128 .f32) (c : FVec Ideal S100000 .f32) (wl : FVec Ideal S128x128 .f32)
    (b : FVec Ideal S128 .f32) (x : FVec Ideal S100000x128 .f32) (wr : FVec Ideal S128x128 .f32) (n : Fin 100000) (j : Fin 128) :
    sageB s c wl b x wr (ix2 n j)
      = ((∑ k : Fin 128, Ideal.div (s (ix2 n k)) (c (ix1 n)) * wl (ix2 k j)) + b (ix1 j))
        + ∑ k : Fin 128, x (ix2 n k) * wr (ix2 k j) := by
  unfold sageB
  rw [addf_apply, addf_apply, dotB_apply, dotB_apply, spreadRowB]
  refine congrArg (fun t => (t + b (ix1 j)) + ∑ k : Fin 128, x (ix2 n k) * wr (ix2 k j)) ?_
  refine Finset.sum_congr rfl fun k _ => ?_
  rw [hostDivf_apply, spreadColB]

/-- One SAGE term at (n, j): the mean's product with the left weights, the bias, the rows' product with the right weights. -/
theorem sageS_apply (s : FVec Ideal S50000x128 .f32) (c : FVec Ideal S50000 .f32) (wl : FVec Ideal S128x128 .f32)
    (b : FVec Ideal S128 .f32) (x : FVec Ideal S50000x128 .f32) (wr : FVec Ideal S128x128 .f32) (n : Fin 50000) (j : Fin 128) :
    sageS s c wl b x wr (ix2 n j)
      = ((∑ k : Fin 128, Ideal.div (s (ix2 n k)) (c (ix1 n)) * wl (ix2 k j)) + b (ix1 j))
        + ∑ k : Fin 128, x (ix2 n k) * wr (ix2 k j) := by
  unfold sageS
  rw [addf_apply, addf_apply, dotS_apply, dotS_apply, spreadRowS]
  refine congrArg (fun t => (t + b (ix1 j)) + ∑ k : Fin 128, x (ix2 n k) * wr (ix2 k j)) ?_
  refine Finset.sum_congr rfl fun k _ => ?_
  rw [hostDivf_apply, spreadColS]

/-! ## The rectifier -/

/-- The rectifier entry by entry: x where 0 ≤ x, slope · x elsewhere. -/
theorem lreluB_apply (x : FVec Ideal S100000x128 .f32) (i : S100000x128.Idx) : lreluB x i = Cert.Spec.lreluR (x i) := by
  show Scalar.select (Ideal.cmp .oge (x i) (Ideal.ofBits .f32 0x00000000#32)) (x i)
      (Ideal.ofBits .f32 0x3C23D70A#32 * x i) = _
  rw [Ideal.ofBits_zero_f32]
  unfold Cert.Spec.lreluR Cert.Spec.slope Scalar.select Ideal.cmp
  by_cases h : (0 : EReal) ≤ x i
  · simp [h]
  · simp [h]

/-- The rectifier entry by entry: x where 0 ≤ x, slope · x elsewhere. -/
theorem lreluS_apply (x : FVec Ideal S50000x128 .f32) (i : S50000x128.Idx) : lreluS x i = Cert.Spec.lreluR (x i) := by
  show Scalar.select (Ideal.cmp .oge (x i) (Ideal.ofBits .f32 0x00000000#32)) (x i)
      (Ideal.ofBits .f32 0x3C23D70A#32 * x i) = _
  rw [Ideal.ofBits_zero_f32]
  unfold Cert.Spec.lreluR Cert.Spec.slope Scalar.select Ideal.cmp
  by_cases h : (0 : EReal) ≤ x i
  · simp [h]
  · simp [h]

/-! ## The heads -/

/-- The head bias spread down the rows reads, at (n, h), the bias of head h. -/
theorem spreadHead (h1 : S8.BroadcastsInDim S1x8 (![1] : Fin 1 → Fin S1x8.rank))
    (h2 : S1x8.BroadcastsInDim S100000x8 (![0, 1] : Fin 2 → Fin S100000x8.rank))
    (b : FVec Ideal S8 .f32) (n : Fin 100000) (h : Fin 8) :
    broadcastInDim S100000x8 ![0, 1] h2 (broadcastInDim S1x8 ![1] h1 b) (ix2 n h) = b (ix1 h) := by
  refine (broadcastInDim_apply _ h2 _ (ix2 n h) (ix2 (0 : Fin 1) h) fun a => ?_).trans ?_
  · match a with
    | ⟨0, _⟩ => rfl
    | ⟨1, _⟩ => rfl
  · exact broadcastInDim_apply _ h1 b _ (ix1 h) fun a => match a with | ⟨0, _⟩ => rfl

/-- Head h of row n: the sum over k of y(n, k) · Wh(h, k), plus the head's bias. -/
theorem heads_apply (y : FVec Ideal S100000x128 .f32) (wh : FVec Ideal S8x128 .f32) (bh : FVec Ideal S8 .f32)
    (n : Fin 100000) (h : Fin 8) :
    heads y wh bh (ix2 n h) = (∑ k : Fin 128, y (ix2 n k) * wh (ix2 h k)) + bh (ix1 h) := by
  unfold heads
  rw [addf_apply, dotH_apply, spreadHead]
  refine congrArg (fun t => t + bh (ix1 h)) ?_
  refine Finset.sum_congr rfl fun k _ => ?_
  rw [transpose_ix2_apply]

/-! ## A weight matrix out of the stack: the stack at its layer and edge type -/

theorem w00_apply (w : FVec Ideal S2x3x128x128 .f32) (k j : Fin 128) : w00 w (ix2 k j) = w (ix4 0 0 k j) := by
  unfold w00
  refine (shapeCast_apply _ _ (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply _ w _ _ (ix4 0 0 k j) fun a => match a with
      | ⟨0, _⟩ => rfl
      | ⟨1, _⟩ => rfl
      | ⟨2, _⟩ => (Nat.zero_add _).symm
      | ⟨3, _⟩ => (Nat.zero_add _).symm

theorem w01_apply (w : FVec Ideal S2x3x128x128 .f32) (k j : Fin 128) : w01 w (ix2 k j) = w (ix4 0 1 k j) := by
  unfold w01
  refine (shapeCast_apply _ _ (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply _ w _ _ (ix4 0 1 k j) fun a => match a with
      | ⟨0, _⟩ => rfl
      | ⟨1, _⟩ => rfl
      | ⟨2, _⟩ => (Nat.zero_add _).symm
      | ⟨3, _⟩ => (Nat.zero_add _).symm

theorem w02_apply (w : FVec Ideal S2x3x128x128 .f32) (k j : Fin 128) : w02 w (ix2 k j) = w (ix4 0 2 k j) := by
  unfold w02
  refine (shapeCast_apply _ _ (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply _ w _ _ (ix4 0 2 k j) fun a => match a with
      | ⟨0, _⟩ => rfl
      | ⟨1, _⟩ => rfl
      | ⟨2, _⟩ => (Nat.zero_add _).symm
      | ⟨3, _⟩ => (Nat.zero_add _).symm

theorem w10_apply (w : FVec Ideal S2x3x128x128 .f32) (k j : Fin 128) : w10 w (ix2 k j) = w (ix4 1 0 k j) := by
  unfold w10
  refine (shapeCast_apply _ _ (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply _ w _ _ (ix4 1 0 k j) fun a => match a with
      | ⟨0, _⟩ => rfl
      | ⟨1, _⟩ => rfl
      | ⟨2, _⟩ => (Nat.zero_add _).symm
      | ⟨3, _⟩ => (Nat.zero_add _).symm

theorem w11_apply (w : FVec Ideal S2x3x128x128 .f32) (k j : Fin 128) : w11 w (ix2 k j) = w (ix4 1 1 k j) := by
  unfold w11
  refine (shapeCast_apply _ _ (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply _ w _ _ (ix4 1 1 k j) fun a => match a with
      | ⟨0, _⟩ => rfl
      | ⟨1, _⟩ => rfl
      | ⟨2, _⟩ => (Nat.zero_add _).symm
      | ⟨3, _⟩ => (Nat.zero_add _).symm

theorem w12_apply (w : FVec Ideal S2x3x128x128 .f32) (k j : Fin 128) : w12 w (ix2 k j) = w (ix4 1 2 k j) := by
  unfold w12
  refine (shapeCast_apply _ _ (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply _ w _ _ (ix4 1 2 k j) fun a => match a with
      | ⟨0, _⟩ => rfl
      | ⟨1, _⟩ => rfl
      | ⟨2, _⟩ => (Nat.zero_add _).symm
      | ⟨3, _⟩ => (Nat.zero_add _).symm

/-! ## A bias vector out of the stack -/

theorem b00_apply (b : FVec Ideal S2x3x128 .f32) (j : Fin 128) : b00 b (ix1 j) = b (ix3 0 0 j) := by
  unfold b00
  refine (shapeCast_apply _ _ (ix1 j) (ix3 (0 : Fin 1) (0 : Fin 1) j) ?_).trans ?_
  · rw [Shape.rowMajor_val_three, Shape.rowMajor_val_one]
    show (0 * 1 + 0) * 128 + j.val = j.val
    omega
  · exact extractStridedSlice_apply _ b _ _ (ix3 0 0 j) fun a => match a with
      | ⟨0, _⟩ => rfl
      | ⟨1, _⟩ => rfl
      | ⟨2, _⟩ => (Nat.zero_add _).symm

theorem b01_apply (b : FVec Ideal S2x3x128 .f32) (j : Fin 128) : b01 b (ix1 j) = b (ix3 0 1 j) := by
  unfold b01
  refine (shapeCast_apply _ _ (ix1 j) (ix3 (0 : Fin 1) (0 : Fin 1) j) ?_).trans ?_
  · rw [Shape.rowMajor_val_three, Shape.rowMajor_val_one]
    show (0 * 1 + 0) * 128 + j.val = j.val
    omega
  · exact extractStridedSlice_apply _ b _ _ (ix3 0 1 j) fun a => match a with
      | ⟨0, _⟩ => rfl
      | ⟨1, _⟩ => rfl
      | ⟨2, _⟩ => (Nat.zero_add _).symm

theorem b02_apply (b : FVec Ideal S2x3x128 .f32) (j : Fin 128) : b02 b (ix1 j) = b (ix3 0 2 j) := by
  unfold b02
  refine (shapeCast_apply _ _ (ix1 j) (ix3 (0 : Fin 1) (0 : Fin 1) j) ?_).trans ?_
  · rw [Shape.rowMajor_val_three, Shape.rowMajor_val_one]
    show (0 * 1 + 0) * 128 + j.val = j.val
    omega
  · exact extractStridedSlice_apply _ b _ _ (ix3 0 2 j) fun a => match a with
      | ⟨0, _⟩ => rfl
      | ⟨1, _⟩ => rfl
      | ⟨2, _⟩ => (Nat.zero_add _).symm

theorem b10_apply (b : FVec Ideal S2x3x128 .f32) (j : Fin 128) : b10 b (ix1 j) = b (ix3 1 0 j) := by
  unfold b10
  refine (shapeCast_apply _ _ (ix1 j) (ix3 (0 : Fin 1) (0 : Fin 1) j) ?_).trans ?_
  · rw [Shape.rowMajor_val_three, Shape.rowMajor_val_one]
    show (0 * 1 + 0) * 128 + j.val = j.val
    omega
  · exact extractStridedSlice_apply _ b _ _ (ix3 1 0 j) fun a => match a with
      | ⟨0, _⟩ => rfl
      | ⟨1, _⟩ => rfl
      | ⟨2, _⟩ => (Nat.zero_add _).symm

theorem b11_apply (b : FVec Ideal S2x3x128 .f32) (j : Fin 128) : b11 b (ix1 j) = b (ix3 1 1 j) := by
  unfold b11
  refine (shapeCast_apply _ _ (ix1 j) (ix3 (0 : Fin 1) (0 : Fin 1) j) ?_).trans ?_
  · rw [Shape.rowMajor_val_three, Shape.rowMajor_val_one]
    show (0 * 1 + 0) * 128 + j.val = j.val
    omega
  · exact extractStridedSlice_apply _ b _ _ (ix3 1 1 j) fun a => match a with
      | ⟨0, _⟩ => rfl
      | ⟨1, _⟩ => rfl
      | ⟨2, _⟩ => (Nat.zero_add _).symm

theorem b12_apply (b : FVec Ideal S2x3x128 .f32) (j : Fin 128) : b12 b (ix1 j) = b (ix3 1 2 j) := by
  unfold b12
  refine (shapeCast_apply _ _ (ix1 j) (ix3 (0 : Fin 1) (0 : Fin 1) j) ?_).trans ?_
  · rw [Shape.rowMajor_val_three, Shape.rowMajor_val_one]
    show (0 * 1 + 0) * 128 + j.val = j.val
    omega
  · exact extractStridedSlice_apply _ b _ _ (ix3 1 2 j) fun a => match a with
      | ⟨0, _⟩ => rfl
      | ⟨1, _⟩ => rfl
      | ⟨2, _⟩ => (Nat.zero_add _).symm

end Cert.ReferenceIdeal.ReadValue

end
-- ==== Proof.TakeValue.lean ====
/-
  The precondition, read: every float input is finite, and the program's gathers never read their fill value.

  The precondition is a conjunction of ten "all entries satisfy p" tests, each an and-reduction of a one-bit array
  that came out 1.  Seven say |x| < +∞ of a float array: every entry is then a real number.  Three say, of the source
  ids of an edge list, that the id after the wrap of negative ids (id + n where id < 0) lies in 0..n-1.  The program's
  take of rows at those ids tests the very same two comparisons on the very same wrapped words (on the ids kept as a
  column, joined per row, laid along the features) and selects the gathered row where the test holds, a fill value
  elsewhere: under the precondition the test holds everywhere, so the take is the plain gather at the wrapped ids.
  No arithmetic on the ids is needed: both sides are the same words, compared the same way.
-/
import proofs.«424018_j64587718197893_2_alg».proof.Proof.KDefs
import proofs.«424018_j64587718197893_2_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.TakeValue

open Idealize.ShloMosaic Cert.KernelIdeal Cert.KernelIdeal.Facts₀ Cert.KernelIdeal.Facts

open Cert.KernelIdeal.HostVal

instance : Subsingleton S_.Idx := ⟨fun a _ => funext fun d => d.elim0⟩

/-! ## Elements -/

/-- An extended real whose absolute value is below +∞ is a real number: −∞ and +∞ both have absolute value +∞. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    simpa [Ideal.cmp, StableHlo.Predicate.ofBool_eq_one_iff] using h
  induction x using EReal.rec with
  | bot => simp at hlt
  | coe r => exact ⟨r, rfl⟩
  | top => simp at hlt

/-- A left fold by "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a List.mem_cons_self]; decide
    rw [List.foldl_cons, e]
    exact foldl_andi_one f l fun n hn => h n (List.mem_cons_of_mem _ hn)

/-! ## Arrays -/

/-- "All entries have absolute value below +∞", as the precondition tests it, says every entry is a real number. -/
theorem finite_of_all {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) : Cert.Spec.Finite x := by
  intro i
  exact real_of_abs_lt (x i) (Host.reduce_andi_all _ _ hr hu _ e i)

/-- The gather's mask. The precondition says, of every id, that its wrapped word w lies in 0..hi (two signed tests,
    joined by "and"). The program tests the same two words on the ids kept as a column, joins each row of that column
    by "and" (one entry per row), and lays the result along the 128 features: every entry of that mask is 1. -/
theorem mask_all {E : Nat} (w : IVec ⟨1, ![E]⟩ 32) (hi : BitVec 32)
    (hb0 : (⟨1, ![E]⟩ : Shape).BroadcastsInDim ⟨2, ![E, 1]⟩ ![0]) (hbz : S_.BroadcastsInDim ⟨2, ![E, 1]⟩ ![])
    (hb11 : S1x1.BroadcastsInDim ⟨2, ![E, 1]⟩ ![0, 1]) (hb1 : S1.BroadcastsInDim S1x1 ![1])
    (hbm : (⟨1, ![E]⟩ : Shape).BroadcastsInDim ⟨2, ![E, 128]⟩ ![0])
    (hr : (⟨2, ![E, 1]⟩ : Shape).ReducesTo [1] ⟨1, ![E]⟩) (hu : 0 < S_.numel)
    (hall : ∀ e : (⟨1, ![E]⟩ : Shape).Idx, IntOp.andi (IntOp.cmpi .sge (w e) 0#32) (IntOp.cmpi .sle (w e) hi) = 1#1)
    (i : (⟨2, ![E, 128]⟩ : Shape).Idx) :
    broadcastInDim ⟨2, ![E, 128]⟩ ![0] hbm
      (Host.reduce IntOp.andi
        (andi
          (cmpi .sge (broadcastInDim ⟨2, ![E, 1]⟩ ![0] hb0 w) (broadcastInDim ⟨2, ![E, 1]⟩ ![] hbz (constantI S_ 32 0#32)))
          (cmpi .sle (broadcastInDim ⟨2, ![E, 1]⟩ ![0] hb0 w)
            (broadcastInDim ⟨2, ![E, 1]⟩ ![0, 1] hb11 (broadcastInDim S1x1 ![1] hb1 (constantI S1 32 hi)))))
        (constantI S_ 1 1#1) hr hu) i = 1#1 := by
  unfold broadcastInDim
  dsimp only
  rw [Host.reduce_eq_foldl]
  exact foldl_andi_one _ _ fun n _ => hall _

variable {a0 : FVec Ideal S100000x128 .f32} {a1 : FVec Ideal S50000x128 .f32} {a2 : FVec Ideal S2x3x128x128 .f32}
  {a3 : FVec Ideal S2x3x128 .f32} {a4 : FVec Ideal S2x3x128x128 .f32} {a5 : FVec Ideal S8x128 .f32}
  {a6 : FVec Ideal S8 .f32} {e7 : IVec S2x800000 32} {e8 e9 : IVec S2x400000 32}

/-! ## The precondition, read -/

/-- The precondition's ten conjuncts: the seven float arrays are finite, and every source id of the three edge lists,
    after the wrap of negative ids, lies in the range of its table. -/
theorem pre_decoded (h : Cert.Pre_finite_inputs.fn (F := Ideal) a0 a1 a2 a3 a4 a5 a6 e7 e8 e9 = fun _ => 1#1) :
    (Cert.Spec.Finite a0 ∧ Cert.Spec.Finite a1 ∧ Cert.Spec.Finite a2 ∧ Cert.Spec.Finite a3 ∧ Cert.Spec.Finite a4
      ∧ Cert.Spec.Finite a5 ∧ Cert.Spec.Finite a6)
    ∧ (∀ e, IntOp.andi (IntOp.cmpi .sge (wrapBB (srcBB e7) e) 0#32) (IntOp.cmpi .sle (wrapBB (srcBB e7) e) 99999#32) = 1#1)
    ∧ (∀ e, IntOp.andi (IntOp.cmpi .sge (wrapSB (src4 e8) e) 0#32) (IntOp.cmpi .sle (wrapSB (src4 e8) e) 49999#32) = 1#1)
    ∧ (∀ e, IntOp.andi (IntOp.cmpi .sge (wrapBS (src4 e9) e) 0#32) (IntOp.cmpi .sle (wrapBS (src4 e9) e) 99999#32) = 1#1) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, mbs⟩ := IntOp.andi_eq_one.1 h0
  obtain ⟨h0, msb⟩ := IntOp.andi_eq_one.1 h0
  obtain ⟨h0, mbb⟩ := IntOp.andi_eq_one.1 h0
  obtain ⟨h0, f6⟩ := IntOp.andi_eq_one.1 h0
  obtain ⟨h0, f5⟩ := IntOp.andi_eq_one.1 h0
  obtain ⟨h0, f4⟩ := IntOp.andi_eq_one.1 h0
  obtain ⟨h0, f3⟩ := IntOp.andi_eq_one.1 h0
  obtain ⟨h0, f2⟩ := IntOp.andi_eq_one.1 h0
  obtain ⟨f0, f1⟩ := IntOp.andi_eq_one.1 h0
  refine ⟨⟨finite_of_all _ _ _ _ f0, finite_of_all _ _ _ _ f1, finite_of_all _ _ _ _ f2, finite_of_all _ _ _ _ f3,
    finite_of_all _ _ _ _ f4, finite_of_all _ _ _ _ f5, finite_of_all _ _ _ _ f6⟩, ?_, ?_, ?_⟩
  · exact fun e => Host.reduce_andi_all _ _ _ _ _ mbb e
  · exact fun e => Host.reduce_andi_all _ _ _ _ _ msb e
  · exact fun e => Host.reduce_andi_all _ _ _ _ _ mbs e

/-- The seven float arrays are finite. -/
theorem pre_finite (h : Cert.Pre_finite_inputs.fn (F := Ideal) a0 a1 a2 a3 a4 a5 a6 e7 e8 e9 = fun _ => 1#1) :
    Cert.Spec.Finite a0 ∧ Cert.Spec.Finite a1 ∧ Cert.Spec.Finite a2 ∧ Cert.Spec.Finite a3 ∧ Cert.Spec.Finite a4
      ∧ Cert.Spec.Finite a5 ∧ Cert.Spec.Finite a6 :=
  (pre_decoded h).1

/-! ## The gathers: under the precondition no id is out of range, so the fill value is never read -/

theorem takeBB_eq (x : FVec Ideal S100000x128 .f32)
    (h : Cert.Pre_finite_inputs.fn (F := Ideal) a0 a1 a2 a3 a4 a5 a6 e7 e8 e9 = fun _ => 1#1) :
    takeBB x (srcBB e7) = Host.gather gather_S100000x128_S800000x1_S800000x128_1_0_n_n_0_1_1128 x
      (broadcastInDim S800000x1 ![0] bcast_S800000_S800000x1_0 (wrapBB (srcBB e7))) := by
  funext i
  unfold takeBB
  rw [ValueIdx.select_apply, mask_all (wrapBB (srcBB e7)) 99999#32 _ _ _ _ _ _ _ (pre_decoded h).2.1 i, ValueIdx.select_one]

theorem takeSB_eq (x : FVec Ideal S50000x128 .f32)
    (h : Cert.Pre_finite_inputs.fn (F := Ideal) a0 a1 a2 a3 a4 a5 a6 e7 e8 e9 = fun _ => 1#1) :
    takeSB x (src4 e8) = Host.gather gather_S50000x128_S400000x1_S400000x128_1_0_n_n_0_1_1128 x
      (broadcastInDim S400000x1 ![0] bcast_S400000_S400000x1_0 (wrapSB (src4 e8))) := by
  funext i
  unfold takeSB
  rw [ValueIdx.select_apply, mask_all (wrapSB (src4 e8)) 49999#32 _ _ _ _ _ _ _ (pre_decoded h).2.2.1 i, ValueIdx.select_one]

theorem takeBS_eq (x : FVec Ideal S100000x128 .f32)
    (h : Cert.Pre_finite_inputs.fn (F := Ideal) a0 a1 a2 a3 a4 a5 a6 e7 e8 e9 = fun _ => 1#1) :
    takeBS x (src4 e9) = Host.gather gather_S100000x128_S400000x1_S400000x128_1_0_n_n_0_1_1128 x
      (broadcastInDim S400000x1 ![0] bcast_S400000_S400000x1_0 (wrapBS (src4 e9))) := by
  funext i
  unfold takeBS
  rw [ValueIdx.select_apply, mask_all (wrapBS (src4 e9)) 99999#32 _ _ _ _ _ _ _ (pre_decoded h).2.2.2 i, ValueIdx.select_one]

end Cert.KernelIdeal.TakeValue

end
-- ==== Proof.BridgeHost.lean ====
/-
  The two programs' host values agree, and the facts about them that the algebra of a row needs.

  Both programs cut the same rows out of the edge lists and the same matrices and biases out of the stacked
  parameters, by the same operations: these are equal as written.  The segment sums differ in one place only: the
  kernel program's take of rows selects between the gathered row and a fill value by a range test on the wrapped
  id, and under the precondition that test holds everywhere, so its take is the reference's plain gather.  A segment
  sum of real rows is an array of real numbers (a real plus a finite sum of reals).  A clamped in-degree is ones
  scattered into zeros, then the maximum with 1: a real number at least 1.  The kernel program's reciprocal column,
  read at (n, 0), is 1 divided by the reference's clamped in-degree at n.
-/
import proofs.«424018_j64587718197893_2_alg».proof.Proof.KResult
import proofs.«424018_j64587718197893_2_alg».proof.Proof.RDefs
import proofs.«424018_j64587718197893_2_alg».proof.Proof.TakeValue
import proofs.«424018_j64587718197893_2_alg».proof.Proof.SpecAlgebra
import Idealize.ShloMosaic.PureOps.Ideal.Laws
import Idealize.ShloMosaic.Lib.ValueIdx
import Idealize.ShloMosaic.Lib.Pipeline.Value

noncomputable section

namespace Cert.Bridge

open Idealize.ShloMosaic

/-! ## Edge lists and parameters: the same operations in both programs -/

theorem srcBB_eq (e : IVec Cert.KernelIdeal.S2x800000 32) : Cert.KernelIdeal.HostVal.srcBB e = Cert.ReferenceIdeal.HostVal.srcBB e := rfl
theorem dstBB_eq (e : IVec Cert.KernelIdeal.S2x800000 32) : Cert.KernelIdeal.HostVal.dstBB e = Cert.ReferenceIdeal.HostVal.dstBB e := rfl
theorem src4_eq (e : IVec Cert.KernelIdeal.S2x400000 32) : Cert.KernelIdeal.HostVal.src4 e = Cert.ReferenceIdeal.HostVal.src4 e := rfl
theorem dst4_eq (e : IVec Cert.KernelIdeal.S2x400000 32) : Cert.KernelIdeal.HostVal.dst4 e = Cert.ReferenceIdeal.HostVal.dst4 e := rfl

theorem w00_eq (w : FVec Ideal Cert.KernelIdeal.S2x3x128x128 .f32) : Cert.KernelIdeal.HostVal.w00 w = Cert.ReferenceIdeal.HostVal.w00 w := rfl
theorem w01_eq (w : FVec Ideal Cert.KernelIdeal.S2x3x128x128 .f32) : Cert.KernelIdeal.HostVal.w01 w = Cert.ReferenceIdeal.HostVal.w01 w := rfl
theorem w02_eq (w : FVec Ideal Cert.KernelIdeal.S2x3x128x128 .f32) : Cert.KernelIdeal.HostVal.w02 w = Cert.ReferenceIdeal.HostVal.w02 w := rfl
theorem w10_eq (w : FVec Ideal Cert.KernelIdeal.S2x3x128x128 .f32) : Cert.KernelIdeal.HostVal.w10 w = Cert.ReferenceIdeal.HostVal.w10 w := rfl
theorem w11_eq (w : FVec Ideal Cert.KernelIdeal.S2x3x128x128 .f32) : Cert.KernelIdeal.HostVal.w11 w = Cert.ReferenceIdeal.HostVal.w11 w := rfl
theorem b00_eq (b : FVec Ideal Cert.KernelIdeal.S2x3x128 .f32) : Cert.KernelIdeal.HostVal.b00 b = Cert.ReferenceIdeal.HostVal.b00 b := rfl
theorem b01_eq (b : FVec Ideal Cert.KernelIdeal.S2x3x128 .f32) : Cert.KernelIdeal.HostVal.b01 b = Cert.ReferenceIdeal.HostVal.b01 b := rfl
theorem b02_eq (b : FVec Ideal Cert.KernelIdeal.S2x3x128 .f32) : Cert.KernelIdeal.HostVal.b02 b = Cert.ReferenceIdeal.HostVal.b02 b := rfl
theorem b10_eq (b : FVec Ideal Cert.KernelIdeal.S2x3x128 .f32) : Cert.KernelIdeal.HostVal.b10 b = Cert.ReferenceIdeal.HostVal.b10 b := rfl
theorem b11_eq (b : FVec Ideal Cert.KernelIdeal.S2x3x128 .f32) : Cert.KernelIdeal.HostVal.b11 b = Cert.ReferenceIdeal.HostVal.b11 b := rfl

variable {a0 : FVec Ideal Cert.KernelIdeal.S100000x128 .f32} {a1 : FVec Ideal Cert.KernelIdeal.S50000x128 .f32}
  {a2 : FVec Ideal Cert.KernelIdeal.S2x3x128x128 .f32} {a3 : FVec Ideal Cert.KernelIdeal.S2x3x128 .f32}
  {a4 : FVec Ideal Cert.KernelIdeal.S2x3x128x128 .f32} {a5 : FVec Ideal Cert.KernelIdeal.S8x128 .f32}
  {a6 : FVec Ideal Cert.KernelIdeal.S8 .f32} {e7 : IVec Cert.KernelIdeal.S2x800000 32}
  {e8 e9 : IVec Cert.KernelIdeal.S2x400000 32}

/-! ## Segment sums: under the precondition the kernel program's take is the plain gather, as the reference's -/

theorem segBB_eq (x : FVec Ideal Cert.KernelIdeal.S100000x128 .f32)
    (h : Cert.Pre_finite_inputs.fn (F := Ideal) a0 a1 a2 a3 a4 a5 a6 e7 e8 e9 = fun _ => 1#1) :
    Cert.KernelIdeal.HostVal.segBB x (Cert.KernelIdeal.HostVal.srcBB e7) (Cert.KernelIdeal.HostVal.dstBB e7)
      = Cert.ReferenceIdeal.HostVal.segBB x (Cert.ReferenceIdeal.HostVal.srcBB e7) (Cert.ReferenceIdeal.HostVal.dstBB e7) := by
  unfold Cert.KernelIdeal.HostVal.segBB
  rw [Cert.KernelIdeal.TakeValue.takeBB_eq x h]
  rfl

theorem segSB_eq (x : FVec Ideal Cert.KernelIdeal.S50000x128 .f32)
    (h : Cert.Pre_finite_inputs.fn (F := Ideal) a0 a1 a2 a3 a4 a5 a6 e7 e8 e9 = fun _ => 1#1) :
    Cert.KernelIdeal.HostVal.segSB x (Cert.KernelIdeal.HostVal.src4 e8) (Cert.KernelIdeal.HostVal.dst4 e8)
      = Cert.ReferenceIdeal.HostVal.segSB x (Cert.ReferenceIdeal.HostVal.src4 e8) (Cert.ReferenceIdeal.HostVal.dst4 e8) := by
  unfold Cert.KernelIdeal.HostVal.segSB
  rw [Cert.KernelIdeal.TakeValue.takeSB_eq x h]
  rfl

theorem segBS_eq (x : FVec Ideal Cert.KernelIdeal.S100000x128 .f32)
    (h : Cert.Pre_finite_inputs.fn (F := Ideal) a0 a1 a2 a3 a4 a5 a6 e7 e8 e9 = fun _ => 1#1) :
    Cert.KernelIdeal.HostVal.segBS x (Cert.KernelIdeal.HostVal.src4 e9) (Cert.KernelIdeal.HostVal.dst4 e9)
      = Cert.ReferenceIdeal.HostVal.segBS x (Cert.ReferenceIdeal.HostVal.src4 e9) (Cert.ReferenceIdeal.HostVal.dst4 e9) := by
  unfold Cert.KernelIdeal.HostVal.segBS
  rw [Cert.KernelIdeal.TakeValue.takeBS_eq x h]
  rfl

/-! ## Finiteness of the segment sums -/

/-- The array of zeros the sums start from is an array of real numbers. -/
theorem zero_finite {s : Shape} (hb : Cert.ReferenceIdeal.S_.BroadcastsInDim s ![]) (i : s.Idx) :
    ∃ r : ℝ, broadcastInDim s ![] hb (constant (F := Ideal) Cert.ReferenceIdeal.S_ .f32 0x00000000#32) i = (r : EReal) :=
  ⟨0, Ideal.ofBits_zero_f32⟩

/-- The host's accumulating scatter, at the extended reals, of real updates into zeros has real entries. -/
theorem seg_finite {s si u : Shape} {w : Nat} (dd : ScatterDims s si u) (hb : Cert.ReferenceIdeal.S_.BroadcastsInDim s ![])
    (idx : IVec si w) (upd : FVec Ideal u .f32) (hu : ∀ j, ∃ r : ℝ, upd j = (r : EReal)) :
    Cert.Spec.Finite
      (Host.scatterAdd dd (broadcastInDim s ![] hb (constant (F := Ideal) Cert.ReferenceIdeal.S_ .f32 0x00000000#32)) idx upd) := by
  unfold Host.scatterAdd
  rw [Ideal.hostScatterAdd_def]
  exact Cert.Spec.scatterAdd_finite dd _ idx upd (zero_finite hb) hu

theorem segBB_finite (x : FVec Ideal Cert.KernelIdeal.S100000x128 .f32) (hx : Cert.Spec.Finite x)
    (s d : IVec Cert.KernelIdeal.S800000 32) : Cert.Spec.Finite (Cert.ReferenceIdeal.HostVal.segBB x s d) := by
  unfold Cert.ReferenceIdeal.HostVal.segBB Cert.ReferenceIdeal.HostVal.gatherBB
  exact seg_finite _ _ _ _ (Cert.Spec.gather_finite _ x _ hx)

theorem segSB_finite (x : FVec Ideal Cert.KernelIdeal.S50000x128 .f32) (hx : Cert.Spec.Finite x)
    (s d : IVec Cert.KernelIdeal.S400000 32) : Cert.Spec.Finite (Cert.ReferenceIdeal.HostVal.segSB x s d) := by
  unfold Cert.ReferenceIdeal.HostVal.segSB Cert.ReferenceIdeal.HostVal.gatherSB
  exact seg_finite _ _ _ _ (Cert.Spec.gather_finite _ x _ hx)

theorem segBS_finite (x : FVec Ideal Cert.KernelIdeal.S100000x128 .f32) (hx : Cert.Spec.Finite x)
    (s d : IVec Cert.KernelIdeal.S400000 32) : Cert.Spec.Finite (Cert.ReferenceIdeal.HostVal.segBS x s d) := by
  unfold Cert.ReferenceIdeal.HostVal.segBS Cert.ReferenceIdeal.HostVal.gatherBS
  exact seg_finite _ _ _ _ (Cert.Spec.gather_finite _ x _ hx)

/-! ## Clamped in-degrees -/

/-- The word 0x3F800000 is the number 1: exponent field 127, significand 0. -/
theorem ofBits_one_f32 : Ideal.ofBits .f32 0x3F800000#32 = (1 : EReal) := by
  simp [Ideal.ofBits, Ideal.ieee, -EReal.coe_mul]; norm_num

/-- A clamped count — ones scattered into zeros, then the maximum with 1 — is a real number at least 1. -/
theorem cnt_ge {s si u : Shape} {w : Nat} (dd : ScatterDims s si u) (idx : IVec si w)
    (hbs : Cert.ReferenceIdeal.S_.BroadcastsInDim s ![]) (hbu : Cert.ReferenceIdeal.S_.BroadcastsInDim u ![]) (i : s.Idx) :
    ∃ r : ℝ, 1 ≤ r ∧
      maximumf
        (Host.scatterAdd dd (broadcastInDim s ![] hbs (constant (F := Ideal) Cert.ReferenceIdeal.S_ .f32 0x00000000#32)) idx
          (broadcastInDim u ![] hbu (constant (F := Ideal) Cert.ReferenceIdeal.S_ .f32 0x3F800000#32)))
        (broadcastInDim s ![] hbs (constant (F := Ideal) Cert.ReferenceIdeal.S_ .f32 0x3F800000#32)) i = (r : EReal) := by
  have hz : broadcastInDim s ![] hbs (constant (F := Ideal) Cert.ReferenceIdeal.S_ .f32 0x00000000#32)
      = fun _ => (0 : EReal) := funext fun _ => Ideal.ofBits_zero_f32
  have ho : broadcastInDim u ![] hbu (constant (F := Ideal) Cert.ReferenceIdeal.S_ .f32 0x3F800000#32)
      = fun _ => (1 : EReal) := funext fun _ => ofBits_one_f32
  have h1 : broadcastInDim s ![] hbs (constant (F := Ideal) Cert.ReferenceIdeal.S_ .f32 0x3F800000#32) i = (1 : EReal) :=
    ofBits_one_f32
  rw [ValueIdx.maximumf_apply, h1, hz, ho]
  unfold Host.scatterAdd
  rw [Ideal.hostScatterAdd_def]
  exact Cert.Spec.max_one_count (Cert.Spec.scatterAdd_count dd idx i)

theorem cntBB_ge (d : IVec Cert.KernelIdeal.S800000 32) (n : Fin 100000) :
    ∃ r : ℝ, 1 ≤ r ∧ Cert.ReferenceIdeal.HostVal.cntBB d (ValueIdx.ix1 n) = (r : EReal) := by
  unfold Cert.ReferenceIdeal.HostVal.cntBB
  exact cnt_ge _ _ _ _ _

theorem cntSB_ge (d : IVec Cert.KernelIdeal.S400000 32) (n : Fin 100000) :
    ∃ r : ℝ, 1 ≤ r ∧ Cert.ReferenceIdeal.HostVal.cntSB d (ValueIdx.ix1 n) = (r : EReal) := by
  unfold Cert.ReferenceIdeal.HostVal.cntSB
  exact cnt_ge _ _ _ _ _

theorem cntBS_ge (d : IVec Cert.KernelIdeal.S400000 32) (n : Fin 50000) :
    ∃ r : ℝ, 1 ≤ r ∧ Cert.ReferenceIdeal.HostVal.cntBS d (ValueIdx.ix1 n) = (r : EReal) := by
  unfold Cert.ReferenceIdeal.HostVal.cntBS
  exact cnt_ge _ _ _ _ _

/-! ## Reciprocal in-degrees -/

/-- A vector kept as a column reads, at (n, 0), the vector at n. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reciprocal column: 1 divided by the count, kept as a column, read at (n, 0). -/
theorem inv_apply {a : ℕ} (c : FVec Ideal ⟨1, ![a]⟩ .f32) (hb : Cert.KernelIdeal.S_.BroadcastsInDim ⟨1, ![a]⟩ ![])
    (h : (⟨1, ![a]⟩ : Shape).ShapeCasts ⟨2, ![a, 1]⟩) (n : Fin a) :
    shapeCast ⟨2, ![a, 1]⟩
        (Host.divf (broadcastInDim ⟨1, ![a]⟩ ![] hb (constant (F := Ideal) Cert.KernelIdeal.S_ .f32 0x3F800000#32)) c) h
        (ValueIdx.ix2 n 0)
      = Ideal.div 1 (c (ValueIdx.ix1 n)) := by
  refine (shapeCast_a_a1_apply _ _ n 0).trans ?_
  show Ideal.div (Ideal.ofBits .f32 0x3F800000#32) (c (ValueIdx.ix1 n)) = _
  rw [ofBits_one_f32]

theorem invBB_eq (d : IVec Cert.KernelIdeal.S800000 32) (n : Fin 100000) :
    Cert.KernelIdeal.HostVal.invBB d (ValueIdx.ix2 n 0) = Ideal.div 1 (Cert.ReferenceIdeal.HostVal.cntBB d (ValueIdx.ix1 n)) := by
  unfold Cert.KernelIdeal.HostVal.invBB
  rw [inv_apply]
  rfl

theorem invSB_eq (d : IVec Cert.KernelIdeal.S400000 32) (n : Fin 100000) :
    Cert.KernelIdeal.HostVal.invSB d (ValueIdx.ix2 n 0) = Ideal.div 1 (Cert.ReferenceIdeal.HostVal.cntSB d (ValueIdx.ix1 n)) := by
  unfold Cert.KernelIdeal.HostVal.invSB
  rw [inv_apply]
  rfl

theorem invBS_eq (d : IVec Cert.KernelIdeal.S400000 32) (n : Fin 50000) :
    Cert.KernelIdeal.HostVal.invBS d (ValueIdx.ix2 n 0) = Ideal.div 1 (Cert.ReferenceIdeal.HostVal.cntBS d (ValueIdx.ix1 n)) := by
  unfold Cert.KernelIdeal.HostVal.invBS
  rw [inv_apply]
  rfl

end Cert.Bridge

end
-- ==== Proof.Bridge.lean ====
/-
  The two programs compute one function.

  Both programs build, per layer and node type, the same segment sums of gathered rows (the kernel program's gather
  fills rows whose id is out of range, which the precondition rules out, so it is the reference's gather) and the same
  clamped in-degrees; the kernel program multiplies by the reciprocal in-degree, adds the two right-hand weight
  matrices and the two biases before use, and tests 0 < x in the rectifier, where the reference divides, keeps the two
  SAGE terms apart and tests 0 ≤ x.  On real entries these are the same numbers (SpecAlgebra.lean), and every entry is
  real: the arguments by the precondition, the segment sums as finite sums of reals, the in-degrees as natural
  numbers clamped at 1, and so the rows after layer 0.  Layer 1 repeats the argument on those rows, and the heads'
  padded weights and biases are the given ones on the first 8 columns.
-/
import proofs.«424018_j64587718197893_2_alg».proof.Proof.KRead
import proofs.«424018_j64587718197893_2_alg».proof.Proof.RRead
import proofs.«424018_j64587718197893_2_alg».proof.Proof.BridgeHost

noncomputable section

namespace Cert.Bridge

open Idealize.ShloMosaic Idealize.ShloMosaic.ValueIdx Cert.Spec

variable {a0 : FVec Ideal KernelIdeal.S100000x128 .f32} {a1 : FVec Ideal KernelIdeal.S50000x128 .f32}
  {a2 : FVec Ideal KernelIdeal.S2x3x128x128 .f32} {a3 : FVec Ideal KernelIdeal.S2x3x128 .f32} {a4 : FVec Ideal KernelIdeal.S2x3x128x128 .f32}
  {a5 : FVec Ideal KernelIdeal.S8x128 .f32} {a6 : FVec Ideal KernelIdeal.S8 .f32}
  {e7 : IVec KernelIdeal.S2x800000 32} {e8 e9 : IVec KernelIdeal.S2x400000 32}

/-! ## Weights and biases are real -/

theorem finite_of_ix2 {n0 n1 : Nat} {x : Arr ⟨2, ![n0, n1]⟩} (h : ∀ p q, ∃ r : ℝ, x (ix2 p q) = (r : EReal)) : Finite x :=
  fun i => by rw [eq_ix2 i]; exact h _ _

theorem w_finite (w : FVec Ideal KernelIdeal.S2x3x128x128 .f32) (hw : Finite w) (l : Fin 2) (t : Fin 3)
    (v : FVec Ideal KernelIdeal.S128x128 .f32) (hv : ∀ k j, v (ix2 k j) = w (ix4 l t k j)) : Finite v :=
  finite_of_ix2 fun k j => by rw [hv]; exact hw _

theorem b_finite (b : FVec Ideal KernelIdeal.S2x3x128 .f32) (hb : Finite b) (l : Fin 2) (t : Fin 3)
    (v : FVec Ideal KernelIdeal.S128 .f32) (hv : ∀ j, v (ix1 j) = b (ix3 l t j)) : FiniteFn (fun j : Fin 128 => v (ix1 j)) :=
  fun j => by show ∃ r : ℝ, v (ix1 j) = (r : EReal); rw [hv]; exact hb _

/-! ## One "b" update: the kernel's row is the reference's -/

/-- A "b" update on real rows `yb`, `ys`, with the layer's parameters cut out of the stacked arrays at layer `l`: the
    kernel's arrangement (segment sums times reciprocal in-degrees, added right-hand weights, added biases, the
    test 0 < x) is the reference's (quotients, two SAGE terms, the test 0 ≤ x), and the value is real. -/
theorem bLayer (hpre : Cert.Pre_finite_inputs.fn (F := Ideal) a0 a1 a2 a3 a4 a5 a6 e7 e8 e9 = fun _ => 1#1)
    (yb : FVec Ideal KernelIdeal.S100000x128 .f32) (ys : FVec Ideal KernelIdeal.S50000x128 .f32) (hyb : Finite yb) (hys : Finite ys)
    (wk0 wk1 wrk : FVec Ideal KernelIdeal.S128x128 .f32) (blk : FVec Ideal KernelIdeal.S1x128 .f32)
    (wl0 wl1 wr0 wr1 : FVec Ideal ReferenceIdeal.S128x128 .f32) (b0 b1 : FVec Ideal ReferenceIdeal.S128 .f32)
    (hw0 : wk0 = wl0) (hw1 : wk1 = wl1)
    (hwr : ∀ k j, wrk (ix2 k j) = wr0 (ix2 k j) + wr1 (ix2 k j)) (hbl : ∀ j, blk (ix2 0 j) = b0 (ix1 j) + b1 (ix1 j))
    (fw0 : Finite wl0) (fw1 : Finite wl1) (fr0 : Finite wr0) (fr1 : Finite wr1)
    (fb0 : FiniteFn (fun j : Fin 128 => b0 (ix1 j))) (fb1 : FiniteFn (fun j : Fin 128 => b1 (ix1 j)))
    (n : Fin 100000) (j : Fin 128) :
    lreluK (preBK (N := 100000) (KernelIdeal.HostVal.segBB yb (KernelIdeal.HostVal.srcBB e7) (KernelIdeal.HostVal.dstBB e7)) (KernelIdeal.HostVal.invBB (KernelIdeal.HostVal.dstBB e7))
        (KernelIdeal.HostVal.segSB ys (KernelIdeal.HostVal.src4 e8) (KernelIdeal.HostVal.dst4 e8)) (KernelIdeal.HostVal.invSB (KernelIdeal.HostVal.dst4 e8)) yb wk0 wk1 wrk blk n j)
      = ReferenceIdeal.HostVal.lreluB (addf
          (ReferenceIdeal.HostVal.sageB (ReferenceIdeal.HostVal.segBB yb (ReferenceIdeal.HostVal.srcBB e7) (ReferenceIdeal.HostVal.dstBB e7)) (ReferenceIdeal.HostVal.cntBB (ReferenceIdeal.HostVal.dstBB e7)) wl0 b0 yb wr0)
          (ReferenceIdeal.HostVal.sageB (ReferenceIdeal.HostVal.segSB ys (ReferenceIdeal.HostVal.src4 e8) (ReferenceIdeal.HostVal.dst4 e8)) (ReferenceIdeal.HostVal.cntSB (ReferenceIdeal.HostVal.dst4 e8)) wl1 b1 yb wr1)) (ix2 n j)
    ∧ ∃ r : ℝ, lreluK (preBK (N := 100000) (KernelIdeal.HostVal.segBB yb (KernelIdeal.HostVal.srcBB e7) (KernelIdeal.HostVal.dstBB e7)) (KernelIdeal.HostVal.invBB (KernelIdeal.HostVal.dstBB e7))
        (KernelIdeal.HostVal.segSB ys (KernelIdeal.HostVal.src4 e8) (KernelIdeal.HostVal.dst4 e8)) (KernelIdeal.HostVal.invSB (KernelIdeal.HostVal.dst4 e8)) yb wk0 wk1 wrk blk n j) = (r : EReal) := by
  subst hw0 hw1
  rw [segBB_eq yb hpre, segSB_eq ys hpre]
  have fsbb : Finite (ReferenceIdeal.HostVal.segBB yb (ReferenceIdeal.HostVal.srcBB e7) (ReferenceIdeal.HostVal.dstBB e7)) := segBB_finite yb hyb _ _
  have fssb : Finite (ReferenceIdeal.HostVal.segSB ys (ReferenceIdeal.HostVal.src4 e8) (ReferenceIdeal.HostVal.dst4 e8)) := segSB_finite ys hys _ _
  have hcb : ∀ n : Fin 100000, ∃ r : ℝ, 1 ≤ r ∧ ReferenceIdeal.HostVal.cntBB (ReferenceIdeal.HostVal.dstBB e7) (ix1 n) = (r : EReal) := fun n => cntBB_ge _ n
  have hcs : ∀ n : Fin 100000, ∃ r : ℝ, 1 ≤ r ∧ ReferenceIdeal.HostVal.cntSB (ReferenceIdeal.HostVal.dst4 e8) (ix1 n) = (r : EReal) := fun n => cntSB_ge _ n
  have hib : ∀ n : Fin 100000, KernelIdeal.HostVal.invBB (KernelIdeal.HostVal.dstBB e7) (ix2 n 0) = Ideal.div 1 (ReferenceIdeal.HostVal.cntBB (ReferenceIdeal.HostVal.dstBB e7) (ix1 n)) := fun n => by
    rw [dstBB_eq]; exact invBB_eq _ n
  have his : ∀ n : Fin 100000, KernelIdeal.HostVal.invSB (KernelIdeal.HostVal.dst4 e8) (ix2 n 0) = Ideal.div 1 (ReferenceIdeal.HostVal.cntSB (ReferenceIdeal.HostVal.dst4 e8) (ix1 n)) := fun n => by
    rw [dst4_eq]; exact invSB_eq _ n
  refine ⟨?_, ?_⟩
  · rw [ReferenceIdeal.ReadValue.lreluB_apply, addf_apply, ReferenceIdeal.ReadValue.sageB_apply, ReferenceIdeal.ReadValue.sageB_apply, lrelu_eq]
    exact congrArg lreluR (preB_eq (N := 100000) _ _ yb _ _ (fun n => ReferenceIdeal.HostVal.cntBB (ReferenceIdeal.HostVal.dstBB e7) (ix1 n))
      (fun n => ReferenceIdeal.HostVal.cntSB (ReferenceIdeal.HostVal.dst4 e8) (ix1 n)) wk0 wk1 wr0 wr1 wrk (fun j => b0 (ix1 j)) (fun j => b1 (ix1 j)) blk
      fsbb fssb hyb fw0 fw1 fr0 fr1 fb0 fb1 hcb hcs hib his hwr hbl n j)
  · exact lreluK_finite (preBK_finite (N := 100000) _ _ yb _ _ (fun n => ReferenceIdeal.HostVal.cntBB (ReferenceIdeal.HostVal.dstBB e7) (ix1 n))
      (fun n => ReferenceIdeal.HostVal.cntSB (ReferenceIdeal.HostVal.dst4 e8) (ix1 n)) wk0 wk1 wr0 wr1 wrk (fun j => b0 (ix1 j)) (fun j => b1 (ix1 j)) blk
      fsbb fssb hyb fw0 fw1 fr0 fr1 fb0 fb1 hcb hcs hib his hwr hbl n j)

/-! ## The "s" update of layer 0 -/

theorem sLayer (hpre : Cert.Pre_finite_inputs.fn (F := Ideal) a0 a1 a2 a3 a4 a5 a6 e7 e8 e9 = fun _ => 1#1)
    (yb : FVec Ideal KernelIdeal.S100000x128 .f32) (ys : FVec Ideal KernelIdeal.S50000x128 .f32) (hyb : Finite yb) (hys : Finite ys)
    (wk wrk : FVec Ideal KernelIdeal.S128x128 .f32) (blk : FVec Ideal KernelIdeal.S1x128 .f32)
    (wl wr : FVec Ideal ReferenceIdeal.S128x128 .f32) (b : FVec Ideal ReferenceIdeal.S128 .f32)
    (hw : wk = wl) (hwr : wrk = wr) (hbl : ∀ j, blk (ix2 0 j) = b (ix1 j))
    (fw : Finite wl) (fr : Finite wr) (fb : FiniteFn (fun j : Fin 128 => b (ix1 j)))
    (n : Fin 50000) (j : Fin 128) :
    lreluK (preSK (N := 50000) (KernelIdeal.HostVal.segBS yb (KernelIdeal.HostVal.src4 e9) (KernelIdeal.HostVal.dst4 e9)) (KernelIdeal.HostVal.invBS (KernelIdeal.HostVal.dst4 e9)) ys wk blk wrk n j)
      = ReferenceIdeal.HostVal.lreluS (ReferenceIdeal.HostVal.sageS (ReferenceIdeal.HostVal.segBS yb (ReferenceIdeal.HostVal.src4 e9) (ReferenceIdeal.HostVal.dst4 e9)) (ReferenceIdeal.HostVal.cntBS (ReferenceIdeal.HostVal.dst4 e9)) wl b ys wr) (ix2 n j)
    ∧ ∃ r : ℝ, lreluK (preSK (N := 50000) (KernelIdeal.HostVal.segBS yb (KernelIdeal.HostVal.src4 e9) (KernelIdeal.HostVal.dst4 e9)) (KernelIdeal.HostVal.invBS (KernelIdeal.HostVal.dst4 e9)) ys wk blk wrk n j)
        = (r : EReal) := by
  subst hw hwr
  rw [segBS_eq yb hpre]
  have fsbs : Finite (ReferenceIdeal.HostVal.segBS yb (ReferenceIdeal.HostVal.src4 e9) (ReferenceIdeal.HostVal.dst4 e9)) := segBS_finite yb hyb _ _
  have hc : ∀ n : Fin 50000, ∃ r : ℝ, 1 ≤ r ∧ ReferenceIdeal.HostVal.cntBS (ReferenceIdeal.HostVal.dst4 e9) (ix1 n) = (r : EReal) := fun n => cntBS_ge _ n
  have hic : ∀ n : Fin 50000, KernelIdeal.HostVal.invBS (KernelIdeal.HostVal.dst4 e9) (ix2 n 0) = Ideal.div 1 (ReferenceIdeal.HostVal.cntBS (ReferenceIdeal.HostVal.dst4 e9) (ix1 n)) := fun n => by
    rw [dst4_eq]; exact invBS_eq _ n
  refine ⟨?_, ?_⟩
  · rw [ReferenceIdeal.ReadValue.lreluS_apply, ReferenceIdeal.ReadValue.sageS_apply, lrelu_eq]
    exact congrArg lreluR (preS_eq (N := 50000) _ ys _ (fun n => ReferenceIdeal.HostVal.cntBS (ReferenceIdeal.HostVal.dst4 e9) (ix1 n)) wk wrk (fun j => b (ix1 j)) blk
      fsbs hys fw fr fb hc hic hbl n j)
  · exact lreluK_finite (preSK_finite (N := 50000) _ ys _ (fun n => ReferenceIdeal.HostVal.cntBS (ReferenceIdeal.HostVal.dst4 e9) (ix1 n)) wk wrk (fun j => b (ix1 j)) blk
      fsbs hys fw fr fb hc hic hbl n j)

/-! ## The rows after layer 0 -/

section Layer0

variable (hpre : Cert.Pre_finite_inputs.fn (F := Ideal) a0 a1 a2 a3 a4 a5 a6 e7 e8 e9 = fun _ => 1#1)
include hpre

theorem xb1_both (n : Fin 100000) (j : Fin 128) :
    KernelIdeal.HostVal.xb1 a0 a1 a2 a3 a4 e7 e8 (ix2 n j) = ReferenceIdeal.HostVal.xb1 a0 a1 a2 a3 a4 e7 e8 (ix2 n j)
    ∧ ∃ r : ℝ, KernelIdeal.HostVal.xb1 a0 a1 a2 a3 a4 e7 e8 (ix2 n j) = (r : EReal) := by
  obtain ⟨f0, f1, f2, f3, f4, -, -⟩ := KernelIdeal.TakeValue.pre_finite hpre
  exact bLayer hpre a0 a1 f0 f1 (KernelIdeal.HostVal.w00 a2) (KernelIdeal.HostVal.w01 a2) (KernelIdeal.HostVal.wrSum0 a4) (KernelIdeal.HostVal.blSum0 a3)
    (ReferenceIdeal.HostVal.w00 a2) (ReferenceIdeal.HostVal.w01 a2) (ReferenceIdeal.HostVal.w00 a4) (ReferenceIdeal.HostVal.w01 a4) (ReferenceIdeal.HostVal.b00 a3) (ReferenceIdeal.HostVal.b01 a3) (w00_eq a2) (w01_eq a2)
    (fun k j => by rw [KernelIdeal.ReadValue.wrSum0_apply, ReferenceIdeal.ReadValue.w00_apply, ReferenceIdeal.ReadValue.w01_apply])
    (fun j => by rw [KernelIdeal.ReadValue.blSum0_apply, ReferenceIdeal.ReadValue.b00_apply, ReferenceIdeal.ReadValue.b01_apply])
    (w_finite a2 f2 0 0 _ (ReferenceIdeal.ReadValue.w00_apply a2)) (w_finite a2 f2 0 1 _ (ReferenceIdeal.ReadValue.w01_apply a2))
    (w_finite a4 f4 0 0 _ (ReferenceIdeal.ReadValue.w00_apply a4)) (w_finite a4 f4 0 1 _ (ReferenceIdeal.ReadValue.w01_apply a4))
    (b_finite a3 f3 0 0 _ (ReferenceIdeal.ReadValue.b00_apply a3)) (b_finite a3 f3 0 1 _ (ReferenceIdeal.ReadValue.b01_apply a3)) n j

theorem xs1_both (n : Fin 50000) (j : Fin 128) :
    KernelIdeal.HostVal.xs1 a0 a1 a2 a3 a4 e9 (ix2 n j) = ReferenceIdeal.HostVal.xs1 a0 a1 a2 a3 a4 e9 (ix2 n j)
    ∧ ∃ r : ℝ, KernelIdeal.HostVal.xs1 a0 a1 a2 a3 a4 e9 (ix2 n j) = (r : EReal) := by
  obtain ⟨f0, f1, f2, f3, f4, -, -⟩ := KernelIdeal.TakeValue.pre_finite hpre
  exact sLayer hpre a0 a1 f0 f1 (KernelIdeal.HostVal.w02 a2) (KernelIdeal.HostVal.w02 a4) (KernelIdeal.HostVal.blRow2 a3) (ReferenceIdeal.HostVal.w02 a2) (ReferenceIdeal.HostVal.w02 a4) (ReferenceIdeal.HostVal.b02 a3)
    (w02_eq a2) (w02_eq a4)
    (fun j => by rw [KernelIdeal.ReadValue.blRow2_apply, ReferenceIdeal.ReadValue.b02_apply])
    (w_finite a2 f2 0 2 _ (ReferenceIdeal.ReadValue.w02_apply a2)) (w_finite a4 f4 0 2 _ (ReferenceIdeal.ReadValue.w02_apply a4))
    (b_finite a3 f3 0 2 _ (ReferenceIdeal.ReadValue.b02_apply a3)) n j

theorem xb1_eq : KernelIdeal.HostVal.xb1 a0 a1 a2 a3 a4 e7 e8 = ReferenceIdeal.HostVal.xb1 a0 a1 a2 a3 a4 e7 e8 :=
  funext fun i => by rw [eq_ix2 i]; exact (xb1_both hpre _ _).1
theorem xs1_eq : KernelIdeal.HostVal.xs1 a0 a1 a2 a3 a4 e9 = ReferenceIdeal.HostVal.xs1 a0 a1 a2 a3 a4 e9 :=
  funext fun i => by rw [eq_ix2 i]; exact (xs1_both hpre _ _).1
theorem xb1_finite : Finite (KernelIdeal.HostVal.xb1 a0 a1 a2 a3 a4 e7 e8) := finite_of_ix2 fun n j => (xb1_both hpre n j).2
theorem xs1_finite : Finite (KernelIdeal.HostVal.xs1 a0 a1 a2 a3 a4 e9) := finite_of_ix2 fun n j => (xs1_both hpre n j).2

/-! ## The result -/

/-- Under the precondition the kernel program's result is the reference's. -/
theorem result_eq : KernelIdeal.HostVal.result a0 a1 a2 a3 a4 a5 a6 e7 e8 e9 = ReferenceIdeal.HostVal.result a0 a1 a2 a3 a4 a5 a6 e7 e8 e9 := by
  obtain ⟨f0, f1, f2, f3, f4, -, -⟩ := KernelIdeal.TakeValue.pre_finite hpre
  funext i
  obtain ⟨n, h, rfl⟩ : ∃ (n : Fin 100000) (h : Fin 8), i = ix2 n h := ⟨i 0, i 1, eq_ix2 i⟩
  rw [KernelIdeal.ReadValue.result_apply]
  show (∑ k : Fin 128, lreluK (preBK (N := 100000) _ _ _ _ (KernelIdeal.HostVal.xb1 a0 a1 a2 a3 a4 e7 e8) (KernelIdeal.HostVal.w10 a2) (KernelIdeal.HostVal.w11 a2) (KernelIdeal.HostVal.wrSum1 a4)
      (KernelIdeal.HostVal.blSum1 a3) n k) * KernelIdeal.HostVal.whT a5 (ix2 k ⟨h.val, by omega⟩)) + KernelIdeal.HostVal.bhRow a6 (ix2 0 ⟨h.val, by omega⟩) = _
  rw [KernelIdeal.ReadValue.bhRow_apply]
  simp only [KernelIdeal.ReadValue.whT_apply]
  unfold ReferenceIdeal.HostVal.result
  rw [ReferenceIdeal.ReadValue.heads_apply]
  refine congrArg (· + a6 (ix1 h)) (Finset.sum_congr rfl fun k _ => congrArg (· * a5 (ix2 h k)) ?_)
  have hb := (bLayer hpre (KernelIdeal.HostVal.xb1 a0 a1 a2 a3 a4 e7 e8) (KernelIdeal.HostVal.xs1 a0 a1 a2 a3 a4 e9) (xb1_finite hpre) (xs1_finite hpre)
    (KernelIdeal.HostVal.w10 a2) (KernelIdeal.HostVal.w11 a2) (KernelIdeal.HostVal.wrSum1 a4) (KernelIdeal.HostVal.blSum1 a3)
    (ReferenceIdeal.HostVal.w10 a2) (ReferenceIdeal.HostVal.w11 a2) (ReferenceIdeal.HostVal.w10 a4) (ReferenceIdeal.HostVal.w11 a4) (ReferenceIdeal.HostVal.b10 a3) (ReferenceIdeal.HostVal.b11 a3) (w10_eq a2) (w11_eq a2)
    (fun k j => by rw [KernelIdeal.ReadValue.wrSum1_apply, ReferenceIdeal.ReadValue.w10_apply, ReferenceIdeal.ReadValue.w11_apply])
    (fun j => by rw [KernelIdeal.ReadValue.blSum1_apply, ReferenceIdeal.ReadValue.b10_apply, ReferenceIdeal.ReadValue.b11_apply])
    (w_finite a2 f2 1 0 _ (ReferenceIdeal.ReadValue.w10_apply a2)) (w_finite a2 f2 1 1 _ (ReferenceIdeal.ReadValue.w11_apply a2))
    (w_finite a4 f4 1 0 _ (ReferenceIdeal.ReadValue.w10_apply a4)) (w_finite a4 f4 1 1 _ (ReferenceIdeal.ReadValue.w11_apply a4))
    (b_finite a3 f3 1 0 _ (ReferenceIdeal.ReadValue.b10_apply a3)) (b_finite a3 f3 1 1 _ (ReferenceIdeal.ReadValue.b11_apply a3)) n k).1
  rw [hb, xb1_eq hpre, xs1_eq hpre]
  rfl

end Layer0

end Cert.Bridge

end
-- ==== Proof.lean ====
/-
  The certificate: the kernel program (a two-layer heterogeneous GraphSAGE with fused heads, three Pallas kernels
  among host gathers and segment sums) and its jnp reference compute the same result over the extended reals, under
  the precondition that every float input is finite and every source node id is a valid index into the node array it
  reads.

  The three frames: the two kernel programs' are the generated frame certificates; the reference's is its run (all
  of its host operations in order) with the arguments read back, which no operation writes.  The idealization
  rewrote nothing.  For the value claim the kernel program's run names its result as the fold of its host stretches
  and its three kernels' write-backs, which is a named function of the arguments (the three kernels' whole-array
  functions composed with the host's gathers and segment sums); the reference's run names its result the same way;
  and the two named functions agree under the precondition (Bridge.lean).
-/
import proofs.«424018_j64587718197893_2_alg».proof.Defs
import proofs.«424018_j64587718197893_2_alg».proof.Proof.Gen.Kernel.Frame
import proofs.«424018_j64587718197893_2_alg».proof.Proof.Gen.KernelIdeal.Frame
import proofs.«424018_j64587718197893_2_alg».proof.Proof.Gen.ReferenceIdeal
import proofs.«424018_j64587718197893_2_alg».proof.Proof.Gen.Pre_finite_inputs
import proofs.«424018_j64587718197893_2_alg».proof.Proof.KRun
import proofs.«424018_j64587718197893_2_alg».proof.Proof.KVal2
import proofs.«424018_j64587718197893_2_alg».proof.Proof.RRun
import proofs.«424018_j64587718197893_2_alg».proof.Proof.RVal
import proofs.«424018_j64587718197893_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

open Cert.ReferenceIdeal in
/-- The reference runs, and no operation of it writes an argument. -/
theorem frame_referenceIdeal : Cert.frame_ReferenceIdeal := fun m ρ _ =>
  (θ_run Cert.ReferenceIdeal.defs _ _).mono (fun r h c =>
    ⟨(h c main_arg0).trans (HandRun.keeps_arg0 _), (h c main_arg1).trans (HandRun.keeps_arg1 _),
     (h c main_arg2).trans (HandRun.keeps_arg2 _), (h c main_arg3).trans (HandRun.keeps_arg3 _),
     (h c main_arg4).trans (HandRun.keeps_arg4 _), (h c main_arg5).trans (HandRun.keeps_arg5 _),
     (h c main_arg6).trans (HandRun.keeps_arg6 _), (h c main_arg7).trans (HandRun.keeps_arg7 _),
     (h c main_arg8).trans (HandRun.keeps_arg8 _), (h c main_arg9).trans (HandRun.keeps_arg9 _)⟩)
    (HandRun.run_main (F := Ideal) m ρ)

theorem preserves : Cert.preserves_Kernel_KernelIdeal := trivial

/-- From memories that agree on the arguments both idealized programs run, and the reference's result is the kernel
    program's: each result is its program's named function of the arguments, and the two functions agree under the
    precondition. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v107),
    Cert.KernelIdeal.RunValue.run_result m ρ, ?_⟩
  refine (θ_run Cert.ReferenceIdeal.defs _ _).mono (fun r h c =>
    ⟨?_, (h c Cert.ReferenceIdeal.main_arg0).trans (Cert.ReferenceIdeal.HandRun.keeps_arg0 _),
     (h c Cert.ReferenceIdeal.main_arg1).trans (Cert.ReferenceIdeal.HandRun.keeps_arg1 _),
     (h c Cert.ReferenceIdeal.main_arg2).trans (Cert.ReferenceIdeal.HandRun.keeps_arg2 _),
     (h c Cert.ReferenceIdeal.main_arg3).trans (Cert.ReferenceIdeal.HandRun.keeps_arg3 _),
     (h c Cert.ReferenceIdeal.main_arg4).trans (Cert.ReferenceIdeal.HandRun.keeps_arg4 _),
     (h c Cert.ReferenceIdeal.main_arg5).trans (Cert.ReferenceIdeal.HandRun.keeps_arg5 _),
     (h c Cert.ReferenceIdeal.main_arg6).trans (Cert.ReferenceIdeal.HandRun.keeps_arg6 _),
     (h c Cert.ReferenceIdeal.main_arg7).trans (Cert.ReferenceIdeal.HandRun.keeps_arg7 _),
     (h c Cert.ReferenceIdeal.main_arg8).trans (Cert.ReferenceIdeal.HandRun.keeps_arg8 _),
     (h c Cert.ReferenceIdeal.main_arg9).trans (Cert.ReferenceIdeal.HandRun.keeps_arg9 _)⟩)
    (Cert.ReferenceIdeal.HandRun.run_main (F := Ideal) m' ρ')
  refine (h c Cert.ReferenceIdeal.main_v220).trans ?_
  rw [Cert.ReferenceIdeal.ValueChain.ref_value]
  refine Eq.trans ?_ (Cert.KernelIdeal.ValueChain.kernel_value m ρ c).symm
  obtain ⟨h0, h1, h2, h3, h4, h5, h6, h7, h8, h9⟩ := hagree c
  show Cert.ReferenceIdeal.HostVal.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
  rw [h0, h1, h2, h3, h4, h5, h6, h7, h8, h9]
  exact (Cert.Bridge.result_eq (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
